-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v60) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x160x192x224 : Shape := ⟨4, ![1, 160, 192, 224]⟩
abbrev S1x3x160x192x224 : Shape := ⟨5, ![1, 3, 160, 192, 224]⟩
abbrev S_ : Shape := ⟨0, ![]⟩

class Facts : Prop where
  bcast_S_S1x3x160x192x224 : S_.BroadcastsInDim S1x3x160x192x224 (![] : Fin 0 → Fin S1x3x160x192x224.rank)
  reducesTo_S1x3x160x192x224_S_d0_1_2_3_4 : S1x3x160x192x224.ReducesTo [0, 1, 2, 3, 4] S_
  h_S_ : 0 < S_.numel

variable [Facts]

def fn {F : FTy → Type} [FloatOps F] (main_arg0 : IVec S1x160x192x224 32) (main_arg1 : IVec S1x160x192x224 32) (main_arg2 : FVec F S1x3x160x192x224 .f32) : IVec S_ 1 :=
  let main_v0 : FVec F S1x3x160x192x224 .f32 := Host.absf main_arg2
  let main_cst : FVec F S_ .f32 := constant S_ .f32 0x7F800000#32
  let main_v1 : FVec F S1x3x160x192x224 .f32 := broadcastInDim S1x3x160x192x224 ![] bcast_S_S1x3x160x192x224 main_cst
  let main_v2 : IVec S1x3x160x192x224 1 := cmpf .olt main_v0 main_v1
  let main_c : IVec S_ 1 := constantI S_ 1 1#1
  let main_v3 : IVec S_ 1 := (fun x v => Host.reduce IntOp.andi x v reducesTo_S1x3x160x192x224_S_d0_1_2_3_4 h_S_) main_v2 main_c
  main_v3
-- ==== Kernel.lean ====
abbrev S1x160x192x224 : Shape := ⟨4, ![1, 160, 192, 224]⟩
abbrev S1x3x160x192x224 : Shape := ⟨5, ![1, 3, 160, 192, 224]⟩
abbrev S25 : Shape := ⟨1, ![25]⟩
abbrev S53760x128 : Shape := ⟨2, ![53760, 128]⟩
abbrev S2x3x128 : Shape := ⟨3, ![2, 3, 128]⟩
abbrev S6720x128 : Shape := ⟨2, ![6720, 128]⟩
abbrev S1x3x128 : Shape := ⟨3, ![1, 3, 128]⟩
abbrev S3x128 : Shape := ⟨2, ![3, 128]⟩
abbrev S1x6720 : Shape := ⟨2, ![1, 6720]⟩
abbrev S1x128 : Shape := ⟨2, ![1, 128]⟩
abbrev S1 : Shape := ⟨1, ![1]⟩
abbrev S1x1 : Shape := ⟨2, ![1, 1]⟩
abbrev S1x1x128 : Shape := ⟨3, ![1, 1, 128]⟩
abbrev S1x26 : Shape := ⟨2, ![1, 26]⟩
abbrev S26 : Shape := ⟨1, ![26]⟩
abbrev S_ : Shape := ⟨0, ![]⟩
abbrev S25x1 : Shape := ⟨2, ![25, 1]⟩
abbrev S3x160x192x224 : Shape := ⟨4, ![3, 160, 192, 224]⟩
abbrev S2x8x128 : Shape := ⟨3, ![2, 8, 128]⟩
abbrev S3x8x192x224 : Shape := ⟨4, ![3, 8, 192, 224]⟩
abbrev S1x8x128 : Shape := ⟨3, ![1, 8, 128]⟩
abbrev S3x1x192x224 : Shape := ⟨4, ![3, 1, 192, 224]⟩
abbrev S8x128 : Shape := ⟨2, ![8, 128]⟩
abbrev S3x8x191x224 : Shape := ⟨4, ![3, 8, 191, 224]⟩
abbrev S3x8x191 : Shape := ⟨3, ![3, 8, 191]⟩
abbrev S3x8x191x1 : Shape := ⟨4, ![3, 8, 191, 1]⟩
abbrev S3x8x1 : Shape := ⟨3, ![3, 8, 1]⟩
abbrev S3x8x1x1 : Shape := ⟨4, ![3, 8, 1, 1]⟩
abbrev S3x1x1 : Shape := ⟨3, ![3, 1, 1]⟩
abbrev S3x1x1x1 : Shape := ⟨4, ![3, 1, 1, 1]⟩
abbrev S1x1x1 : Shape := ⟨3, ![1, 1, 1]⟩
abbrev S1x1x1x1 : Shape := ⟨4, ![1, 1, 1, 1]⟩
abbrev S3x8x192x223 : Shape := ⟨4, ![3, 8, 192, 223]⟩
abbrev S3x8x192 : Shape := ⟨3, ![3, 8, 192]⟩
abbrev S3x8x192x1 : Shape := ⟨4, ![3, 8, 192, 1]⟩
abbrev S3x7x192x224 : Shape := ⟨4, ![3, 7, 192, 224]⟩
abbrev S3x7x192 : Shape := ⟨3, ![3, 7, 192]⟩
abbrev S3x7x192x1 : Shape := ⟨4, ![3, 7, 192, 1]⟩
abbrev S3x7x1 : Shape := ⟨3, ![3, 7, 1]⟩
abbrev S3x7x1x1 : Shape := ⟨4, ![3, 7, 1, 1]⟩
abbrev S3x1x192 : Shape := ⟨3, ![3, 1, 192]⟩
abbrev S3x1x192x1 : Shape := ⟨4, ![3, 1, 192, 1]⟩
abbrev S3x192x224 : Shape := ⟨3, ![3, 192, 224]⟩

abbrev nBuf : Space → Nat
  | .hbm => 83
  | .vmem => 15
  | .smem => 0
  | _ => 0

abbrev bufTy : (tb : Table) → Fin (tcTables nBuf tb) → BufTy
  | .hbm, ⟨0, _⟩ => ⟨S1x160x192x224, .i32⟩
  | .hbm, ⟨1, _⟩ => ⟨S1x160x192x224, .i32⟩
  | .hbm, ⟨2, _⟩ => ⟨S1x3x160x192x224, .f32⟩
  | .hbm, ⟨3, _⟩ => ⟨S25, .i32⟩
  | .hbm, ⟨4, _⟩ => ⟨S25, .i1⟩
  | .hbm, ⟨5, _⟩ => ⟨S53760x128, .i32⟩
  | .hbm, ⟨6, _⟩ => ⟨S53760x128, .i32⟩
  | .hbm, ⟨7, _⟩ => ⟨S2x3x128, .f32⟩
  | .hbm, ⟨8, _⟩ => ⟨S1x3x128, .f32⟩
  | .hbm, ⟨9, _⟩ => ⟨S3x128, .f32⟩
  | .hbm, ⟨10, _⟩ => ⟨S1x3x128, .f32⟩
  | .hbm, ⟨11, _⟩ => ⟨S3x128, .f32⟩
  | .hbm, ⟨12, _⟩ => ⟨S3x128, .f32⟩
  | .hbm, ⟨13, _⟩ => ⟨S1x26, .f32⟩
  | .hbm, ⟨14, _⟩ => ⟨S26, .f32⟩
  | .hbm, ⟨15, _⟩ => ⟨S1x26, .f32⟩
  | .hbm, ⟨16, _⟩ => ⟨S26, .f32⟩
  | .hbm, ⟨17, _⟩ => ⟨S1x26, .f32⟩
  | .hbm, ⟨18, _⟩ => ⟨S26, .f32⟩
  | .hbm, ⟨19, _⟩ => ⟨S_, .f32⟩
  | .hbm, ⟨20, _⟩ => ⟨S26, .f32⟩
  | .hbm, ⟨21, _⟩ => ⟨S26, .f32⟩
  | .hbm, ⟨22, _⟩ => ⟨S_, .f32⟩
  | .hbm, ⟨23, _⟩ => ⟨S26, .f32⟩
  | .hbm, ⟨24, _⟩ => ⟨S26, .f32⟩
  | .hbm, ⟨25, _⟩ => ⟨S26, .f32⟩
  | .hbm, ⟨26, _⟩ => ⟨S_, .f32⟩
  | .hbm, ⟨27, _⟩ => ⟨S26, .f32⟩
  | .hbm, ⟨28, _⟩ => ⟨S26, .f32⟩
  | .hbm, ⟨29, _⟩ => ⟨S26, .f32⟩
  | .hbm, ⟨30, _⟩ => ⟨S_, .i32⟩
  | .hbm, ⟨31, _⟩ => ⟨S25, .i32⟩
  | .hbm, ⟨32, _⟩ => ⟨S25, .i32⟩
  | .hbm, ⟨33, _⟩ => ⟨S25, .i32⟩
  | .hbm, ⟨34, _⟩ => ⟨S25x1, .i32⟩
  | .hbm, ⟨35, _⟩ => ⟨S25, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S3x160x192x224, .f32⟩
  | .hbm, ⟨43, _⟩ => ⟨S2x8x128, .f32⟩
  | .hbm, ⟨44, _⟩ => ⟨S2x8x128, .f32⟩
  | .hbm, ⟨45, _⟩ => ⟨S2x8x128, .f32⟩
  | .hbm, ⟨46, _⟩ => ⟨S1x1x1, .f32⟩
  | .hbm, ⟨47, _⟩ => ⟨S_, .f32⟩
  | .hbm, ⟨48, _⟩ => ⟨S1x1x1, .f32⟩
  | .hbm, ⟨49, _⟩ => ⟨S_, .f32⟩
  | .hbm, ⟨50, _⟩ => ⟨S_, .f32⟩
  | .hbm, ⟨51, _⟩ => ⟨S1x1x1, .f32⟩
  | .hbm, ⟨52, _⟩ => ⟨S_, .f32⟩
  | .hbm, ⟨53, _⟩ => ⟨S1x1x1, .f32⟩
  | .hbm, ⟨54, _⟩ => ⟨S_, .f32⟩
  | .hbm, ⟨55, _⟩ => ⟨S_, .f32⟩
  | .hbm, ⟨56, _⟩ => ⟨S1x1x1, .f32⟩
  | .hbm, ⟨57, _⟩ => ⟨S_, .f32⟩
  | .hbm, ⟨58, _⟩ => ⟨S1x1x1, .f32⟩
  | .hbm, ⟨59, _⟩ => ⟨S_, .f32⟩
  | .hbm, ⟨60, _⟩ => ⟨S_, .f32⟩
  | .hbm, ⟨61, _⟩ => ⟨S3x1x192x224, .f32⟩
  | .hbm, ⟨62, _⟩ => ⟨S3x192x224, .f32⟩
  | .hbm, ⟨63, _⟩ => ⟨S3x1x192x224, .f32⟩
  | .hbm, ⟨64, _⟩ => ⟨S3x192x224, .f32⟩
  | .hbm, ⟨65, _⟩ => ⟨S3x192x224, .f32⟩
  | .hbm, ⟨66, _⟩ => ⟨S3x192x224, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S6720x128, .i32⟩
  | .local _ .vmem, ⟨1, _⟩ => ⟨S6720x128, .i32⟩
  | .local _ .vmem, ⟨2, _⟩ => ⟨S6720x128, .i32⟩
  | .local _ .vmem, ⟨3, _⟩ => ⟨S6720x128, .i32⟩
  | .local _ .vmem, ⟨4, _⟩ => ⟨S1x3x128, .f32⟩
  | .local _ .vmem, ⟨5, _⟩ => ⟨S1x3x128, .f32⟩
  | .local _ .vmem, ⟨6, _⟩ => ⟨S3x8x192x224, .f32⟩
  | .local _ .vmem, ⟨7, _⟩ => ⟨S3x8x192x224, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S3x1x192x224, .f32⟩
  | _, _ => ⟨S1x160x192x224, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6720x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6720x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 10], ![false, false]⟩

def cc1_transform_0 (i : grid1.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S3x8x192x224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S1x160x192x224_S53760x128 : S1x160x192x224.ShapeCasts S53760x128
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  shapeCasts_S3x128_S1x3x128 : S3x128.ShapeCasts S1x3x128
  inb_S6720x128_S6720x128_0_0 : ∀ a, (![0, 0] : Fin 2 → Nat) a + S6720x128.size a ≤ S6720x128.size a
  h_S6720x128 : 0 < S6720x128.numel
  shapeCasts_S6720x128_S6720x128 : S6720x128.ShapeCasts S6720x128
  iota_S1x128_d1_w32 : S1x128.Iotas .tc 32 [1]
  natLt_1_32 : 1 < 32
  bitsLt_bf16_f32 : FTy.bits .bf16 < FTy.bits .f32
  reduces_S1x128_S1 : S1x128.Reduces [1] S1
  shapeCasts_S1_S1x1 : S1.ShapeCasts S1x1
  broadcasts_S1x1_S1x128 : S1x1.Broadcasts S1x128
  inb_S1x3x128_S1x1x128_0_0_0 : ∀ a, (![0, 0, 0] : Fin 3 → Nat) a + S1x1x128.size a ≤ S1x3x128.size a
  h_S1x1x128 : 0 < S1x1x128.numel
  shapeCasts_S1x1x128_S1x128 : S1x1x128.ShapeCasts S1x128
  shapeCasts_S1x128_S1x1x128 : S1x128.ShapeCasts S1x1x128
  inb_S1x3x128_S1x1x128_0_1_0 : ∀ a, (![0, 1, 0] : Fin 3 → Nat) a + S1x1x128.size a ≤ S1x3x128.size a
  inb_S1x3x128_S1x1x128_0_2_0 : ∀ a, (![0, 2, 0] : Fin 3 → Nat) a + S1x1x128.size a ≤ S1x3x128.size a
  slices_S2x3x128_S1x3x128_0_0_0 : S2x3x128.Slices ![0, 0, 0] S1x3x128
  slices_S2x3x128_S1x3x128_1_0_0 : S2x3x128.Slices ![1, 0, 0] S1x3x128
  slices_S3x128_S1x26_0_0 : S3x128.Slices ![0, 0] S1x26
  shapeCasts_S1x26_S26 : S1x26.ShapeCasts S26
  slices_S3x128_S1x26_1_0 : S3x128.Slices ![1, 0] S1x26
  slices_S3x128_S1x26_2_0 : S3x128.Slices ![2, 0] S1x26
  bcast_S_S26 : S_.BroadcastsInDim S26 (![] : Fin 0 → Fin S26.rank)
  bcast_S_S25 : S_.BroadcastsInDim S25 (![] : Fin 0 → Fin S25.rank)
  bcast_S25_S25x1_0 : S25.BroadcastsInDim S25x1 (![0] : Fin 1 → Fin S25x1.rank)
  reducesTo_S25_S_d0 : S25.ReducesTo [0] S_
  h_S_ : 0 < S_.numel
  shapeCasts_S1x3x160x192x224_S3x160x192x224 : S1x3x160x192x224.ShapeCasts S3x160x192x224
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S3x1x192x224_S3x1x192x224_0_0_0_0 : ∀ a, (![0, 0, 0, 0] : Fin 4 → Nat) a + S3x1x192x224.size a ≤ S3x1x192x224.size a
  h_S3x1x192x224 : 0 < S3x1x192x224.numel
  shapeCasts_S3x1x192x224_S3x1x192x224 : S3x1x192x224.ShapeCasts S3x1x192x224
  inb_S3x8x192x224_S3x8x192x224_0_0_0_0 : ∀ a, (![0, 0, 0, 0] : Fin 4 → Nat) a + S3x8x192x224.size a ≤ S3x8x192x224.size a
  h_S3x8x192x224 : 0 < S3x8x192x224.numel
  shapeCasts_S3x8x192x224_S3x8x192x224 : S3x8x192x224.ShapeCasts S3x8x192x224
  slices_S3x8x192x224_o0_0_1_0_S3x8x191x224 : S3x8x192x224.Slices ![0, 0, 1, 0] S3x8x191x224
  slices_S3x8x192x224_o0_0_0_0_S3x8x191x224 : S3x8x192x224.Slices ![0, 0, 0, 0] S3x8x191x224
  reduces_S3x8x191x224_S3x8x191 : S3x8x191x224.Reduces [3] S3x8x191
  shapeCasts_S3x8x191_S3x8x191x1 : S3x8x191.ShapeCasts S3x8x191x1
  reduces_S3x8x191x1_S3x8x1 : S3x8x191x1.Reduces [2] S3x8x1
  shapeCasts_S3x8x1_S3x8x1x1 : S3x8x1.ShapeCasts S3x8x1x1
  reduces_S3x8x1x1_S3x1x1 : S3x8x1x1.Reduces [1] S3x1x1
  shapeCasts_S3x1x1_S3x1x1x1 : S3x1x1.ShapeCasts S3x1x1x1
  reduces_S3x1x1x1_S1x1x1 : S3x1x1x1.Reduces [0] S1x1x1
  shapeCasts_S1x1x1_S1x1x1x1 : S1x1x1.ShapeCasts S1x1x1x1
  inpos_S1x1x1x1_p0_0_0_0 : ∀ a, (![0, 0, 0, 0] : Fin 4 → Nat) a < S1x1x1x1.size a
  slices_S3x8x192x224_o0_0_0_1_S3x8x192x223 : S3x8x192x224.Slices ![0, 0, 0, 1] S3x8x192x223
  slices_S3x8x192x224_o0_0_0_0_S3x8x192x223 : S3x8x192x224.Slices ![0, 0, 0, 0] S3x8x192x223
  reduces_S3x8x192x223_S3x8x192 : S3x8x192x223.Reduces [3] S3x8x192
  shapeCasts_S3x8x192_S3x8x192x1 : S3x8x192.ShapeCasts S3x8x192x1
  reduces_S3x8x192x1_S3x8x1 : S3x8x192x1.Reduces [2] S3x8x1
  slices_S3x8x192x224_o0_1_0_0_S3x7x192x224 : S3x8x192x224.Slices ![0, 1, 0, 0] S3x7x192x224
  slices_S3x8x192x224_o0_0_0_0_S3x7x192x224 : S3x8x192x224.Slices ![0, 0, 0, 0] S3x7x192x224
  reduces_S3x7x192x224_S3x7x192 : S3x7x192x224.Reduces [3] S3x7x192
  shapeCasts_S3x7x192_S3x7x192x1 : S3x7x192.ShapeCasts S3x7x192x1
  reduces_S3x7x192x1_S3x7x1 : S3x7x192x1.Reduces [2] S3x7x1
  shapeCasts_S3x7x1_S3x7x1x1 : S3x7x1.ShapeCasts S3x7x1x1
  reduces_S3x7x1x1_S3x1x1 : S3x7x1x1.Reduces [1] S3x1x1
  slices_S3x8x192x224_o0_0_0_0_S3x1x192x224 : S3x8x192x224.Slices ![0, 0, 0, 0] S3x1x192x224
  reduces_S3x1x192x224_S3x1x192 : S3x1x192x224.Reduces [3] S3x1x192
  shapeCasts_S3x1x192_S3x1x192x1 : S3x1x192.ShapeCasts S3x1x192x1
  reduces_S3x1x192x1_S3x1x1 : S3x1x192x1.Reduces [2] S3x1x1
  reduces_S3x1x1x1_S3x1x1 : S3x1x1x1.Reduces [1] S3x1x1
  slices_S3x8x192x224_o0_7_0_0_S3x1x192x224 : S3x8x192x224.Slices ![0, 7, 0, 0] S3x1x192x224
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  slices_S3x160x192x224_S3x1x192x224_0_80_0_0 : S3x160x192x224.Slices ![0, 80, 0, 0] S3x1x192x224
  shapeCasts_S3x1x192x224_S3x192x224 : S3x1x192x224.ShapeCasts S3x192x224
  slices_S3x160x192x224_S3x1x192x224_0_79_0_0 : S3x160x192x224.Slices ![0, 79, 0, 0] S3x1x192x224
  reducesTo_S3x192x224_S_d0_1_2 : S3x192x224.ReducesTo [0, 1, 2] S_
  dot_S1x6720_S6720x128_S1x128_1_0_0_1_n_n_wf : DotDims.WF S1x6720 S6720x128 S1x128 [1] [0] [0] [1] [] []
  gather_S26_S25x1_S25_n_0_n_n_0_1_1_wf : GatherDims.WF S26 S25x1 S25 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6720x128.size a ≤ S53760x128.size a
  hwx0_0 : ∀ i : grid0.Coords, EltTy.bits .i32 = 32 ∨ (Rect.block (s := S53760x128) S6720x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6720x128.size a ≤ S53760x128.size a
  hwx0_1 : ∀ i : grid0.Coords, EltTy.bits .i32 = 32 ∨ (Rect.block (s := S53760x128) S6720x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128.size a ≤ S2x3x128.size a
  hwx0_2 : ∀ i : grid0.Coords, EltTy.bits .f32 = 32 ∨ (Rect.block (s := S2x3x128) S1x3x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x8x192x224.size a ≤ S3x160x192x224.size a
  hwx1_0 : ∀ i : grid1.Coords, EltTy.bits .f32 = 32 ∨ (Rect.block (s := S3x160x192x224) S3x8x192x224.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x128.size a ≤ S2x8x128.size a
  hwx1_1 : ∀ i : grid1.Coords, EltTy.bits .f32 = 32 ∨ (Rect.block (s := S2x8x128) S1x8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x128.size a ≤ S2x8x128.size a
  hwx1_2 : ∀ i : grid1.Coords, EltTy.bits .f32 = 32 ∨ (Rect.block (s := S2x8x128) S1x8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x128.size a ≤ S2x8x128.size a
  hwx1_3 : ∀ i : grid1.Coords, EltTy.bits .f32 = 32 ∨ (Rect.block (s := S2x8x128) S1x8x128.size (cc1_transform_3 i) (hinb1_3 i)).WholeWords (EltTy.packing .f32)

variable [Facts₀]

def dot_S1x6720_S6720x128_S1x128_1_0_0_1_n_n : DotDims S1x6720 S6720x128 S1x128 where
  lhsContracting := [1]
  rhsContracting := [0]
  lhsNonContracting := [0]
  rhsNonContracting := [1]
  lhsBatch := []
  rhsBatch := []
  wf := dot_S1x6720_S6720x128_S1x128_1_0_0_1_n_n_wf
def gather_S26_S25x1_S25_n_0_n_n_0_1_1 : GatherDims S26 S25x1 S25 where
  offsetDims := []
  collapsedSliceDims := [0]
  operandBatchingDims := []
  startIndicesBatchingDims := []
  startIndexMap := [0]
  indexVectorDim := 1
  sliceSizes := ![1]
  wf := gather_S26_S25x1_S25_n_0_n_n_0_1_1_wf

abbrev win0_0 : Pipeline.Window sig grid0 :=
  Pipeline.Window.ofSpec (Memref.whole main_v0) S6720x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6720x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S3x8x192x224.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_0) S1x8x128.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31_1) S1x8x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31_2) S1x8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x160x192x224 : Shape := ⟨4, ![1, 160, 192, 224]⟩
abbrev S1x3x160x192x224 : Shape := ⟨5, ![1, 3, 160, 192, 224]⟩
abbrev S25 : Shape := ⟨1, ![25]⟩
abbrev S6881280 : Shape := ⟨1, ![6881280]⟩
abbrev S_ : Shape := ⟨0, ![]⟩
abbrev S26 : Shape := ⟨1, ![26]⟩
abbrev S6881280x1 : Shape := ⟨2, ![6881280, 1]⟩
abbrev S25x1 : Shape := ⟨2, ![25, 1]⟩
abbrev S1x3x159x192x224 : Shape := ⟨5, ![1, 3, 159, 192, 224]⟩
abbrev S1x3x160x191x224 : Shape := ⟨5, ![1, 3, 160, 191, 224]⟩
abbrev S1x3x160x192x223 : Shape := ⟨5, ![1, 3, 160, 192, 223]⟩

abbrev nBuf : Space → Nat
  | .hbm => 114
  | .vmem => 0
  | .smem => 0
  | _ => 0

abbrev bufTy : (tb : Table) → Fin (tcTables nBuf tb) → BufTy
  | .hbm, ⟨0, _⟩ => ⟨S1x160x192x224, .i32⟩
  | .hbm, ⟨1, _⟩ => ⟨S1x160x192x224, .i32⟩
  | .hbm, ⟨2, _⟩ => ⟨S1x3x160x192x224, .f32⟩
  | .hbm, ⟨3, _⟩ => ⟨S25, .i32⟩
  | .hbm, ⟨4, _⟩ => ⟨S25, .i1⟩
  | .hbm, ⟨5, _⟩ => ⟨S6881280, .i32⟩
  | .hbm, ⟨6, _⟩ => ⟨S6881280, .i32⟩
  | .hbm, ⟨7, _⟩ => ⟨S_, .i32⟩
  | .hbm, ⟨8, _⟩ => ⟨S26, .i32⟩
  | .hbm, ⟨9, _⟩ => ⟨S_, .i32⟩
  | .hbm, ⟨10, _⟩ => ⟨S_, .i32⟩
  | .hbm, ⟨11, _⟩ => ⟨S6881280, .i32⟩
  | .hbm, ⟨12, _⟩ => ⟨S6881280, .i32⟩
  | .hbm, ⟨13, _⟩ => ⟨S_, .i32⟩
  | .hbm, ⟨14, _⟩ => ⟨S6881280, .i32⟩
  | .hbm, ⟨15, _⟩ => ⟨S6881280, .i1⟩
  | .hbm, ⟨16, _⟩ => ⟨S_, .i32⟩
  | .hbm, ⟨17, _⟩ => ⟨S6881280, .i32⟩
  | .hbm, ⟨18, _⟩ => ⟨S6881280, .i32⟩
  | .hbm, ⟨19, _⟩ => ⟨S6881280, .i32⟩
  | .hbm, ⟨20, _⟩ => ⟨S6881280x1, .i32⟩
  | .hbm, ⟨21, _⟩ => ⟨S_, .i32⟩
  | .hbm, ⟨22, _⟩ => ⟨S6881280, .i32⟩
  | .hbm, ⟨23, _⟩ => ⟨S26, .i32⟩
  | .hbm, ⟨24, _⟩ => ⟨S26, .f32⟩
  | .hbm, ⟨25, _⟩ => ⟨S_, .i32⟩
  | .hbm, ⟨26, _⟩ => ⟨S26, .i32⟩
  | .hbm, ⟨27, _⟩ => ⟨S_, .i32⟩
  | .hbm, ⟨28, _⟩ => ⟨S_, .i32⟩
  | .hbm, ⟨29, _⟩ => ⟨S6881280, .i32⟩
  | .hbm, ⟨30, _⟩ => ⟨S6881280, .i32⟩
  | .hbm, ⟨31, _⟩ => ⟨S_, .i32⟩
  | .hbm, ⟨32, _⟩ => ⟨S6881280, .i32⟩
  | .hbm, ⟨33, _⟩ => ⟨S6881280, .i1⟩
  | .hbm, ⟨34, _⟩ => ⟨S_, .i32⟩
  | .hbm, ⟨35, _⟩ => ⟨S6881280, .i32⟩
  | .hbm, ⟨36, _⟩ => ⟨S6881280, .i32⟩
  | .hbm, ⟨37, _⟩ => ⟨S6881280, .i32⟩
  | .hbm, ⟨38, _⟩ => ⟨S6881280x1, .i32⟩
  | .hbm, ⟨39, _⟩ => ⟨S_, .i32⟩
  | .hbm, ⟨40, _⟩ => ⟨S6881280, .i32⟩
  | .hbm, ⟨41, _⟩ => ⟨S26, .i32⟩
  | .hbm, ⟨42, _⟩ => ⟨S26, .f32⟩
  | .hbm, ⟨43, _⟩ => ⟨S6881280, .i1⟩
  | .hbm, ⟨44, _⟩ => ⟨S6881280, .f32⟩
  | .hbm, ⟨45, _⟩ => ⟨S_, .f32⟩
  | .hbm, ⟨46, _⟩ => ⟨S26, .f32⟩
  | .hbm, ⟨47, _⟩ => ⟨S_, .i32⟩
  | .hbm, ⟨48, _⟩ => ⟨S_, .i32⟩
  | .hbm, ⟨49, _⟩ => ⟨S6881280, .i32⟩
  | .hbm, ⟨50, _⟩ => ⟨S6881280, .i32⟩
  | .hbm, ⟨51, _⟩ => ⟨S_, .i32⟩
  | .hbm, ⟨52, _⟩ => ⟨S6881280, .i32⟩
  | .hbm, ⟨53, _⟩ => ⟨S6881280, .i1⟩
  | .hbm, ⟨54, _⟩ => ⟨S_, .i32⟩
  | .hbm, ⟨55, _⟩ => ⟨S6881280, .i32⟩
  | .hbm, ⟨56, _⟩ => ⟨S6881280, .i32⟩
  | .hbm, ⟨57, _⟩ => ⟨S6881280, .i32⟩
  | .hbm, ⟨58, _⟩ => ⟨S6881280x1, .i32⟩
  | .hbm, ⟨59, _⟩ => ⟨S26, .f32⟩
  | .hbm, ⟨60, _⟩ => ⟨S_, .f32⟩
  | .hbm, ⟨61, _⟩ => ⟨S26, .f32⟩
  | .hbm, ⟨62, _⟩ => ⟨S26, .f32⟩
  | .hbm, ⟨63, _⟩ => ⟨S_, .f32⟩
  | .hbm, ⟨64, _⟩ => ⟨S26, .f32⟩
  | .hbm, ⟨65, _⟩ => ⟨S26, .f32⟩
  | .hbm, ⟨66, _⟩ => ⟨S26, .f32⟩
  | .hbm, ⟨67, _⟩ => ⟨S_, .f32⟩
  | .hbm, ⟨68, _⟩ => ⟨S26, .f32⟩
  | .hbm, ⟨69, _⟩ => ⟨S26, .f32⟩
  | .hbm, ⟨70, _⟩ => ⟨S26, .f32⟩
  | .hbm, ⟨71, _⟩ => ⟨S_, .i32⟩
  | .hbm, ⟨72, _⟩ => ⟨S25, .i32⟩
  | .hbm, ⟨73, _⟩ => ⟨S25, .i32⟩
  | .hbm, ⟨74, _⟩ => ⟨S25, .i32⟩
  | .hbm, ⟨75, _⟩ => ⟨S25x1, .i32⟩
  | .hbm, ⟨76, _⟩ => ⟨S25, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1x3x159x192x224, .f32⟩
  | .hbm, ⟨84, _⟩ => ⟨S1x3x159x192x224, .f32⟩
  | .hbm, ⟨85, _⟩ => ⟨S1x3x159x192x224, .f32⟩
  | .hbm, ⟨86, _⟩ => ⟨S1x3x160x191x224, .f32⟩
  | .hbm, ⟨87, _⟩ => ⟨S1x3x160x191x224, .f32⟩
  | .hbm, ⟨88, _⟩ => ⟨S1x3x160x191x224, .f32⟩
  | .hbm, ⟨89, _⟩ => ⟨S1x3x160x192x223, .f32⟩
  | .hbm, ⟨90, _⟩ => ⟨S1x3x160x192x223, .f32⟩
  | .hbm, ⟨91, _⟩ => ⟨S1x3x160x192x223, .f32⟩
  | .hbm, ⟨92, _⟩ => ⟨S1x3x159x192x224, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S1x3x160x191x224, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S1x3x160x192x223, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S1x160x192x224, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_c_2 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_c_3 : Ref sig .tc := ⟨.hbm, 13, rfl⟩
abbrev main_v4 : Ref sig .tc := ⟨.hbm, 14, rfl⟩
abbrev main_v5 : Ref sig .tc := ⟨.hbm, 15, rfl⟩
abbrev main_c_4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_5 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_6 : Ref sig .tc := ⟨.hbm, 25, rfl⟩
abbrev main_v13 : Ref sig .tc := ⟨.hbm, 26, rfl⟩
abbrev main_c_7 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_c_8 : Ref sig .tc := ⟨.hbm, 31, rfl⟩
abbrev main_v15 : Ref sig .tc := ⟨.hbm, 32, rfl⟩
abbrev main_v16 : Ref sig .tc := ⟨.hbm, 33, rfl⟩
abbrev main_c_9 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_10 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_v26 : Ref sig .tc := ⟨.hbm, 46, rfl⟩
abbrev main_c_11 : Ref sig .tc := ⟨.hbm, 47, rfl⟩
abbrev main_call2_v0 : Ref sig .tc := ⟨.hbm, 48, rfl⟩
abbrev main_call2_v1 : Ref sig .tc := ⟨.hbm, 49, rfl⟩
abbrev main_v27 : Ref sig .tc := ⟨.hbm, 50, rfl⟩
abbrev main_c_12 : Ref sig .tc := ⟨.hbm, 51, rfl⟩
abbrev main_v28 : Ref sig .tc := ⟨.hbm, 52, rfl⟩
abbrev main_v29 : Ref sig .tc := ⟨.hbm, 53, rfl⟩
abbrev main_c_13 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_14 : Ref sig .tc := ⟨.hbm, 60, rfl⟩
abbrev main_v35 : Ref sig .tc := ⟨.hbm, 61, rfl⟩
abbrev main_v36 : Ref sig .tc := ⟨.hbm, 62, rfl⟩
abbrev main_cst_15 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_16 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_17 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_18 : Ref sig .tc := ⟨.hbm, 77, rfl⟩
abbrev main_v48 : Ref sig .tc := ⟨.hbm, 78, rfl⟩
abbrev main_cst_19 : Ref sig .tc := ⟨.hbm, 79, rfl⟩
abbrev main_v49 : Ref sig .tc := ⟨.hbm, 80, rfl⟩
abbrev main_cst_20 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_21 : Ref sig .tc := ⟨.hbm, 93, rfl⟩
abbrev main_v61 : Ref sig .tc := ⟨.hbm, 94, rfl⟩
abbrev main_cst_22 : Ref sig .tc := ⟨.hbm, 95, rfl⟩
abbrev main_v62 : Ref sig .tc := ⟨.hbm, 96, rfl⟩
abbrev main_v63 : Ref sig .tc := ⟨.hbm, 97, rfl⟩
abbrev main_cst_23 : Ref sig .tc := ⟨.hbm, 98, rfl⟩
abbrev main_v64 : Ref sig .tc := ⟨.hbm, 99, rfl⟩
abbrev main_cst_24 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_25 : Ref sig .tc := ⟨.hbm, 104, rfl⟩
abbrev main_v68 : Ref sig .tc := ⟨.hbm, 105, rfl⟩
abbrev main_cst_26 : Ref sig .tc := ⟨.hbm, 106, rfl⟩
abbrev main_v69 : Ref sig .tc := ⟨.hbm, 107, rfl⟩
abbrev main_v70 : Ref sig .tc := ⟨.hbm, 108, rfl⟩
abbrev main_cst_27 : Ref sig .tc := ⟨.hbm, 109, rfl⟩
abbrev main_v71 : Ref sig .tc := ⟨.hbm, 110, rfl⟩
abbrev main_cst_28 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]

class Facts₀ : Prop where
  shapeCasts_S1x160x192x224_S6881280 : S1x160x192x224.ShapeCasts S6881280
  bcast_S_S26 : S_.BroadcastsInDim S26 (![] : Fin 0 → Fin S26.rank)
  bcast_S_S6881280 : S_.BroadcastsInDim S6881280 (![] : Fin 0 → Fin S6881280.rank)
  bcast_S6881280_S6881280x1_0 : S6881280.BroadcastsInDim S6881280x1 (![0] : Fin 1 → Fin S6881280x1.rank)
  bcast_S_S25 : S_.BroadcastsInDim S25 (![] : Fin 0 → Fin S25.rank)
  bcast_S25_S25x1_0 : S25.BroadcastsInDim S25x1 (![0] : Fin 1 → Fin S25x1.rank)
  reducesTo_S25_S_d0 : S25.ReducesTo [0] S_
  h_S_ : 0 < S_.numel
  slices_S1x3x160x192x224_S1x3x159x192x224_0_0_1_0_0 : S1x3x160x192x224.Slices ![0, 0, 1, 0, 0] S1x3x159x192x224
  slices_S1x3x160x192x224_S1x3x159x192x224_0_0_0_0_0 : S1x3x160x192x224.Slices ![0, 0, 0, 0, 0] S1x3x159x192x224
  slices_S1x3x160x192x224_S1x3x160x191x224_0_0_0_1_0 : S1x3x160x192x224.Slices ![0, 0, 0, 1, 0] S1x3x160x191x224
  slices_S1x3x160x192x224_S1x3x160x191x224_0_0_0_0_0 : S1x3x160x192x224.Slices ![0, 0, 0, 0, 0] S1x3x160x191x224
  slices_S1x3x160x192x224_S1x3x160x192x223_0_0_0_0_1 : S1x3x160x192x224.Slices ![0, 0, 0, 0, 1] S1x3x160x192x223
  slices_S1x3x160x192x224_S1x3x160x192x223_0_0_0_0_0 : S1x3x160x192x224.Slices ![0, 0, 0, 0, 0] S1x3x160x192x223
  reducesTo_S1x3x159x192x224_S_d0_1_2_3_4 : S1x3x159x192x224.ReducesTo [0, 1, 2, 3, 4] S_
  reducesTo_S1x3x160x191x224_S_d0_1_2_3_4 : S1x3x160x191x224.ReducesTo [0, 1, 2, 3, 4] S_
  reducesTo_S1x3x160x192x223_S_d0_1_2_3_4 : S1x3x160x192x223.ReducesTo [0, 1, 2, 3, 4] S_
  scatter_S26_S6881280x1_S6881280_n_0_0_1_wf : ScatterDims.WF S26 S6881280x1 S6881280 [] [0] [0] 1
  gather_S26_S25x1_S25_n_0_n_n_0_1_1_wf : GatherDims.WF S26 S25x1 S25 [] [0] [] [0] [] 1 ![1]

variable [Facts₀]

def scatter_S26_S6881280x1_S6881280_n_0_0_1 : ScatterDims S26 S6881280x1 S6881280 where
  updateWindowDims := []
  insertedWindowDims := [0]
  scatterDimsToOperandDims := [0]
  indexVectorDim := 1
  wf := scatter_S26_S6881280x1_S6881280_n_0_0_1_wf
def gather_S26_S25x1_S25_n_0_n_n_0_1_1 : GatherDims S26 S25x1 S25 where
  offsetDims := []
  collapsedSliceDims := [0]
  operandBatchingDims := []
  startIndicesBatchingDims := []
  startIndexMap := [0]
  indexVectorDim := 1
  sliceSizes := ![1]
  wf := gather_S26_S25x1_S25_n_0_n_n_0_1_1_wf

class Facts : Prop extends Facts₀ where

variable [Facts]
-- ==== Proof.KContrib.lean ====
import proofs.«417857_j15487652069654_3_alg».proof.Proof.Gen.KernelIdeal.Skeleton

noncomputable section

namespace Cert.KernelIdeal.Hand

open Idealize.ShloMosaic Idealize.ShloMosaic.TcCoe Cert.KernelIdeal Cert.KernelIdeal.Gen

variable {F : FTy → Type} [FloatOps F]

/-- What one block of the two label maps adds to the three histogram rows: for a class c from 1 to 25, lane c of the first (second) vector is the
    number of entries of the first (second) block equal to c, lane c of the third the number of positions where both blocks hold c; the other
    lanes are zero. Stated as the kernel computes it, class by class. -/
def contrib0 (v3 v5 : Vec F S6720x128 .i32) : FVec F S1x128 .f32 × FVec F S1x128 .f32 × FVec F S1x128 .f32 :=
  have v10 : IVec S1x128 32 := iota .tc S1x128 32 [1] iota_S1x128_d1_w32
  have v7 : FVec F S6720x128 .bf16 := k0_pay5 v3
  have v8 : FVec F S6720x128 .bf16 := k0_pay6 v5
  have v9 : FVec F S1x6720 .bf16 := k0_pay7 (F := F)
  have v11 : FVec F S1x128 .f32 := k0_pay8 (F := F)
  have v12 : FVec F S1x128 .f32 := k0_pay9 (F := F)
  have v13 : FVec F S1x128 .f32 := k0_pay10 (F := F)
  have v17 : FVec F S1x128 .f32 := k0_pay11 (F := F)
  have v33 : FVec F S1x1 .f32 := k0_pay14 v3
  have v35 : FVec F S1x1 .f32 := k0_pay15 v5
  have v37 : FVec F S1x1 .f32 := k0_pay16 v3 v5
  have v73 : FVec F S1x128 .f32 := k0_pay20 v7 v9 v10 v11 v17 v33
  have v76 : FVec F S1x128 .f32 := k0_pay21 v8 v9 v10 v12 v17 v35
  have v79 : FVec F S1x128 .f32 := k0_pay22 v7 v8 v9 v10 v13 v17 v37
  have v83 : FVec F S1x128 .f32 := k0_pay23 (F := F) v10
  have v86 : IVec S6720x128 32 := k0_pay24 v7
  have v106 : FVec F S1x128 .f32 := k0_pay27 v9 v73 v83 v86
  have v109 : FVec F S1x128 .f32 := k0_pay28 v8 v9 v76 v83
  have v112 : FVec F S1x128 .f32 := k0_pay29 v8 v9 v79 v83 v86
  have v116 : FVec F S1x128 .f32 := k0_pay30 (F := F) v10
  have v129 : FVec F S1x128 .f32 := k0_pay33 v8 v9
  have v130 : FVec F S1x128 .f32 := k0_pay34 v7 v8 v9
  have v132 : FVec F S1x1 .f32 := k0_pay35 v7 v9
  have v172 : FVec F S1x128 .f32 := k0_pay39 v7 v9 v10 v106 v116 v132
  have v175 : FVec F S1x128 .f32 := k0_pay40 v8 v9 v10 v109 v116 v129
  have v178 : FVec F S1x128 .f32 := k0_pay41 v7 v8 v9 v10 v112 v116 v130
  have v180 : IVec S1x128 1 := k0_pay42 v10
  have cst_58 : FVec F S1x128 .f32 := constant S1x128 .f32 0x00000000#32
  have v205 : FVec F S1x128 .f32 := k0_pay46 v7 v9 v172 v180
  have v208 : FVec F S1x128 .f32 := k0_pay47 v8 v9 v175 v180
  have v211 : FVec F S1x128 .f32 := k0_pay48 v7 v8 v9 v178 v180
  have v215 : FVec F S1x128 .f32 := k0_pay49 (F := F) v10
  have v225 : FVec F S6720x128 .bf16 := k0_pay51 v8
  have v226 : FVec F S6720x128 .bf16 := k0_pay52 v7 v8
  have v227 : FVec F S1x128 .f32 := k0_pay53 v7 v9
  have v244 : FVec F S1x128 .f32 := k0_pay54 v9 v211 v215 v226
  have v248 : FVec F S1x128 .f32 := k0_pay55 (F := F) v10
  have v268 : FVec F S1x1 .f32 := k0_pay58 v7 v8 v9
  have v271 : FVec F S1x128 .f32 := k0_pay59 v7 v9 v10 v205 v215 v227
  have v274 : FVec F S1x128 .f32 := k0_pay60 v8 v9 v10 v208 v215 v225 cst_58
  have v304 : FVec F S1x128 .f32 := k0_pay64 v7 v9 v10 v271
  have v307 : FVec F S1x128 .f32 := k0_pay65 v8 v9 v10 v274
  have v310 : FVec F S1x128 .f32 := k0_pay66 v7 v8 v9 v10 v244 v248 v268
  have v314 : FVec F S1x128 .f32 := k0_pay67 (F := F) v10
  have v319 : FVec F S6720x128 .bf16 := k0_pay68 v7
  have v322 : IVec S6720x128 32 := k0_pay69 v8
  have v337 : FVec F S1x128 .f32 := k0_pay71 v9 v304 v314 v319
  have v340 : FVec F S1x128 .f32 := k0_pay72 v9 v307 v314 v322
  have v343 : FVec F S1x128 .f32 := k0_pay73 v9 v310 v314 v319 v322
  have v347 : FVec F S1x128 .f32 := k0_pay74 (F := F) v10
  have v363 : FVec F S1x1 .f32 := k0_pay77 v7 v9
  have v365 : FVec F S1x1 .f32 := k0_pay78 v8 v9
  have v367 : FVec F S1x1 .f32 := k0_pay79 v7 v8 v9
  have v403 : FVec F S1x128 .f32 := k0_pay83 v7 v9 v10 v337 v347 v363
  have v406 : FVec F S1x128 .f32 := k0_pay84 v8 v9 v10 v340 v347 v365
  have v409 : FVec F S1x128 .f32 := k0_pay85 v7 v8 v9 v10 v343 v347 v367
  have v413 : FVec F S1x128 .f32 := k0_pay86 (F := F) v10
  have v416 : IVec S6720x128 32 := k0_pay87 v7
  have v436 : FVec F S1x128 .f32 := k0_pay90 v9 v403 v413 v416
  have v439 : FVec F S1x128 .f32 := k0_pay91 v8 v9 v406 v413
  have v442 : FVec F S1x128 .f32 := k0_pay92 v8 v9 v409 v413 v416
  have v446 : FVec F S1x128 .f32 := k0_pay93 (F := F) v10
  have v459 : FVec F S1x128 .f32 := k0_pay96 v8 v9
  have v460 : FVec F S1x128 .f32 := k0_pay97 v7 v8 v9
  have v462 : FVec F S1x1 .f32 := k0_pay98 v7 v9
  have v502 : FVec F S1x128 .f32 := k0_pay102 v7 v9 v10 v436 v446 v462
  have v505 : FVec F S1x128 .f32 := k0_pay103 v8 v9 v10 v439 v446 v459
  have v508 : FVec F S1x128 .f32 := k0_pay104 v7 v8 v9 v10 v442 v446 v460
  have v510 : IVec S1x128 1 := k0_pay105 v10
  have cst_138 : FVec F S1x128 .f32 := constant S1x128 .f32 0x00000000#32
  have v535 : FVec F S1x128 .f32 := k0_pay109 v7 v9 v502 v510
  have v538 : FVec F S1x128 .f32 := k0_pay110 v8 v9 v505 v510
  have v541 : FVec F S1x128 .f32 := k0_pay111 v7 v8 v9 v508 v510
  have v545 : FVec F S1x128 .f32 := k0_pay112 (F := F) v10
  have v555 : FVec F S6720x128 .bf16 := k0_pay114 v8
  have v556 : FVec F S6720x128 .bf16 := k0_pay115 v7 v8
  have v557 : FVec F S1x128 .f32 := k0_pay116 v7 v9
  have v574 : FVec F S1x128 .f32 := k0_pay117 v9 v541 v545 v556
  have v578 : FVec F S1x128 .f32 := k0_pay118 (F := F) v10
  have v598 : FVec F S1x1 .f32 := k0_pay121 v7 v8 v9
  have v601 : FVec F S1x128 .f32 := k0_pay122 v7 v9 v10 v535 v545 v557
  have v604 : FVec F S1x128 .f32 := k0_pay123 v8 v9 v10 v538 v545 v555 cst_138
  have v634 : FVec F S1x128 .f32 := k0_pay127 v7 v9 v10 v601
  have v637 : FVec F S1x128 .f32 := k0_pay128 v8 v9 v10 v604
  have v640 : FVec F S1x128 .f32 := k0_pay129 v7 v8 v9 v10 v574 v578 v598
  have v644 : FVec F S1x128 .f32 := k0_pay130 (F := F) v10
  have v649 : FVec F S6720x128 .bf16 := k0_pay131 v7
  have v652 : IVec S6720x128 32 := k0_pay132 v8
  have v667 : FVec F S1x128 .f32 := k0_pay134 v9 v634 v644 v649
  have v670 : FVec F S1x128 .f32 := k0_pay135 v9 v637 v644 v652
  have v673 : FVec F S1x128 .f32 := k0_pay136 v9 v640 v644 v649 v652
  have v677 : FVec F S1x128 .f32 := k0_pay137 (F := F) v10
  have v693 : FVec F S1x1 .f32 := k0_pay140 v7 v9
  have v695 : FVec F S1x1 .f32 := k0_pay141 v8 v9
  have v697 : FVec F S1x1 .f32 := k0_pay142 v7 v8 v9
  have v733 : FVec F S1x128 .f32 := k0_pay146 v7 v9 v10 v667 v677 v693
  have v736 : FVec F S1x128 .f32 := k0_pay147 v8 v9 v10 v670 v677 v695
  have v739 : FVec F S1x128 .f32 := k0_pay148 v7 v8 v9 v10 v673 v677 v697
  have v743 : FVec F S1x128 .f32 := k0_pay149 (F := F) v10
  have v746 : IVec S6720x128 32 := k0_pay150 v7
  have v766 : FVec F S1x128 .f32 := k0_pay153 v9 v733 v743 v746
  have v769 : FVec F S1x128 .f32 := k0_pay154 v8 v9 v736 v743
  have v772 : FVec F S1x128 .f32 := k0_pay155 v8 v9 v739 v743 v746
  have v776 : FVec F S1x128 .f32 := k0_pay156 (F := F) v10
  have v789 : FVec F S1x128 .f32 := k0_pay159 v8 v9
  have v790 : FVec F S1x128 .f32 := k0_pay160 v7 v8 v9
  have v792 : FVec F S1x1 .f32 := k0_pay161 v7 v9
  have v832 : FVec F S1x128 .f32 := k0_pay165 v7 v9 v10 v766 v776 v792
  have v835 : FVec F S1x128 .f32 := k0_pay166 v8 v9 v10 v769 v776 v789
  have v838 : FVec F S1x128 .f32 := k0_pay167 v7 v8 v9 v10 v772 v776 v790
  (v832, v835, v838)

end Cert.KernelIdeal.Hand

end
-- ==== Proof.KKit.lean ====
/-
  The data of the kernel program's two regions, stated once, at any float instance and at any contents `V` of the
  buffers when a region is entered.

  Region 0 (the histogram kernel, 2 × 4 points): the output block of a core is an accumulator of three rows of 128 lanes;
  the first point of a core starts it from zero, every point adds the block's three contributions `contrib0` row by row
  (`step0`); `acc0` is what the block holds after each point.
  Region 1 (the finite-difference kernel, 2 × 10 points): three accumulator blocks (sums of squared differences along depth,
  height and width, each value spread over an 8 × 128 block) and a scratch plane that carries the last depth plane of a
  block to the next point; `acc1` is what the four hold after each point.
-/
import proofs.«417857_j15487652069654_3_alg».proof.Proof.Gen.KernelIdeal.Launch
import proofs.«417857_j15487652069654_3_alg».proof.Proof.Gen.KernelIdeal.Skeleton
import proofs.«417857_j15487652069654_3_alg».proof.Proof.Gen.KernelIdeal.Points
import proofs.«417857_j15487652069654_3_alg».proof.Proof.KContrib
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the histogram accumulator -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three rows of the accumulator block. -/
abbrev row0 : Rect S1x3x128 := Rect.unit (s := S1x3x128) ![0, 0, 0] S1x1x128.size inb_S1x3x128_S1x1x128_0_0_0
abbrev row1 : Rect S1x3x128 := Rect.unit (s := S1x3x128) ![0, 1, 0] S1x1x128.size inb_S1x3x128_S1x1x128_0_1_0
abbrev row2 : Rect S1x3x128 := Rect.unit (s := S1x3x128) ![0, 2, 0] S1x1x128.size inb_S1x3x128_S1x1x128_0_2_0

/-- One point's update of the accumulator: each row of `base` plus the matching contribution of the two label blocks. -/
def step0 (base : Vec F S1x3x128 .f32) (v3 v5 : Vec F S6720x128 .i32) : Vec F S1x3x128 .f32 :=
  View.canon [⟨row2, k0_pay3 (contrib0 v3 v5).2.2 (View.ld base row2)⟩,
    ⟨row1, k0_pay2 (contrib0 v3 v5).2.1 (View.ld base row1)⟩,
    ⟨row0, k0_pay1 (contrib0 v3 v5).1 (View.ld base row0)⟩]

/-- What the accumulator block holds after the body at position `n`: a core's first point (positions 0 and 4) starts from
    the zero block, a later one from what the point before left. -/
def acc0 (c : Dev nD) : (n : ℕ) → n < cfg0.N → Vec F S1x3x128 .f32
  | 0, hn => step0 (k0_pay4 (F := F)) (iblk0 V c 0 ⟨0, hn⟩) (iblk0 V c 1 ⟨0, hn⟩)
  | n + 1, hn =>
    if (n + 1) % 4 = 0 then step0 (k0_pay4 (F := F)) (iblk0 V c 0 ⟨n + 1, hn⟩) (iblk0 V c 1 ⟨n + 1, hn⟩)
    else step0 (acc0 c n (Nat.lt_of_succ_lt hn)) (iblk0 V c 0 ⟨n + 1, hn⟩) (iblk0 V c 1 ⟨n + 1, hn⟩)

/-- The proof data of region 0 on core `c`: the arrays as the region finds them; after a point the two label windows hold
    their blocks and the output window the accumulator; the invariant is the scoped rest untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## Region 1: the three difference accumulators and the carried plane -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch plane, a whole scoped buffer of the kernel's own. -/
abbrev scM1 : Memref sig .tc .vmem S3x1x192x224 .f32 := Memref.whole cc1_scratch0

/-- A core's first point: the accumulators start from zero, nothing is read from the plane. -/
def first1 (x : Vec F S3x8x192x224 .f32) :
    Vec F S1x8x128 .f32 × Vec F S1x8x128 .f32 × Vec F S1x8x128 .f32 × Vec F S3x1x192x224 .f32 :=
  (k1_pay11 (k1_pay6 x) (k1_pay2 (F := F)), k1_pay7 x (k1_pay3 (F := F)), k1_pay9 (k1_pay8 x) (k1_pay4 (F := F)), k1_pay1 (k1_pay12 (k1_pay6 x)))

/-- A later point: the depth accumulator also takes the squared differences between the block's first plane and the carried
    plane. -/
def later1 (x : Vec F S3x8x192x224 .f32)
    (p : Vec F S1x8x128 .f32 × Vec F S1x8x128 .f32 × Vec F S1x8x128 .f32 × Vec F S3x1x192x224 .f32) :
    Vec F S1x8x128 .f32 × Vec F S1x8x128 .f32 × Vec F S1x8x128 .f32 × Vec F S3x1x192x224 .f32 :=
  (k1_pay11 (k1_pay6 x) (k1_pay10 (k1_pay6 x) p.2.2.2 p.1), k1_pay7 x p.2.1, k1_pay9 (k1_pay8 x) p.2.2.1, k1_pay1 (k1_pay12 (k1_pay6 x)))

/-- What the three accumulator blocks (depth, height, width) and the plane hold after the body at position `n`. -/
def acc1 (c : Dev nD) : (n : ℕ) → n < cfg1.N →
    Vec F S1x8x128 .f32 × Vec F S1x8x128 .f32 × Vec F S1x8x128 .f32 × Vec F S3x1x192x224 .f32
  | 0, hn => first1 (iblk1 V c 0 ⟨0, hn⟩)
  | n + 1, hn =>
    if (n + 1) % 10 = 0 then first1 (iblk1 V c 0 ⟨n + 1, hn⟩)
    else later1 (iblk1 V c 0 ⟨n + 1, hn⟩) (acc1 c n (Nat.lt_of_succ_lt hn))

/-- The scoped buffers other than the plane, each at some contents: what the region never touches. -/
abbrev rest1 (c : Dev nD) : sProp 𝕄 :=
  Pipeline.scopedRestBut (Ix := Unit) (Name := ℕ) (U := UR sig nD τ) (Lvl := ℕ) (Val := Elt F) spec1 c [cc1_scratch0]

/-- The region's invariant before position `n`: before the first point the scoped rest as launched; afterwards the plane at
    what the point before left, the other scoped buffers at some contents, and the generator register at some state. -/
def Phi1 (c : Dev nD) : (n : ℕ) → n ≤ cfg1.N → sProp 𝕄
  | 0, _ => Pipeline.ΦA spec1 c
  | n + 1, hn => iprop((owns (c : Thread nD τ) scM1 fullShare (acc1 V c n hn).2.2.2 ∗ rest1 (F := F) c) ∗ (∃ r, prngReg c r))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val t.isLt).1
    | ⟨2, _⟩ => (acc1 V c t.val t.isLt).2.1
    | ⟨3, _⟩ => (acc1 V c t.val t.isLt).2.2.1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2.1 := by dsimp only [dat1]
theorem after1_3 (c : Dev nD) (t : Fin cfg1.N) : (dat1 V c).after 3 t = (acc1 V c t.val t.isLt).2.2.1 := by dsimp only [dat1]

end Cert.KernelIdeal.Hand

end
-- ==== Proof.KVals.lean ====
/-
  The buffers' contents at each boundary of the kernel program's @main.  Its five items in order: the host operations
  before the histogram kernel, the histogram kernel's region, the host operations between the two kernels, the
  finite-difference kernel's region, the host operations after it.  Between two items a core holds every unscoped buffer
  at a known valuation (W0 … W5): a stretch of host operations moves the valuation by the operations' results in order;
  a region puts its windows' arrays at what the pipeline's write-backs leave and keeps every other buffer.  No item
  writes an argument, so each argument's buffer is at its launch contents in W5.
-/
import proofs.«417857_j15487652069654_3_alg».proof.Proof.KKit
import proofs.«417857_j15487652069654_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the first host stretch: the histogram region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the histogram region's exit: its three arrays at what the pipeline leaves (the two label maps as entered, the
    output with every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the finite-difference region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the finite-difference region's exit: the field as entered, the three accumulator arrays with every write-back
    folded in, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what the program returns with. -/
abbrev W5 : Dev nD → Valuation τ sig (Elt F) := fun c => StableHlo.after hostOps2 (W4 m ρ c)

/-! ### A buffer a stretch does not write keeps its contents across it -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-! ### The arguments end as launched: no stretch writes one and none is a window's array -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

end Cert.KernelIdeal.Hand

end
-- ==== Proof.KRun.lean ====
/-
  The run of the kernel program's @main, from the launch to the return, over the boundary contents W0 … W5: each host
  stretch and each kernel region as an item entered from what the item before it left; run_all reads the last valuation
  off every final memory, and the arguments' buffers, written by no item, end as launched (frame).
-/
import proofs.«417857_j15487652069654_3_alg».proof.Proof.KVals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the run takes from the two kernels' bodies -/

/-- The two bodies' obligations at any entry contents, and the two ends of the finite-difference region's invariant:
    it starts from the scoped rest as launched and gives the scoped rest back (the carried plane at whatever the last
    point left). -/
class BodyFacts (F : FTy → Type) [FloatOps F] : Prop where
  body_obligation0 : ∀ (V : (c : Dev nD) → (b : Ref sig .tc) → Buf (Elt F) ((c : Thread nD τ).loc b)) (c : Dev nD),
    BodyObligation (dat0 (F := F) V c) (defs₀ (F := F)) Variants.none () Set.univ
  body_obligation1 : ∀ (V : (c : Dev nD) → (b : Ref sig .tc) → Buf (Elt F) ((c : Thread nD τ).loc b)) (c : Dev nD),
    BodyObligation (dat1 (F := F) V c) (defs₀ (F := F)) Variants.none () Set.univ
  hin1 : ∀ (V : (c : Dev nD) → (b : Ref sig .tc) → Buf (Elt F) ((c : Thread nD τ).loc b)) (c : Dev nD),
    (Pipeline.ΦA spec1 c : sProp (MT nD τ sig Unit (Elt F) ℕ (UR sig nD τ) ℕ)) ⊢ (dat1 (F := F) V c).Φ 0
  hout1 : ∀ (V : (c : Dev nD) → (b : Ref sig .tc) → Buf (Elt F) ((c : Thread nD τ).loc b)) (c : Dev nD),
    (dat1 (F := F) V c).Φ (Fin.last cfg1.N) ⊢ (Pipeline.ΦA spec1 c : sProp (MT nD τ sig Unit (Elt F) ℕ (UR sig nD τ) ℕ))

open BodyFacts

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item: from every unscoped buffer at W, to the same at the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at W5, the generator register at some state. -/
abbrev Tₙ (c : Dev nD) : sProp 𝕄 := iprop(StableHlo.held (c : Thread nD τ) (Pipeline.ucRefs τ sig) (W5 m ρ c) ∗ ∃ r, prngReg c r)

variable [BodyFacts F]

/-! ## The regions as items -/

set_option backward.isDefEq.respectTransparency.types false in
/-- The histogram region: entered from every unscoped buffer at W1, left at W2.  Its arrays are split out of the
    unscoped buffers and put back at the exit contents; the generator register goes into the invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The finite-difference region: entered from every unscoped buffer at W3, left at W4.  Its invariant starts from the
    scoped rest as launched beside the generator register and ends giving both back (the two ends of the body's own
    invariant, which carries the plane between points). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ (Pipeline.ΦA spec1 c : sProp 𝕄) from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- @main is the run of the items: it is the chain of their programs. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2 ] from rfl]
  rfl

set_option backward.isDefEq.respectTransparency.types false in
/-- The run, at any reading of the final memory: at the compiled mesh, from any memory with zero counters, every weakly
    fair execution of @main terminates, nothing faulting, and every final memory that has each unscoped buffer at W5
    satisfies Q. -/
theorem run_post {Q : PUnit × MemSt nD τ sig (Elt F) → Prop}
    (hQ : ∀ s : MemSt nD τ sig (Elt F),
      (∀ c : Dev nD, ∀ b ∈ Pipeline.ucRefs τ sig, s.mem ((c : Thread nD τ).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- THE RUN: every final memory has every unscoped buffer of every core at W5. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  run_post m ρ fun _ h => h

/-- THE FRAME, at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post m ρ fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩

end Cert.KernelIdeal.Hand

end
-- ==== Proof.KBody0.lean ====
/-
  The body obligation of region 0 (the histogram kernel on its 2 × 4 grid): at every point the body, handed the two label
  blocks and the accumulator block at what the point before left (anything at a core's first point), leaves the
  accumulator at `acc0`: a core's first point overwrites the block with zeros and adds the three contributions of the label
  blocks row by row, a later point adds them to what the block held.

  The three rows are disjoint and tile the block, so a row read after the other rows were stored still reads the old
  contents, and once all three are stored the block is the three new rows, whatever was stored before.
-/
import proofs.«417857_j15487652069654_3_alg».proof.Proof.KKit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Body0

/-! ## The branch of the body -/

/-- The condition of the body's one branch (the reset of the accumulator), from the grid coordinates: the second
    coordinate is zero. -/
abbrev cond0 (i : grid0.Coords) : Prop :=
  (Scalar.cmpi .ne (Scalar.extui (Scalar.cmpi .eq (BitVec.ofNat 32 (i 1).val) 0#32)) 0#32) = 1#1

/-- It holds at the positions ≡ 0 (mod 4), a core's first point: decided over the eight points. -/
theorem hcond0 : ∀ t : Fin cfg0.N, cond0 (grid0.coords t) ↔ t.val % 4 = 0 :=
  (by decide +kernel : ∀ t : Fin grid0.N, cond0 (grid0.coords t) ↔ t.val % 4 = 0)

/-! ## The rows of the accumulator block -/

theorem hz2 : (![0, 0] : Fin 2 → Nat) = fun _ => 0 := funext fun a => by fin_cases a <;> rfl
theorem hz3 : (![0, 0, 0] : Fin 3 → Nat) = fun _ => 0 := funext fun a => by fin_cases a <;> rfl

/-- Row `k` holds exactly the indices whose middle coordinate is `k`. -/
theorem mem_row (k : Nat) (inb : ∀ a, (![0, k, 0] : Fin 3 → Nat) a + S1x1x128.size a ≤ S1x3x128.size a)
    (y : S1x3x128.Idx) (hk : (y 1).val = k) :
    y ∈ (Rect.unit (s := S1x3x128) ![0, k, 0] S1x1x128.size inb).set := by
  rw [Rect.mem_set_unit]
  intro a
  have h0 : (y 0).val < 1 := (y 0).isLt
  have h2 : (y 2).val < 128 := (y 2).isLt
  fin_cases a
  · exact ⟨Nat.zero_le _, by show (y 0).val < 0 + 1; omega⟩
  · exact ⟨by show k ≤ (y 1).val; omega, by show (y 1).val < k + 1; omega⟩
  · exact ⟨Nat.zero_le _, by show (y 2).val < 0 + 128; omega⟩

/-- The three rows cover the block. -/
theorem rows_cover (y : S1x3x128.Idx) : y ∈ row2.set ∨ y ∈ row1.set ∨ y ∈ row0.set := by
  have h1 : (y 1).val < 3 := (y 1).isLt
  rcases (by omega : (y 1).val = 0 ∨ (y 1).val = 1 ∨ (y 1).val = 2) with h | h | h
  · exact Or.inr (Or.inr (mem_row 0 _ y h))
  · exact Or.inr (Or.inl (mem_row 1 _ y h))
  · exact Or.inl (mem_row 2 _ y h)

/-- Two different rows share no index: they are separated on the middle axis. -/
theorem disj_rows (k k' : Nat) (inb : ∀ a, (![0, k, 0] : Fin 3 → Nat) a + S1x1x128.size a ≤ S1x3x128.size a)
    (inb' : ∀ a, (![0, k', 0] : Fin 3 → Nat) a + S1x1x128.size a ≤ S1x3x128.size a) (h : k ≠ k') :
    Disjoint (Rect.unit (s := S1x3x128) ![0, k, 0] S1x1x128.size inb).set
      (Rect.unit (s := S1x3x128) ![0, k', 0] S1x1x128.size inb').set :=
  Rect.unit_disjoint (1 : Fin 3) (by show k + 1 ≤ k' ∨ k' + 1 ≤ k; omega)

/-- At an index of row `k`, a piece stored over another row `k'` does not show. -/
theorem canon_skip (k k' : Nat) (inb : ∀ a, (![0, k, 0] : Fin 3 → Nat) a + S1x1x128.size a ≤ S1x3x128.size a)
    (inb' : ∀ a, (![0, k', 0] : Fin 3 → Nat) a + S1x1x128.size a ≤ S1x3x128.size a) (h : k ≠ k')
    (w : (Rect.unit (s := S1x3x128) ![0, k', 0] S1x1x128.size inb').shape.Idx → Elt F .f32)
    (L : List (View.Piece (Elt F) S1x3x128 .f32))
    (j : (Rect.unit (s := S1x3x128) ![0, k, 0] S1x1x128.size inb).shape.Idx) :
    View.canon ((⟨Rect.unit (s := S1x3x128) ![0, k', 0] S1x1x128.size inb', w⟩ : View.Piece (Elt F) S1x3x128 .f32) :: L)
        ((Rect.unit (s := S1x3x128) ![0, k, 0] S1x1x128.size inb).toLoadRect.idx j)
      = View.canon L ((Rect.unit (s := S1x3x128) ![0, k, 0] S1x1x128.size inb).toLoadRect.idx j) :=
  View.canon_cons_of_not_mem _ L
    (Finset.disjoint_left.mp (disj_rows k k' inb inb' h) (LoadRect.idx_mem _ j))

/-- Two lists of pieces with the same head agree at an index as soon as their tails agree there off the head. -/
theorem canon_cons_congr (p : View.Piece (Elt F) S1x3x128 .f32) (L L' : List (View.Piece (Elt F) S1x3x128 .f32))
    (y : S1x3x128.Idx) (h : y ∉ p.1.set → View.canon L y = View.canon L' y) :
    View.canon (p :: L) y = View.canon (p :: L') y := by
  by_cases hy : y ∈ p.1.set
  · obtain ⟨r, w⟩ := p
    obtain ⟨x, rfl⟩ := r.toLoadRect.exists_idx_of_mem hy
    exact (View.canon_cons_emb r w L x).trans (View.canon_cons_emb r w L' x).symm
  · rw [View.canon_cons_of_not_mem p L hy, View.canon_cons_of_not_mem p L' hy]; exact h hy

/-- Once the three rows are stored, what was stored before them does not show. -/
theorem canon_rows_drop (w2 : row2.shape.Idx → Elt F .f32) (w1 : row1.shape.Idx → Elt F .f32)
    (w0 : row0.shape.Idx → Elt F .f32) (L : List (View.Piece (Elt F) S1x3x128 .f32)) :
    View.canon ((⟨row2, w2⟩ : View.Piece (Elt F) S1x3x128 .f32) :: ⟨row1, w1⟩ :: ⟨row0, w0⟩ :: L)
      = View.canon [(⟨row2, w2⟩ : View.Piece (Elt F) S1x3x128 .f32), ⟨row1, w1⟩, ⟨row0, w0⟩] :=
  funext fun y =>
    canon_cons_congr _ _ _ y fun h2 => canon_cons_congr _ _ _ y fun h1 => canon_cons_congr _ _ _ y fun h0 =>
      absurd (rows_cover y) (fun h => h.elim h2 (fun h => h.elim h1 h0))

/-- The block after the three row stores, over any earlier stores, is one step of the accumulation as soon as the three
    stored vectors are the contributions added to the rows of `base`. -/
theorem step0_of (base : Vec F S1x3x128 .f32) (v3 v5 : Vec F S6720x128 .i32)
    (a0 a1 a2 : FVec F S1x128 .f32) (l0 : row0.shape.Idx → Elt F .f32) (l1 : row1.shape.Idx → Elt F .f32)
    (l2 : row2.shape.Idx → Elt F .f32) (L : List (View.Piece (Elt F) S1x3x128 .f32))
    (h0 : a0 = (contrib0 v3 v5).1) (h1 : a1 = (contrib0 v3 v5).2.1) (h2 : a2 = (contrib0 v3 v5).2.2)
    (e0 : l0 = View.ld base row0) (e1 : l1 = View.ld base row1) (e2 : l2 = View.ld base row2) :
    View.canon ((⟨row2, k0_pay3 a2 l2⟩ : View.Piece (Elt F) S1x3x128 .f32) :: ⟨row1, k0_pay2 a1 l1⟩ :: ⟨row0, k0_pay1 a0 l0⟩ :: L)
      = step0 base v3 v5 := by
  subst h0 h1 h2 e0 e1 e2
  exact canon_rows_drop _ _ _ L

/-- A label block as the body's load of its whole buffer reads it, -/
def lblk (m : Memref sig .tc .vmem S6720x128 .i32) (hm : m.IsWhole) (x : Vec F S6720x128 .i32) : Vec F S6720x128 .i32 :=
  View.readAt (Elt F) m.view (Rect.unit (s := S6720x128) ![0, 0] S6720x128.size inb_S6720x128_S6720x128_0_0).toLoadRect (hm.unread x)

/-- which is the block. -/
theorem lblk_eq (m : Memref sig .tc .vmem S6720x128 .i32) (hm : m.IsWhole) (x : Vec F S6720x128 .i32) :
    lblk m hm x = x := by
  unfold lblk
  rw [View.readAt_eq_ld, hm.read_unread, View.ld_unit_zero (S := S6720x128) hz2]

/-- A row of the accumulator block read off a whole buffer that holds `xo`. -/
theorem row_ld (m : Memref sig .tc .vmem S1x3x128 .f32) (hm : m.IsWhole) (xo : Vec F S1x3x128 .f32) (r : Rect S1x3x128) :
    View.readAt (Elt F) m.view r.toLoadRect (hm.unread xo) = View.ld xo r :=
  (View.readAt_eq_ld m.view (hm.unread xo) r).trans (congrArg (fun X => View.ld X r) (hm.read_unread xo))

/-! ## The body on any whole buffers: what it leaves in the accumulator block, as the pieces its stores write -/

set_option maxHeartbeats 1000000 in
/-- A core's FIRST point (the branch taken): the pieces the body's stores leave in the accumulator buffer, last first,
    with the proof that from the two label buffers at `x0`, `x1` and the accumulator buffer at anything the body runs
    to the label buffers as they were and the accumulator buffer with those pieces written. -/
noncomputable def run0_A (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : cond0 i)
    (x0 x1 : Vec F S6720x128 .i32) :
    { L2 : List (View.Piece (Elt F) S1x3x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__hist_kernel i arg2 harg2 arg3 harg3 arg4 harg4) K } := by
  refine ⟨?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A LATER point (the branch not taken): the same from the accumulator buffer at `xo`, what the point before left. -/
noncomputable def run0_B (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : ¬cond0 i)
    (x0 x1 : Vec F S6720x128 .i32) (xo : Vec F S1x3x128 .f32) :
    { L2 : List (View.Piece (Elt F) S1x3x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__hist_kernel i arg2 harg2 arg3 harg3 arg4 harg4) K } := by
  refine ⟨?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The three stored vectors are the contributions of the two label blocks

The pure parts of the body pass their values along in the order `contrib0` binds them, so each stored vector unfolds to
the matching component of `contrib0` at the two loaded blocks; and a loaded block is the buffer's contents. -/

theorem A_c0 (c : Dev nD) (arg2 : Memref sig .tc .vmem S6720x128 .i32) (harg2 : arg2.IsWhole) (arg3 : Memref sig .tc .vmem S6720x128 .i32) (harg3 : arg3.IsWhole) (x0 x1 : Vec F S6720x128 .i32) : run0_A.sl.r_83 c arg2 harg2 x0 = (contrib0 x0 x1).1 :=
  (show run0_A.sl.r_83 c arg2 harg2 x0 = (contrib0 (F := F) (lblk arg2 harg2 x0) (lblk arg3 harg3 x1)).1 from rfl).trans
    (by rw [lblk_eq, lblk_eq])
theorem A_c1 (c : Dev nD) (arg2 : Memref sig .tc .vmem S6720x128 .i32) (harg2 : arg2.IsWhole) (arg3 : Memref sig .tc .vmem S6720x128 .i32) (harg3 : arg3.IsWhole) (x0 x1 : Vec F S6720x128 .i32) : run0_A.sl.r_84 c arg3 harg3 x1 = (contrib0 x0 x1).2.1 :=
  (show run0_A.sl.r_84 c arg3 harg3 x1 = (contrib0 (F := F) (lblk arg2 harg2 x0) (lblk arg3 harg3 x1)).2.1 from rfl).trans
    (by rw [lblk_eq, lblk_eq])
theorem A_c2 (c : Dev nD) (arg2 : Memref sig .tc .vmem S6720x128 .i32) (harg2 : arg2.IsWhole) (arg3 : Memref sig .tc .vmem S6720x128 .i32) (harg3 : arg3.IsWhole) (x0 x1 : Vec F S6720x128 .i32) : run0_A.sl.r_85 c arg2 harg2 arg3 harg3 x0 x1 = (contrib0 x0 x1).2.2 :=
  (show run0_A.sl.r_85 c arg2 harg2 arg3 harg3 x0 x1 = (contrib0 (F := F) (lblk arg2 harg2 x0) (lblk arg3 harg3 x1)).2.2 from rfl).trans
    (by rw [lblk_eq, lblk_eq])
theorem B_c0 (c : Dev nD) (arg2 : Memref sig .tc .vmem S6720x128 .i32) (harg2 : arg2.IsWhole) (arg3 : Memref sig .tc .vmem S6720x128 .i32) (harg3 : arg3.IsWhole) (x0 x1 : Vec F S6720x128 .i32) : run0_B.sl.r_83 c arg2 harg2 x0 = (contrib0 x0 x1).1 :=
  (show run0_B.sl.r_83 c arg2 harg2 x0 = (contrib0 (F := F) (lblk arg2 harg2 x0) (lblk arg3 harg3 x1)).1 from rfl).trans
    (by rw [lblk_eq, lblk_eq])
theorem B_c1 (c : Dev nD) (arg2 : Memref sig .tc .vmem S6720x128 .i32) (harg2 : arg2.IsWhole) (arg3 : Memref sig .tc .vmem S6720x128 .i32) (harg3 : arg3.IsWhole) (x0 x1 : Vec F S6720x128 .i32) : run0_B.sl.r_84 c arg3 harg3 x1 = (contrib0 x0 x1).2.1 :=
  (show run0_B.sl.r_84 c arg3 harg3 x1 = (contrib0 (F := F) (lblk arg2 harg2 x0) (lblk arg3 harg3 x1)).2.1 from rfl).trans
    (by rw [lblk_eq, lblk_eq])
theorem B_c2 (c : Dev nD) (arg2 : Memref sig .tc .vmem S6720x128 .i32) (harg2 : arg2.IsWhole) (arg3 : Memref sig .tc .vmem S6720x128 .i32) (harg3 : arg3.IsWhole) (x0 x1 : Vec F S6720x128 .i32) : run0_B.sl.r_85 c arg2 harg2 arg3 harg3 x0 x1 = (contrib0 x0 x1).2.2 :=
  (show run0_B.sl.r_85 c arg2 harg2 arg3 harg3 x0 x1 = (contrib0 (F := F) (lblk arg2 harg2 x0) (lblk arg3 harg3 x1)).2.2 from rfl).trans
    (by rw [lblk_eq, lblk_eq])

/-! ## What each row load reads

At a first point the block was just overwritten with zeros; the stores to the rows read before do not reach a later
row. At a later point the rows are read off what the block held. -/

/-- After the reset alone the block reads zero everywhere. -/
theorem canon_reset (y : S1x3x128.Idx) : View.canon (run0_A.sl.H2_1 (F := F)) y = k0_pay4 (F := F) y :=
  congrFun (View.canon_unit_zero (Val := Elt F) (S := S1x3x128) (e := .f32) hz3 inb_S1x3x128_S1x3x128_0_0_0 (k0_pay4 (F := F))) y

theorem A_l0 (c : Dev nD) (arg4 : Memref sig .tc .vmem S1x3x128 .f32) :
    run0_A.sl.v839 (F := F) c arg4 = View.ld (k0_pay4 (F := F)) row0 :=
  (View.readCov_eq_canon' arg4.view (run0_A.sl.H2_1 (F := F)) row0.toLoadRect).trans (funext fun j => canon_reset _)

theorem A_l1 (c : Dev nD) (arg2 : Memref sig .tc .vmem S6720x128 .i32) (harg2 : arg2.IsWhole)
    (arg4 : Memref sig .tc .vmem S1x3x128 .f32) (x0 : Vec F S6720x128 .i32) :
    run0_A.sl.v845 c arg2 harg2 arg4 x0 = View.ld (k0_pay4 (F := F)) row1 :=
  by
  refine (View.readCov_eq_canon' arg4.view (run0_A.sl.H2_2 c arg2 harg2 arg4 x0) row1.toLoadRect).trans (funext fun j => ?_)
  unfold run0_A.sl.H2_2
  exact (canon_skip 1 0 _ _ (by decide) _ _ j).trans (canon_reset _)

theorem A_l2 (c : Dev nD) (arg2 : Memref sig .tc .vmem S6720x128 .i32) (harg2 : arg2.IsWhole)
    (arg3 : Memref sig .tc .vmem S6720x128 .i32) (harg3 : arg3.IsWhole)
    (arg4 : Memref sig .tc .vmem S1x3x128 .f32) (x0 x1 : Vec F S6720x128 .i32) :
    run0_A.sl.v851 c arg2 harg2 arg3 harg3 arg4 x0 x1 = View.ld (k0_pay4 (F := F)) row2 :=
  by
  refine (View.readCov_eq_canon' arg4.view (run0_A.sl.H2_3 c arg2 harg2 arg3 harg3 arg4 x0 x1) row2.toLoadRect).trans (funext fun j => ?_)
  unfold run0_A.sl.H2_3 run0_A.sl.H2_2
  exact (canon_skip 2 1 _ _ (by decide) _ _ j).trans ((canon_skip 2 0 _ _ (by decide) _ _ j).trans (canon_reset _))

theorem B_l1 (c : Dev nD) (arg4 : Memref sig .tc .vmem S1x3x128 .f32) (harg4 : arg4.IsWhole) (xo : Vec F S1x3x128 .f32) :
    run0_B.sl.v845 c arg4 harg4 xo = View.ld xo row1 := row_ld arg4 harg4 xo row1
theorem B_l2 (c : Dev nD) (arg4 : Memref sig .tc .vmem S1x3x128 .f32) (harg4 : arg4.IsWhole) (xo : Vec F S1x3x128 .f32) :
    run0_B.sl.v851 c arg4 harg4 xo = View.ld xo row2 := row_ld arg4 harg4 xo row2

/-! ## What the body leaves in the accumulator block -/

/-- At a first point: one step of the accumulation from the zero block. -/
theorem run0_A_val (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : cond0 i) (x0 x1 : Vec F S6720x128 .i32) :
    View.canon (run0_A c i arg2 harg2 arg3 harg3 arg4 harg4 hc0 x0 x1).1 = step0 (k0_pay4 (F := F)) x0 x1 := by
  unfold run0_A; dsimp only
  exact step0_of (k0_pay4 (F := F)) x0 x1 _ _ _ _ _ _ _
    (A_c0 c arg2 harg2 arg3 harg3 x0 x1) (A_c1 c arg2 harg2 arg3 harg3 x0 x1) (A_c2 c arg2 harg2 arg3 harg3 x0 x1)
    (A_l0 c arg4) (A_l1 c arg2 harg2 arg4 x0) (A_l2 c arg2 harg2 arg3 harg3 arg4 x0 x1)

/-- At a later point: one step from what the block held. -/
theorem run0_B_val (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : ¬cond0 i) (x0 x1 : Vec F S6720x128 .i32) (xo : Vec F S1x3x128 .f32) :
    View.canon (run0_B c i arg2 harg2 arg3 harg3 arg4 harg4 hc0 x0 x1 xo).1 = step0 xo x0 x1 := by
  unfold run0_B; dsimp only
  exact step0_of xo x0 x1 _ _ _ _ _ _ []
    (B_c0 c arg2 harg2 arg3 harg3 x0 x1) (B_c1 c arg2 harg2 arg3 harg3 x0 x1) (B_c2 c arg2 harg2 arg3 harg3 x0 x1)
    (row_ld arg4 harg4 xo row0) (B_l1 c arg4 harg4 xo) (B_l2 c arg4 harg4 xo)

/-- The pieces of either case cover the block: the three rows are among them. -/
theorem run0_A_cover (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : cond0 i) (x0 x1 : Vec F S6720x128 .i32) (y : S1x3x128.Idx) :
    ∃ p ∈ (run0_A c i arg2 harg2 arg3 harg3 arg4 harg4 hc0 x0 x1).1, y ∈ p.1.set := by
  unfold run0_A; dsimp only
  unfold run0_A.sl.H2_3 run0_A.sl.H2_2
  rcases rows_cover y with h | h | h
  · exact ⟨_, List.mem_cons_self, h⟩
  · exact ⟨_, List.mem_cons_of_mem _ List.mem_cons_self, h⟩
  · exact ⟨_, List.mem_cons_of_mem _ (List.mem_cons_of_mem _ List.mem_cons_self), h⟩

theorem run0_B_cover (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : ¬cond0 i) (x0 x1 : Vec F S6720x128 .i32) (xo : Vec F S1x3x128 .f32) (y : S1x3x128.Idx) :
    ∃ p ∈ (run0_B c i arg2 harg2 arg3 harg3 arg4 harg4 hc0 x0 x1 xo).1, y ∈ p.1.set := by
  unfold run0_B; dsimp only
  rcases rows_cover y with h | h | h
  · exact ⟨_, List.mem_cons_self, h⟩
  · exact ⟨_, List.mem_cons_of_mem _ List.mem_cons_self, h⟩
  · exact ⟨_, List.mem_cons_of_mem _ (List.mem_cons_of_mem _ List.mem_cons_self), h⟩

/-! ## What the windows hold when the body runs -/

/-- Each window's current staging memref at point `t`, as the pipeline passes it to the body, and its wholeness. -/
abbrev ms0_0 (t : Fin cfg0.N) : Memref sig .tc .vmem S6720x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6720x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x128 .f32 := win0_2.stage (cfg0.slots t 2)
abbrev hs0_2 (t : Fin cfg0.N) : (ms0_2 t).IsWhole := hstage0_2 ((cfg0.slots t 2).cast nbuf0_2)

/-- The first label window holds its block at every point, fetched there or not: the body leaves the block in place, and
    an unfetched block is the one of the point before. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The second label window likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- At a point that is not a core's first, the accumulator window holds what the point before left: the block is written
    back only after a core's last point, and the window is never cut. -/
theorem before0_2 (c : Dev nD) (t : Fin cfg0.N) (h0 : ¬t.val % 4 = 0) (d) :
    (dat0 V c).before 2 t d = acc0 V c (t.val - 1) (Nat.lt_of_le_of_lt (Nat.sub_le _ _) t.isLt) := by
  have hN : t.val < 8 := lt_of_lt_of_eq t.isLt (show cfg0.N = 8 from N_0)
  rw [Dat.before_out_kept _ 2 rfl t (by omega)
    (Bool.eq_false_iff.mpr fun h => by have := (flush0_2 _).mp h; dsimp only at this; omega)
    (fun _ => rfl) (fun _ _ => rfl)]
  dsimp only [dat0]

/-- The accumulator after a core's first point: one step from zero. -/
theorem acc0_first (c : Dev nD) (t : Fin cfg0.N) (h0 : t.val % 4 = 0) :
    acc0 V c t.val t.isLt = step0 (k0_pay4 (F := F)) (iblk0 V c 0 t) (iblk0 V c 1 t) := by
  obtain ⟨n, hn⟩ := t
  cases n with
  | zero => rfl
  | succ n => exact if_pos h0

/-- The accumulator after a later point: one step from what the point before left. -/
theorem acc0_later (c : Dev nD) (t : Fin cfg0.N) (h0 : ¬t.val % 4 = 0) :
    acc0 V c t.val t.isLt
      = step0 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point. The label windows hold their blocks; the position says whether the point is a core's first:
    there the accumulator buffer holds anything and the body leaves one step from zero, elsewhere it holds what the point
    before left and the body leaves one step from that. The invariant and what the core owes pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 4 = 0
  · rw [acc0_first V c t h0]
    iintro ⟨HΦ, Ho, ⟨%d0, H0⟩, ⟨%d1, H1⟩, ⟨%d2, H2⟩⟩
    iapply ((run0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact (View.read_writes_eq_canon _ _ _ (run0_A_cover c _ _ _ _ _ _ _ _ _ _)).trans
      (run0_A_val c _ _ _ _ _ _ _ _ _ _)
  · rw [acc0_later V c t h0]
    simp only [before0_2 V c t h0]
    iintro ⟨HΦ, Ho, ⟨%d0, H0⟩, ⟨%d1, H1⟩, ⟨%d2, H2⟩⟩
    iapply ((run0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact (View.read_writes_eq_canon _ _ _ (run0_B_cover c _ _ _ _ _ _ _ _ _ _ _)).trans
      (run0_B_val c _ _ _ _ _ _ _ _ _ _ _)

end Body0

/-- The body obligation of region 0, at every point. -/
theorem body_obligation0 (c : Dev nD) :
    BodyObligation (dat0 (F := F) V c) (defs₀ (F := F)) Variants.none () Set.univ := fun t => by
  rw [bigSep_W0, bigSep_W0]
  exact Body0.sound_body V c t

end Cert.KernelIdeal.Hand

end
-- ==== Proof.KBody1.lean ====
/-
  Region 1 (the finite-difference kernel, 2 × 10 points): the body obligation of its proof data, and the two ends of
  its invariant.

  The body has two control cases over the grid. At a core's first point (coordinate 1 is zero) it zeroes the three
  accumulator blocks and the plane, then adds the block's squared differences along height, width and depth to them and
  stores the block's last depth plane. At a later point it adds the same three sums to what the point before left, and
  the depth accumulator also takes the squared differences between the block's first plane and the carried plane.
  Every store is a whole-buffer store, so each buffer ends at its last payload, and a load after a store reads the
  stored payload: the four buffers end at `first1` of the block, resp. `later1` of the block and what they held.
-/
import proofs.«417857_j15487652069654_3_alg».proof.Proof.KKit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions over the grid -/

/-- The first conditional of the body: the point is the first of its core's row (coordinate 1 is zero). -/
abbrev cond1_0 (i : grid1.Coords) : Prop :=
  (Scalar.cmpi .ne (Scalar.extui (Scalar.cmpi .eq (BitVec.ofNat 32 (i 1).val) 0#32)) 0#32) = 1#1
/-- It holds at the points ≡ 0 (mod 10). -/
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional of the body: the point is a later one of its row (coordinate 1 is positive). -/
abbrev cond1_1 (i : grid1.Coords) : Prop :=
  (Scalar.cmpi .ne (Scalar.extui (Scalar.cmpi .sgt (BitVec.ofNat 32 (i 1).val) 0#32)) 0#32) = 1#1
/-- It holds at the points ≢ 0 (mod 10). -/
theorem hcond1_1 : ∀ t : Fin cfg1.N, cond1_1 (grid1.coords t) ↔ ¬ t.val % 10 = 0 :=
  (by decide +kernel : ∀ t : Fin grid1.N, cond1_1 (grid1.coords t) ↔ ¬ t.val % 10 = 0)

/-! ## Whole-buffer stores and the loads after them -/

theorem zero1_3 : (![0, 0, 0] : Fin 3 → Nat) = fun _ => 0 := funext fun a => by fin_cases a <;> rfl
theorem zero1_4 : (![0, 0, 0, 0] : Fin 4 → Nat) = fun _ => 0 := funext fun a => by fin_cases a <;> rfl

/-- The whole rectangle of an accumulator block, and of the plane. -/
abbrev whole1_3 : Rect S1x8x128 := Rect.unit (s := S1x8x128) ![0, 0, 0] S1x8x128.size inb_S1x8x128_S1x8x128_0_0_0
abbrev whole1_4 : Rect S3x1x192x224 := Rect.unit (s := S3x1x192x224) ![0, 0, 0, 0] S3x1x192x224.size inb_S3x1x192x224_S3x1x192x224_0_0_0_0

theorem cover1_3 (y : S1x8x128.Idx) : y ∈ whole1_3.set :=
  View.mem_set_unit_zero (S := S1x8x128) zero1_3 inb_S1x8x128_S1x8x128_0_0_0 y
theorem cover1_4 (y : S3x1x192x224.Idx) : y ∈ whole1_4.set :=
  View.mem_set_unit_zero (S := S3x1x192x224) zero1_4 inb_S3x1x192x224_S3x1x192x224_0_0_0_0 y

/-- A buffer whose last store was a whole-block store reads as that store's payload, whatever was stored before. -/
theorem read_store1_3 {sg : RefSig} {κ : Kind} {sp : Space} (v : View sg κ sp S1x8x128 .f32) (f : v.ty.Contents (Elt F))
    (w : S1x8x128.Idx → Elt F .f32) (L : List (View.Piece (Elt F) S1x8x128 .f32)) :
    v.read (Elt F) (v.writes (Elt F) f ((⟨whole1_3, w⟩ : View.Piece (Elt F) S1x8x128 .f32) :: L)) = w :=
  (View.read_writes_eq_canon v f ((⟨whole1_3, w⟩ : View.Piece (Elt F) S1x8x128 .f32) :: L)
      (fun y => ⟨(⟨whole1_3, w⟩ : View.Piece (Elt F) S1x8x128 .f32), List.mem_cons_self, cover1_3 y⟩)).trans
    (View.canon_cons_unit_zero (S := S1x8x128) zero1_3 inb_S1x8x128_S1x8x128_0_0_0 w L)

theorem read_store1_4 {sg : RefSig} {κ : Kind} {sp : Space} (v : View sg κ sp S3x1x192x224 .f32) (f : v.ty.Contents (Elt F))
    (w : S3x1x192x224.Idx → Elt F .f32) (L : List (View.Piece (Elt F) S3x1x192x224 .f32)) :
    v.read (Elt F) (v.writes (Elt F) f ((⟨whole1_4, w⟩ : View.Piece (Elt F) S3x1x192x224 .f32) :: L)) = w :=
  (View.read_writes_eq_canon v f ((⟨whole1_4, w⟩ : View.Piece (Elt F) S3x1x192x224 .f32) :: L)
      (fun y => ⟨(⟨whole1_4, w⟩ : View.Piece (Elt F) S3x1x192x224 .f32), List.mem_cons_self, cover1_4 y⟩)).trans
    (View.canon_cons_unit_zero (S := S3x1x192x224) zero1_4 inb_S3x1x192x224_S3x1x192x224_0_0_0_0 w L)

/-- A whole-block load after one whole-block store reads the payload. -/
theorem readCov1_3 {sg : RefSig} {κ : Kind} {sp : Space} (v : View sg κ sp S1x8x128 .f32) (w : S1x8x128.Idx → Elt F .f32) :
    v.readCov [(⟨whole1_3, w⟩ : View.Piece (Elt F) S1x8x128 .f32)] whole1_3.toLoadRect = w :=
  View.readCov_unit_zero (S := S1x8x128) v zero1_3 inb_S1x8x128_S1x8x128_0_0_0 w

/-- The same with the block's extents spelt out. -/
theorem readCov1_3' {sg : RefSig} {κ : Kind} {sp : Space} (v : View sg κ sp S1x8x128 .f32) (w : S1x8x128.Idx → Elt F .f32) :
    v.readCov [(⟨Rect.unit (s := S1x8x128) ![0, 0, 0] ![1, 8, 128] inb_S1x8x128_S1x8x128_0_0_0, w⟩ : View.Piece (Elt F) S1x8x128 .f32)]
      (Rect.unit (s := S1x8x128) ![0, 0, 0] ![1, 8, 128] inb_S1x8x128_S1x8x128_0_0_0).toLoadRect = w :=
  readCov1_3 v w

/-! ## The body's run in its two cases -/

set_option maxHeartbeats 1000000 in
/-- The body at a core's first point, on whole buffers: the block as it is, the accumulators and the plane at anything;
    it leaves the four at `first1` of the block. -/
theorem run1_A (c : Dev nD) (i : grid1.Coords) (arg2 : Memref sig .tc .vmem S3x8x192x224 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S3x1x192x224 .f32) (harg6 : arg6.IsWhole) (hc0 : cond1_0 i) (hc1 : ¬cond1_1 i)
    (x0 : Vec F S3x8x192x224 .f32) (E : Set ℕ) (K : PUnit → sProp 𝕄) :
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare (first1 x0).1 ∗ owns (c : Thread nD τ) arg4 fullShare (first1 x0).2.1 ∗ owns (c : Thread nD τ) arg5 fullShare (first1 x0).2.2.1 ∗ owns (c : Thread nD τ) arg6 fullShare (first1 x0).2.2.2) -∗ K ⟨⟩))
          ⊢ wp frame (wpE (defs₀ (F := F)) Variants.none c none) E (cc1__diff_kernel i arg2 harg2 arg3 harg3 arg4 harg4 arg5 harg5 arg6 harg6) K := by
    simp only [cc1__diff_kernel_eq_skeleton]; unfold cc1__diff_kernel_skel
    simp only [k1_part1_eq_skeleton, k1_part2_eq_skeleton]
    unfold owns
    iintro ⟨⟨%f0, %hf0, H0⟩, ⟨%d1, %f1, -, H1⟩, ⟨%d2, %f2, -, H2⟩, ⟨%d3, %f3, -, H3⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]
    · iexists _; isplitr
      swap; · iexact H1
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    isplitl [H2]
    · iexists _; isplitr
      swap; · iexact H2
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    isplitl [H3]
    · iexists _; isplitr
      swap; · iexact H3
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    · iexists _; isplitr
      swap; · iexact HS0
      ipureintro
      refine (read_store1_4 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl

set_option maxHeartbeats 1000000 in
/-- The body at a later point, on whole buffers holding the block and what the point before left `p`: it leaves the four
    at `later1` of the block and `p`. -/
theorem run1_B (c : Dev nD) (i : grid1.Coords) (arg2 : Memref sig .tc .vmem S3x8x192x224 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S3x1x192x224 .f32) (harg6 : arg6.IsWhole) (hc0 : ¬cond1_0 i) (hc1 : cond1_1 i)
    (x0 : Vec F S3x8x192x224 .f32) (p : Vec F S1x8x128 .f32 × Vec F S1x8x128 .f32 × Vec F S1x8x128 .f32 × Vec F S3x1x192x224 .f32) (E : Set ℕ) (K : PUnit → sProp 𝕄) :
        iprop(owns (c : Thread nD τ) arg2 fullShare x0 ∗ owns (c : Thread nD τ) arg3 fullShare p.1 ∗ owns (c : Thread nD τ) arg4 fullShare p.2.1 ∗ owns (c : Thread nD τ) arg5 fullShare p.2.2.1 ∗ owns (c : Thread nD τ) arg6 fullShare p.2.2.2
            ∗ (iprop(owns (c : Thread nD τ) arg2 fullShare x0 ∗ owns (c : Thread nD τ) arg3 fullShare (later1 x0 p).1 ∗ owns (c : Thread nD τ) arg4 fullShare (later1 x0 p).2.1 ∗ owns (c : Thread nD τ) arg5 fullShare (later1 x0 p).2.2.1 ∗ owns (c : Thread nD τ) arg6 fullShare (later1 x0 p).2.2.2) -∗ K ⟨⟩))
          ⊢ wp frame (wpE (defs₀ (F := F)) Variants.none c none) E (cc1__diff_kernel i arg2 harg2 arg3 harg3 arg4 harg4 arg5 harg5 arg6 harg6) K := by
    simp only [cc1__diff_kernel_eq_skeleton]; unfold cc1__diff_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr
      swap; · iexact H1
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    isplitl [H2]
    · iexists _; isplitr
      swap; · iexact H2
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    isplitl [H3]
    · iexists _; isplitr
      swap; · iexact H3
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    · iexists _; isplitr
      swap; · iexact HS0
      ipureintro
      refine (read_store1_4 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl

/-! ## What the accumulators and the plane hold after each point -/

/-- At a core's first point: `first1` of the point's block. -/
theorem acc1_first (c : Dev nD) (t : Fin cfg1.N) (h : t.val % 10 = 0) :
    acc1 V c t.val t.isLt = first1 (iblk1 V c 0 t) := by
  obtain ⟨n, hn⟩ := t
  cases n with
  | zero => rfl
  | succ n => exact if_pos h

/-- At a later point: `later1` of the point's block and what the point before left. -/
theorem acc1_later (c : Dev nD) (t : Fin cfg1.N) (h : ¬t.val % 10 = 0) :
    acc1 V c t.val t.isLt
      = later1 (iblk1 V c 0 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant's forms -/

theorem Phi1_zero (c : Dev nD) (n : ℕ) (h : n ≤ cfg1.N) (hz : n = 0) : Phi1 V c n h = Pipeline.ΦA spec1 c := by
  subst hz; rfl

/-- After point `n`: the plane at that point's contents. -/
theorem Phi1_succ (c : Dev nD) (n : ℕ) (hn : n < cfg1.N) :
    Phi1 V c (n + 1) hn
      = iprop((owns (c : Thread nD τ) scM1 fullShare (acc1 V c n hn).2.2.2 ∗ rest1 (F := F) c) ∗ (∃ r, prngReg c r)) := rfl

/-- Before a point that is not the first: the plane at what the point before left. -/
theorem Phi1_pos (c : Dev nD) (n : ℕ) (h : n ≤ cfg1.N) (hz : n ≠ 0) :
    Phi1 V c n h
      = iprop((owns (c : Thread nD τ) scM1 fullShare (acc1 V c (n - 1) (by omega)).2.2.2 ∗ rest1 (F := F) c) ∗ (∃ r, prngReg c r)) := by
  cases n with
  | zero => exact absurd rfl hz
  | succ n => rfl

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- The scoped rest of region 1 split at the kernel's own plane: the plane's buffer at some contents, and the other
    scoped buffers of the core carried unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = BI.sep (bigSepL [cc1_scratch0] fun b => iprop(∃ f : Buf Val ((c.tc : Thread nD τ).loc b), ((c.tc : Thread nD τ).loc b) ↦{fullShare} f))
          (Pipeline.scopedRestBut (Ix := Ix) (Name := Name) (U := U) (Lvl := Lvl) (Val := Val) spec1 c [cc1_scratch0]) :=
  Pipeline.scopedRest_split_of_list spec1 c [cc1_scratch0] (by decide) (by decide)

/-- What the launch hands the region: the plane at some contents, the other scoped buffers, the generator register at
    some state. -/
theorem PhiA1_eq (c : Dev nD) :
    (Pipeline.ΦA spec1 c : sProp 𝕄)
      = iprop(((∃ d, owns (c : Thread nD τ) scM1 fullShare d) ∗ rest1 (F := F) c) ∗ (∃ r, prngReg c r)) := by
  unfold Pipeline.ΦA; rw [scopedRest1_split]; simp only [scM1, owns_whole, bigSepL_singleton]; try rfl

/-! ## What the body finds in the staging buffers -/

/-- The input window's current buffer holds the point's block, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- An accumulator's buffer at a core's first point holds anything: the grid's first point, or the point after a
    write-back. -/
theorem before1_reset (c : Dev nD) (w : Fin cfg1.W) (hw : (cfg1.win w).isOut = true)
    (hfl : ∀ t : Fin cfg1.N, (cfg1.win w).flush t = true ↔ t.val % 10 = 9) (t : Fin cfg1.N) (h : t.val % 10 = 0) (d) :
    (dat1 V c).before w t d = d :=
  Dat.before_out_reset _ w hw t (by
    by_cases hz : t.val = 0
    · exact .inl hz
    · exact .inr ⟨hz, (hfl _).mpr (by dsimp only; omega)⟩) d

/-- At a later point it holds what the body left at the point before: not written back between, live and uncut. -/
theorem before1_kept (c : Dev nD) (w : Fin cfg1.W) (hw : (cfg1.win w).isOut = true)
    (hfl : ∀ t : Fin cfg1.N, (cfg1.win w).flush t = true ↔ t.val % 10 = 9)
    (hlive : ∀ i, cfg1.idle w i = false) (hclip : ∀ (i : cfg1.grid.Coords) a, (cfg1.win w).clip i a = none)
    (t : Fin cfg1.N) (h : ¬t.val % 10 = 0) (d) :
    (dat1 V c).before w t d = (dat1 V c).after w ⟨t.val - 1, Nat.lt_of_le_of_lt (Nat.sub_le _ _) t.isLt⟩ :=
  Dat.before_out_kept _ w hw t (by omega)
    (Bool.eq_false_iff.mpr fun hf => by have := (hfl _).mp hf; dsimp only at this; omega) hlive hclip d

theorem before1_1_later (c : Dev nD) (t : Fin cfg1.N) (h : ¬t.val % 10 = 0) (d) :
    (dat1 V c).before 1 t d = (acc1 V c (t.val - 1) (Nat.lt_of_le_of_lt (Nat.sub_le _ _) t.isLt)).1 :=
  (before1_kept V c 1 rfl flush1_1 (fun _ => rfl) (fun _ _ => rfl) t h d).trans (after1_1 V c _)
theorem before1_2_later (c : Dev nD) (t : Fin cfg1.N) (h : ¬t.val % 10 = 0) (d) :
    (dat1 V c).before 2 t d = (acc1 V c (t.val - 1) (Nat.lt_of_le_of_lt (Nat.sub_le _ _) t.isLt)).2.1 :=
  (before1_kept V c 2 rfl flush1_2 (fun _ => rfl) (fun _ _ => rfl) t h d).trans (after1_2 V c _)
theorem before1_3_later (c : Dev nD) (t : Fin cfg1.N) (h : ¬t.val % 10 = 0) (d) :
    (dat1 V c).before 3 t d = (acc1 V c (t.val - 1) (Nat.lt_of_le_of_lt (Nat.sub_le _ _) t.isLt)).2.2.1 :=
  (before1_kept V c 3 rfl flush1_3 (fun _ => rfl) (fun _ _ => rfl) t h d).trans (after1_3 V c _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
/-- The body at any point. The input's buffer holds the point's block. At a core's first point the accumulators' buffers
    and the plane hold anything and the first case's run applies; at a later point they hold what the point before left and
    the second case's run applies. The invariant hands the body the plane and takes it back at this point's contents; the
    other scoped buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  rw [after1_0, after1_1, after1_2, after1_3]
  have hN : t.val < 20 := lt_of_lt_of_eq t.isLt (show cfg1.N = 20 from N_1)
  by_cases h0 : t.val % 10 = 0
  · rw [acc1_first V c t h0]
    by_cases hz : t.val = 0
    · rw [Phi1_castSucc V c t, Phi1_zero V c _ _ hz, PhiA1_eq]
      iintro ⟨⟨⟨HS0, HR⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => (hcond1_1 t).mp h h0) (iblk1 V c 0 t) Set.univ _)
      isplitl [H0]; · iexact H0
      isplitl [H1]; · iexists _; iexact H1
      isplitl [H2]; · iexists _; iexact H2
      isplitl [H3]; · iexists _; iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
    · rw [Phi1_castSucc V c t, Phi1_pos V c _ _ hz]
      iintro ⟨⟨⟨HS0, HR⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => (hcond1_1 t).mp h h0) (iblk1 V c 0 t) Set.univ _)
      isplitl [H0]; · iexact H0
      isplitl [H1]; · iexists _; iexact H1
      isplitl [H2]; · iexists _; iexact H2
      isplitl [H3]; · iexists _; iexact H3
      isplitl [HS0]; · iexists _; iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
  · rw [acc1_later V c t h0]
    simp only [before1_1_later V c t h0, before1_2_later V c t h0, before1_3_later V c t h0]
    have hz : t.val ≠ 0 := fun e => h0 (by rw [e])
    rw [Phi1_castSucc V c t, Phi1_pos V c _ _ hz]
    iintro ⟨⟨⟨HS0, HR⟩, Hg⟩, Ho, ⟨%d0, H0⟩, ⟨%d1, H1⟩, ⟨%d2, H2⟩, ⟨%d3, H3⟩⟩
    iapply (run1_B c (grid1.coords t) _ _ _ _ _ _ _ _ _ _ (fun h => h0 ((hcond1_0 t).mp h)) ((hcond1_1 t).mpr h0) (iblk1 V c 0 t)
      (acc1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point the invariant gives the launch's form back: the plane's named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨HS0, HR⟩, Hg⟩
  isplitl [HS0 HR]
  · isplitl [HS0]; · iexists _; iexact HS0
    iexact HR
  iexact Hg

/-- The same after the last point. -/
theorem hout1 (c : Dev nD) : (dat1 V c).Φ (Fin.last cfg1.N) ⊢ Pipeline.ΦA spec1 c :=
  Phi1_out V c _ (by rw [Fin.val_last]; have : cfg1.N = 20 := N_1; omega)

end Cert.KernelIdeal.Hand

end
-- ==== Proof.KFacts.lean ====
/-
  The two kernels' body obligations and the ends of the finite-difference region's invariant, handed to the run.
-/
import proofs.«417857_j15487652069654_3_alg».proof.Proof.KRun
import proofs.«417857_j15487652069654_3_alg».proof.Proof.KBody0
import proofs.«417857_j15487652069654_3_alg».proof.Proof.KBody1

noncomputable section

namespace Cert.KernelIdeal.Hand

open Idealize.ShloMosaic

/-- What the run takes from the bodies, at any float instance. -/
instance bodyFacts {F : FTy → Type} [FloatOps F] : BodyFacts F where
  body_obligation0 := fun V c => Cert.KernelIdeal.Hand.body_obligation0 V c
  body_obligation1 := fun V c => Cert.KernelIdeal.Hand.body_obligation1 V c
  hin1 := fun V c => Cert.KernelIdeal.Hand.hin1 V c
  hout1 := fun V c => Cert.KernelIdeal.Hand.hout1 V c

end Cert.KernelIdeal.Hand

end
-- ==== Proof.WContrib.lean ====
import proofs.«417857_j15487652069654_3_alg».proof.Proof.Gen.Kernel.Skeleton

noncomputable section

namespace Cert.Kernel.Hand

open Idealize.ShloMosaic Idealize.ShloMosaic.TcCoe Cert.Kernel Cert.Kernel.Gen

variable {F : FTy → Type} [FloatOps F]

/-- What one block of the two label maps adds to the three histogram rows: for a class c from 1 to 25, lane c of the first (second) vector is the
    number of entries of the first (second) block equal to c, lane c of the third the number of positions where both blocks hold c; the other
    lanes are zero. Stated as the kernel computes it, class by class. -/
def contrib0 (v3 v5 : Vec F S6720x128 .i32) : FVec F S1x128 .f32 × FVec F S1x128 .f32 × FVec F S1x128 .f32 :=
  have v10 : IVec S1x128 32 := iota .tc S1x128 32 [1] iota_S1x128_d1_w32
  have v7 : FVec F S6720x128 .bf16 := k0_pay5 v3
  have v8 : FVec F S6720x128 .bf16 := k0_pay6 v5
  have v9 : FVec F S1x6720 .bf16 := k0_pay7 (F := F)
  have v11 : FVec F S1x128 .f32 := k0_pay8 (F := F)
  have v12 : FVec F S1x128 .f32 := k0_pay9 (F := F)
  have v13 : FVec F S1x128 .f32 := k0_pay10 (F := F)
  have v17 : FVec F S1x128 .f32 := k0_pay11 (F := F)
  have v33 : FVec F S1x1 .f32 := k0_pay14 v3
  have v35 : FVec F S1x1 .f32 := k0_pay15 v5
  have v37 : FVec F S1x1 .f32 := k0_pay16 v3 v5
  have v73 : FVec F S1x128 .f32 := k0_pay20 v7 v9 v10 v11 v17 v33
  have v76 : FVec F S1x128 .f32 := k0_pay21 v8 v9 v10 v12 v17 v35
  have v79 : FVec F S1x128 .f32 := k0_pay22 v7 v8 v9 v10 v13 v17 v37
  have v83 : FVec F S1x128 .f32 := k0_pay23 (F := F) v10
  have v86 : IVec S6720x128 32 := k0_pay24 v7
  have v106 : FVec F S1x128 .f32 := k0_pay27 v9 v73 v83 v86
  have v109 : FVec F S1x128 .f32 := k0_pay28 v8 v9 v76 v83
  have v112 : FVec F S1x128 .f32 := k0_pay29 v8 v9 v79 v83 v86
  have v116 : FVec F S1x128 .f32 := k0_pay30 (F := F) v10
  have v129 : FVec F S1x128 .f32 := k0_pay33 v8 v9
  have v130 : FVec F S1x128 .f32 := k0_pay34 v7 v8 v9
  have v132 : FVec F S1x1 .f32 := k0_pay35 v7 v9
  have v172 : FVec F S1x128 .f32 := k0_pay39 v7 v9 v10 v106 v116 v132
  have v175 : FVec F S1x128 .f32 := k0_pay40 v8 v9 v10 v109 v116 v129
  have v178 : FVec F S1x128 .f32 := k0_pay41 v7 v8 v9 v10 v112 v116 v130
  have v180 : IVec S1x128 1 := k0_pay42 v10
  have cst_58 : FVec F S1x128 .f32 := constant S1x128 .f32 0x00000000#32
  have v205 : FVec F S1x128 .f32 := k0_pay46 v7 v9 v172 v180
  have v208 : FVec F S1x128 .f32 := k0_pay47 v8 v9 v175 v180
  have v211 : FVec F S1x128 .f32 := k0_pay48 v7 v8 v9 v178 v180
  have v215 : FVec F S1x128 .f32 := k0_pay49 (F := F) v10
  have v225 : FVec F S6720x128 .bf16 := k0_pay51 v8
  have v226 : FVec F S6720x128 .bf16 := k0_pay52 v7 v8
  have v227 : FVec F S1x128 .f32 := k0_pay53 v7 v9
  have v244 : FVec F S1x128 .f32 := k0_pay54 v9 v211 v215 v226
  have v248 : FVec F S1x128 .f32 := k0_pay55 (F := F) v10
  have v268 : FVec F S1x1 .f32 := k0_pay58 v7 v8 v9
  have v271 : FVec F S1x128 .f32 := k0_pay59 v7 v9 v10 v205 v215 v227
  have v274 : FVec F S1x128 .f32 := k0_pay60 v8 v9 v10 v208 v215 v225 cst_58
  have v304 : FVec F S1x128 .f32 := k0_pay64 v7 v9 v10 v271
  have v307 : FVec F S1x128 .f32 := k0_pay65 v8 v9 v10 v274
  have v310 : FVec F S1x128 .f32 := k0_pay66 v7 v8 v9 v10 v244 v248 v268
  have v314 : FVec F S1x128 .f32 := k0_pay67 (F := F) v10
  have v319 : FVec F S6720x128 .bf16 := k0_pay68 v7
  have v322 : IVec S6720x128 32 := k0_pay69 v8
  have v337 : FVec F S1x128 .f32 := k0_pay71 v9 v304 v314 v319
  have v340 : FVec F S1x128 .f32 := k0_pay72 v9 v307 v314 v322
  have v343 : FVec F S1x128 .f32 := k0_pay73 v9 v310 v314 v319 v322
  have v347 : FVec F S1x128 .f32 := k0_pay74 (F := F) v10
  have v363 : FVec F S1x1 .f32 := k0_pay77 v7 v9
  have v365 : FVec F S1x1 .f32 := k0_pay78 v8 v9
  have v367 : FVec F S1x1 .f32 := k0_pay79 v7 v8 v9
  have v403 : FVec F S1x128 .f32 := k0_pay83 v7 v9 v10 v337 v347 v363
  have v406 : FVec F S1x128 .f32 := k0_pay84 v8 v9 v10 v340 v347 v365
  have v409 : FVec F S1x128 .f32 := k0_pay85 v7 v8 v9 v10 v343 v347 v367
  have v413 : FVec F S1x128 .f32 := k0_pay86 (F := F) v10
  have v416 : IVec S6720x128 32 := k0_pay87 v7
  have v436 : FVec F S1x128 .f32 := k0_pay90 v9 v403 v413 v416
  have v439 : FVec F S1x128 .f32 := k0_pay91 v8 v9 v406 v413
  have v442 : FVec F S1x128 .f32 := k0_pay92 v8 v9 v409 v413 v416
  have v446 : FVec F S1x128 .f32 := k0_pay93 (F := F) v10
  have v459 : FVec F S1x128 .f32 := k0_pay96 v8 v9
  have v460 : FVec F S1x128 .f32 := k0_pay97 v7 v8 v9
  have v462 : FVec F S1x1 .f32 := k0_pay98 v7 v9
  have v502 : FVec F S1x128 .f32 := k0_pay102 v7 v9 v10 v436 v446 v462
  have v505 : FVec F S1x128 .f32 := k0_pay103 v8 v9 v10 v439 v446 v459
  have v508 : FVec F S1x128 .f32 := k0_pay104 v7 v8 v9 v10 v442 v446 v460
  have v510 : IVec S1x128 1 := k0_pay105 v10
  have cst_138 : FVec F S1x128 .f32 := constant S1x128 .f32 0x00000000#32
  have v535 : FVec F S1x128 .f32 := k0_pay109 v7 v9 v502 v510
  have v538 : FVec F S1x128 .f32 := k0_pay110 v8 v9 v505 v510
  have v541 : FVec F S1x128 .f32 := k0_pay111 v7 v8 v9 v508 v510
  have v545 : FVec F S1x128 .f32 := k0_pay112 (F := F) v10
  have v555 : FVec F S6720x128 .bf16 := k0_pay114 v8
  have v556 : FVec F S6720x128 .bf16 := k0_pay115 v7 v8
  have v557 : FVec F S1x128 .f32 := k0_pay116 v7 v9
  have v574 : FVec F S1x128 .f32 := k0_pay117 v9 v541 v545 v556
  have v578 : FVec F S1x128 .f32 := k0_pay118 (F := F) v10
  have v598 : FVec F S1x1 .f32 := k0_pay121 v7 v8 v9
  have v601 : FVec F S1x128 .f32 := k0_pay122 v7 v9 v10 v535 v545 v557
  have v604 : FVec F S1x128 .f32 := k0_pay123 v8 v9 v10 v538 v545 v555 cst_138
  have v634 : FVec F S1x128 .f32 := k0_pay127 v7 v9 v10 v601
  have v637 : FVec F S1x128 .f32 := k0_pay128 v8 v9 v10 v604
  have v640 : FVec F S1x128 .f32 := k0_pay129 v7 v8 v9 v10 v574 v578 v598
  have v644 : FVec F S1x128 .f32 := k0_pay130 (F := F) v10
  have v649 : FVec F S6720x128 .bf16 := k0_pay131 v7
  have v652 : IVec S6720x128 32 := k0_pay132 v8
  have v667 : FVec F S1x128 .f32 := k0_pay134 v9 v634 v644 v649
  have v670 : FVec F S1x128 .f32 := k0_pay135 v9 v637 v644 v652
  have v673 : FVec F S1x128 .f32 := k0_pay136 v9 v640 v644 v649 v652
  have v677 : FVec F S1x128 .f32 := k0_pay137 (F := F) v10
  have v693 : FVec F S1x1 .f32 := k0_pay140 v7 v9
  have v695 : FVec F S1x1 .f32 := k0_pay141 v8 v9
  have v697 : FVec F S1x1 .f32 := k0_pay142 v7 v8 v9
  have v733 : FVec F S1x128 .f32 := k0_pay146 v7 v9 v10 v667 v677 v693
  have v736 : FVec F S1x128 .f32 := k0_pay147 v8 v9 v10 v670 v677 v695
  have v739 : FVec F S1x128 .f32 := k0_pay148 v7 v8 v9 v10 v673 v677 v697
  have v743 : FVec F S1x128 .f32 := k0_pay149 (F := F) v10
  have v746 : IVec S6720x128 32 := k0_pay150 v7
  have v766 : FVec F S1x128 .f32 := k0_pay153 v9 v733 v743 v746
  have v769 : FVec F S1x128 .f32 := k0_pay154 v8 v9 v736 v743
  have v772 : FVec F S1x128 .f32 := k0_pay155 v8 v9 v739 v743 v746
  have v776 : FVec F S1x128 .f32 := k0_pay156 (F := F) v10
  have v789 : FVec F S1x128 .f32 := k0_pay159 v8 v9
  have v790 : FVec F S1x128 .f32 := k0_pay160 v7 v8 v9
  have v792 : FVec F S1x1 .f32 := k0_pay161 v7 v9
  have v832 : FVec F S1x128 .f32 := k0_pay165 v7 v9 v10 v766 v776 v792
  have v835 : FVec F S1x128 .f32 := k0_pay166 v8 v9 v10 v769 v776 v789
  have v838 : FVec F S1x128 .f32 := k0_pay167 v7 v8 v9 v10 v772 v776 v790
  (v832, v835, v838)

end Cert.Kernel.Hand

end
-- ==== Proof.WKit.lean ====
/-
  The data of the kernel program's two regions, stated once, at any float instance and at any contents `V` of the
  buffers when a region is entered.

  Region 0 (the histogram kernel, 2 × 4 points): the output block of a core is an accumulator of three rows of 128 lanes;
  the first point of a core starts it from zero, every point adds the block's three contributions `contrib0` row by row
  (`step0`); `acc0` is what the block holds after each point.
  Region 1 (the finite-difference kernel, 2 × 10 points): three accumulator blocks (sums of squared differences along depth,
  height and width, each value spread over an 8 × 128 block) and a scratch plane that carries the last depth plane of a
  block to the next point; `acc1` is what the four hold after each point.
-/
import proofs.«417857_j15487652069654_3_alg».proof.Proof.Gen.Kernel.Launch
import proofs.«417857_j15487652069654_3_alg».proof.Proof.Gen.Kernel.Skeleton
import proofs.«417857_j15487652069654_3_alg».proof.Proof.Gen.Kernel.Points
import proofs.«417857_j15487652069654_3_alg».proof.Proof.WContrib
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the histogram accumulator -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three rows of the accumulator block. -/
abbrev row0 : Rect S1x3x128 := Rect.unit (s := S1x3x128) ![0, 0, 0] S1x1x128.size inb_S1x3x128_S1x1x128_0_0_0
abbrev row1 : Rect S1x3x128 := Rect.unit (s := S1x3x128) ![0, 1, 0] S1x1x128.size inb_S1x3x128_S1x1x128_0_1_0
abbrev row2 : Rect S1x3x128 := Rect.unit (s := S1x3x128) ![0, 2, 0] S1x1x128.size inb_S1x3x128_S1x1x128_0_2_0

/-- One point's update of the accumulator: each row of `base` plus the matching contribution of the two label blocks. -/
def step0 (base : Vec F S1x3x128 .f32) (v3 v5 : Vec F S6720x128 .i32) : Vec F S1x3x128 .f32 :=
  View.canon [⟨row2, k0_pay3 (contrib0 v3 v5).2.2 (View.ld base row2)⟩,
    ⟨row1, k0_pay2 (contrib0 v3 v5).2.1 (View.ld base row1)⟩,
    ⟨row0, k0_pay1 (contrib0 v3 v5).1 (View.ld base row0)⟩]

/-- What the accumulator block holds after the body at position `n`: a core's first point (positions 0 and 4) starts from
    the zero block, a later one from what the point before left. -/
def acc0 (c : Dev nD) : (n : ℕ) → n < cfg0.N → Vec F S1x3x128 .f32
  | 0, hn => step0 (k0_pay4 (F := F)) (iblk0 V c 0 ⟨0, hn⟩) (iblk0 V c 1 ⟨0, hn⟩)
  | n + 1, hn =>
    if (n + 1) % 4 = 0 then step0 (k0_pay4 (F := F)) (iblk0 V c 0 ⟨n + 1, hn⟩) (iblk0 V c 1 ⟨n + 1, hn⟩)
    else step0 (acc0 c n (Nat.lt_of_succ_lt hn)) (iblk0 V c 0 ⟨n + 1, hn⟩) (iblk0 V c 1 ⟨n + 1, hn⟩)

/-- The proof data of region 0 on core `c`: the arrays as the region finds them; after a point the two label windows hold
    their blocks and the output window the accumulator; the invariant is the scoped rest untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## Region 1: the three difference accumulators and the carried plane -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch plane, a whole scoped buffer of the kernel's own. -/
abbrev scM1 : Memref sig .tc .vmem S3x1x192x224 .f32 := Memref.whole cc1_scratch0

/-- A core's first point: the accumulators start from zero, nothing is read from the plane. -/
def first1 (x : Vec F S3x8x192x224 .f32) :
    Vec F S1x8x128 .f32 × Vec F S1x8x128 .f32 × Vec F S1x8x128 .f32 × Vec F S3x1x192x224 .f32 :=
  (k1_pay11 (k1_pay6 x) (k1_pay2 (F := F)), k1_pay7 x (k1_pay3 (F := F)), k1_pay9 (k1_pay8 x) (k1_pay4 (F := F)), k1_pay1 (k1_pay12 (k1_pay6 x)))

/-- A later point: the depth accumulator also takes the squared differences between the block's first plane and the carried
    plane. -/
def later1 (x : Vec F S3x8x192x224 .f32)
    (p : Vec F S1x8x128 .f32 × Vec F S1x8x128 .f32 × Vec F S1x8x128 .f32 × Vec F S3x1x192x224 .f32) :
    Vec F S1x8x128 .f32 × Vec F S1x8x128 .f32 × Vec F S1x8x128 .f32 × Vec F S3x1x192x224 .f32 :=
  (k1_pay11 (k1_pay6 x) (k1_pay10 (k1_pay6 x) p.2.2.2 p.1), k1_pay7 x p.2.1, k1_pay9 (k1_pay8 x) p.2.2.1, k1_pay1 (k1_pay12 (k1_pay6 x)))

/-- What the three accumulator blocks (depth, height, width) and the plane hold after the body at position `n`. -/
def acc1 (c : Dev nD) : (n : ℕ) → n < cfg1.N →
    Vec F S1x8x128 .f32 × Vec F S1x8x128 .f32 × Vec F S1x8x128 .f32 × Vec F S3x1x192x224 .f32
  | 0, hn => first1 (iblk1 V c 0 ⟨0, hn⟩)
  | n + 1, hn =>
    if (n + 1) % 10 = 0 then first1 (iblk1 V c 0 ⟨n + 1, hn⟩)
    else later1 (iblk1 V c 0 ⟨n + 1, hn⟩) (acc1 c n (Nat.lt_of_succ_lt hn))

/-- The scoped buffers other than the plane, each at some contents: what the region never touches. -/
abbrev rest1 (c : Dev nD) : sProp 𝕄 :=
  Pipeline.scopedRestBut (Ix := Unit) (Name := ℕ) (U := UR sig nD τ) (Lvl := ℕ) (Val := Elt F) spec1 c [cc1_scratch0]

/-- The region's invariant before position `n`: before the first point the scoped rest as launched; afterwards the plane at
    what the point before left, the other scoped buffers at some contents, and the generator register at some state. -/
def Phi1 (c : Dev nD) : (n : ℕ) → n ≤ cfg1.N → sProp 𝕄
  | 0, _ => Pipeline.ΦA spec1 c
  | n + 1, hn => iprop((owns (c : Thread nD τ) scM1 fullShare (acc1 V c n hn).2.2.2 ∗ rest1 (F := F) c) ∗ (∃ r, prngReg c r))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val t.isLt).1
    | ⟨2, _⟩ => (acc1 V c t.val t.isLt).2.1
    | ⟨3, _⟩ => (acc1 V c t.val t.isLt).2.2.1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = (acc1 V c t.val t.isLt).1 := by dsimp only [dat1]
theorem after1_2 (c : Dev nD) (t : Fin cfg1.N) : (dat1 V c).after 2 t = (acc1 V c t.val t.isLt).2.1 := by dsimp only [dat1]
theorem after1_3 (c : Dev nD) (t : Fin cfg1.N) : (dat1 V c).after 3 t = (acc1 V c t.val t.isLt).2.2.1 := by dsimp only [dat1]

end Cert.Kernel.Hand

end
-- ==== Proof.WVals.lean ====
/-
  The buffers' contents at each boundary of the kernel program's @main.  Its five items in order: the host operations
  before the histogram kernel, the histogram kernel's region, the host operations between the two kernels, the
  finite-difference kernel's region, the host operations after it.  Between two items a core holds every unscoped buffer
  at a known valuation (W0 … W5): a stretch of host operations moves the valuation by the operations' results in order;
  a region puts its windows' arrays at what the pipeline's write-backs leave and keeps every other buffer.  No item
  writes an argument, so each argument's buffer is at its launch contents in W5.
-/
import proofs.«417857_j15487652069654_3_alg».proof.Proof.WKit
import proofs.«417857_j15487652069654_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the first host stretch: the histogram region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the histogram region's exit: its three arrays at what the pipeline leaves (the two label maps as entered, the
    output with every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the finite-difference region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the finite-difference region's exit: the field as entered, the three accumulator arrays with every write-back
    folded in, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what the program returns with. -/
abbrev W5 : Dev nD → Valuation τ sig (Elt F) := fun c => StableHlo.after hostOps2 (W4 m ρ c)

/-! ### A buffer a stretch does not write keeps its contents across it -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-! ### The arguments end as launched: no stretch writes one and none is a window's array -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

end Cert.Kernel.Hand

end
-- ==== Proof.WRun.lean ====
/-
  The run of the kernel program's @main, from the launch to the return, over the boundary contents W0 … W5: each host
  stretch and each kernel region as an item entered from what the item before it left; run_all reads the last valuation
  off every final memory, and the arguments' buffers, written by no item, end as launched (frame).
-/
import proofs.«417857_j15487652069654_3_alg».proof.Proof.WVals

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the run takes from the two kernels' bodies -/

/-- The two bodies' obligations at any entry contents, and the two ends of the finite-difference region's invariant:
    it starts from the scoped rest as launched and gives the scoped rest back (the carried plane at whatever the last
    point left). -/
class BodyFacts (F : FTy → Type) [FloatOps F] : Prop where
  body_obligation0 : ∀ (V : (c : Dev nD) → (b : Ref sig .tc) → Buf (Elt F) ((c : Thread nD τ).loc b)) (c : Dev nD),
    BodyObligation (dat0 (F := F) V c) (defs₀ (F := F)) Variants.none () Set.univ
  body_obligation1 : ∀ (V : (c : Dev nD) → (b : Ref sig .tc) → Buf (Elt F) ((c : Thread nD τ).loc b)) (c : Dev nD),
    BodyObligation (dat1 (F := F) V c) (defs₀ (F := F)) Variants.none () Set.univ
  hin1 : ∀ (V : (c : Dev nD) → (b : Ref sig .tc) → Buf (Elt F) ((c : Thread nD τ).loc b)) (c : Dev nD),
    (Pipeline.ΦA spec1 c : sProp (MT nD τ sig Unit (Elt F) ℕ (UR sig nD τ) ℕ)) ⊢ (dat1 (F := F) V c).Φ 0
  hout1 : ∀ (V : (c : Dev nD) → (b : Ref sig .tc) → Buf (Elt F) ((c : Thread nD τ).loc b)) (c : Dev nD),
    (dat1 (F := F) V c).Φ (Fin.last cfg1.N) ⊢ (Pipeline.ΦA spec1 c : sProp (MT nD τ sig Unit (Elt F) ℕ (UR sig nD τ) ℕ))

open BodyFacts

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item: from every unscoped buffer at W, to the same at the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at W5, the generator register at some state. -/
abbrev Tₙ (c : Dev nD) : sProp 𝕄 := iprop(StableHlo.held (c : Thread nD τ) (Pipeline.ucRefs τ sig) (W5 m ρ c) ∗ ∃ r, prngReg c r)

variable [BodyFacts F]

/-! ## The regions as items -/

set_option backward.isDefEq.respectTransparency.types false in
/-- The histogram region: entered from every unscoped buffer at W1, left at W2.  Its arrays are split out of the
    unscoped buffers and put back at the exit contents; the generator register goes into the invariant and comes back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The finite-difference region: entered from every unscoped buffer at W3, left at W4.  Its invariant starts from the
    scoped rest as launched beside the generator register and ends giving both back (the two ends of the body's own
    invariant, which carries the plane between points). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m ρ 1 c).Φ 0 from hin1 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ (Pipeline.ΦA spec1 c : sProp 𝕄) from hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- @main is the run of the items: it is the chain of their programs. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2 ] from rfl]
  rfl

set_option backward.isDefEq.respectTransparency.types false in
/-- The run, at any reading of the final memory: at the compiled mesh, from any memory with zero counters, every weakly
    fair execution of @main terminates, nothing faulting, and every final memory that has each unscoped buffer at W5
    satisfies Q. -/
theorem run_post {Q : PUnit × MemSt nD τ sig (Elt F) → Prop}
    (hQ : ∀ s : MemSt nD τ sig (Elt F),
      (∀ c : Dev nD, ∀ b ∈ Pipeline.ucRefs τ sig, s.mem ((c : Thread nD τ).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- THE RUN: every final memory has every unscoped buffer of every core at W5. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  run_post m ρ fun _ h => h

/-- THE FRAME, at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post m ρ fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩

end Cert.Kernel.Hand

end
-- ==== Proof.WBody0.lean ====
/-
  The body obligation of region 0 (the histogram kernel on its 2 × 4 grid): at every point the body, handed the two label
  blocks and the accumulator block at what the point before left (anything at a core's first point), leaves the
  accumulator at `acc0`: a core's first point overwrites the block with zeros and adds the three contributions of the label
  blocks row by row, a later point adds them to what the block held.

  The three rows are disjoint and tile the block, so a row read after the other rows were stored still reads the old
  contents, and once all three are stored the block is the three new rows, whatever was stored before.
-/
import proofs.«417857_j15487652069654_3_alg».proof.Proof.WKit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace Body0

/-! ## The branch of the body -/

/-- The condition of the body's one branch (the reset of the accumulator), from the grid coordinates: the second
    coordinate is zero. -/
abbrev cond0 (i : grid0.Coords) : Prop :=
  (Scalar.cmpi .ne (Scalar.extui (Scalar.cmpi .eq (BitVec.ofNat 32 (i 1).val) 0#32)) 0#32) = 1#1

/-- It holds at the positions ≡ 0 (mod 4), a core's first point: decided over the eight points. -/
theorem hcond0 : ∀ t : Fin cfg0.N, cond0 (grid0.coords t) ↔ t.val % 4 = 0 :=
  (by decide +kernel : ∀ t : Fin grid0.N, cond0 (grid0.coords t) ↔ t.val % 4 = 0)

/-! ## The rows of the accumulator block -/

theorem hz2 : (![0, 0] : Fin 2 → Nat) = fun _ => 0 := funext fun a => by fin_cases a <;> rfl
theorem hz3 : (![0, 0, 0] : Fin 3 → Nat) = fun _ => 0 := funext fun a => by fin_cases a <;> rfl

/-- Row `k` holds exactly the indices whose middle coordinate is `k`. -/
theorem mem_row (k : Nat) (inb : ∀ a, (![0, k, 0] : Fin 3 → Nat) a + S1x1x128.size a ≤ S1x3x128.size a)
    (y : S1x3x128.Idx) (hk : (y 1).val = k) :
    y ∈ (Rect.unit (s := S1x3x128) ![0, k, 0] S1x1x128.size inb).set := by
  rw [Rect.mem_set_unit]
  intro a
  have h0 : (y 0).val < 1 := (y 0).isLt
  have h2 : (y 2).val < 128 := (y 2).isLt
  fin_cases a
  · exact ⟨Nat.zero_le _, by show (y 0).val < 0 + 1; omega⟩
  · exact ⟨by show k ≤ (y 1).val; omega, by show (y 1).val < k + 1; omega⟩
  · exact ⟨Nat.zero_le _, by show (y 2).val < 0 + 128; omega⟩

/-- The three rows cover the block. -/
theorem rows_cover (y : S1x3x128.Idx) : y ∈ row2.set ∨ y ∈ row1.set ∨ y ∈ row0.set := by
  have h1 : (y 1).val < 3 := (y 1).isLt
  rcases (by omega : (y 1).val = 0 ∨ (y 1).val = 1 ∨ (y 1).val = 2) with h | h | h
  · exact Or.inr (Or.inr (mem_row 0 _ y h))
  · exact Or.inr (Or.inl (mem_row 1 _ y h))
  · exact Or.inl (mem_row 2 _ y h)

/-- Two different rows share no index: they are separated on the middle axis. -/
theorem disj_rows (k k' : Nat) (inb : ∀ a, (![0, k, 0] : Fin 3 → Nat) a + S1x1x128.size a ≤ S1x3x128.size a)
    (inb' : ∀ a, (![0, k', 0] : Fin 3 → Nat) a + S1x1x128.size a ≤ S1x3x128.size a) (h : k ≠ k') :
    Disjoint (Rect.unit (s := S1x3x128) ![0, k, 0] S1x1x128.size inb).set
      (Rect.unit (s := S1x3x128) ![0, k', 0] S1x1x128.size inb').set :=
  Rect.unit_disjoint (1 : Fin 3) (by show k + 1 ≤ k' ∨ k' + 1 ≤ k; omega)

/-- At an index of row `k`, a piece stored over another row `k'` does not show. -/
theorem canon_skip (k k' : Nat) (inb : ∀ a, (![0, k, 0] : Fin 3 → Nat) a + S1x1x128.size a ≤ S1x3x128.size a)
    (inb' : ∀ a, (![0, k', 0] : Fin 3 → Nat) a + S1x1x128.size a ≤ S1x3x128.size a) (h : k ≠ k')
    (w : (Rect.unit (s := S1x3x128) ![0, k', 0] S1x1x128.size inb').shape.Idx → Elt F .f32)
    (L : List (View.Piece (Elt F) S1x3x128 .f32))
    (j : (Rect.unit (s := S1x3x128) ![0, k, 0] S1x1x128.size inb).shape.Idx) :
    View.canon ((⟨Rect.unit (s := S1x3x128) ![0, k', 0] S1x1x128.size inb', w⟩ : View.Piece (Elt F) S1x3x128 .f32) :: L)
        ((Rect.unit (s := S1x3x128) ![0, k, 0] S1x1x128.size inb).toLoadRect.idx j)
      = View.canon L ((Rect.unit (s := S1x3x128) ![0, k, 0] S1x1x128.size inb).toLoadRect.idx j) :=
  View.canon_cons_of_not_mem _ L
    (Finset.disjoint_left.mp (disj_rows k k' inb inb' h) (LoadRect.idx_mem _ j))

/-- Two lists of pieces with the same head agree at an index as soon as their tails agree there off the head. -/
theorem canon_cons_congr (p : View.Piece (Elt F) S1x3x128 .f32) (L L' : List (View.Piece (Elt F) S1x3x128 .f32))
    (y : S1x3x128.Idx) (h : y ∉ p.1.set → View.canon L y = View.canon L' y) :
    View.canon (p :: L) y = View.canon (p :: L') y := by
  by_cases hy : y ∈ p.1.set
  · obtain ⟨r, w⟩ := p
    obtain ⟨x, rfl⟩ := r.toLoadRect.exists_idx_of_mem hy
    exact (View.canon_cons_emb r w L x).trans (View.canon_cons_emb r w L' x).symm
  · rw [View.canon_cons_of_not_mem p L hy, View.canon_cons_of_not_mem p L' hy]; exact h hy

/-- Once the three rows are stored, what was stored before them does not show. -/
theorem canon_rows_drop (w2 : row2.shape.Idx → Elt F .f32) (w1 : row1.shape.Idx → Elt F .f32)
    (w0 : row0.shape.Idx → Elt F .f32) (L : List (View.Piece (Elt F) S1x3x128 .f32)) :
    View.canon ((⟨row2, w2⟩ : View.Piece (Elt F) S1x3x128 .f32) :: ⟨row1, w1⟩ :: ⟨row0, w0⟩ :: L)
      = View.canon [(⟨row2, w2⟩ : View.Piece (Elt F) S1x3x128 .f32), ⟨row1, w1⟩, ⟨row0, w0⟩] :=
  funext fun y =>
    canon_cons_congr _ _ _ y fun h2 => canon_cons_congr _ _ _ y fun h1 => canon_cons_congr _ _ _ y fun h0 =>
      absurd (rows_cover y) (fun h => h.elim h2 (fun h => h.elim h1 h0))

/-- The block after the three row stores, over any earlier stores, is one step of the accumulation as soon as the three
    stored vectors are the contributions added to the rows of `base`. -/
theorem step0_of (base : Vec F S1x3x128 .f32) (v3 v5 : Vec F S6720x128 .i32)
    (a0 a1 a2 : FVec F S1x128 .f32) (l0 : row0.shape.Idx → Elt F .f32) (l1 : row1.shape.Idx → Elt F .f32)
    (l2 : row2.shape.Idx → Elt F .f32) (L : List (View.Piece (Elt F) S1x3x128 .f32))
    (h0 : a0 = (contrib0 v3 v5).1) (h1 : a1 = (contrib0 v3 v5).2.1) (h2 : a2 = (contrib0 v3 v5).2.2)
    (e0 : l0 = View.ld base row0) (e1 : l1 = View.ld base row1) (e2 : l2 = View.ld base row2) :
    View.canon ((⟨row2, k0_pay3 a2 l2⟩ : View.Piece (Elt F) S1x3x128 .f32) :: ⟨row1, k0_pay2 a1 l1⟩ :: ⟨row0, k0_pay1 a0 l0⟩ :: L)
      = step0 base v3 v5 := by
  subst h0 h1 h2 e0 e1 e2
  exact canon_rows_drop _ _ _ L

/-- A label block as the body's load of its whole buffer reads it, -/
def lblk (m : Memref sig .tc .vmem S6720x128 .i32) (hm : m.IsWhole) (x : Vec F S6720x128 .i32) : Vec F S6720x128 .i32 :=
  View.readAt (Elt F) m.view (Rect.unit (s := S6720x128) ![0, 0] S6720x128.size inb_S6720x128_S6720x128_0_0).toLoadRect (hm.unread x)

/-- which is the block. -/
theorem lblk_eq (m : Memref sig .tc .vmem S6720x128 .i32) (hm : m.IsWhole) (x : Vec F S6720x128 .i32) :
    lblk m hm x = x := by
  unfold lblk
  rw [View.readAt_eq_ld, hm.read_unread, View.ld_unit_zero (S := S6720x128) hz2]

/-- A row of the accumulator block read off a whole buffer that holds `xo`. -/
theorem row_ld (m : Memref sig .tc .vmem S1x3x128 .f32) (hm : m.IsWhole) (xo : Vec F S1x3x128 .f32) (r : Rect S1x3x128) :
    View.readAt (Elt F) m.view r.toLoadRect (hm.unread xo) = View.ld xo r :=
  (View.readAt_eq_ld m.view (hm.unread xo) r).trans (congrArg (fun X => View.ld X r) (hm.read_unread xo))

/-! ## The body on any whole buffers: what it leaves in the accumulator block, as the pieces its stores write -/

set_option maxHeartbeats 1000000 in
/-- A core's FIRST point (the branch taken): the pieces the body's stores leave in the accumulator buffer, last first,
    with the proof that from the two label buffers at `x0`, `x1` and the accumulator buffer at anything the body runs
    to the label buffers as they were and the accumulator buffer with those pieces written. -/
noncomputable def run0_A (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : cond0 i)
    (x0 x1 : Vec F S6720x128 .i32) :
    { L2 : List (View.Piece (Elt F) S1x3x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__hist_kernel i arg2 harg2 arg3 harg3 arg4 harg4) K } := by
  refine ⟨?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A LATER point (the branch not taken): the same from the accumulator buffer at `xo`, what the point before left. -/
noncomputable def run0_B (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : ¬cond0 i)
    (x0 x1 : Vec F S6720x128 .i32) (xo : Vec F S1x3x128 .f32) :
    { L2 : List (View.Piece (Elt F) S1x3x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__hist_kernel i arg2 harg2 arg3 harg3 arg4 harg4) K } := by
  refine ⟨?_, fun E K => ?run⟩
  case run =>
    simp only [cc0__hist_kernel_eq_skeleton]; unfold cc0__hist_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## The three stored vectors are the contributions of the two label blocks

The pure parts of the body pass their values along in the order `contrib0` binds them, so each stored vector unfolds to
the matching component of `contrib0` at the two loaded blocks; and a loaded block is the buffer's contents. -/

theorem A_c0 (c : Dev nD) (arg2 : Memref sig .tc .vmem S6720x128 .i32) (harg2 : arg2.IsWhole) (arg3 : Memref sig .tc .vmem S6720x128 .i32) (harg3 : arg3.IsWhole) (x0 x1 : Vec F S6720x128 .i32) : run0_A.sl.r_83 c arg2 harg2 x0 = (contrib0 x0 x1).1 :=
  (show run0_A.sl.r_83 c arg2 harg2 x0 = (contrib0 (F := F) (lblk arg2 harg2 x0) (lblk arg3 harg3 x1)).1 from rfl).trans
    (by rw [lblk_eq, lblk_eq])
theorem A_c1 (c : Dev nD) (arg2 : Memref sig .tc .vmem S6720x128 .i32) (harg2 : arg2.IsWhole) (arg3 : Memref sig .tc .vmem S6720x128 .i32) (harg3 : arg3.IsWhole) (x0 x1 : Vec F S6720x128 .i32) : run0_A.sl.r_84 c arg3 harg3 x1 = (contrib0 x0 x1).2.1 :=
  (show run0_A.sl.r_84 c arg3 harg3 x1 = (contrib0 (F := F) (lblk arg2 harg2 x0) (lblk arg3 harg3 x1)).2.1 from rfl).trans
    (by rw [lblk_eq, lblk_eq])
theorem A_c2 (c : Dev nD) (arg2 : Memref sig .tc .vmem S6720x128 .i32) (harg2 : arg2.IsWhole) (arg3 : Memref sig .tc .vmem S6720x128 .i32) (harg3 : arg3.IsWhole) (x0 x1 : Vec F S6720x128 .i32) : run0_A.sl.r_85 c arg2 harg2 arg3 harg3 x0 x1 = (contrib0 x0 x1).2.2 :=
  (show run0_A.sl.r_85 c arg2 harg2 arg3 harg3 x0 x1 = (contrib0 (F := F) (lblk arg2 harg2 x0) (lblk arg3 harg3 x1)).2.2 from rfl).trans
    (by rw [lblk_eq, lblk_eq])
theorem B_c0 (c : Dev nD) (arg2 : Memref sig .tc .vmem S6720x128 .i32) (harg2 : arg2.IsWhole) (arg3 : Memref sig .tc .vmem S6720x128 .i32) (harg3 : arg3.IsWhole) (x0 x1 : Vec F S6720x128 .i32) : run0_B.sl.r_83 c arg2 harg2 x0 = (contrib0 x0 x1).1 :=
  (show run0_B.sl.r_83 c arg2 harg2 x0 = (contrib0 (F := F) (lblk arg2 harg2 x0) (lblk arg3 harg3 x1)).1 from rfl).trans
    (by rw [lblk_eq, lblk_eq])
theorem B_c1 (c : Dev nD) (arg2 : Memref sig .tc .vmem S6720x128 .i32) (harg2 : arg2.IsWhole) (arg3 : Memref sig .tc .vmem S6720x128 .i32) (harg3 : arg3.IsWhole) (x0 x1 : Vec F S6720x128 .i32) : run0_B.sl.r_84 c arg3 harg3 x1 = (contrib0 x0 x1).2.1 :=
  (show run0_B.sl.r_84 c arg3 harg3 x1 = (contrib0 (F := F) (lblk arg2 harg2 x0) (lblk arg3 harg3 x1)).2.1 from rfl).trans
    (by rw [lblk_eq, lblk_eq])
theorem B_c2 (c : Dev nD) (arg2 : Memref sig .tc .vmem S6720x128 .i32) (harg2 : arg2.IsWhole) (arg3 : Memref sig .tc .vmem S6720x128 .i32) (harg3 : arg3.IsWhole) (x0 x1 : Vec F S6720x128 .i32) : run0_B.sl.r_85 c arg2 harg2 arg3 harg3 x0 x1 = (contrib0 x0 x1).2.2 :=
  (show run0_B.sl.r_85 c arg2 harg2 arg3 harg3 x0 x1 = (contrib0 (F := F) (lblk arg2 harg2 x0) (lblk arg3 harg3 x1)).2.2 from rfl).trans
    (by rw [lblk_eq, lblk_eq])

/-! ## What each row load reads

At a first point the block was just overwritten with zeros; the stores to the rows read before do not reach a later
row. At a later point the rows are read off what the block held. -/

/-- After the reset alone the block reads zero everywhere. -/
theorem canon_reset (y : S1x3x128.Idx) : View.canon (run0_A.sl.H2_1 (F := F)) y = k0_pay4 (F := F) y :=
  congrFun (View.canon_unit_zero (Val := Elt F) (S := S1x3x128) (e := .f32) hz3 inb_S1x3x128_S1x3x128_0_0_0 (k0_pay4 (F := F))) y

theorem A_l0 (c : Dev nD) (arg4 : Memref sig .tc .vmem S1x3x128 .f32) :
    run0_A.sl.v839 (F := F) c arg4 = View.ld (k0_pay4 (F := F)) row0 :=
  (View.readCov_eq_canon' arg4.view (run0_A.sl.H2_1 (F := F)) row0.toLoadRect).trans (funext fun j => canon_reset _)

theorem A_l1 (c : Dev nD) (arg2 : Memref sig .tc .vmem S6720x128 .i32) (harg2 : arg2.IsWhole)
    (arg4 : Memref sig .tc .vmem S1x3x128 .f32) (x0 : Vec F S6720x128 .i32) :
    run0_A.sl.v845 c arg2 harg2 arg4 x0 = View.ld (k0_pay4 (F := F)) row1 :=
  by
  refine (View.readCov_eq_canon' arg4.view (run0_A.sl.H2_2 c arg2 harg2 arg4 x0) row1.toLoadRect).trans (funext fun j => ?_)
  unfold run0_A.sl.H2_2
  exact (canon_skip 1 0 _ _ (by decide) _ _ j).trans (canon_reset _)

theorem A_l2 (c : Dev nD) (arg2 : Memref sig .tc .vmem S6720x128 .i32) (harg2 : arg2.IsWhole)
    (arg3 : Memref sig .tc .vmem S6720x128 .i32) (harg3 : arg3.IsWhole)
    (arg4 : Memref sig .tc .vmem S1x3x128 .f32) (x0 x1 : Vec F S6720x128 .i32) :
    run0_A.sl.v851 c arg2 harg2 arg3 harg3 arg4 x0 x1 = View.ld (k0_pay4 (F := F)) row2 :=
  by
  refine (View.readCov_eq_canon' arg4.view (run0_A.sl.H2_3 c arg2 harg2 arg3 harg3 arg4 x0 x1) row2.toLoadRect).trans (funext fun j => ?_)
  unfold run0_A.sl.H2_3 run0_A.sl.H2_2
  exact (canon_skip 2 1 _ _ (by decide) _ _ j).trans ((canon_skip 2 0 _ _ (by decide) _ _ j).trans (canon_reset _))

theorem B_l1 (c : Dev nD) (arg4 : Memref sig .tc .vmem S1x3x128 .f32) (harg4 : arg4.IsWhole) (xo : Vec F S1x3x128 .f32) :
    run0_B.sl.v845 c arg4 harg4 xo = View.ld xo row1 := row_ld arg4 harg4 xo row1
theorem B_l2 (c : Dev nD) (arg4 : Memref sig .tc .vmem S1x3x128 .f32) (harg4 : arg4.IsWhole) (xo : Vec F S1x3x128 .f32) :
    run0_B.sl.v851 c arg4 harg4 xo = View.ld xo row2 := row_ld arg4 harg4 xo row2

/-! ## What the body leaves in the accumulator block -/

/-- At a first point: one step of the accumulation from the zero block. -/
theorem run0_A_val (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : cond0 i) (x0 x1 : Vec F S6720x128 .i32) :
    View.canon (run0_A c i arg2 harg2 arg3 harg3 arg4 harg4 hc0 x0 x1).1 = step0 (k0_pay4 (F := F)) x0 x1 := by
  unfold run0_A; dsimp only
  exact step0_of (k0_pay4 (F := F)) x0 x1 _ _ _ _ _ _ _
    (A_c0 c arg2 harg2 arg3 harg3 x0 x1) (A_c1 c arg2 harg2 arg3 harg3 x0 x1) (A_c2 c arg2 harg2 arg3 harg3 x0 x1)
    (A_l0 c arg4) (A_l1 c arg2 harg2 arg4 x0) (A_l2 c arg2 harg2 arg3 harg3 arg4 x0 x1)

/-- At a later point: one step from what the block held. -/
theorem run0_B_val (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : ¬cond0 i) (x0 x1 : Vec F S6720x128 .i32) (xo : Vec F S1x3x128 .f32) :
    View.canon (run0_B c i arg2 harg2 arg3 harg3 arg4 harg4 hc0 x0 x1 xo).1 = step0 xo x0 x1 := by
  unfold run0_B; dsimp only
  exact step0_of xo x0 x1 _ _ _ _ _ _ []
    (B_c0 c arg2 harg2 arg3 harg3 x0 x1) (B_c1 c arg2 harg2 arg3 harg3 x0 x1) (B_c2 c arg2 harg2 arg3 harg3 x0 x1)
    (row_ld arg4 harg4 xo row0) (B_l1 c arg4 harg4 xo) (B_l2 c arg4 harg4 xo)

/-- The pieces of either case cover the block: the three rows are among them. -/
theorem run0_A_cover (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : cond0 i) (x0 x1 : Vec F S6720x128 .i32) (y : S1x3x128.Idx) :
    ∃ p ∈ (run0_A c i arg2 harg2 arg3 harg3 arg4 harg4 hc0 x0 x1).1, y ∈ p.1.set := by
  unfold run0_A; dsimp only
  unfold run0_A.sl.H2_3 run0_A.sl.H2_2
  rcases rows_cover y with h | h | h
  · exact ⟨_, List.mem_cons_self, h⟩
  · exact ⟨_, List.mem_cons_of_mem _ List.mem_cons_self, h⟩
  · exact ⟨_, List.mem_cons_of_mem _ (List.mem_cons_of_mem _ List.mem_cons_self), h⟩

theorem run0_B_cover (c : Dev nD) (i : grid0.Coords) (arg2 : Memref sig .tc .vmem S6720x128 .i32) (harg2 : arg2.IsWhole) (arg3 : Memref sig .tc .vmem S6720x128 .i32) (harg3 : arg3.IsWhole) (arg4 : Memref sig .tc .vmem S1x3x128 .f32) (harg4 : arg4.IsWhole) (hc0 : ¬cond0 i) (x0 x1 : Vec F S6720x128 .i32) (xo : Vec F S1x3x128 .f32) (y : S1x3x128.Idx) :
    ∃ p ∈ (run0_B c i arg2 harg2 arg3 harg3 arg4 harg4 hc0 x0 x1 xo).1, y ∈ p.1.set := by
  unfold run0_B; dsimp only
  rcases rows_cover y with h | h | h
  · exact ⟨_, List.mem_cons_self, h⟩
  · exact ⟨_, List.mem_cons_of_mem _ List.mem_cons_self, h⟩
  · exact ⟨_, List.mem_cons_of_mem _ (List.mem_cons_of_mem _ List.mem_cons_self), h⟩

/-! ## What the windows hold when the body runs -/

/-- Each window's current staging memref at point `t`, as the pipeline passes it to the body, and its wholeness. -/
abbrev ms0_0 (t : Fin cfg0.N) : Memref sig .tc .vmem S6720x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6720x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x128 .f32 := win0_2.stage (cfg0.slots t 2)
abbrev hs0_2 (t : Fin cfg0.N) : (ms0_2 t).IsWhole := hstage0_2 ((cfg0.slots t 2).cast nbuf0_2)

/-- The first label window holds its block at every point, fetched there or not: the body leaves the block in place, and
    an unfetched block is the one of the point before. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The second label window likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- At a point that is not a core's first, the accumulator window holds what the point before left: the block is written
    back only after a core's last point, and the window is never cut. -/
theorem before0_2 (c : Dev nD) (t : Fin cfg0.N) (h0 : ¬t.val % 4 = 0) (d) :
    (dat0 V c).before 2 t d = acc0 V c (t.val - 1) (Nat.lt_of_le_of_lt (Nat.sub_le _ _) t.isLt) := by
  have hN : t.val < 8 := lt_of_lt_of_eq t.isLt (show cfg0.N = 8 from N_0)
  rw [Dat.before_out_kept _ 2 rfl t (by omega)
    (Bool.eq_false_iff.mpr fun h => by have := (flush0_2 _).mp h; dsimp only at this; omega)
    (fun _ => rfl) (fun _ _ => rfl)]
  dsimp only [dat0]

/-- The accumulator after a core's first point: one step from zero. -/
theorem acc0_first (c : Dev nD) (t : Fin cfg0.N) (h0 : t.val % 4 = 0) :
    acc0 V c t.val t.isLt = step0 (k0_pay4 (F := F)) (iblk0 V c 0 t) (iblk0 V c 1 t) := by
  obtain ⟨n, hn⟩ := t
  cases n with
  | zero => rfl
  | succ n => exact if_pos h0

/-- The accumulator after a later point: one step from what the point before left. -/
theorem acc0_later (c : Dev nD) (t : Fin cfg0.N) (h0 : ¬t.val % 4 = 0) :
    acc0 V c t.val t.isLt
      = step0 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point. The label windows hold their blocks; the position says whether the point is a core's first:
    there the accumulator buffer holds anything and the body leaves one step from zero, elsewhere it holds what the point
    before left and the body leaves one step from that. The invariant and what the core owes pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 4 = 0
  · rw [acc0_first V c t h0]
    iintro ⟨HΦ, Ho, ⟨%d0, H0⟩, ⟨%d1, H1⟩, ⟨%d2, H2⟩⟩
    iapply ((run0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact (View.read_writes_eq_canon _ _ _ (run0_A_cover c _ _ _ _ _ _ _ _ _ _)).trans
      (run0_A_val c _ _ _ _ _ _ _ _ _ _)
  · rw [acc0_later V c t h0]
    simp only [before0_2 V c t h0]
    iintro ⟨HΦ, Ho, ⟨%d0, H0⟩, ⟨%d1, H1⟩, ⟨%d2, H2⟩⟩
    iapply ((run0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro
    exact (View.read_writes_eq_canon _ _ _ (run0_B_cover c _ _ _ _ _ _ _ _ _ _ _)).trans
      (run0_B_val c _ _ _ _ _ _ _ _ _ _ _)

end Body0

/-- The body obligation of region 0, at every point. -/
theorem body_obligation0 (c : Dev nD) :
    BodyObligation (dat0 (F := F) V c) (defs₀ (F := F)) Variants.none () Set.univ := fun t => by
  rw [bigSep_W0, bigSep_W0]
  exact Body0.sound_body V c t

end Cert.Kernel.Hand

end
-- ==== Proof.WBody1.lean ====
/-
  Region 1 (the finite-difference kernel, 2 × 10 points): the body obligation of its proof data, and the two ends of
  its invariant.

  The body has two control cases over the grid. At a core's first point (coordinate 1 is zero) it zeroes the three
  accumulator blocks and the plane, then adds the block's squared differences along height, width and depth to them and
  stores the block's last depth plane. At a later point it adds the same three sums to what the point before left, and
  the depth accumulator also takes the squared differences between the block's first plane and the carried plane.
  Every store is a whole-buffer store, so each buffer ends at its last payload, and a load after a store reads the
  stored payload: the four buffers end at `first1` of the block, resp. `later1` of the block and what they held.
-/
import proofs.«417857_j15487652069654_3_alg».proof.Proof.WKit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions over the grid -/

/-- The first conditional of the body: the point is the first of its core's row (coordinate 1 is zero). -/
abbrev cond1_0 (i : grid1.Coords) : Prop :=
  (Scalar.cmpi .ne (Scalar.extui (Scalar.cmpi .eq (BitVec.ofNat 32 (i 1).val) 0#32)) 0#32) = 1#1
/-- It holds at the points ≡ 0 (mod 10). -/
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional of the body: the point is a later one of its row (coordinate 1 is positive). -/
abbrev cond1_1 (i : grid1.Coords) : Prop :=
  (Scalar.cmpi .ne (Scalar.extui (Scalar.cmpi .sgt (BitVec.ofNat 32 (i 1).val) 0#32)) 0#32) = 1#1
/-- It holds at the points ≢ 0 (mod 10). -/
theorem hcond1_1 : ∀ t : Fin cfg1.N, cond1_1 (grid1.coords t) ↔ ¬ t.val % 10 = 0 :=
  (by decide +kernel : ∀ t : Fin grid1.N, cond1_1 (grid1.coords t) ↔ ¬ t.val % 10 = 0)

/-! ## Whole-buffer stores and the loads after them -/

theorem zero1_3 : (![0, 0, 0] : Fin 3 → Nat) = fun _ => 0 := funext fun a => by fin_cases a <;> rfl
theorem zero1_4 : (![0, 0, 0, 0] : Fin 4 → Nat) = fun _ => 0 := funext fun a => by fin_cases a <;> rfl

/-- The whole rectangle of an accumulator block, and of the plane. -/
abbrev whole1_3 : Rect S1x8x128 := Rect.unit (s := S1x8x128) ![0, 0, 0] S1x8x128.size inb_S1x8x128_S1x8x128_0_0_0
abbrev whole1_4 : Rect S3x1x192x224 := Rect.unit (s := S3x1x192x224) ![0, 0, 0, 0] S3x1x192x224.size inb_S3x1x192x224_S3x1x192x224_0_0_0_0

theorem cover1_3 (y : S1x8x128.Idx) : y ∈ whole1_3.set :=
  View.mem_set_unit_zero (S := S1x8x128) zero1_3 inb_S1x8x128_S1x8x128_0_0_0 y
theorem cover1_4 (y : S3x1x192x224.Idx) : y ∈ whole1_4.set :=
  View.mem_set_unit_zero (S := S3x1x192x224) zero1_4 inb_S3x1x192x224_S3x1x192x224_0_0_0_0 y

/-- A buffer whose last store was a whole-block store reads as that store's payload, whatever was stored before. -/
theorem read_store1_3 {sg : RefSig} {κ : Kind} {sp : Space} (v : View sg κ sp S1x8x128 .f32) (f : v.ty.Contents (Elt F))
    (w : S1x8x128.Idx → Elt F .f32) (L : List (View.Piece (Elt F) S1x8x128 .f32)) :
    v.read (Elt F) (v.writes (Elt F) f ((⟨whole1_3, w⟩ : View.Piece (Elt F) S1x8x128 .f32) :: L)) = w :=
  (View.read_writes_eq_canon v f ((⟨whole1_3, w⟩ : View.Piece (Elt F) S1x8x128 .f32) :: L)
      (fun y => ⟨(⟨whole1_3, w⟩ : View.Piece (Elt F) S1x8x128 .f32), List.mem_cons_self, cover1_3 y⟩)).trans
    (View.canon_cons_unit_zero (S := S1x8x128) zero1_3 inb_S1x8x128_S1x8x128_0_0_0 w L)

theorem read_store1_4 {sg : RefSig} {κ : Kind} {sp : Space} (v : View sg κ sp S3x1x192x224 .f32) (f : v.ty.Contents (Elt F))
    (w : S3x1x192x224.Idx → Elt F .f32) (L : List (View.Piece (Elt F) S3x1x192x224 .f32)) :
    v.read (Elt F) (v.writes (Elt F) f ((⟨whole1_4, w⟩ : View.Piece (Elt F) S3x1x192x224 .f32) :: L)) = w :=
  (View.read_writes_eq_canon v f ((⟨whole1_4, w⟩ : View.Piece (Elt F) S3x1x192x224 .f32) :: L)
      (fun y => ⟨(⟨whole1_4, w⟩ : View.Piece (Elt F) S3x1x192x224 .f32), List.mem_cons_self, cover1_4 y⟩)).trans
    (View.canon_cons_unit_zero (S := S3x1x192x224) zero1_4 inb_S3x1x192x224_S3x1x192x224_0_0_0_0 w L)

/-- A whole-block load after one whole-block store reads the payload. -/
theorem readCov1_3 {sg : RefSig} {κ : Kind} {sp : Space} (v : View sg κ sp S1x8x128 .f32) (w : S1x8x128.Idx → Elt F .f32) :
    v.readCov [(⟨whole1_3, w⟩ : View.Piece (Elt F) S1x8x128 .f32)] whole1_3.toLoadRect = w :=
  View.readCov_unit_zero (S := S1x8x128) v zero1_3 inb_S1x8x128_S1x8x128_0_0_0 w

/-- The same with the block's extents spelt out. -/
theorem readCov1_3' {sg : RefSig} {κ : Kind} {sp : Space} (v : View sg κ sp S1x8x128 .f32) (w : S1x8x128.Idx → Elt F .f32) :
    v.readCov [(⟨Rect.unit (s := S1x8x128) ![0, 0, 0] ![1, 8, 128] inb_S1x8x128_S1x8x128_0_0_0, w⟩ : View.Piece (Elt F) S1x8x128 .f32)]
      (Rect.unit (s := S1x8x128) ![0, 0, 0] ![1, 8, 128] inb_S1x8x128_S1x8x128_0_0_0).toLoadRect = w :=
  readCov1_3 v w

/-! ## The body's run in its two cases -/

set_option maxHeartbeats 1000000 in
/-- The body at a core's first point, on whole buffers: the block as it is, the accumulators and the plane at anything;
    it leaves the four at `first1` of the block. -/
theorem run1_A (c : Dev nD) (i : grid1.Coords) (arg2 : Memref sig .tc .vmem S3x8x192x224 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S3x1x192x224 .f32) (harg6 : arg6.IsWhole) (hc0 : cond1_0 i) (hc1 : ¬cond1_1 i)
    (x0 : Vec F S3x8x192x224 .f32) (E : Set ℕ) (K : PUnit → sProp 𝕄) :
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare (first1 x0).1 ∗ owns (c : Thread nD τ) arg4 fullShare (first1 x0).2.1 ∗ owns (c : Thread nD τ) arg5 fullShare (first1 x0).2.2.1 ∗ owns (c : Thread nD τ) arg6 fullShare (first1 x0).2.2.2) -∗ K ⟨⟩))
          ⊢ wp frame (wpE (defs₀ (F := F)) Variants.none c none) E (cc1__diff_kernel i arg2 harg2 arg3 harg3 arg4 harg4 arg5 harg5 arg6 harg6) K := by
    simp only [cc1__diff_kernel_eq_skeleton]; unfold cc1__diff_kernel_skel
    simp only [k1_part1_eq_skeleton, k1_part2_eq_skeleton]
    unfold owns
    iintro ⟨⟨%f0, %hf0, H0⟩, ⟨%d1, %f1, -, H1⟩, ⟨%d2, %f2, -, H2⟩, ⟨%d3, %f3, -, H3⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]
    · iexists _; isplitr
      swap; · iexact H1
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    isplitl [H2]
    · iexists _; isplitr
      swap; · iexact H2
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    isplitl [H3]
    · iexists _; isplitr
      swap; · iexact H3
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    · iexists _; isplitr
      swap; · iexact HS0
      ipureintro
      refine (read_store1_4 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl

set_option maxHeartbeats 1000000 in
/-- The body at a later point, on whole buffers holding the block and what the point before left `p`: it leaves the four
    at `later1` of the block and `p`. -/
theorem run1_B (c : Dev nD) (i : grid1.Coords) (arg2 : Memref sig .tc .vmem S3x8x192x224 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S3x1x192x224 .f32) (harg6 : arg6.IsWhole) (hc0 : ¬cond1_0 i) (hc1 : cond1_1 i)
    (x0 : Vec F S3x8x192x224 .f32) (p : Vec F S1x8x128 .f32 × Vec F S1x8x128 .f32 × Vec F S1x8x128 .f32 × Vec F S3x1x192x224 .f32) (E : Set ℕ) (K : PUnit → sProp 𝕄) :
        iprop(owns (c : Thread nD τ) arg2 fullShare x0 ∗ owns (c : Thread nD τ) arg3 fullShare p.1 ∗ owns (c : Thread nD τ) arg4 fullShare p.2.1 ∗ owns (c : Thread nD τ) arg5 fullShare p.2.2.1 ∗ owns (c : Thread nD τ) arg6 fullShare p.2.2.2
            ∗ (iprop(owns (c : Thread nD τ) arg2 fullShare x0 ∗ owns (c : Thread nD τ) arg3 fullShare (later1 x0 p).1 ∗ owns (c : Thread nD τ) arg4 fullShare (later1 x0 p).2.1 ∗ owns (c : Thread nD τ) arg5 fullShare (later1 x0 p).2.2.1 ∗ owns (c : Thread nD τ) arg6 fullShare (later1 x0 p).2.2.2) -∗ K ⟨⟩))
          ⊢ wp frame (wpE (defs₀ (F := F)) Variants.none c none) E (cc1__diff_kernel i arg2 harg2 arg3 harg3 arg4 harg4 arg5 harg5 arg6 harg6) K := by
    simp only [cc1__diff_kernel_eq_skeleton]; unfold cc1__diff_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr
      swap; · iexact H1
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    isplitl [H2]
    · iexists _; isplitr
      swap; · iexact H2
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    isplitl [H3]
    · iexists _; isplitr
      swap; · iexact H3
      ipureintro
      refine (read_store1_3 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl
    · iexists _; isplitr
      swap; · iexact HS0
      ipureintro
      refine (read_store1_4 _ _ _ _).trans ?_
      sl_unfold_run_names
      simp only [readCov1_3, readCov1_3', View.readAt_eq_ld, harg2.read_unread, harg3.read_unread, harg4.read_unread, harg5.read_unread, harg6.read_unread, View.ld_unit_zero (S := S3x8x192x224) zero1_4, View.ld_unit_zero (S := S1x8x128) zero1_3, View.ld_unit_zero (S := S3x1x192x224) zero1_4]
      rfl

/-! ## What the accumulators and the plane hold after each point -/

/-- At a core's first point: `first1` of the point's block. -/
theorem acc1_first (c : Dev nD) (t : Fin cfg1.N) (h : t.val % 10 = 0) :
    acc1 V c t.val t.isLt = first1 (iblk1 V c 0 t) := by
  obtain ⟨n, hn⟩ := t
  cases n with
  | zero => rfl
  | succ n => exact if_pos h

/-- At a later point: `later1` of the point's block and what the point before left. -/
theorem acc1_later (c : Dev nD) (t : Fin cfg1.N) (h : ¬t.val % 10 = 0) :
    acc1 V c t.val t.isLt
      = later1 (iblk1 V c 0 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant's forms -/

theorem Phi1_zero (c : Dev nD) (n : ℕ) (h : n ≤ cfg1.N) (hz : n = 0) : Phi1 V c n h = Pipeline.ΦA spec1 c := by
  subst hz; rfl

/-- After point `n`: the plane at that point's contents. -/
theorem Phi1_succ (c : Dev nD) (n : ℕ) (hn : n < cfg1.N) :
    Phi1 V c (n + 1) hn
      = iprop((owns (c : Thread nD τ) scM1 fullShare (acc1 V c n hn).2.2.2 ∗ rest1 (F := F) c) ∗ (∃ r, prngReg c r)) := rfl

/-- Before a point that is not the first: the plane at what the point before left. -/
theorem Phi1_pos (c : Dev nD) (n : ℕ) (h : n ≤ cfg1.N) (hz : n ≠ 0) :
    Phi1 V c n h
      = iprop((owns (c : Thread nD τ) scM1 fullShare (acc1 V c (n - 1) (by omega)).2.2.2 ∗ rest1 (F := F) c) ∗ (∃ r, prngReg c r)) := by
  cases n with
  | zero => exact absurd rfl hz
  | succ n => rfl

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- The scoped rest of region 1 split at the kernel's own plane: the plane's buffer at some contents, and the other
    scoped buffers of the core carried unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = BI.sep (bigSepL [cc1_scratch0] fun b => iprop(∃ f : Buf Val ((c.tc : Thread nD τ).loc b), ((c.tc : Thread nD τ).loc b) ↦{fullShare} f))
          (Pipeline.scopedRestBut (Ix := Ix) (Name := Name) (U := U) (Lvl := Lvl) (Val := Val) spec1 c [cc1_scratch0]) :=
  Pipeline.scopedRest_split_of_list spec1 c [cc1_scratch0] (by decide) (by decide)

/-- What the launch hands the region: the plane at some contents, the other scoped buffers, the generator register at
    some state. -/
theorem PhiA1_eq (c : Dev nD) :
    (Pipeline.ΦA spec1 c : sProp 𝕄)
      = iprop(((∃ d, owns (c : Thread nD τ) scM1 fullShare d) ∗ rest1 (F := F) c) ∗ (∃ r, prngReg c r)) := by
  unfold Pipeline.ΦA; rw [scopedRest1_split]; simp only [scM1, owns_whole, bigSepL_singleton]; try rfl

/-! ## What the body finds in the staging buffers -/

/-- The input window's current buffer holds the point's block, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- An accumulator's buffer at a core's first point holds anything: the grid's first point, or the point after a
    write-back. -/
theorem before1_reset (c : Dev nD) (w : Fin cfg1.W) (hw : (cfg1.win w).isOut = true)
    (hfl : ∀ t : Fin cfg1.N, (cfg1.win w).flush t = true ↔ t.val % 10 = 9) (t : Fin cfg1.N) (h : t.val % 10 = 0) (d) :
    (dat1 V c).before w t d = d :=
  Dat.before_out_reset _ w hw t (by
    by_cases hz : t.val = 0
    · exact .inl hz
    · exact .inr ⟨hz, (hfl _).mpr (by dsimp only; omega)⟩) d

/-- At a later point it holds what the body left at the point before: not written back between, live and uncut. -/
theorem before1_kept (c : Dev nD) (w : Fin cfg1.W) (hw : (cfg1.win w).isOut = true)
    (hfl : ∀ t : Fin cfg1.N, (cfg1.win w).flush t = true ↔ t.val % 10 = 9)
    (hlive : ∀ i, cfg1.idle w i = false) (hclip : ∀ (i : cfg1.grid.Coords) a, (cfg1.win w).clip i a = none)
    (t : Fin cfg1.N) (h : ¬t.val % 10 = 0) (d) :
    (dat1 V c).before w t d = (dat1 V c).after w ⟨t.val - 1, Nat.lt_of_le_of_lt (Nat.sub_le _ _) t.isLt⟩ :=
  Dat.before_out_kept _ w hw t (by omega)
    (Bool.eq_false_iff.mpr fun hf => by have := (hfl _).mp hf; dsimp only at this; omega) hlive hclip d

theorem before1_1_later (c : Dev nD) (t : Fin cfg1.N) (h : ¬t.val % 10 = 0) (d) :
    (dat1 V c).before 1 t d = (acc1 V c (t.val - 1) (Nat.lt_of_le_of_lt (Nat.sub_le _ _) t.isLt)).1 :=
  (before1_kept V c 1 rfl flush1_1 (fun _ => rfl) (fun _ _ => rfl) t h d).trans (after1_1 V c _)
theorem before1_2_later (c : Dev nD) (t : Fin cfg1.N) (h : ¬t.val % 10 = 0) (d) :
    (dat1 V c).before 2 t d = (acc1 V c (t.val - 1) (Nat.lt_of_le_of_lt (Nat.sub_le _ _) t.isLt)).2.1 :=
  (before1_kept V c 2 rfl flush1_2 (fun _ => rfl) (fun _ _ => rfl) t h d).trans (after1_2 V c _)
theorem before1_3_later (c : Dev nD) (t : Fin cfg1.N) (h : ¬t.val % 10 = 0) (d) :
    (dat1 V c).before 3 t d = (acc1 V c (t.val - 1) (Nat.lt_of_le_of_lt (Nat.sub_le _ _) t.isLt)).2.2.1 :=
  (before1_kept V c 3 rfl flush1_3 (fun _ => rfl) (fun _ _ => rfl) t h d).trans (after1_3 V c _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1600000 in
/-- The body at any point. The input's buffer holds the point's block. At a core's first point the accumulators' buffers
    and the plane hold anything and the first case's run applies; at a later point they hold what the point before left and
    the second case's run applies. The invariant hands the body the plane and takes it back at this point's contents; the
    other scoped buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  rw [after1_0, after1_1, after1_2, after1_3]
  have hN : t.val < 20 := lt_of_lt_of_eq t.isLt (show cfg1.N = 20 from N_1)
  by_cases h0 : t.val % 10 = 0
  · rw [acc1_first V c t h0]
    by_cases hz : t.val = 0
    · rw [Phi1_castSucc V c t, Phi1_zero V c _ _ hz, PhiA1_eq]
      iintro ⟨⟨⟨HS0, HR⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => (hcond1_1 t).mp h h0) (iblk1 V c 0 t) Set.univ _)
      isplitl [H0]; · iexact H0
      isplitl [H1]; · iexists _; iexact H1
      isplitl [H2]; · iexists _; iexact H2
      isplitl [H3]; · iexists _; iexact H3
      isplitl [HS0]; · iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
    · rw [Phi1_castSucc V c t, Phi1_pos V c _ _ hz]
      iintro ⟨⟨⟨HS0, HR⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => (hcond1_1 t).mp h h0) (iblk1 V c 0 t) Set.univ _)
      isplitl [H0]; · iexact H0
      isplitl [H1]; · iexists _; iexact H1
      isplitl [H2]; · iexists _; iexact H2
      isplitl [H3]; · iexists _; iexact H3
      isplitl [HS0]; · iexists _; iexact HS0
      iintro ⟨H0, H1, H2, H3, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      iexact H3
  · rw [acc1_later V c t h0]
    simp only [before1_1_later V c t h0, before1_2_later V c t h0, before1_3_later V c t h0]
    have hz : t.val ≠ 0 := fun e => h0 (by rw [e])
    rw [Phi1_castSucc V c t, Phi1_pos V c _ _ hz]
    iintro ⟨⟨⟨HS0, HR⟩, Hg⟩, Ho, ⟨%d0, H0⟩, ⟨%d1, H1⟩, ⟨%d2, H2⟩, ⟨%d3, H3⟩⟩
    iapply (run1_B c (grid1.coords t) _ _ _ _ _ _ _ _ _ _ (fun h => h0 ((hcond1_0 t).mp h)) ((hcond1_1 t).mpr h0) (iblk1 V c 0 t)
      (acc1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point the invariant gives the launch's form back: the plane's named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨HS0, HR⟩, Hg⟩
  isplitl [HS0 HR]
  · isplitl [HS0]; · iexists _; iexact HS0
    iexact HR
  iexact Hg

/-- The same after the last point. -/
theorem hout1 (c : Dev nD) : (dat1 V c).Φ (Fin.last cfg1.N) ⊢ Pipeline.ΦA spec1 c :=
  Phi1_out V c _ (by rw [Fin.val_last]; have : cfg1.N = 20 := N_1; omega)

end Cert.Kernel.Hand

end
-- ==== Proof.WFacts.lean ====
/-
  The two kernels' body obligations and the ends of the finite-difference region's invariant, handed to the run.
-/
import proofs.«417857_j15487652069654_3_alg».proof.Proof.WRun
import proofs.«417857_j15487652069654_3_alg».proof.Proof.WBody0
import proofs.«417857_j15487652069654_3_alg».proof.Proof.WBody1

noncomputable section

namespace Cert.Kernel.Hand

open Idealize.ShloMosaic

/-- What the run takes from the bodies, at any float instance. -/
instance bodyFacts {F : FTy → Type} [FloatOps F] : BodyFacts F where
  body_obligation0 := fun V c => Cert.Kernel.Hand.body_obligation0 V c
  body_obligation1 := fun V c => Cert.Kernel.Hand.body_obligation1 V c
  hin1 := fun V c => Cert.Kernel.Hand.hin1 V c
  hout1 := fun V c => Cert.Kernel.Hand.hout1 V c

end Cert.Kernel.Hand

end
-- ==== Proof.KTerms.lean ====
/-
  The kernel program's host stages as named pure terms: what its host operations compute from the two regions' output arrays.

  * kflat / kfield — the label maps as [53760,128] arrays and the field as a [3,160,192,224] array (row-major re-indexing);
  * kHist — the two cores' partial histograms added: a [3,128] array (rows: first map, second map, agreement);
  * kRow  — one of its rows cut to the 26 classes;
  * kDice, kValidIdx, kSimOf — the dice quotient class by class and one minus its mean over the classes 1 … 25;
  * kPair — the two cores' partial sums of squared differences added (the value sits at the corner of each core's block);
  * kSeam — the squared differences between depth planes 80 and 79, which neither core's walk sees;
  * kSmoothOf, kTotalOf — the three means added and divided by three; the similarity term plus one times that.
  Each body is the composition, in the program's order, of the functions the host operations apply.
-/
import proofs.«417857_j15487652069654_3_alg».proof.Proof.Gen.KernelIdeal

noncomputable section

namespace Cert.KernelIdeal.Hand

open Cert.KernelIdeal Cert.KernelIdeal.Gen Idealize.ShloMosaic

variable {F : FTy → Type} [FloatOps F]

/-- A label map as a [53760,128] array, in row-major order. -/
def kflat (a : (⟨S1x160x192x224, .i32⟩ : BufTy).Contents (Elt F)) : (⟨S53760x128, .i32⟩ : BufTy).Contents (Elt F) :=
  fun i => shapeCast S53760x128 a shapeCasts_S1x160x192x224_S53760x128 i

/-- The field without its unit batch axis. -/
def kfield (v : (⟨S1x3x160x192x224, .f32⟩ : BufTy).Contents (Elt F)) : (⟨S3x160x192x224, .f32⟩ : BufTy).Contents (Elt F) :=
  fun i => shapeCast S3x160x192x224 v shapeCasts_S1x3x160x192x224_S3x160x192x224 i

/-- Core 0's and core 1's partial histograms, each as a [3,128] array. -/
def kHalf0 (arr : (⟨S2x3x128, .f32⟩ : BufTy).Contents (Elt F)) : (⟨S3x128, .f32⟩ : BufTy).Contents (Elt F) :=
  fun i => shapeCast S3x128 (extractStridedSlice S1x3x128 ![0, 0, 0] arr slices_S2x3x128_S1x3x128_0_0_0) shapeCasts_S1x3x128_S3x128 i
def kHalf1 (arr : (⟨S2x3x128, .f32⟩ : BufTy).Contents (Elt F)) : (⟨S3x128, .f32⟩ : BufTy).Contents (Elt F) :=
  fun i => shapeCast S3x128 (extractStridedSlice S1x3x128 ![1, 0, 0] arr slices_S2x3x128_S1x3x128_1_0_0) shapeCasts_S1x3x128_S3x128 i

/-- The two partial histograms added. -/
def kHist (arr : (⟨S2x3x128, .f32⟩ : BufTy).Contents (Elt F)) : (⟨S3x128, .f32⟩ : BufTy).Contents (Elt F) :=
  (addf : (⟨S3x128, .f32⟩ : BufTy).Contents (Elt F) → (⟨S3x128, .f32⟩ : BufTy).Contents (Elt F) → (⟨S3x128, .f32⟩ : BufTy).Contents (Elt F)) (kHalf0 arr) (kHalf1 arr)

/-- The histogram's rows cut to the 26 classes. -/
def kRow0 (h : (⟨S3x128, .f32⟩ : BufTy).Contents (Elt F)) : (⟨S26, .f32⟩ : BufTy).Contents (Elt F) :=
  fun i => shapeCast S26 (extractStridedSlice S1x26 ![0, 0] h slices_S3x128_S1x26_0_0) shapeCasts_S1x26_S26 i
def kRow1 (h : (⟨S3x128, .f32⟩ : BufTy).Contents (Elt F)) : (⟨S26, .f32⟩ : BufTy).Contents (Elt F) :=
  fun i => shapeCast S26 (extractStridedSlice S1x26 ![1, 0] h slices_S3x128_S1x26_1_0) shapeCasts_S1x26_S26 i
def kRow2 (h : (⟨S3x128, .f32⟩ : BufTy).Contents (Elt F)) : (⟨S26, .f32⟩ : BufTy).Contents (Elt F) :=
  fun i => shapeCast S26 (extractStridedSlice S1x26 ![2, 0] h slices_S3x128_S1x26_2_0) shapeCasts_S1x26_S26 i

/-- The dice quotient class by class: (2 · iv + ε) / ((fv + mv) + ε). -/
def kDice (fv mv iv : (⟨S26, .f32⟩ : BufTy).Contents (Elt F)) : (⟨S26, .f32⟩ : BufTy).Contents (Elt F) :=
  (Host.divf : (⟨S26, .f32⟩ : BufTy).Contents (Elt F) → (⟨S26, .f32⟩ : BufTy).Contents (Elt F) → (⟨S26, .f32⟩ : BufTy).Contents (Elt F))
    ((addf : (⟨S26, .f32⟩ : BufTy).Contents (Elt F) → (⟨S26, .f32⟩ : BufTy).Contents (Elt F) → (⟨S26, .f32⟩ : BufTy).Contents (Elt F))
      ((mulf : (⟨S26, .f32⟩ : BufTy).Contents (Elt F) → (⟨S26, .f32⟩ : BufTy).Contents (Elt F) → (⟨S26, .f32⟩ : BufTy).Contents (Elt F))
        ((broadcastInDim S26 ![] bcast_S_S26 : (⟨S_, .f32⟩ : BufTy).Contents (Elt F) → (⟨S26, .f32⟩ : BufTy).Contents (Elt F)) (constant S_ .f32 0x40000000#32))
        iv)
      ((broadcastInDim S26 ![] bcast_S_S26 : (⟨S_, .f32⟩ : BufTy).Contents (Elt F) → (⟨S26, .f32⟩ : BufTy).Contents (Elt F)) (constant S_ .f32 0x3727C5AC#32)))
    ((addf : (⟨S26, .f32⟩ : BufTy).Contents (Elt F) → (⟨S26, .f32⟩ : BufTy).Contents (Elt F) → (⟨S26, .f32⟩ : BufTy).Contents (Elt F))
      ((addf : (⟨S26, .f32⟩ : BufTy).Contents (Elt F) → (⟨S26, .f32⟩ : BufTy).Contents (Elt F) → (⟨S26, .f32⟩ : BufTy).Contents (Elt F)) fv mv)
      ((broadcastInDim S26 ![] bcast_S_S26 : (⟨S_, .f32⟩ : BufTy).Contents (Elt F) → (⟨S26, .f32⟩ : BufTy).Contents (Elt F)) (constant S_ .f32 0x3727C5AC#32)))

/-- The 25 literal class indices 1 … 25 as the gather's index table. -/
def kValidIdx : (⟨S25x1, .i32⟩ : BufTy).Contents (Elt F) :=
  (broadcastInDim S25x1 ![0] bcast_S25_S25x1_0 : (⟨S25, .i32⟩ : BufTy).Contents (Elt F) → (⟨S25x1, .i32⟩ : BufTy).Contents (Elt F))
    ((select : (⟨S25, .i1⟩ : BufTy).Contents (Elt F) → (⟨S25, .i32⟩ : BufTy).Contents (Elt F) → (⟨S25, .i32⟩ : BufTy).Contents (Elt F) → (⟨S25, .i32⟩ : BufTy).Contents (Elt F))
      (constantI S25 1 0#1)
      ((addi : (⟨S25, .i32⟩ : BufTy).Contents (Elt F) → (⟨S25, .i32⟩ : BufTy).Contents (Elt F) → (⟨S25, .i32⟩ : BufTy).Contents (Elt F))
        (fun i => lit0 (S25.rowMajor i))
        ((broadcastInDim S25 ![] bcast_S_S25 : (⟨S_, .i32⟩ : BufTy).Contents (Elt F) → (⟨S25, .i32⟩ : BufTy).Contents (Elt F)) (constantI S_ 32 26#32)))
      (fun i => lit0 (S25.rowMajor i)))

/-- One minus (the sum of a dice vector's entries at the classes 1 … 25, over 25). -/
def kSimOf (dice : (⟨S26, .f32⟩ : BufTy).Contents (Elt F)) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F))
    (constant S_ .f32 0x3F800000#32)
    ((Host.divf : (⟨S_, .f32⟩ : BufTy).Contents (Elt F) → (⟨S_, .f32⟩ : BufTy).Contents (Elt F) → (⟨S_, .f32⟩ : BufTy).Contents (Elt F))
      (((fun x v => Host.reduceAdd x v reducesTo_S25_S_d0 h_S_) : (⟨S25, .f32⟩ : BufTy).Contents (Elt F) → (⟨S_, .f32⟩ : BufTy).Contents (Elt F) → (⟨S_, .f32⟩ : BufTy).Contents (Elt F))
        (((fun x i => Host.gather gather_S26_S25x1_S25_n_0_n_n_0_1_1 x i) : (⟨S26, .f32⟩ : BufTy).Contents (Elt F) → (⟨S25x1, .i32⟩ : BufTy).Contents (Elt F) → (⟨S25, .f32⟩ : BufTy).Contents (Elt F))
          dice kValidIdx)
        (constant S_ .f32 0x00000000#32))
      (constant S_ .f32 0x41C80000#32))

/-- The value at the corner of core 0's (core 1's) block of an accumulator array. -/
def kCorner0 (z : (⟨S2x8x128, .f32⟩ : BufTy).Contents (Elt F)) : (⟨S_, .f32⟩ : BufTy).Contents (Elt F) :=
  fun i => shapeCast S_ (extractStridedSlice S1x1x1 ![0, 0, 0] z slices_S2x8x128_S1x1x1_0_0_0) shapeCasts_S1x1x1_S_ i
def kCorner1 (z : (⟨S2x8x128, .f32⟩ : BufTy).Contents (Elt F)) : (⟨S_, .f32⟩ : BufTy).Contents (Elt F) :=
  fun i => shapeCast S_ (extractStridedSlice S1x1x1 ![1, 0, 0] z slices_S2x8x128_S1x1x1_1_0_0) shapeCasts_S1x1x1_S_ i

/-- The two cores' partial sums added. -/
def kPair (z : (⟨S2x8x128, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (kCorner0 z) (kCorner1 z)

/-- Depth plane 80 (79) of the field as a [3,192,224] array. -/
def kPlane80 (w : (⟨S3x160x192x224, .f32⟩ : BufTy).Contents (Elt F)) : (⟨S3x192x224, .f32⟩ : BufTy).Contents (Elt F) :=
  fun i => shapeCast S3x192x224 (extractStridedSlice S3x1x192x224 ![0, 80, 0, 0] w slices_S3x160x192x224_S3x1x192x224_0_80_0_0) shapeCasts_S3x1x192x224_S3x192x224 i
def kPlane79 (w : (⟨S3x160x192x224, .f32⟩ : BufTy).Contents (Elt F)) : (⟨S3x192x224, .f32⟩ : BufTy).Contents (Elt F) :=
  fun i => shapeCast S3x192x224 (extractStridedSlice S3x1x192x224 ![0, 79, 0, 0] w slices_S3x160x192x224_S3x1x192x224_0_79_0_0) shapeCasts_S3x1x192x224_S3x192x224 i

/-- The squared differences across the seam between the two cores' halves, summed. -/
def kSeam (w : (⟨S3x160x192x224, .f32⟩ : BufTy).Contents (Elt F)) : (⟨S_, .f32⟩ : BufTy).Contents (Elt F) :=
  ((fun x v => Host.reduceAdd x v reducesTo_S3x192x224_S_d0_1_2 h_S_) : (⟨S3x192x224, .f32⟩ : BufTy).Contents (Elt F) → (⟨S_, .f32⟩ : BufTy).Contents (Elt F) → (⟨S_, .f32⟩ : BufTy).Contents (Elt F))
    ((mulf : (⟨S3x192x224, .f32⟩ : BufTy).Contents (Elt F) → (⟨S3x192x224, .f32⟩ : BufTy).Contents (Elt F) → (⟨S3x192x224, .f32⟩ : BufTy).Contents (Elt F))
      ((subf : (⟨S3x192x224, .f32⟩ : BufTy).Contents (Elt F) → (⟨S3x192x224, .f32⟩ : BufTy).Contents (Elt F) → (⟨S3x192x224, .f32⟩ : BufTy).Contents (Elt F)) (kPlane80 w) (kPlane79 w))
      ((subf : (⟨S3x192x224, .f32⟩ : BufTy).Contents (Elt F) → (⟨S3x192x224, .f32⟩ : BufTy).Contents (Elt F) → (⟨S3x192x224, .f32⟩ : BufTy).Contents (Elt F)) (kPlane80 w) (kPlane79 w)))
    (constant S_ .f32 0x00000000#32)

/-- The depth sum: the two cores' partial sums and the seam. -/
def kDz (z : (⟨S2x8x128, .f32⟩ : BufTy).Contents (Elt F)) (w : (⟨S3x160x192x224, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (kPair z) (kSeam w)

/-- The smoothness term of the three sums: each over its count of differences, the three means added in the program's
    order, over three. -/
def kSmoothOf (dz dy dx : (⟨S_, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F))
    ((addf : (⟨S_, .f32⟩ : BufTy).Contents (Elt F) → (⟨S_, .f32⟩ : BufTy).Contents (Elt F) → (⟨S_, .f32⟩ : BufTy).Contents (Elt F))
      ((addf : (⟨S_, .f32⟩ : BufTy).Contents (Elt F) → (⟨S_, .f32⟩ : BufTy).Contents (Elt F) → (⟨S_, .f32⟩ : BufTy).Contents (Elt F))
        ((Host.divf : (⟨S_, .f32⟩ : BufTy).Contents (Elt F) → (⟨S_, .f32⟩ : BufTy).Contents (Elt F) → (⟨S_, .f32⟩ : BufTy).Contents (Elt F)) dz (constant S_ .f32 0x4B9C8400#32))
        ((Host.divf : (⟨S_, .f32⟩ : BufTy).Contents (Elt F) → (⟨S_, .f32⟩ : BufTy).Contents (Elt F) → (⟨S_, .f32⟩ : BufTy).Contents (Elt F)) dy (constant S_ .f32 0x4B9CAE00#32)))
      ((Host.divf : (⟨S_, .f32⟩ : BufTy).Contents (Elt F) → (⟨S_, .f32⟩ : BufTy).Contents (Elt F) → (⟨S_, .f32⟩ : BufTy).Contents (Elt F)) dx (constant S_ .f32 0x4B9CCC00#32)))
    (constant S_ .f32 0x40400000#32)

/-- The total: the similarity term plus (the float one times the smoothness term). -/
def kTotalOf (sim smooth : (⟨S_, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F))
    sim
    ((mulf : (⟨S_, .f32⟩ : BufTy).Contents (Elt F) → (⟨S_, .f32⟩ : BufTy).Contents (Elt F) → (⟨S_, .f32⟩ : BufTy).Contents (Elt F)) (constant S_ .f32 0x3F800000#32) smooth)

end Cert.KernelIdeal.Hand

end
-- ==== Proof.KTail.lean ====
/-
  The kernel program's three results, read off the buffers' final contents.

  The program's host operations run in three stretches, around the two kernel regions. A stretch moves the buffers'
  contents by its operations' results in order, so what a buffer holds after it is the composition of the operations
  that lead to it, applied to what the stretch found:
  * the first stretch flattens the two label maps (the histogram region's input arrays) and writes the literal table of
    the classes 1 … 25;
  * the second takes the histogram region's output array to the similarity term (the two cores' partial histograms
    added, cut to rows and classes, the dice quotient, one minus its mean over the classes 1 … 25) and drops the
    field's batch axis (the finite-difference region's input array);
  * the third takes the finite-difference region's three output arrays and the field to the smoothness term, and the
    two terms to the total.
  A region puts its arrays at what its write-backs leave and keeps every other buffer; an input array is never
  written back. Nothing here depends on the float instance: every step is a reading of which operation wrote which
  buffer.
-/
import proofs.«417857_j15487652069654_3_alg».proof.Proof.KVals
import proofs.«417857_j15487652069654_3_alg».proof.Proof.KTerms
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen

variable {F : FTy → Type} [FloatOps F]

variable (m : (ℓ : Loc nD τ sig) → Buf (Elt F) ℓ) (ρ : Dev nD → PrngReg)

/-! ## The host stretch before the histogram region: the flattened label maps and the literal class table -/

/-- The histogram region's first window holds the first label map, flattened. -/
theorem V1_main_v0 (c : Dev nD) :
    (V1 m ρ c main_v0 : (⟨S53760x128, .i32⟩ : BufTy).Contents (Elt F)) = kflat (m ((c : Thread nD τ).loc main_arg0)) := by
  show StableHlo.after hostOps0 (W0 m ρ c) (Proc.devRef .tc main_v0) = _
  after_results <;> rfl

/-- Its second window holds the second label map, flattened. -/
theorem V1_main_v1 (c : Dev nD) :
    (V1 m ρ c main_v1 : (⟨S53760x128, .i32⟩ : BufTy).Contents (Elt F)) = kflat (m ((c : Thread nD τ).loc main_arg1)) := by
  show StableHlo.after hostOps0 (W0 m ρ c) (Proc.devRef .tc main_v1) = _
  after_results <;> rfl

/-- The literal table of the class indices 1 … 25, written before the histogram region. -/
theorem W1_main_c (c : Dev nD) :
    (W1 m ρ c (Proc.devRef .tc main_c) : (⟨S25, .i32⟩ : BufTy).Contents (Elt F)) = fun i => lit0 (S25.rowMajor i) := by
  show StableHlo.after hostOps0 (W0 m ρ c) (Proc.devRef .tc main_c) = _
  after_results <;> rfl

/-- The all-false mask written beside it. -/
theorem W1_main_c_0 (c : Dev nD) :
    (W1 m ρ c (Proc.devRef .tc main_c_0) : (⟨S25, .i1⟩ : BufTy).Contents (Elt F)) = constantI S25 1 0#1 := by
  show StableHlo.after hostOps0 (W0 m ρ c) (Proc.devRef .tc main_c_0) = _
  after_results <;> rfl

/-! ## The host stretch between the two regions -/

/-- The finite-difference region's input window holds the field without its batch axis: no item before it writes the
    field's argument buffer. -/
theorem V3_main_v30 (c : Dev nD) :
    (V3 m ρ c main_v30 : (⟨S3x160x192x224, .f32⟩ : BufTy).Contents (Elt F)) = kfield (m ((c : Thread nD τ).loc main_arg2)) := by
  show StableHlo.after hostOps1 (W2 m ρ c) (Proc.devRef .tc main_v30) = _
  after_results
  rw [W2_of_ne m ρ c main_arg2 (by decide), W1_of m ρ c main_arg2 (by decide)]
  rfl

/-- The class table and the mask are still there after the histogram region: neither is one of its arrays. -/
theorem W2_main_c (c : Dev nD) :
    (W2 m ρ c (Proc.devRef .tc main_c) : (⟨S25, .i32⟩ : BufTy).Contents (Elt F)) = fun i => lit0 (S25.rowMajor i) :=
  (W2_of_ne m ρ c main_c (by decide)).trans (W1_main_c m ρ c)

theorem W2_main_c_0 (c : Dev nD) :
    (W2 m ρ c (Proc.devRef .tc main_c_0) : (⟨S25, .i1⟩ : BufTy).Contents (Elt F)) = constantI S25 1 0#1 :=
  (W2_of_ne m ρ c main_c_0 (by decide)).trans (W1_main_c_0 m ρ c)

/-- The histogram region's output array at its exit: what the pipeline's write-backs leave. -/
theorem W2_main_v2 (c : Dev nD) :
    (W2 m ρ c (Proc.devRef .tc main_v2) : (⟨S2x3x128, .f32⟩ : BufTy).Contents (Elt F)) = (dat0 (V1 m ρ) c).arrAt 2 cfg0.N :=
  W2_arr m ρ c 2

/-- The similarity term, as the second host stretch leaves it: the dice chain applied to the histogram region's
    output array. -/
theorem W3_main_v29 (c : Dev nD) :
    (W3 m ρ c (Proc.devRef .tc main_v29) : (⟨S_, .f32⟩ : BufTy).Contents (Elt F))
      = kSimOf (kDice (kRow0 (kHist ((dat0 (V1 m ρ) c).arrAt 2 cfg0.N))) (kRow1 (kHist ((dat0 (V1 m ρ) c).arrAt 2 cfg0.N)))
          (kRow2 (kHist ((dat0 (V1 m ρ) c).arrAt 2 cfg0.N)))) := by
  show StableHlo.after hostOps1 (W2 m ρ c) (Proc.devRef .tc main_v29) = _
  after_results_simp
  rw [W2_main_v2 m ρ c, W2_main_c m ρ c, W2_main_c_0 m ρ c]
  generalize (dat0 (V1 m ρ) c).arrAt 2 cfg0.N = arr0
  rfl

/-! ## The host stretch after the finite-difference region -/

/-- The finite-difference region's three output arrays at its exit: what the pipeline's write-backs leave. -/
theorem W4_main_v31_0 (c : Dev nD) :
    (W4 m ρ c (Proc.devRef .tc main_v31_0) : (⟨S2x8x128, .f32⟩ : BufTy).Contents (Elt F)) = (dat1 (V3 m ρ) c).arrAt 1 cfg1.N :=
  W4_arr m ρ c 1
theorem W4_main_v31_1 (c : Dev nD) :
    (W4 m ρ c (Proc.devRef .tc main_v31_1) : (⟨S2x8x128, .f32⟩ : BufTy).Contents (Elt F)) = (dat1 (V3 m ρ) c).arrAt 2 cfg1.N :=
  W4_arr m ρ c 2
theorem W4_main_v31_2 (c : Dev nD) :
    (W4 m ρ c (Proc.devRef .tc main_v31_2) : (⟨S2x8x128, .f32⟩ : BufTy).Contents (Elt F)) = (dat1 (V3 m ρ) c).arrAt 3 cfg1.N :=
  W4_arr m ρ c 3

/-- Its input array, the field without its batch axis, is never written back: at the exit it is as entered. -/
theorem W4_main_v30 (c : Dev nD) :
    (W4 m ρ c (Proc.devRef .tc main_v30) : (⟨S3x160x192x224, .f32⟩ : BufTy).Contents (Elt F)) = kfield (m ((c : Thread nD τ).loc main_arg2)) :=
  calc (W4 m ρ c (Proc.devRef .tc main_v30) : (⟨S3x160x192x224, .f32⟩ : BufTy).Contents (Elt F))
    _ = (dat1 (V3 m ρ) c).arrAt 0 cfg1.N := W4_arr m ρ c 0
    _ = (dat1 (V3 m ρ) c).A 0 := (dat1 (V3 m ρ) c).arrAt_in 0 rfl cfg1.N
    _ = V3 m ρ c main_v30 := A_eq1 (V3 m ρ) c 0
    _ = kfield (m ((c : Thread nD τ).loc main_arg2)) := V3_main_v30 m ρ c

/-- The similarity term is still there at the end: the finite-difference region and the last stretch do not write it. -/
theorem W4_main_v29 (c : Dev nD) :
    (W4 m ρ c (Proc.devRef .tc main_v29) : (⟨S_, .f32⟩ : BufTy).Contents (Elt F))
      = kSimOf (kDice (kRow0 (kHist ((dat0 (V1 m ρ) c).arrAt 2 cfg0.N))) (kRow1 (kHist ((dat0 (V1 m ρ) c).arrAt 2 cfg0.N)))
          (kRow2 (kHist ((dat0 (V1 m ρ) c).arrAt 2 cfg0.N)))) :=
  (W4_of_ne m ρ c main_v29 (by decide)).trans (W3_main_v29 m ρ c)

/-- The first result: the similarity term. -/
theorem W5_main_v29 (c : Dev nD) :
    (W5 m ρ c (Proc.devRef .tc main_v29) : (⟨S_, .f32⟩ : BufTy).Contents (Elt F))
      = kSimOf (kDice (kRow0 (kHist ((dat0 (V1 m ρ) c).arrAt 2 cfg0.N))) (kRow1 (kHist ((dat0 (V1 m ρ) c).arrAt 2 cfg0.N)))
          (kRow2 (kHist ((dat0 (V1 m ρ) c).arrAt 2 cfg0.N)))) :=
  (W5_of m ρ c main_v29 (by decide)).trans (W4_main_v29 m ρ c)

set_option maxHeartbeats 800000 in
/-- The second result: the smoothness term of the three sums (depth: the two cores' partial sums and the seam;
    height and width: the two cores' partial sums). -/
theorem W5_main_v60 (c : Dev nD) :
    (W5 m ρ c (Proc.devRef .tc main_v60) : (⟨S_, .f32⟩ : BufTy).Contents (Elt F))
      = kSmoothOf (kDz ((dat1 (V3 m ρ) c).arrAt 1 cfg1.N) (kfield (m ((c : Thread nD τ).loc main_arg2))))
          (kPair ((dat1 (V3 m ρ) c).arrAt 2 cfg1.N)) (kPair ((dat1 (V3 m ρ) c).arrAt 3 cfg1.N)) := by
  show StableHlo.after hostOps2 (W4 m ρ c) (Proc.devRef .tc main_v60) = _
  after_results_simp
  rw [W4_main_v31_0 m ρ c, W4_main_v31_1 m ρ c, W4_main_v31_2 m ρ c, W4_main_v30 m ρ c]
  generalize (dat1 (V3 m ρ) c).arrAt 1 cfg1.N = arrZ
  generalize (dat1 (V3 m ρ) c).arrAt 2 cfg1.N = arrY
  generalize (dat1 (V3 m ρ) c).arrAt 3 cfg1.N = arrX
  generalize kfield (m ((c : Thread nD τ).loc main_arg2)) = fld
  rfl

set_option maxHeartbeats 800000 in
/-- The third result: the similarity term plus one times the smoothness term. -/
theorem W5_main_v62 (c : Dev nD) :
    (W5 m ρ c (Proc.devRef .tc main_v62) : (⟨S_, .f32⟩ : BufTy).Contents (Elt F))
      = kTotalOf
          (kSimOf (kDice (kRow0 (kHist ((dat0 (V1 m ρ) c).arrAt 2 cfg0.N))) (kRow1 (kHist ((dat0 (V1 m ρ) c).arrAt 2 cfg0.N)))
            (kRow2 (kHist ((dat0 (V1 m ρ) c).arrAt 2 cfg0.N)))))
          (kSmoothOf (kDz ((dat1 (V3 m ρ) c).arrAt 1 cfg1.N) (kfield (m ((c : Thread nD τ).loc main_arg2))))
            (kPair ((dat1 (V3 m ρ) c).arrAt 2 cfg1.N)) (kPair ((dat1 (V3 m ρ) c).arrAt 3 cfg1.N))) := by
  show StableHlo.after hostOps2 (W4 m ρ c) (Proc.devRef .tc main_v62) = _
  after_results_simp
  rw [W4_main_v31_0 m ρ c, W4_main_v31_1 m ρ c, W4_main_v31_2 m ρ c, W4_main_v30 m ρ c, W4_main_v29 m ρ c]
  generalize (dat1 (V3 m ρ) c).arrAt 1 cfg1.N = arrZ
  generalize (dat1 (V3 m ρ) c).arrAt 2 cfg1.N = arrY
  generalize (dat1 (V3 m ρ) c).arrAt 3 cfg1.N = arrX
  generalize kfield (m ((c : Thread nD τ).loc main_arg2)) = fld
  generalize kSimOf (kDice (kRow0 (kHist ((dat0 (V1 m ρ) c).arrAt 2 cfg0.N))) (kRow1 (kHist ((dat0 (V1 m ρ) c).arrAt 2 cfg0.N)))
            (kRow2 (kHist ((dat0 (V1 m ρ) c).arrAt 2 cfg0.N)))) = sim
  rfl

end Cert.KernelIdeal.Hand

end
-- ==== Proof.KHist.lean ====
/-
  What the histogram kernel's pure computation gives, over the extended reals.

  For each class c = 1 … 25 the kernel forms, for each of the two label blocks, the block that is 1 where the label is c
  and 0 elsewhere (the labels and the class number compared as bf16 values, which at the exact values are the integers
  themselves), and the product of the two; it sums each such block entirely (a product with the all-ones row gives the
  column sums, a lane sum their total) and adds the total to lane c of an accumulator row that starts at zero. Here the
  25 unrolled steps are read as one fold over the list of classes, the fold is read at a lane as a sum over the classes
  of total × one-hot entry, and that sum is the one class whose number is the lane's: lane l of the three rows holds, for
  1 ≤ l ≤ 25, the number of entries equal to l in the first block, in the second block, and in both at once; the other
  lanes hold 0.
-/
import proofs.«417857_j15487652069654_3_alg».proof.Proof.KContrib
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx Cert.KernelIdeal Cert.KernelIdeal.Gen

namespace Hist

/-! ## The parts of one class's step -/
/-- The lane numbers 0 … 127 of a row. -/
def lanes : IVec S1x128 32 := iota .tc S1x128 32 [1] iota_S1x128_d1_w32

/-- The row that is 1 at the lane whose number is the word c and 0 elsewhere. -/
def hot (c : BitVec 32) : FVec Ideal S1x128 .f32 :=
  sitofp .f32 (extui 32 (cmpi .eq lanes (broadcast S1x128 c)) natLt_1_32)

/-- The block that is 1 where x equals the value the pattern k denotes and 0 elsewhere. -/
def mask (x : FVec Ideal S6720x128 .bf16) (k : BitVec 16) : FVec Ideal S6720x128 .bf16 :=
  truncf .bf16 (sitofp .f32 (extui 32 (cmpf .oeq x (broadcast S6720x128 (Scalar.ofBits (F := Ideal) .bf16 k))) natLt_1_32)) bitsLt_bf16_f32

/-- The sum of all entries of a block: a column sum by a product with the all-ones row, then the sum over the lanes. -/
def total (m : FVec Ideal S6720x128 .bf16) : FVec Ideal S1x1 .f32 :=
  shapeCast S1x1 (multiReduction .add [1] S1
    (matmul dot_S1x6720_S6720x128_S1x128_1_0_0_1_n_n none (k0_pay7 (F := Ideal)) m (constant S1x128 .f32 0x00000000#32))
    0x00000000#32 reduces_S1x128_S1 (.inl rfl) rfl) shapeCasts_S1_S1x1

/-- One class's update of an accumulator row: the total n added at lane c. -/
def bump (acc : FVec Ideal S1x128 .f32) (n : FVec Ideal S1x1 .f32) (c : BitVec 32) : FVec Ideal S1x128 .f32 :=
  addf acc (mulf (broadcastTo S1x128 n broadcasts_S1x1_S1x128) (hot c))

/-! ## The parts read at an index -/

/-- A lane's number. -/
theorem lanes_apply (l : Fin 128) : lanes (ix2 (0 : Fin 1) l) = BitVec.ofNat 32 l.val := by
  unfold lanes
  rw [iota_single_apply]

/-- A one-bit word widened and read as a signed integer, as an extended real: the bit. -/
private theorem sitofp_bit_one : FloatOps.sitofp (F := Ideal) .f32 ((1#1 : BitVec 1).setWidth 32) = (1 : EReal) := by
  show (((((1#1 : BitVec 1).setWidth 32).toInt : ℝ)) : EReal) = 1
  have : ((1#1 : BitVec 1).setWidth 32).toInt = 1 := by decide
  rw [this]; simp
private theorem sitofp_bit_zero : FloatOps.sitofp (F := Ideal) .f32 ((0#1 : BitVec 1).setWidth 32) = (0 : EReal) := by
  show (((((0#1 : BitVec 1).setWidth 32).toInt : ℝ)) : EReal) = 0
  have : ((0#1 : BitVec 1).setWidth 32).toInt = 0 := by decide
  rw [this]; simp

/-- The one-hot row at a lane. -/
theorem hot_apply (c : BitVec 32) (l : Fin 128) :
    hot c (ix2 (0 : Fin 1) l) = if BitVec.ofNat 32 l.val = c then (1 : EReal) else 0 := by
  unfold hot
  rw [sitofp_apply, extui_apply]
  show FloatOps.sitofp (F := Ideal) .f32 ((IntOp.cmpi .eq (lanes (ix2 0 l)) c).setWidth 32) = _
  rw [lanes_apply]
  by_cases h : BitVec.ofNat 32 l.val = c
  · rw [if_pos h]
    have : IntOp.cmpi .eq (BitVec.ofNat 32 l.val) c = 1#1 := by simp [IntOp.cmpi, h]
    rw [this, sitofp_bit_one]
  · rw [if_neg h]
    have hb : (BitVec.ofNat 32 l.val == c) = false := beq_eq_false_iff_ne.mpr h
    have : IntOp.cmpi .eq (BitVec.ofNat 32 l.val) c = 0#1 := by simp [IntOp.cmpi, hb]
    rw [this, sitofp_bit_zero]

/-- The mask at an entry. -/
theorem mask_apply (x : FVec Ideal S6720x128 .bf16) (k : BitVec 16) (i : S6720x128.Idx) :
    mask x k i = if x i = Ideal.ofBits .bf16 k then (1 : EReal) else 0 := by
  unfold mask
  rw [truncf_apply, sitofp_apply, extui_apply, cmpf_apply, broadcast_apply]
  show FloatOps.sitofp (F := Ideal) .f32 ((Ideal.cmp .oeq (x i) (Ideal.ofBits .bf16 k)).setWidth 32) = _
  by_cases h : x i = Ideal.ofBits .bf16 k
  · rw [if_pos h]
    have : Ideal.cmp .oeq (x i) (Ideal.ofBits .bf16 k) = 1#1 := by simp [Ideal.cmp, h]
    rw [this, sitofp_bit_one]
  · rw [if_neg h]
    have : Ideal.cmp .oeq (x i) (Ideal.ofBits .bf16 k) = 0#1 := by simp [Ideal.cmp, h]
    rw [this, sitofp_bit_zero]

/-- One class's update read at a lane. -/
theorem bump_apply (acc : FVec Ideal S1x128 .f32) (n : FVec Ideal S1x1 .f32) (c : BitVec 32) (l : Fin 128) :
    bump acc n c (ix2 (0 : Fin 1) l) = acc (ix2 (0 : Fin 1) l) + n (ix2 (0 : Fin 1) (0 : Fin 1)) * hot c (ix2 (0 : Fin 1) l) := by
  unfold bump
  rw [addf_apply, mulf_apply]
  congr 2
  refine broadcastTo_apply _ _ _ _ fun a => ?_
  match a with
  | ⟨0, _⟩ => rfl
  | ⟨1, _⟩ => rfl

/-- The bf16 pattern 0x3F80 denotes 1. -/
theorem ofBits_bf16_one : Ideal.ofBits .bf16 0x3F80#16 = (1 : EReal) := by
  simp [Ideal.ofBits, Ideal.ieee, -EReal.coe_mul]; norm_num

/-- The all-ones row at an entry. -/
theorem ones_apply (i : S1x6720.Idx) : k0_pay7 (F := Ideal) i = (1 : EReal) := by
  show Ideal.ofBits .bf16 0x3F80#16 = 1
  exact ofBits_bf16_one

/-- The product of the all-ones row with a block, onto a zero accumulator, at a lane: the column's sum. -/
theorem colsum_apply (m : FVec Ideal S6720x128 .bf16) (q : Fin 128) :
    matmul dot_S1x6720_S6720x128_S1x128_1_0_0_1_n_n none (k0_pay7 (F := Ideal)) m (constant S1x128 .f32 0x00000000#32) (ix2 (0 : Fin 1) q)
      = ∑ r : Fin 6720, m (ix2 r q) := by
  show FloatOps.matmul _ none _ _ _ _ = _
  rw [Ideal.matmul_constant_zero_apply,
    ← Equiv.sum_comp (contrEquiv1 dot_S1x6720_S6720x128_S1x128_1_0_0_1_n_n 6720 rfl rfl).symm]
  refine Finset.sum_congr rfl fun r _ => ?_
  have cv := contrEquiv1_symm_val dot_S1x6720_S6720x128_S1x128_1_0_0_1_n_n 6720 rfl rfl r
  have hr : dot_S1x6720_S6720x128_S1x128_1_0_0_1_n_n.rhsIdx (ix2 (0 : Fin 1) q)
      ((contrEquiv1 dot_S1x6720_S6720x128_S1x128_1_0_0_1_n_n 6720 rfl rfl).symm r) = ix2 r q := by
    funext ax; apply Fin.ext
    match ax with
    | ⟨0, _⟩ => simp [DotDims.rhsIdx, dot_S1x6720_S6720x128_S1x128_1_0_0_1_n_n]; exact cv
    | ⟨1, _⟩ => simp [DotDims.rhsIdx, dot_S1x6720_S6720x128_S1x128_1_0_0_1_n_n]; rfl
  rw [hr, ones_apply, one_mul]

/-- The total of a block: the sum of all its entries. -/
theorem total_apply (m : FVec Ideal S6720x128 .bf16) :
    total m (ix2 (0 : Fin 1) (0 : Fin 1)) = ∑ r : Fin 6720, ∑ q : Fin 128, m (ix2 r q) := by
  unfold total
  refine (shapeCast_apply (s := S1) (t := S1x1) _ shapeCasts_S1_S1x1 (ix2 (0 : Fin 1) (0 : Fin 1)) (ix1 (0 : Fin 1)) ?_).trans ?_
  · rfl
  refine (Ideal.multiReduction_add_single _ 0x00000000#32 reduces_S1x128_S1 _ _ (ix1 (0 : Fin 1))).trans ?_
  rw [Finset.sum_comm]
  refine Finset.sum_congr rfl fun q _ => ?_
  have hq : reduces_S1x128_S1.lift (ix1 (0 : Fin 1)) q = ix2 (0 : Fin 1) q := by
    funext ax; apply Fin.ext
    match ax with
    | ⟨0, _⟩ => rfl
    | ⟨1, _⟩ => rfl
  rw [hq]
  exact colsum_apply m q

/-! ## The 25 classes -/

/-- The 25 class patterns: the number c + 1 as a bf16 pattern, for c = 0 … 24. -/
def pat : Fin 25 → BitVec 16 :=
  ![0x3F80#16, 0x4000#16, 0x4040#16, 0x4080#16, 0x40A0#16, 0x40C0#16, 0x40E0#16, 0x4100#16, 0x4110#16, 0x4120#16,
    0x4130#16, 0x4140#16, 0x4150#16, 0x4160#16, 0x4170#16, 0x4180#16, 0x4188#16, 0x4190#16, 0x4198#16, 0x41A0#16,
    0x41A8#16, 0x41B0#16, 0x41B8#16, 0x41C0#16, 0x41C8#16]

/-- The classes in the order the kernel takes them: each class's bf16 pattern and its number as a lane word. -/
def classes : List (BitVec 16 × BitVec 32) := List.ofFn fun c : Fin 25 => (pat c, BitVec.ofNat 32 (c.val + 1))

/-- An accumulator row after the classes of a list, each adding the total of its block m k at its lane, from the zero row. -/
def hist (m : BitVec 16 → FVec Ideal S6720x128 .bf16) (L : List (BitVec 16 × BitVec 32)) : FVec Ideal S1x128 .f32 :=
  L.foldl (fun acc kc => bump acc (total (m kc.1)) kc.2) (broadcast S1x128 (Scalar.ofBits (F := Ideal) .f32 0x00000000#32))

/-- The histogram kernel's pure computation is the three accumulator rows: first map, second map, both. -/
theorem contrib0_eq_hist (v3 v5 : Vec Ideal S6720x128 .i32) :
    contrib0 (F := Ideal) v3 v5 =
      (hist (fun k => mask (k0_pay5 v3) k) classes,
       hist (fun k => mask (k0_pay6 v5) k) classes,
       hist (fun k => mulf (mask (k0_pay5 v3) k) (mask (k0_pay6 v5) k)) classes) := by
  rfl

/-- A chain of class updates read at a lane: the start plus the classes' totals, each times its one-hot row's entry. -/
theorem foldl_bump_apply (T : BitVec 16 → FVec Ideal S1x1 .f32) (L : List (BitVec 16 × BitVec 32))
    (a : FVec Ideal S1x128 .f32) (l : Fin 128) :
    (L.foldl (fun acc kc => bump acc (T kc.1) kc.2) a) (ix2 (0 : Fin 1) l)
      = a (ix2 (0 : Fin 1) l) + (L.map fun kc => T kc.1 (ix2 (0 : Fin 1) (0 : Fin 1)) * hot kc.2 (ix2 (0 : Fin 1) l)).sum := by
  induction L generalizing a with
  | nil => simp
  | cons kc L ih => rw [List.foldl_cons, ih, bump_apply, List.map_cons, List.sum_cons, add_assoc]

/-- Two lane words below 2^32 are equal exactly when the numbers are. -/
private theorem ofNat_eq_iff (l : Fin 128) (c : Fin 25) :
    BitVec.ofNat 32 l.val = BitVec.ofNat 32 (c.val + 1) ↔ l.val = c.val + 1 := by
  constructor
  · intro h
    have h' := congrArg BitVec.toNat h
    simp only [BitVec.toNat_ofNat] at h'
    have := l.isLt; have := c.isLt
    omega
  · intro h; rw [h]

/-- A sum over the classes of a value times the class's one-hot entry at lane l: the value of class l when 1 ≤ l ≤ 25, else 0. -/
theorem sum_onehot (G : ℕ → EReal) (l : Fin 128) :
    ∑ c : Fin 25, G (c.val + 1) * (if BitVec.ofNat 32 l.val = BitVec.ofNat 32 (c.val + 1) then (1 : EReal) else 0)
      = if 1 ≤ l.val ∧ l.val ≤ 25 then G l.val else 0 := by
  simp only [ofNat_eq_iff, mul_ite, mul_one, mul_zero]
  by_cases h : 1 ≤ l.val ∧ l.val ≤ 25
  · rw [if_pos h, Finset.sum_eq_single (⟨l.val - 1, by omega⟩ : Fin 25)]
    · have e : l.val - 1 + 1 = l.val := by omega
      simp only [e, if_true]
    · intro c _ hc
      rw [if_neg]
      intro h'
      exact hc (Fin.ext (by simp only; omega))
    · intro h'; exact absurd (Finset.mem_univ _) h'
  · rw [if_neg h]
    refine Finset.sum_eq_zero fun c _ => ?_
    rw [if_neg]
    have := c.isLt
    omega

/-- An accumulator row of the kernel at a lane: class l's total when 1 ≤ l ≤ 25, else 0 — given each class's total as a function G of the class number. -/
theorem hist_apply (m : BitVec 16 → FVec Ideal S6720x128 .bf16) (G : ℕ → EReal)
    (hG : ∀ c : Fin 25, total (m (pat c)) (ix2 (0 : Fin 1) (0 : Fin 1)) = G (c.val + 1)) (l : Fin 128) :
    hist m classes (ix2 (0 : Fin 1) l) = if 1 ≤ l.val ∧ l.val ≤ 25 then G l.val else 0 := by
  unfold hist
  rw [foldl_bump_apply (fun k => total (m k))]
  rw [broadcast_apply]
  show Ideal.ofBits .f32 0x00000000#32 + _ = _
  rw [Ideal.ofBits_zero_f32, zero_add, classes, List.map_ofFn, List.sum_ofFn, ← sum_onehot G l]
  refine Finset.sum_congr rfl fun c _ => ?_
  show total (m (pat c)) _ * hot (BitVec.ofNat 32 (c.val + 1)) _ = _
  rw [hG c, hot_apply]

/-! ## The class patterns as numbers, and words as numbers -/

/-- Each class pattern denotes its class number. -/
theorem pat_denotes (c : Fin 25) : Ideal.ofBits .bf16 (pat c) = (((c.val + 1 : ℕ) : ℝ) : EReal) := by
  fin_cases c <;> simp [pat, Ideal.ofBits, Ideal.ieee, -EReal.coe_mul] <;> norm_num

/-- A 32-bit word read as a signed integer is a number n below 2^31 exactly when it is the word of n. -/
private theorem toInt_eq_iff (w : BitVec 32) (n : ℕ) (hn : n < 2147483648) : w.toInt = (n : ℤ) ↔ w = BitVec.ofNat 32 n := by
  have hc := BitVec.toInt_eq_toNat_cond w
  have hlt : w.toNat < 4294967296 := w.isLt
  have hw : w = BitVec.ofNat 32 n ↔ w.toNat = n := by
    constructor
    · rintro rfl; rw [BitVec.toNat_ofNat]; omega
    · intro h; apply BitVec.eq_of_toNat_eq; rw [BitVec.toNat_ofNat, h]; omega
  rw [hw]
  split at hc <;> omega

/-- The first label block as the kernel reads it: each word as a signed integer. -/
theorem labels_apply (v : Vec Ideal S6720x128 .i32) (i : S6720x128.Idx) : k0_pay5 v i = (((v i).toInt : ℝ) : EReal) := by
  show FloatOps.sitofp (F := Ideal) .bf16 (shapeCast S6720x128 v shapeCasts_S6720x128_S6720x128 i) = _
  rw [shapeCast_self]
  rfl

/-- The second label block is read the same way. -/
theorem labels2_eq (v : Vec Ideal S6720x128 .i32) : k0_pay6 v = k0_pay5 v := rfl

/-- A class's mask of a label block at an entry: 1 where the word is the class number. -/
theorem mask_labels_apply (v : Vec Ideal S6720x128 .i32) (c : Fin 25) (i : S6720x128.Idx) :
    mask (k0_pay5 v) (pat c) i = if v i = BitVec.ofNat 32 (c.val + 1) then (1 : EReal) else 0 := by
  rw [mask_apply, labels_apply, pat_denotes]
  refine if_congr ?_ rfl rfl
  rw [EReal.coe_eq_coe_iff, ← toInt_eq_iff _ _ (by have := c.isLt; omega)]
  constructor
  · intro h; exact_mod_cast h
  · intro h; exact_mod_cast h

/-- A class's total over one label block: the number of entries equal to the class number. -/
theorem total_mask (v : Vec Ideal S6720x128 .i32) (c : Fin 25) :
    total (mask (k0_pay5 v) (pat c)) (ix2 (0 : Fin 1) (0 : Fin 1))
      = ∑ r : Fin 6720, ∑ q : Fin 128, if v (ix2 r q) = BitVec.ofNat 32 (c.val + 1) then (1 : EReal) else 0 := by
  rw [total_apply]
  refine Finset.sum_congr rfl fun r _ => Finset.sum_congr rfl fun q _ => ?_
  exact mask_labels_apply v c _

/-- A class's total over the product of the two masks: the number of entries where both blocks hold the class number. -/
theorem total_mask_both (v3 v5 : Vec Ideal S6720x128 .i32) (c : Fin 25) :
    total (mulf (mask (k0_pay5 v3) (pat c)) (mask (k0_pay6 v5) (pat c))) (ix2 (0 : Fin 1) (0 : Fin 1))
      = ∑ r : Fin 6720, ∑ q : Fin 128,
          if v3 (ix2 r q) = BitVec.ofNat 32 (c.val + 1) ∧ v5 (ix2 r q) = BitVec.ofNat 32 (c.val + 1) then (1 : EReal) else 0 := by
  rw [total_apply]
  refine Finset.sum_congr rfl fun r _ => Finset.sum_congr rfl fun q _ => ?_
  rw [mulf_apply, labels2_eq, mask_labels_apply, mask_labels_apply]
  by_cases h3 : v3 (ix2 r q) = BitVec.ofNat 32 (c.val + 1)
  · by_cases h5 : v5 (ix2 r q) = BitVec.ofNat 32 (c.val + 1)
    · rw [if_pos h3, if_pos h5, if_pos ⟨h3, h5⟩, one_mul]
    · have hn : ¬(v3 (ix2 r q) = BitVec.ofNat 32 (c.val + 1) ∧ v5 (ix2 r q) = BitVec.ofNat 32 (c.val + 1)) := fun h => h5 h.2
      rw [if_pos h3, if_neg h5, if_neg hn, mul_zero]
  · have hn : ¬(v3 (ix2 r q) = BitVec.ofNat 32 (c.val + 1) ∧ v5 (ix2 r q) = BitVec.ofNat 32 (c.val + 1)) := fun h => h3 h.1
    rw [if_neg h3, if_neg hn, zero_mul]

/-! ## What one block of the two label maps adds to the three histogram rows -/

/-- The three rows of the kernel's pure computation, one by one. -/
theorem contrib0_fst (v3 v5 : Vec Ideal S6720x128 .i32) :
    (contrib0 (F := Ideal) v3 v5).1 = hist (fun k => mask (k0_pay5 v3) k) classes := by
  rw [contrib0_eq_hist]
theorem contrib0_snd (v3 v5 : Vec Ideal S6720x128 .i32) :
    (contrib0 (F := Ideal) v3 v5).2.1 = hist (fun k => mask (k0_pay5 v5) k) classes := by
  rw [contrib0_eq_hist]; rfl
theorem contrib0_trd (v3 v5 : Vec Ideal S6720x128 .i32) :
    (contrib0 (F := Ideal) v3 v5).2.2 = hist (fun k => mulf (mask (k0_pay5 v3) k) (mask (k0_pay6 v5) k)) classes := by
  rw [contrib0_eq_hist]

end Hist

open Hist

/-- First row, lane l: for 1 ≤ l ≤ 25 the number of entries of the first block equal to l, else 0. -/
theorem contrib0_apply_1 (v3 v5 : Vec Ideal S6720x128 .i32) (l : Fin 128) :
    (contrib0 (F := Ideal) v3 v5).1 (ix2 (0 : Fin 1) l)
      = if 1 ≤ l.val ∧ l.val ≤ 25 then
          ∑ r : Fin 6720, ∑ q : Fin 128, (if v3 (ix2 r q) = BitVec.ofNat 32 l.val then (1 : EReal) else 0)
        else 0 := by
  rw [contrib0_fst]
  exact hist_apply (fun k => mask (k0_pay5 v3) k)
    (fun n => ∑ r : Fin 6720, ∑ q : Fin 128, if v3 (ix2 r q) = BitVec.ofNat 32 n then (1 : EReal) else 0)
    (fun c => total_mask v3 c) l

/-- Second row, lane l: the same count over the second block. -/
theorem contrib0_apply_2 (v3 v5 : Vec Ideal S6720x128 .i32) (l : Fin 128) :
    (contrib0 (F := Ideal) v3 v5).2.1 (ix2 (0 : Fin 1) l)
      = if 1 ≤ l.val ∧ l.val ≤ 25 then
          ∑ r : Fin 6720, ∑ q : Fin 128, (if v5 (ix2 r q) = BitVec.ofNat 32 l.val then (1 : EReal) else 0)
        else 0 := by
  rw [contrib0_snd]
  exact hist_apply (fun k => mask (k0_pay5 v5) k)
    (fun n => ∑ r : Fin 6720, ∑ q : Fin 128, if v5 (ix2 r q) = BitVec.ofNat 32 n then (1 : EReal) else 0)
    (fun c => total_mask v5 c) l

/-- Third row, lane l: for 1 ≤ l ≤ 25 the number of entries where both blocks hold l, else 0. -/
theorem contrib0_apply_3 (v3 v5 : Vec Ideal S6720x128 .i32) (l : Fin 128) :
    (contrib0 (F := Ideal) v3 v5).2.2 (ix2 (0 : Fin 1) l)
      = if 1 ≤ l.val ∧ l.val ≤ 25 then
          ∑ r : Fin 6720, ∑ q : Fin 128,
            (if v3 (ix2 r q) = BitVec.ofNat 32 l.val ∧ v5 (ix2 r q) = BitVec.ofNat 32 l.val then (1 : EReal) else 0)
        else 0 := by
  rw [contrib0_trd]
  exact hist_apply (fun k => mulf (mask (k0_pay5 v3) k) (mask (k0_pay6 v5) k))
    (fun n => ∑ r : Fin 6720, ∑ q : Fin 128,
      if v3 (ix2 r q) = BitVec.ofNat 32 n ∧ v5 (ix2 r q) = BitVec.ofNat 32 n then (1 : EReal) else 0)
    (fun c => total_mask_both v3 v5 c) l

end Cert.KernelIdeal.Hand

end
-- ==== Proof.Spec.lean ====
/-
  The mathematics both programs compute, over the extended reals, as plain finite sums over the argument arrays.

  Two label maps a, b : [1,160,192,224] of 32-bit words, and a vector field v : [1,3,160,192,224].
  * count a w      — how many voxels of a carry the word w;
  * countBoth a b w — how many voxels carry w in both maps;
  * sumDz / sumDy / sumDx v — the sums of squared forward differences of v along depth, height and width.
  Every kernel-side and reference-side value lemma is stated against these.
-/
import Idealize.ShloMosaic.PureOps.Ideal
import Idealize.ShloMosaic.Lib.ValueIdx

noncomputable section

namespace Cert.Spec

open Idealize.ShloMosaic

/-- The label maps' shape. -/
abbrev A4 : Shape := ⟨4, ![1, 160, 192, 224]⟩
/-- The vector field's shape. -/
abbrev A5 : Shape := ⟨5, ![1, 3, 160, 192, 224]⟩

/-- An index of the vector field from its four free coordinates (the batch axis has extent one). -/
def at5 (c : Fin 3) (d : Fin 160) (h : Fin 192) (w : Fin 224) : A5.Idx := ValueIdx.ix5 (0 : Fin 1) c d h w

/-- The number of voxels of `a` that carry the word `w`, as an extended real. -/
def count (a : A4.Idx → BitVec 32) (w : BitVec 32) : EReal :=
  ∑ i : A4.Idx, if a i = w then (1 : EReal) else 0

/-- The number of voxels that carry the word `w` in both maps. -/
def countBoth (a b : A4.Idx → BitVec 32) (w : BitVec 32) : EReal :=
  ∑ i : A4.Idx, if a i = w ∧ b i = w then (1 : EReal) else 0

/-- Squared forward differences along depth: 159 planes of differences. -/
def sumDz (v : A5.Idx → EReal) : EReal :=
  ∑ c : Fin 3, ∑ d : Fin 159, ∑ h : Fin 192, ∑ w : Fin 224,
    (v (at5 c ⟨d.val + 1, by omega⟩ h w) - v (at5 c ⟨d.val, by omega⟩ h w)) * (v (at5 c ⟨d.val + 1, by omega⟩ h w) - v (at5 c ⟨d.val, by omega⟩ h w))

/-- Squared forward differences along height. -/
def sumDy (v : A5.Idx → EReal) : EReal :=
  ∑ c : Fin 3, ∑ d : Fin 160, ∑ h : Fin 191, ∑ w : Fin 224,
    (v (at5 c d ⟨h.val + 1, by omega⟩ w) - v (at5 c d ⟨h.val, by omega⟩ w)) * (v (at5 c d ⟨h.val + 1, by omega⟩ w) - v (at5 c d ⟨h.val, by omega⟩ w))

/-- Squared forward differences along width. -/
def sumDx (v : A5.Idx → EReal) : EReal :=
  ∑ c : Fin 3, ∑ d : Fin 160, ∑ h : Fin 192, ∑ w : Fin 223,
    (v (at5 c d h ⟨w.val + 1, by omega⟩) - v (at5 c d h ⟨w.val, by omega⟩)) * (v (at5 c d h ⟨w.val + 1, by omega⟩) - v (at5 c d h ⟨w.val, by omega⟩))

end Cert.Spec

end
-- ==== Proof.LibReshapeSum.lean ====
/-
  Sums over the index set of a shape.

  * A reshape keeps the elements and their row-major order, so it is a bijection of index sets: any sum of a
    function of the reshaped array's elements over the new index set is the same sum over the old one
    (`sum_shapeCast`, and `sum_shapeCast₂` for two arrays reshaped alike).
  * The index set of a shape of rank 3, 4 or 5 is the product of its coordinate ranges, so a sum over it is the
    iterated sum over the coordinates (`sum_idx3`, `sum_idx4`, `sum_idx5`); an axis of extent one contributes
    its one term (`sum_fin_one`).
  All of it holds in any commutative additive monoid: no finiteness or sign condition on the summands.
-/
import Idealize.ShloMosaic.Lib.ValueIdx
import Mathlib.Algebra.BigOperators.Group.Finset.Basic
import Mathlib.Algebra.BigOperators.Fin

namespace Cert.Lib

open Idealize.ShloMosaic Idealize.ShloMosaic.ValueIdx

/-! ## A reshape re-indexes a sum -/

/-- The reshaped array read at an index is the array read at the index with the same row-major position. -/
theorem shapeCast_eq {s t : Shape} {α : Type} (x : s.Idx → α) (h : s.ShapeCasts t) (j : t.Idx) :
    shapeCast t x h j = x (Shape.reshapeEquiv h j) := rfl

/-- Summing any function of the elements of a reshaped array over the new shape's indices is summing it over the
    old shape's: the reshape matches the two index sets one to one by row-major position. -/
theorem sum_shapeCast {s t : Shape} {α : Type} {M : Type*} [AddCommMonoid M] (x : s.Idx → α) (h : s.ShapeCasts t)
    (φ : α → M) : ∑ j : t.Idx, φ (shapeCast t x h j) = ∑ i : s.Idx, φ (x i) :=
  Equiv.sum_comp (Shape.reshapeEquiv h) fun i => φ (x i)

/-- The same for two arrays of one shape reshaped alike, read at the same index. -/
theorem sum_shapeCast₂ {s t : Shape} {α β : Type} {M : Type*} [AddCommMonoid M] (x : s.Idx → α) (y : s.Idx → β)
    (h h' : s.ShapeCasts t) (φ : α → β → M) :
    ∑ j : t.Idx, φ (shapeCast t x h j) (shapeCast t y h' j) = ∑ i : s.Idx, φ (x i) (y i) :=
  Equiv.sum_comp (Shape.reshapeEquiv h) fun i => φ (x i) (y i)

/-- The same for three arrays. -/
theorem sum_shapeCast₃ {s t : Shape} {α β γ : Type} {M : Type*} [AddCommMonoid M] (x : s.Idx → α) (y : s.Idx → β)
    (z : s.Idx → γ) (h h' h'' : s.ShapeCasts t) (φ : α → β → γ → M) :
    ∑ j : t.Idx, φ (shapeCast t x h j) (shapeCast t y h' j) (shapeCast t z h'' j) = ∑ i : s.Idx, φ (x i) (y i) (z i) :=
  Equiv.sum_comp (Shape.reshapeEquiv h) fun i => φ (x i) (y i) (z i)

/-! ## A sum over a shape's indices as the iterated sum over its coordinates -/

/-- An axis of extent one contributes its one term. -/
theorem sum_fin_one {M : Type*} [AddCommMonoid M] (f : Fin 1 → M) : ∑ a : Fin 1, f a = f 0 :=
  Fin.sum_univ_one f

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the fivefold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- With a leading axis of extent one, the fivefold sum is the fourfold sum at leading coordinate zero. -/
theorem sum_idx5_lead_one {M : Type*} [AddCommMonoid M] {n1 n2 n3 n4 : Nat}
    (f : (⟨5, ![1, n1, n2, n3, n4]⟩ : Shape).Idx → M) :
    ∑ i, f i = ∑ b : Fin n1, ∑ c : Fin n2, ∑ d : Fin n3, ∑ e : Fin n4, f (ix5 (0 : Fin 1) b c d e) := by
  rw [sum_idx5, sum_fin_one]

/-- With a leading axis of extent one, the fourfold sum is the triple sum at leading coordinate zero. -/
theorem sum_idx4_lead_one {M : Type*} [AddCommMonoid M] {n1 n2 n3 : Nat}
    (f : (⟨4, ![1, n1, n2, n3]⟩ : Shape).Idx → M) :
    ∑ i, f i = ∑ b : Fin n1, ∑ c : Fin n2, ∑ d : Fin n3, f (ix4 (0 : Fin 1) b c d) := by
  rw [sum_idx4, sum_fin_one]

end Cert.Lib
-- ==== Proof.KHistAcc.lean ====
/-
  From the histogram region's accumulator to the counts.

  The output block of a core is three rows of 128 lanes. A point's update adds, row by row, the three lane vectors its
  two label blocks contribute (`step0_apply`); a core's first point starts from the zero block (`histPay4_apply`), so after
  a core's fourth point a lane of a row holds the sum of the four points' contributions there (`acc0_last_apply`).
  The output array [2,3,128] ends with slab k at what core k's accumulator held after its last point (`arr0_apply`).
  A label window's block at point t is rows 6720 t … 6720 t + 6719 of its reshaped label map (`iblk0_0_apply`,
  `iblk0_1_apply`). With a block's contribution to lane l (1 ≤ l ≤ 25) being the number of its entries equal to l
  (taken here as hypotheses of the last section), the two slabs of a row, added, are the sum over the eight blocks, that
  is over the 53760 × 128 entries of the reshaped map, that is — a reshape keeps the entries — over the voxels of the
  label map: `hist_count0`, `hist_count1`, `hist_countBoth`. Sums are in the extended reals, an additive commutative
  monoid: regrouping needs no finiteness.
-/
import proofs.«417857_j15487652069654_3_alg».proof.Proof.KKit
import proofs.«417857_j15487652069654_3_alg».proof.Proof.Spec
import proofs.«417857_j15487652069654_3_alg».proof.Proof.LibReshapeSum
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

set_option maxRecDepth 16384

noncomputable section

namespace Cert.KernelIdeal.Hand

open Idealize.ShloMosaic Idealize.ShloMosaic.TcCoe Idealize.ShloMosaic.ValueIdx
open Idealize.ShloMosaic.Pipeline (Dat Cfg Window cellOf)
open Cert.KernelIdeal Cert.KernelIdeal.Gen

/-! ## One point's update, read at a lane -/

/-- The first row's payload at a lane: the loaded row's lane plus the contribution's lane. -/
theorem histPay1_apply (cv : FVec Ideal S1x128 .f32) (ld : Vec Ideal S1x1x128 .f32) (l : Fin 128) :
    k0_pay1 (F := Ideal) cv ld (ix3 0 0 l) = ld (ix3 0 0 l) + cv (ix2 0 l) := by
  unfold k0_pay1
  refine (shapeCast_apply _ _ (ix3 0 0 l) (ix2 0 l) ?_).trans ?_
  · rw [Shape.rowMajor_val_two, Shape.rowMajor_val_three]
    show (0 : ℕ) * 128 + l.val = ((0 : ℕ) * 1 + 0) * 128 + l.val
    omega
  · refine (addf_apply _ _ _).trans ?_
    refine congrArg (· + cv (ix2 0 l)) ?_
    refine shapeCast_apply _ _ (ix2 0 l) (ix3 0 0 l) ?_
    rw [Shape.rowMajor_val_two, Shape.rowMajor_val_three]
    show ((0 : ℕ) * 1 + 0) * 128 + l.val = (0 : ℕ) * 128 + l.val
    omega

/-- The second row's payload at a lane. -/
theorem histPay2_apply (cv : FVec Ideal S1x128 .f32) (ld : Vec Ideal S1x1x128 .f32) (l : Fin 128) :
    k0_pay2 (F := Ideal) cv ld (ix3 0 0 l) = ld (ix3 0 0 l) + cv (ix2 0 l) := by
  unfold k0_pay2
  refine (shapeCast_apply _ _ (ix3 0 0 l) (ix2 0 l) ?_).trans ?_
  · rw [Shape.rowMajor_val_two, Shape.rowMajor_val_three]
    show (0 : ℕ) * 128 + l.val = ((0 : ℕ) * 1 + 0) * 128 + l.val
    omega
  · refine (addf_apply _ _ _).trans ?_
    refine congrArg (· + cv (ix2 0 l)) ?_
    refine shapeCast_apply _ _ (ix2 0 l) (ix3 0 0 l) ?_
    rw [Shape.rowMajor_val_two, Shape.rowMajor_val_three]
    show ((0 : ℕ) * 1 + 0) * 128 + l.val = (0 : ℕ) * 128 + l.val
    omega

/-- The third row's payload at a lane. -/
theorem histPay3_apply (cv : FVec Ideal S1x128 .f32) (ld : Vec Ideal S1x1x128 .f32) (l : Fin 128) :
    k0_pay3 (F := Ideal) cv ld (ix3 0 0 l) = ld (ix3 0 0 l) + cv (ix2 0 l) := by
  unfold k0_pay3
  refine (shapeCast_apply _ _ (ix3 0 0 l) (ix2 0 l) ?_).trans ?_
  · rw [Shape.rowMajor_val_two, Shape.rowMajor_val_three]
    show (0 : ℕ) * 128 + l.val = ((0 : ℕ) * 1 + 0) * 128 + l.val
    omega
  · refine (addf_apply _ _ _).trans ?_
    refine congrArg (· + cv (ix2 0 l)) ?_
    refine shapeCast_apply _ _ (ix2 0 l) (ix3 0 0 l) ?_
    rw [Shape.rowMajor_val_two, Shape.rowMajor_val_three]
    show ((0 : ℕ) * 1 + 0) * 128 + l.val = (0 : ℕ) * 128 + l.val
    omega

/-- Row r of the block, loaded, reads the block at row r. -/
theorem ld_row0 (base : Vec Ideal S1x3x128 .f32) (l : Fin 128) : View.ld base row0 (ix3 0 0 l) = base (ix3 0 0 l) := by
  show base _ = base _
  congr 1
  funext a
  apply Fin.ext
  match a with
  | ⟨0, _⟩ => rfl
  | ⟨1, _⟩ => rfl
  | ⟨2, _⟩ => show 0 + 1 * l.val = l.val; omega
theorem ld_row1 (base : Vec Ideal S1x3x128 .f32) (l : Fin 128) : View.ld base row1 (ix3 0 0 l) = base (ix3 0 1 l) := by
  show base _ = base _
  congr 1
  funext a
  apply Fin.ext
  match a with
  | ⟨0, _⟩ => rfl
  | ⟨1, _⟩ => rfl
  | ⟨2, _⟩ => show 0 + 1 * l.val = l.val; omega
theorem ld_row2 (base : Vec Ideal S1x3x128 .f32) (l : Fin 128) : View.ld base row2 (ix3 0 0 l) = base (ix3 0 2 l) := by
  show base _ = base _
  congr 1
  funext a
  apply Fin.ext
  match a with
  | ⟨0, _⟩ => rfl
  | ⟨1, _⟩ => rfl
  | ⟨2, _⟩ => show 0 + 1 * l.val = l.val; omega

/-- Where lane l of row r sits in the block. -/
theorem emb_row0 (l : Fin 128) : row0.emb (ix3 0 0 l) = (ix3 0 0 l : S1x3x128.Idx) := by
  funext a
  apply Fin.ext
  match a with
  | ⟨0, _⟩ => rfl
  | ⟨1, _⟩ => rfl
  | ⟨2, _⟩ => show 0 + 1 * l.val = l.val; omega
theorem emb_row1 (l : Fin 128) : row1.emb (ix3 0 0 l) = (ix3 0 1 l : S1x3x128.Idx) := by
  funext a
  apply Fin.ext
  match a with
  | ⟨0, _⟩ => rfl
  | ⟨1, _⟩ => rfl
  | ⟨2, _⟩ => show 0 + 1 * l.val = l.val; omega
theorem emb_row2 (l : Fin 128) : row2.emb (ix3 0 0 l) = (ix3 0 2 l : S1x3x128.Idx) := by
  funext a
  apply Fin.ext
  match a with
  | ⟨0, _⟩ => rfl
  | ⟨1, _⟩ => rfl
  | ⟨2, _⟩ => show 0 + 1 * l.val = l.val; omega

/-- An index of another row is outside a row's rectangle. -/
theorem not_mem_row (r r' : Fin 3) (hr : r ≠ r') (l : Fin 128) (inb) :
    (ix3 0 r' l : S1x3x128.Idx) ∉ (Rect.unit (s := S1x3x128) ![0, r.val, 0] S1x1x128.size inb).set := by
  rw [Rect.mem_set_unit]
  intro h
  have h1 := h ⟨1, by decide⟩
  have e : ((ix3 (0 : Fin 1) r' l : S1x3x128.Idx) ⟨1, by decide⟩).val = r'.val := rfl
  have e0 : (![0, r.val, 0] : Fin 3 → ℕ) ⟨1, by decide⟩ = r.val := rfl
  have e1 : S1x1x128.size ⟨1, by decide⟩ = 1 := rfl
  rw [e, e0, e1] at h1
  exact hr (Fin.ext (by omega))

/-- An index of another row is outside a row's rectangle. -/
theorem not_mem_rowk (k k' : ℕ) (hk : k ≠ k') (r' : Fin 3) (hr' : r'.val = k') (l : Fin 128) (inb) :
    (ix3 0 r' l : S1x3x128.Idx) ∉ (Rect.unit (s := S1x3x128) ![0, k, 0] S1x1x128.size inb).set := by
  rw [Rect.mem_set_unit]
  intro h
  have h1 := h ⟨1, by decide⟩
  have e : ((ix3 (0 : Fin 1) r' l : S1x3x128.Idx) ⟨1, by decide⟩).val = r'.val := rfl
  have e0 : (![0, k, 0] : Fin 3 → ℕ) ⟨1, by decide⟩ = k := rfl
  have e1 : S1x1x128.size ⟨1, by decide⟩ = 1 := rfl
  rw [e, e0, e1] at h1
  omega

/-- A store to another row leaves a row's lane to the earlier stores. -/
theorem canon_skip (k k' : ℕ) (hk : k ≠ k') (r' : Fin 3) (hr' : r'.val = k') (l : Fin 128) (inb)
    (w : S1x1x128.Idx → Ideal .f32) (L : List (View.Piece (Elt Ideal) S1x3x128 .f32)) :
    View.canon (Val := Elt Ideal) (e := .f32) ((⟨Rect.unit (s := S1x3x128) ![0, k, 0] S1x1x128.size inb, w⟩ : View.Piece (Elt Ideal) S1x3x128 .f32) :: L) (ix3 0 r' l)
      = View.canon L (ix3 0 r' l) :=
  View.canon_cons_of_not_mem (⟨Rect.unit (s := S1x3x128) ![0, k, 0] S1x1x128.size inb, w⟩ : View.Piece (Elt Ideal) S1x3x128 .f32) L
    (not_mem_rowk k k' hk r' hr' l inb)

/-- Three row stores, read back at a lane of each row: the row's own payload. -/
theorem canon_rows_2 (w2 w1 w0 : S1x1x128.Idx → Ideal .f32) (l : Fin 128) :
    View.canon (Val := Elt Ideal) (e := .f32) [⟨row2, w2⟩, ⟨row1, w1⟩, ⟨row0, w0⟩] (ix3 0 2 l) = w2 (ix3 0 0 l) := by
  have h := View.canon_cons_emb (Val := Elt Ideal) (e := .f32) row2 w2 [⟨row1, w1⟩, ⟨row0, w0⟩] (ix3 0 0 l)
  rw [emb_row2] at h
  exact h
theorem canon_rows_1 (w2 w1 w0 : S1x1x128.Idx → Ideal .f32) (l : Fin 128) :
    View.canon (Val := Elt Ideal) (e := .f32) [⟨row2, w2⟩, ⟨row1, w1⟩, ⟨row0, w0⟩] (ix3 0 1 l) = w1 (ix3 0 0 l) := by
  refine (canon_skip 2 1 (by decide) 1 rfl l _ w2 [⟨row1, w1⟩, ⟨row0, w0⟩]).trans ?_
  have h := View.canon_cons_emb (Val := Elt Ideal) (e := .f32) row1 w1 [⟨row0, w0⟩] (ix3 0 0 l)
  rw [emb_row1] at h
  exact h
theorem canon_rows_0 (w2 w1 w0 : S1x1x128.Idx → Ideal .f32) (l : Fin 128) :
    View.canon (Val := Elt Ideal) (e := .f32) [⟨row2, w2⟩, ⟨row1, w1⟩, ⟨row0, w0⟩] (ix3 0 0 l) = w0 (ix3 0 0 l) := by
  refine (canon_skip 2 0 (by decide) 0 rfl l _ w2 [⟨row1, w1⟩, ⟨row0, w0⟩]).trans ?_
  refine (canon_skip 1 0 (by decide) 0 rfl l _ w1 [⟨row0, w0⟩]).trans ?_
  have h := View.canon_cons_emb (Val := Elt Ideal) (e := .f32) row0 w0 [] (ix3 0 0 l)
  rw [emb_row0] at h
  exact h

/-- The row-th of three lane vectors. -/
def rowv (p : FVec Ideal S1x128 .f32 × FVec Ideal S1x128 .f32 × FVec Ideal S1x128 .f32) : Fin 3 → FVec Ideal S1x128 .f32
  | ⟨0, _⟩ => p.1
  | ⟨1, _⟩ => p.2.1
  | ⟨2, _⟩ => p.2.2

/-- The update over three given contribution vectors, at a lane of a row: the block there plus the row's contribution. -/
theorem rows_update_apply (base : Vec Ideal S1x3x128 .f32)
    (p : FVec Ideal S1x128 .f32 × FVec Ideal S1x128 .f32 × FVec Ideal S1x128 .f32) (row : Fin 3) (l : Fin 128) :
    View.canon (Val := Elt Ideal) (e := .f32) [⟨row2, k0_pay3 (F := Ideal) p.2.2 (View.ld base row2)⟩,
      ⟨row1, k0_pay2 (F := Ideal) p.2.1 (View.ld base row1)⟩, ⟨row0, k0_pay1 (F := Ideal) p.1 (View.ld base row0)⟩] (ix3 0 row l)
      = base (ix3 0 row l) + rowv p row (ix2 0 l) := by
  match row with
  | ⟨0, _⟩ =>
    refine (canon_rows_0 _ _ _ l).trans ?_
    refine (histPay1_apply _ _ l).trans ?_
    rw [ld_row0]
    rfl
  | ⟨1, _⟩ =>
    refine (canon_rows_1 _ _ _ l).trans ?_
    refine (histPay2_apply _ _ l).trans ?_
    rw [ld_row1]
    rfl
  | ⟨2, _⟩ =>
    refine (canon_rows_2 _ _ _ l).trans ?_
    refine (histPay3_apply _ _ l).trans ?_
    rw [ld_row2]
    rfl

/-- One point's update at a lane of a row: the block there plus the row's contribution of the two label blocks. -/
theorem step0_apply (base : Vec Ideal S1x3x128 .f32) (v3 v5 : Vec Ideal S6720x128 .i32) (row : Fin 3) (l : Fin 128) :
    step0 (F := Ideal) base v3 v5 (ix3 0 row l) = base (ix3 0 row l) + rowv (contrib0 (F := Ideal) v3 v5) row (ix2 0 l) := by
  unfold step0
  exact rows_update_apply base (contrib0 (F := Ideal) v3 v5) row l

/-- The block a core's first point starts from is zero everywhere. -/
theorem histPay4_apply (i : S1x3x128.Idx) : k0_pay4 (F := Ideal) i = 0 := by
  show Ideal.ofBits .f32 0x00000000#32 = 0
  exact Ideal.ofBits_zero_f32

/-! ## The accumulator after a core's four points -/

variable (V : (c : Dev nD) → (b : Ref sig .tc) → Buf (Elt Ideal) ((c : Thread nD τ).loc b))

/-- What point t's two label blocks add to a lane of a row. -/
def cterm (c : Dev nD) (row : Fin 3) (l : Fin 128) (t : Fin cfg0.N) : Ideal .f32 :=
  rowv (contrib0 (F := Ideal) (iblk0 V c 0 t) (iblk0 V c 1 t)) row (ix2 0 l)

theorem acc0_zero (c : Dev nD) (h : 0 < cfg0.N) :
    acc0 V c 0 h = step0 (k0_pay4 (F := Ideal)) (iblk0 V c 0 ⟨0, h⟩) (iblk0 V c 1 ⟨0, h⟩) := by
  rw [acc0]

theorem acc0_succ (c : Dev nD) (n : ℕ) (h : n + 1 < cfg0.N) :
    acc0 V c (n + 1) h = if (n + 1) % 4 = 0 then step0 (k0_pay4 (F := Ideal)) (iblk0 V c 0 ⟨n + 1, h⟩) (iblk0 V c 1 ⟨n + 1, h⟩)
      else step0 (acc0 V c n (Nat.lt_of_succ_lt h)) (iblk0 V c 0 ⟨n + 1, h⟩) (iblk0 V c 1 ⟨n + 1, h⟩) := by
  rw [acc0]

/-- A core's first point leaves its own contribution. -/
theorem acc0_first_apply (c : Dev nD) (row : Fin 3) (l : Fin 128) (b : ℕ) (hb : b % 4 = 0) (h : b < cfg0.N) :
    acc0 V c b h (ix3 0 row l) = cterm V c row l ⟨b, h⟩ := by
  cases b with
  | zero =>
    rw [acc0_zero]
    refine (step0_apply (k0_pay4 (F := Ideal)) (iblk0 V c 0 ⟨0, h⟩) (iblk0 V c 1 ⟨0, h⟩) row l).trans ?_
    rw [histPay4_apply, zero_add]
    rfl
  | succ n =>
    rw [acc0_succ, if_pos hb]
    refine (step0_apply (k0_pay4 (F := Ideal)) (iblk0 V c 0 ⟨n + 1, h⟩) (iblk0 V c 1 ⟨n + 1, h⟩) row l).trans ?_
    rw [histPay4_apply, zero_add]
    rfl

/-- After the j-th later point of a core the accumulator holds the contributions of the core's points so far. -/
theorem acc0_run_apply (c : Dev nD) (row : Fin 3) (l : Fin 128) (b : ℕ) (hb : b % 4 = 0) :
    ∀ (j : ℕ) (hj : j < 4) (h : b + j < cfg0.N), acc0 V c (b + j) h (ix3 0 row l)
      = ∑ i ∈ Finset.range (j + 1), if h' : b + i < cfg0.N then cterm V c row l ⟨b + i, h'⟩ else 0
  | 0, _, h => by
    rw [Finset.sum_range_one, dif_pos h]
    exact acc0_first_apply V c row l b hb h
  | j + 1, hj, h => by
    show acc0 V c (b + j + 1) h (ix3 0 row l) = _
    rw [acc0_succ, if_neg (by omega)]
    refine (step0_apply (acc0 V c (b + j) (Nat.lt_of_succ_lt h)) (iblk0 V c 0 ⟨b + j + 1, h⟩) (iblk0 V c 1 ⟨b + j + 1, h⟩) row l).trans ?_
    rw [acc0_run_apply c row l b hb j (by omega) (Nat.lt_of_succ_lt h), Finset.sum_range_succ _ (j + 1), dif_pos h]
    rfl

/-- After a core's last point: the sum of its four points' contributions. -/
theorem acc0_last_apply (c : Dev nD) (row : Fin 3) (l : Fin 128) (k : Fin 2) (h : 4 * k.val + 3 < cfg0.N) :
    acc0 V c (4 * k.val + 3) h (ix3 0 row l)
      = ∑ i : Fin 4, cterm V c row l ⟨4 * k.val + i.val, by have := i.isLt; omega⟩ := by
  rw [acc0_run_apply V c row l (4 * k.val) (by omega) 3 (by decide) h, Finset.sum_range]
  refine Finset.sum_congr rfl fun i _ => ?_
  rw [dif_pos (by have := i.isLt; omega)]

/-! ## The label blocks as rows of the label arrays -/

/-- The label windows' index maps, decided over the grid: point t reads block (t, 0). -/
theorem idx0_lab : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The output window's index map, decided over the grid: point t writes block (t / 4, 0, 0). -/
theorem idx0_out : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- The first label window's block at point t is rows 6720 t … 6720 t + 6719 of the first label array. -/
theorem iblk0_0_apply (c : Dev nD) (t : Fin cfg0.N) (r : Fin 6720) (q : Fin 128) (k : S53760x128.Idx)
    (hk0 : (k 0).val = 6720 * t.val + r.val) (hk1 : (k 1).val = q.val) :
    (iblk0 V c 0 t : Vec Ideal S6720x128 .i32) (ix2 r q) = (V c main_v0 : S53760x128.Idx → Elt Ideal .i32) k := by
  obtain ⟨e0, e1, -, -⟩ := idx0_lab t
  unfold iblk0
  rw [View.read_apply]
  show V c main_v0 _ = V c main_v0 _
  congr 1
  funext a
  apply Fin.ext
  match a with
  | ⟨0, _⟩ => show win0_0.index t 0 * 6720 + 1 * r.val = (k 0).val; rw [e0, hk0]; omega
  | ⟨1, _⟩ => show win0_0.index t 1 * 128 + 1 * q.val = (k 1).val; rw [e1, hk1]; omega

/-- The second label window's block at point t is the same rows of the second label array. -/
theorem iblk0_1_apply (c : Dev nD) (t : Fin cfg0.N) (r : Fin 6720) (q : Fin 128) (k : S53760x128.Idx)
    (hk0 : (k 0).val = 6720 * t.val + r.val) (hk1 : (k 1).val = q.val) :
    (iblk0 V c 1 t : Vec Ideal S6720x128 .i32) (ix2 r q) = (V c main_v1 : S53760x128.Idx → Elt Ideal .i32) k := by
  obtain ⟨-, -, e0, e1⟩ := idx0_lab t
  unfold iblk0
  rw [View.read_apply]
  show V c main_v1 _ = V c main_v1 _
  congr 1
  funext a
  apply Fin.ext
  match a with
  | ⟨0, _⟩ => show win0_1.index t 0 * 6720 + 1 * r.val = (k 0).val; rw [e0, hk0]; omega
  | ⟨1, _⟩ => show win0_1.index t 1 * 128 + 1 * q.val = (k 1).val; rw [e1, hk1]; omega

/-! ## From the accumulator to the output array -/

/-- What the output array ends holding: slab k is the accumulator after core k's last point. -/
def accArr (c : Dev nD) : S2x3x128.Idx → Ideal .f32 := fun i =>
  acc0 V c (4 * (i 0).val + 3) (by have h0 : (i 0).val < 2 := (i 0).isLt; have hN : cfg0.N = 8 := N_0; omega) (ix3 0 (i 1) (i 2))

/-- An element of the array's closed form as an element of the accumulator at a given position. -/
theorem accArr_apply (c : Dev nD) (i : S2x3x128.Idx) (n : ℕ) (h : n < cfg0.N) (y : S1x3x128.Idx)
    (hn : n = 4 * (i 0).val + 3) (h1 : (i 1).val = (y 1).val) (h2 : (i 2).val = (y 2).val) :
    accArr V c i = acc0 V c n h y := by
  subst hn
  unfold accArr
  congr 1
  funext a
  apply Fin.ext
  match a with
  | ⟨0, _⟩ => show (0 : ℕ) = (y 0).val; have h0 : (y 0).val < 1 := (y 0).isLt; omega
  | ⟨1, _⟩ => exact h1
  | ⟨2, _⟩ => exact h2

/-- A core's last point writes back its slab of the closed form. -/
theorem flushed0_2_eq (c : Dev nD) (t : Fin cfg0.N) (hf : (cfg0.win 2).flush t = true) :
    (dat0 (F := Ideal) V c).flushed 2 t = ((cfg0.win 2).blk t).view.read (Elt Ideal) (accArr V c) := by
  have h3 : t.val % 4 = 3 := (flush0_2 t).mp hf
  obtain ⟨e0, e1, e2⟩ := idx0_out t
  show (cfg0.win 2).cut (grid0.coords t) ((dat0 (F := Ideal) V c).after 2 t) = _
  rw [after0_2]
  funext y
  show acc0 V c t.val t.isLt y = accArr V c (((cfg0.win 2).blk t).view.emb y)
  have h0 : (y 0).val < 1 := (y 0).isLt
  refine (accArr_apply V c _ t.val t.isLt y ?_ ?_ ?_).symm
  · show t.val = 4 * (win0_2.index t 0 * 1 + 1 * (y 0).val) + 3
    rw [e0]; omega
  · show win0_2.index t 1 * 3 + 1 * (y 1).val = (y 1).val
    rw [e1]; omega
  · show win0_2.index t 2 * 128 + 1 * (y 2).val = (y 2).val
    rw [e2]; omega

/-- Every index of the output array is under the block of its core's last point. -/
theorem cover0_2 (i : S2x3x128.Idx) (t : Fin cfg0.N) (ht : t.val = 4 * (i 0).val + 3) :
    i ∈ ((cfg0.win 2).blk t).view.set := by
  have hi0 : (i 0).val < 2 := (i 0).isLt
  have hi1 : (i 1).val < 3 := (i 1).isLt
  have hi2 : (i 2).val < 128 := (i 2).isLt
  obtain ⟨e0, e1, e2⟩ := idx0_out t
  show i ∈ ((View.whole main_v2).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [e0, ht]; omega
  | ⟨1, _⟩ =>
    show win0_2.index t 1 * 3 ≤ (i 1).val ∧ (i 1).val < win0_2.index t 1 * 3 + 3
    rw [e1]; omega
  | ⟨2, _⟩ =>
    show win0_2.index t 2 * 128 ≤ (i 2).val ∧ (i 2).val < win0_2.index t 2 * 128 + 128
    rw [e2]; omega

/-- So the output array ends holding the closed form: the two cores' last points cover it. -/
theorem arr0_eq (c : Dev nD) : (dat0 (F := Ideal) V c).arrAt 2 cfg0.N = accArr V c :=
  (dat0 (F := Ideal) V c).arrAt_eq_of_cover 2 (accArr V c) (flushed0_2_eq V c) fun (i : S2x3x128.Idx) => by
    have hN : cfg0.N = 8 := N_0
    have hi0 : (i 0).val < 2 := (i 0).isLt
    have ht : 4 * (i 0).val + 3 < cfg0.N := by omega
    exact ⟨⟨4 * (i 0).val + 3, ht⟩, (flush0_2 _).mpr (by show (4 * (i 0).val + 3) % 4 = 3; omega), cover0_2 i ⟨4 * (i 0).val + 3, ht⟩ rfl⟩

/-- The output array after the region's eight points, at its literal type. -/
abbrev arr0 (c : Dev nD) : S2x3x128.Idx → Ideal .f32 := (dat0 (F := Ideal) V c).arrAt 2 cfg0.N

theorem arr0_def (c : Dev nD) : arr0 V c = (dat0 (F := Ideal) V c).arrAt 2 cfg0.N := rfl

/-- Slab k of the output array is the accumulator after core k's last point. -/
theorem arr0_apply (c : Dev nD) (k : Fin 2) (row : Fin 3) (l : Fin 128) :
    arr0 V c (ix3 k row l)
      = acc0 V c (4 * k.val + 3) (by have := k.isLt; have hN : cfg0.N = 8 := N_0; omega) (ix3 0 row l) :=
  congrFun (arr0_eq V c) (ix3 k row l)

/-! ## The counts

The two slabs of a row, added, hold the eight blocks' contributions; a block's contribution to lane l (1 ≤ l ≤ 25) is
the number of its entries equal to l; the eight blocks of 6720 rows are the 53760 rows of the reshaped label map, and a
reshape keeps the entries. -/

/-- A sum over pairs (a, b) read at position n a + b is the sum over the positions. -/
theorem sum_fin_mul {M : Type*} [AddCommMonoid M] (m n : ℕ) (T : Fin (m * n) → M) :
    ∑ a : Fin m, ∑ b : Fin n, T (finProdFinEquiv (a, b)) = ∑ t : Fin (m * n), T t := by
  rw [← Fintype.sum_prod_type (f := fun x : Fin m × Fin n => T (finProdFinEquiv x))]
  exact Equiv.sum_comp finProdFinEquiv T

/-- Two cores of four points are the eight points. -/
theorem sum_points {M : Type*} [AddCommMonoid M] (T : Fin 8 → M) :
    ∑ k : Fin 2, ∑ i : Fin 4, T ⟨4 * k.val + i.val, by have := k.isLt; have := i.isLt; omega⟩ = ∑ t : Fin 8, T t := by
  refine Eq.trans ?_ (sum_fin_mul 2 4 T)
  refine Finset.sum_congr rfl fun k _ => Finset.sum_congr rfl fun i _ => congrArg T (Fin.ext ?_)
  show 4 * k.val + i.val = i.val + 4 * k.val
  omega

/-- Eight blocks of 6720 rows are the 53760 rows. -/
theorem sum_rows {M : Type*} [AddCommMonoid M] (T : Fin 53760 → M) :
    ∑ t : Fin 8, ∑ r : Fin 6720, T ⟨6720 * t.val + r.val, by have := t.isLt; have := r.isLt; omega⟩ = ∑ R : Fin 53760, T R := by
  refine Eq.trans ?_ (sum_fin_mul 8 6720 T)
  refine Finset.sum_congr rfl fun t _ => Finset.sum_congr rfl fun r _ => congrArg T (Fin.ext ?_)
  show 6720 * t.val + r.val = r.val + 6720 * t.val
  omega

/-- So a sum over cores, points, block rows and lanes, read at the array's row, is the sum over the array. -/
theorem sum_blocks {M : Type*} [AddCommMonoid M] (φ : S53760x128.Idx → M) :
    ∑ k : Fin 2, ∑ i : Fin 4, ∑ r : Fin 6720, ∑ q : Fin 128,
        φ (ix2 (⟨6720 * (4 * k.val + i.val) + r.val, by have := k.isLt; have := i.isLt; have := r.isLt; omega⟩ : Fin 53760) q)
      = ∑ j : S53760x128.Idx, φ j := by
  rw [sum_idx2 φ]
  refine Eq.trans ?_ (sum_rows fun R : Fin 53760 => ∑ q : Fin 128, φ (ix2 R q))
  exact sum_points fun t : Fin 8 => ∑ r : Fin 6720, ∑ q : Fin 128,
    φ (ix2 (⟨6720 * t.val + r.val, by have := t.isLt; have := r.isLt; omega⟩ : Fin 53760) q)

/-- The two slabs of a row, added: the contributions of the two cores' four points each. -/
theorem arr0_row_sum (c : Dev nD) (row : Fin 3) (l : Fin 128) :
    arr0 V c (ix3 0 row l) + arr0 V c (ix3 1 row l)
      = ∑ k : Fin 2, ∑ i : Fin 4, cterm V c row l ⟨4 * k.val + i.val, by have := k.isLt; have := i.isLt; have hN : cfg0.N = 8 := N_0; omega⟩ := by
  rw [Fin.sum_univ_two, arr0_apply V c 0 row l, arr0_apply V c 1 row l, acc0_last_apply V c row l 0, acc0_last_apply V c row l 1]

section Counts

/- What one block of the two label maps contributes (proved with the histogram body's algebra). -/
variable
  (contrib0_apply_1 : ∀ (v3 v5 : Vec Ideal S6720x128 .i32) (l : Fin 128), (contrib0 (F := Ideal) v3 v5).1 (ValueIdx.ix2 0 l)
      = if 1 ≤ l.val ∧ l.val ≤ 25 then ∑ r : Fin 6720, ∑ q : Fin 128,
          (if v3 (ValueIdx.ix2 r q) = BitVec.ofNat 32 l.val then (1 : EReal) else 0) else 0)
  (contrib0_apply_2 : ∀ (v3 v5 : Vec Ideal S6720x128 .i32) (l : Fin 128), (contrib0 (F := Ideal) v3 v5).2.1 (ValueIdx.ix2 0 l)
      = if 1 ≤ l.val ∧ l.val ≤ 25 then ∑ r : Fin 6720, ∑ q : Fin 128,
          (if v5 (ValueIdx.ix2 r q) = BitVec.ofNat 32 l.val then (1 : EReal) else 0) else 0)
  (contrib0_apply_3 : ∀ (v3 v5 : Vec Ideal S6720x128 .i32) (l : Fin 128), (contrib0 (F := Ideal) v3 v5).2.2 (ValueIdx.ix2 0 l)
      = if 1 ≤ l.val ∧ l.val ≤ 25 then ∑ r : Fin 6720, ∑ q : Fin 128,
          (if v3 (ValueIdx.ix2 r q) = BitVec.ofNat 32 l.val ∧ v5 (ValueIdx.ix2 r q) = BitVec.ofNat 32 l.val then (1 : EReal) else 0) else 0)

/-- The two reshaped label maps as the region finds them, at their literal type. -/
abbrev lab0 (c : Dev nD) : S53760x128.Idx → BitVec 32 := V c main_v0
abbrev lab1 (c : Dev nD) : S53760x128.Idx → BitVec 32 := V c main_v1

/-- Row r, lane q of point t's block in the array. -/
abbrev posOf (t : Fin cfg0.N) (r : Fin 6720) (q : Fin 128) : S53760x128.Idx :=
  ix2 (⟨6720 * t.val + r.val, by have := t.isLt; have hN : cfg0.N = 8 := N_0; have := r.isLt; omega⟩ : Fin 53760) q

include contrib0_apply_1 in
/-- Point t's contribution to lane l of the first row: how many entries of its block of the first map equal l. -/
theorem cterm_row0 (c : Dev nD) (l : Fin 128) (hl : 1 ≤ l.val ∧ l.val ≤ 25) (t : Fin cfg0.N) :
    cterm V c 0 l t = ∑ r : Fin 6720, ∑ q : Fin 128,
      if lab0 V c (posOf t r q) = BitVec.ofNat 32 l.val then (1 : EReal) else 0 := by
  refine (contrib0_apply_1 (iblk0 V c 0 t) (iblk0 V c 1 t) l).trans ?_
  rw [if_pos hl]
  refine Finset.sum_congr rfl fun r _ => Finset.sum_congr rfl fun q _ => ?_
  rw [iblk0_0_apply V c t r q (posOf t r q) rfl rfl]

include contrib0_apply_2 in
/-- Point t's contribution to lane l of the second row: the same count in the second map. -/
theorem cterm_row1 (c : Dev nD) (l : Fin 128) (hl : 1 ≤ l.val ∧ l.val ≤ 25) (t : Fin cfg0.N) :
    cterm V c 1 l t = ∑ r : Fin 6720, ∑ q : Fin 128,
      if lab1 V c (posOf t r q) = BitVec.ofNat 32 l.val then (1 : EReal) else 0 := by
  refine (contrib0_apply_2 (iblk0 V c 0 t) (iblk0 V c 1 t) l).trans ?_
  rw [if_pos hl]
  refine Finset.sum_congr rfl fun r _ => Finset.sum_congr rfl fun q _ => ?_
  rw [iblk0_1_apply V c t r q (posOf t r q) rfl rfl]

include contrib0_apply_3 in
/-- Point t's contribution to lane l of the third row: how many positions of its blocks hold l in both maps. -/
theorem cterm_row2 (c : Dev nD) (l : Fin 128) (hl : 1 ≤ l.val ∧ l.val ≤ 25) (t : Fin cfg0.N) :
    cterm V c 2 l t = ∑ r : Fin 6720, ∑ q : Fin 128,
      if lab0 V c (posOf t r q) = BitVec.ofNat 32 l.val ∧ lab1 V c (posOf t r q) = BitVec.ofNat 32 l.val then (1 : EReal) else 0 := by
  refine (contrib0_apply_3 (iblk0 V c 0 t) (iblk0 V c 1 t) l).trans ?_
  rw [if_pos hl]
  refine Finset.sum_congr rfl fun r _ => Finset.sum_congr rfl fun q _ => ?_
  rw [iblk0_0_apply V c t r q (posOf t r q) rfl rfl, iblk0_1_apply V c t r q (posOf t r q) rfl rfl]

include contrib0_apply_1 in
/-- THE FIRST ROW: its two slabs add up to the number of voxels of the first map that carry l. -/
theorem hist_count0 (c : Dev nD) (a0 : Cert.Spec.A4.Idx → BitVec 32)
    (h0 : lab0 V c = shapeCast S53760x128 a0 shapeCasts_S1x160x192x224_S53760x128)
    (l : Fin 128) (hl : 1 ≤ l.val ∧ l.val ≤ 25) :
    arr0 V c (ix3 0 0 l) + arr0 V c (ix3 1 0 l) = Cert.Spec.count a0 (BitVec.ofNat 32 l.val) := by
  rw [arr0_row_sum V c 0 l]
  refine Eq.trans (Finset.sum_congr rfl fun k _ => Finset.sum_congr rfl fun i _ =>
    cterm_row0 V contrib0_apply_1 c l hl ⟨4 * k.val + i.val, by have := k.isLt; have := i.isLt; have hN : cfg0.N = 8 := N_0; omega⟩) ?_
  refine (sum_blocks fun j : S53760x128.Idx => if lab0 V c j = BitVec.ofNat 32 l.val then (1 : EReal) else 0).trans ?_
  rw [h0]
  exact Cert.Lib.sum_shapeCast a0 shapeCasts_S1x160x192x224_S53760x128 fun x => if x = BitVec.ofNat 32 l.val then (1 : EReal) else 0

include contrib0_apply_2 in
/-- THE SECOND ROW: the same for the second map. -/
theorem hist_count1 (c : Dev nD) (a1 : Cert.Spec.A4.Idx → BitVec 32)
    (h1 : lab1 V c = shapeCast S53760x128 a1 shapeCasts_S1x160x192x224_S53760x128)
    (l : Fin 128) (hl : 1 ≤ l.val ∧ l.val ≤ 25) :
    arr0 V c (ix3 0 1 l) + arr0 V c (ix3 1 1 l) = Cert.Spec.count a1 (BitVec.ofNat 32 l.val) := by
  rw [arr0_row_sum V c 1 l]
  refine Eq.trans (Finset.sum_congr rfl fun k _ => Finset.sum_congr rfl fun i _ =>
    cterm_row1 V contrib0_apply_2 c l hl ⟨4 * k.val + i.val, by have := k.isLt; have := i.isLt; have hN : cfg0.N = 8 := N_0; omega⟩) ?_
  refine (sum_blocks fun j : S53760x128.Idx => if lab1 V c j = BitVec.ofNat 32 l.val then (1 : EReal) else 0).trans ?_
  rw [h1]
  exact Cert.Lib.sum_shapeCast a1 shapeCasts_S1x160x192x224_S53760x128 fun x => if x = BitVec.ofNat 32 l.val then (1 : EReal) else 0

include contrib0_apply_3 in
/-- THE THIRD ROW: its two slabs add up to the number of voxels that carry l in both maps. -/
theorem hist_countBoth (c : Dev nD) (a0 a1 : Cert.Spec.A4.Idx → BitVec 32)
    (h0 : lab0 V c = shapeCast S53760x128 a0 shapeCasts_S1x160x192x224_S53760x128)
    (h1 : lab1 V c = shapeCast S53760x128 a1 shapeCasts_S1x160x192x224_S53760x128)
    (l : Fin 128) (hl : 1 ≤ l.val ∧ l.val ≤ 25) :
    arr0 V c (ix3 0 2 l) + arr0 V c (ix3 1 2 l) = Cert.Spec.countBoth a0 a1 (BitVec.ofNat 32 l.val) := by
  rw [arr0_row_sum V c 2 l]
  refine Eq.trans (Finset.sum_congr rfl fun k _ => Finset.sum_congr rfl fun i _ =>
    cterm_row2 V contrib0_apply_3 c l hl ⟨4 * k.val + i.val, by have := k.isLt; have := i.isLt; have hN : cfg0.N = 8 := N_0; omega⟩) ?_
  refine (sum_blocks fun j : S53760x128.Idx =>
    if lab0 V c j = BitVec.ofNat 32 l.val ∧ lab1 V c j = BitVec.ofNat 32 l.val then (1 : EReal) else 0).trans ?_
  rw [h0, h1]
  exact Cert.Lib.sum_shapeCast₂ a0 a1 shapeCasts_S1x160x192x224_S53760x128 shapeCasts_S1x160x192x224_S53760x128
    fun x y => if x = BitVec.ofNat 32 l.val ∧ y = BitVec.ofNat 32 l.val then (1 : EReal) else 0

end Counts

end Cert.KernelIdeal.Hand
end
-- ==== Proof.KDiffPay.lean ====
/-
  The finite-difference kernel's pure values, over the extended reals, read at an index as plain finite sums.

  Each accumulator value is made the same way: two shifted copies of the field's block are subtracted and the
  difference squared; the rank-4 array of squares is summed one axis at a time, last axis first, each partial result
  given back its trailing unit axis; the one remaining number is added to every entry of the 8 × 128 accumulator
  block.  Summing one axis at a time gives the iterated sum over the four coordinates, first axis outermost, and the
  shifted copies read the block at neighbouring coordinates, so every accumulator entry grows by the sum of squared
  forward differences along one axis (height, width, depth inside the block, and depth across the boundary with the
  carried plane).  The carried plane itself is the block's last depth plane, and the starting accumulators are zero.
-/
import proofs.«417857_j15487652069654_3_alg».proof.Proof.Gen.KernelIdeal.Skeleton
import Idealize.ShloMosaic.PureOps.Ideal.Laws
import Idealize.ShloMosaic.Lib.ValueIdx
import Idealize.ShloMosaic.Lib.Pipeline.Value
import Mathlib.Algebra.BigOperators.Fin

noncomputable section

namespace Cert.KernelIdeal.Hand

open Idealize.ShloMosaic Idealize.ShloMosaic.ValueIdx
open Cert.KernelIdeal Cert.KernelIdeal.Gen

namespace DiffPay

/-! ## Summing a rank-4 array over one axis -/

/-- The sum over axis 3 of a rank-4 array, read at an index of the rank-3 result: the sum over that axis's
    coordinate, the other three coordinates kept. -/
theorem red_axis3 {m0 m1 m2 m3 : Nat} (v : FVec Ideal ⟨4, ![m0, m1, m2, m3]⟩ .f32)
    (h : Shape.Reduces ⟨4, ![m0, m1, m2, m3]⟩ [3] ⟨3, ![m0, m1, m2]⟩) (hφ : FKind.Formats .f32)
    (hacc : (0x00000000#32 : BitVec (FTy.bits .f32)) = FKind.add.neutral .f32 hφ)
    (a : Fin m0) (b : Fin m1) (c : Fin m2) :
    multiReduction (F := Ideal) .add [3] ⟨3, ![m0, m1, m2]⟩ v 0x00000000#32 h hφ hacc (ix3 a b c)
      = ∑ k : Fin m3, v (ix4 a b c k) := by
  refine (Ideal.multiReduction_add_single v _ h hφ hacc (ix3 a b c)).trans ?_
  refine Finset.sum_congr rfl fun k _ => congrArg v ?_
  funext d
  apply Fin.ext
  match d with
  | ⟨0, _⟩ => rfl
  | ⟨1, _⟩ => rfl
  | ⟨2, _⟩ => rfl
  | ⟨3, _⟩ => rfl

/-- The sum over axis 2 of a rank-4 array, read at an index of the rank-3 result: the sum over that axis's
    coordinate, the other three coordinates kept. -/
theorem red_axis2 {m0 m1 m2 m3 : Nat} (v : FVec Ideal ⟨4, ![m0, m1, m2, m3]⟩ .f32)
    (h : Shape.Reduces ⟨4, ![m0, m1, m2, m3]⟩ [2] ⟨3, ![m0, m1, m3]⟩) (hφ : FKind.Formats .f32)
    (hacc : (0x00000000#32 : BitVec (FTy.bits .f32)) = FKind.add.neutral .f32 hφ)
    (a : Fin m0) (b : Fin m1) (c : Fin m3) :
    multiReduction (F := Ideal) .add [2] ⟨3, ![m0, m1, m3]⟩ v 0x00000000#32 h hφ hacc (ix3 a b c)
      = ∑ k : Fin m2, v (ix4 a b k c) := by
  refine (Ideal.multiReduction_add_single v _ h hφ hacc (ix3 a b c)).trans ?_
  refine Finset.sum_congr rfl fun k _ => congrArg v ?_
  funext d
  apply Fin.ext
  match d with
  | ⟨0, _⟩ => rfl
  | ⟨1, _⟩ => rfl
  | ⟨2, _⟩ => rfl
  | ⟨3, _⟩ => rfl

/-- The sum over axis 1 of a rank-4 array, read at an index of the rank-3 result: the sum over that axis's
    coordinate, the other three coordinates kept. -/
theorem red_axis1 {m0 m1 m2 m3 : Nat} (v : FVec Ideal ⟨4, ![m0, m1, m2, m3]⟩ .f32)
    (h : Shape.Reduces ⟨4, ![m0, m1, m2, m3]⟩ [1] ⟨3, ![m0, m2, m3]⟩) (hφ : FKind.Formats .f32)
    (hacc : (0x00000000#32 : BitVec (FTy.bits .f32)) = FKind.add.neutral .f32 hφ)
    (a : Fin m0) (b : Fin m2) (c : Fin m3) :
    multiReduction (F := Ideal) .add [1] ⟨3, ![m0, m2, m3]⟩ v 0x00000000#32 h hφ hacc (ix3 a b c)
      = ∑ k : Fin m1, v (ix4 a k b c) := by
  refine (Ideal.multiReduction_add_single v _ h hφ hacc (ix3 a b c)).trans ?_
  refine Finset.sum_congr rfl fun k _ => congrArg v ?_
  funext d
  apply Fin.ext
  match d with
  | ⟨0, _⟩ => rfl
  | ⟨1, _⟩ => rfl
  | ⟨2, _⟩ => rfl
  | ⟨3, _⟩ => rfl

/-- The sum over axis 0 of a rank-4 array, read at an index of the rank-3 result: the sum over that axis's
    coordinate, the other three coordinates kept. -/
theorem red_axis0 {m0 m1 m2 m3 : Nat} (v : FVec Ideal ⟨4, ![m0, m1, m2, m3]⟩ .f32)
    (h : Shape.Reduces ⟨4, ![m0, m1, m2, m3]⟩ [0] ⟨3, ![m1, m2, m3]⟩) (hφ : FKind.Formats .f32)
    (hacc : (0x00000000#32 : BitVec (FTy.bits .f32)) = FKind.add.neutral .f32 hφ)
    (a : Fin m1) (b : Fin m2) (c : Fin m3) :
    multiReduction (F := Ideal) .add [0] ⟨3, ![m1, m2, m3]⟩ v 0x00000000#32 h hφ hacc (ix3 a b c)
      = ∑ k : Fin m0, v (ix4 k a b c) := by
  refine (Ideal.multiReduction_add_single v _ h hφ hacc (ix3 a b c)).trans ?_
  refine Finset.sum_congr rfl fun k _ => congrArg v ?_
  funext d
  apply Fin.ext
  match d with
  | ⟨0, _⟩ => rfl
  | ⟨1, _⟩ => rfl
  | ⟨2, _⟩ => rfl
  | ⟨3, _⟩ => rfl

/-! ## The trailing unit axis, and the four sums in turn -/

/-- A rank-3 array given a trailing axis of extent one: the same entries. -/
theorem cast_addLast {m0 m1 m2 : Nat} {α : Type} (v : (⟨3, ![m0, m1, m2]⟩ : Shape).Idx → α)
    (h : Shape.ShapeCasts ⟨3, ![m0, m1, m2]⟩ ⟨4, ![m0, m1, m2, 1]⟩) (a : Fin m0) (b : Fin m1) (c : Fin m2) (z : Fin 1) :
    shapeCast ⟨4, ![m0, m1, m2, 1]⟩ v h (ix4 a b c z) = v (ix3 a b c) := by
  refine shapeCast_apply v h _ _ ?_
  rw [Shape.rowMajor_val_three, Shape.rowMajor_val_four]
  show (a.val * m1 + b.val) * m2 + c.val = ((a.val * m1 + b.val) * m2 + c.val) * 1 + z.val
  omega

/-- The one entry of a [1, 1, 1] array, taken out after a fourth unit axis is added. -/
theorem extract_unit {α : Type} (r : (⟨3, ![1, 1, 1]⟩ : Shape).Idx → α)
    (c : Shape.ShapeCasts ⟨3, ![1, 1, 1]⟩ ⟨4, ![1, 1, 1, 1]⟩)
    (hp : ∀ a, (![0, 0, 0, 0] : Fin 4 → Nat) a < (⟨4, ![1, 1, 1, 1]⟩ : Shape).size a) :
    extractAt ![0, 0, 0, 0] (shapeCast ⟨4, ![1, 1, 1, 1]⟩ r c) hp = r (ix3 0 0 0) := by
  have e : (fun a => ⟨(![0, 0, 0, 0] : Fin 4 → Nat) a, hp a⟩ : (⟨4, ![1, 1, 1, 1]⟩ : Shape).Idx)
      = ix4 (0 : Fin 1) (0 : Fin 1) (0 : Fin 1) (0 : Fin 1) := by
    funext a
    apply Fin.ext
    match a with
    | ⟨0, _⟩ => rfl
    | ⟨1, _⟩ => rfl
    | ⟨2, _⟩ => rfl
    | ⟨3, _⟩ => rfl
  show shapeCast ⟨4, ![1, 1, 1, 1]⟩ r c (fun a => ⟨(![0, 0, 0, 0] : Fin 4 → Nat) a, hp a⟩) = r (ix3 0 0 0)
  rw [e]
  exact cast_addLast r c 0 0 0 0

/-- Four sums in turn — over the last axis, then the third, the second and the first, each partial result given back
    its trailing unit axis — leave the iterated sum over the four coordinates, the first axis outermost. -/
theorem red4 {n0 n1 n2 n3 : Nat} (v : FVec Ideal ⟨4, ![n0, n1, n2, n3]⟩ .f32)
    (h3 : Shape.Reduces ⟨4, ![n0, n1, n2, n3]⟩ [3] ⟨3, ![n0, n1, n2]⟩)
    (c3 : Shape.ShapeCasts ⟨3, ![n0, n1, n2]⟩ ⟨4, ![n0, n1, n2, 1]⟩)
    (h2 : Shape.Reduces ⟨4, ![n0, n1, n2, 1]⟩ [2] ⟨3, ![n0, n1, 1]⟩)
    (c2 : Shape.ShapeCasts ⟨3, ![n0, n1, 1]⟩ ⟨4, ![n0, n1, 1, 1]⟩)
    (h1 : Shape.Reduces ⟨4, ![n0, n1, 1, 1]⟩ [1] ⟨3, ![n0, 1, 1]⟩)
    (c1 : Shape.ShapeCasts ⟨3, ![n0, 1, 1]⟩ ⟨4, ![n0, 1, 1, 1]⟩)
    (h0 : Shape.Reduces ⟨4, ![n0, 1, 1, 1]⟩ [0] ⟨3, ![1, 1, 1]⟩)
    (hφ3 hφ2 hφ1 hφ0 : FKind.Formats .f32)
    (hacc3 : (0x00000000#32 : BitVec (FTy.bits .f32)) = FKind.add.neutral .f32 hφ3)
    (hacc2 : (0x00000000#32 : BitVec (FTy.bits .f32)) = FKind.add.neutral .f32 hφ2)
    (hacc1 : (0x00000000#32 : BitVec (FTy.bits .f32)) = FKind.add.neutral .f32 hφ1)
    (hacc0 : (0x00000000#32 : BitVec (FTy.bits .f32)) = FKind.add.neutral .f32 hφ0)
    (z0 z1 z2 : Fin 1) :
    multiReduction (F := Ideal) .add [0] ⟨3, ![1, 1, 1]⟩
      (shapeCast ⟨4, ![n0, 1, 1, 1]⟩
        (multiReduction (F := Ideal) .add [1] ⟨3, ![n0, 1, 1]⟩
          (shapeCast ⟨4, ![n0, n1, 1, 1]⟩
            (multiReduction (F := Ideal) .add [2] ⟨3, ![n0, n1, 1]⟩
              (shapeCast ⟨4, ![n0, n1, n2, 1]⟩
                (multiReduction (F := Ideal) .add [3] ⟨3, ![n0, n1, n2]⟩ v 0x00000000#32 h3 hφ3 hacc3) c3)
              0x00000000#32 h2 hφ2 hacc2) c2)
          0x00000000#32 h1 hφ1 hacc1) c1)
      0x00000000#32 h0 hφ0 hacc0 (ix3 z0 z1 z2)
      = ∑ a : Fin n0, ∑ b : Fin n1, ∑ c : Fin n2, ∑ d : Fin n3, v (ix4 a b c d) := by
  refine (red_axis0 _ h0 hφ0 hacc0 z0 z1 z2).trans (Finset.sum_congr rfl fun a _ => ?_)
  refine (cast_addLast _ c1 a z0 z1 z2).trans ?_
  refine (red_axis1 _ h1 hφ1 hacc1 a z0 z1).trans (Finset.sum_congr rfl fun b _ => ?_)
  refine (cast_addLast _ c2 a b z0 z1).trans ?_
  refine (red_axis2 _ h2 hφ2 hacc2 a b z0).trans (Finset.sum_congr rfl fun c _ => ?_)
  refine (cast_addLast _ c3 a b c z0).trans ?_
  exact red_axis3 v h3 hφ3 hacc3 a b c

/-! ## One number added to every entry of the accumulator block -/

/-- The [1, 8, 128] accumulator viewed as [8, 128], a number added to every entry, viewed back: the entry plus the number. -/
theorem spread_apply (acc : FVec Ideal S1x8x128 .f32) (s : Ideal .f32) (h1 : S1x8x128.ShapeCasts S8x128)
    (h2 : S8x128.ShapeCasts S1x8x128) (a : Fin 8) (b : Fin 128) :
    shapeCast S1x8x128 (addf (shapeCast S8x128 acc h1) (broadcast S8x128 s)) h2 (ix3 0 a b) = acc (ix3 0 a b) + s := by
  refine (shapeCast_apply _ h2 (ix3 0 a b) (ix2 a b) ?_).trans ?_
  · rw [Shape.rowMajor_val_two, Shape.rowMajor_val_three]
    show a.val * 128 + b.val = (0 * 8 + a.val) * 128 + b.val
    omega
  · refine (addf_apply _ _ _).trans (congrArg (· + s) ?_)
    refine shapeCast_apply acc h1 (ix2 a b) (ix3 0 a b) ?_
    rw [Shape.rowMajor_val_two, Shape.rowMajor_val_three]
    show (0 * 8 + a.val) * 128 + b.val = a.val * 128 + b.val
    omega

/-- Every index of the [1, 8, 128] block is (0, a, b). -/
theorem idx_S1x8x128 (j : S1x8x128.Idx) : ∃ (a : Fin 8) (b : Fin 128), j = ix3 0 a b := by
  refine ⟨j 1, j 2, ?_⟩
  funext d
  match d with
  | ⟨0, _⟩ =>
    apply Fin.ext
    have h : (j 0).val < 1 := (j 0).isLt
    show (j 0).val = 0
    omega
  | ⟨1, _⟩ => rfl
  | ⟨2, _⟩ => rfl

end DiffPay

open DiffPay

/-! ## The payloads -/

/-- The block as the body reads it is the block. -/
theorem pay6_eq (x : Vec Ideal S3x8x192x224 .f32) : k1_pay6 x = x := shapeCast_self x _

/-- Height: every accumulator entry grows by the sum of squared differences between neighbouring rows. -/
theorem pay7_apply (x : Vec Ideal S3x8x192x224 .f32) (acc : Vec Ideal S1x8x128 .f32) (a : Fin 8) (b : Fin 128) :
    k1_pay7 x acc (ix3 0 a b) = acc (ix3 0 a b) + ∑ c : Fin 3, ∑ d : Fin 8, ∑ h : Fin 191, ∑ w : Fin 224,
      (x (ix4 c d ⟨h.val + 1, by omega⟩ w) - x (ix4 c d ⟨h.val, by omega⟩ w))
        * (x (ix4 c d ⟨h.val + 1, by omega⟩ w) - x (ix4 c d ⟨h.val, by omega⟩ w)) := by
  unfold k1_pay7
  refine (spread_apply _ _ _ _ a b).trans (congrArg (acc (ix3 0 a b) + ·) ?_)
  refine (extract_unit _ _ _).trans ?_
  refine (red4 _ _ _ _ _ _ _ _ _ _ _ _ _ _ _ _ 0 0 0).trans ?_
  refine Finset.sum_congr rfl fun c _ => Finset.sum_congr rfl fun d _ => Finset.sum_congr rfl fun h _ =>
    Finset.sum_congr rfl fun w _ => ?_
  have e1 := extractStridedSlice_apply ![0, 0, 1, 0] (k1_pay6 x) slices_S3x8x192x224_o0_0_1_0_S3x8x191x224
    (ix4 c d h w) (ix4 c d ⟨h.val + 1, by omega⟩ w) fun a => match a with
      | ⟨0, _⟩ => by show c.val = 0 + c.val; omega
      | ⟨1, _⟩ => by show d.val = 0 + d.val; omega
      | ⟨2, _⟩ => by show h.val + 1 = 1 + h.val; omega
      | ⟨3, _⟩ => by show w.val = 0 + w.val; omega
  have e0 := extractStridedSlice_apply ![0, 0, 0, 0] (k1_pay6 x) slices_S3x8x192x224_o0_0_0_0_S3x8x191x224
    (ix4 c d h w) (ix4 c d ⟨h.val, by omega⟩ w) fun a => match a with
      | ⟨0, _⟩ => by show c.val = 0 + c.val; omega
      | ⟨1, _⟩ => by show d.val = 0 + d.val; omega
      | ⟨2, _⟩ => by show h.val = 0 + h.val; omega
      | ⟨3, _⟩ => by show w.val = 0 + w.val; omega
  rw [mulf_apply, subf_apply, e1, e0, pay6_eq]

/-- Width: every accumulator entry grows by the sum of squared differences between neighbouring columns. -/
theorem pay9_apply (x : Vec Ideal S3x8x192x224 .f32) (acc : Vec Ideal S1x8x128 .f32) (a : Fin 8) (b : Fin 128) :
    k1_pay9 (k1_pay8 x) acc (ix3 0 a b) = acc (ix3 0 a b) + ∑ c : Fin 3, ∑ d : Fin 8, ∑ h : Fin 192, ∑ w : Fin 223,
      (x (ix4 c d h ⟨w.val + 1, by omega⟩) - x (ix4 c d h ⟨w.val, by omega⟩))
        * (x (ix4 c d h ⟨w.val + 1, by omega⟩) - x (ix4 c d h ⟨w.val, by omega⟩)) := by
  unfold k1_pay9
  refine (spread_apply _ _ _ _ a b).trans (congrArg (acc (ix3 0 a b) + ·) ?_)
  refine (extract_unit _ _ _).trans ?_
  unfold k1_pay8
  refine (red4 _ _ _ _ _ _ _ _ _ _ _ _ _ _ _ _ 0 0 0).trans ?_
  refine Finset.sum_congr rfl fun c _ => Finset.sum_congr rfl fun d _ => Finset.sum_congr rfl fun h _ =>
    Finset.sum_congr rfl fun w _ => ?_
  have e1 := extractStridedSlice_apply ![0, 0, 0, 1] (k1_pay6 x) slices_S3x8x192x224_o0_0_0_1_S3x8x192x223
    (ix4 c d h w) (ix4 c d h ⟨w.val + 1, by omega⟩) fun a => match a with
      | ⟨0, _⟩ => by show c.val = 0 + c.val; omega
      | ⟨1, _⟩ => by show d.val = 0 + d.val; omega
      | ⟨2, _⟩ => by show h.val = 0 + h.val; omega
      | ⟨3, _⟩ => by show w.val + 1 = 1 + w.val; omega
  have e0 := extractStridedSlice_apply ![0, 0, 0, 0] (k1_pay6 x) slices_S3x8x192x224_o0_0_0_0_S3x8x192x223
    (ix4 c d h w) (ix4 c d h ⟨w.val, by omega⟩) fun a => match a with
      | ⟨0, _⟩ => by show c.val = 0 + c.val; omega
      | ⟨1, _⟩ => by show d.val = 0 + d.val; omega
      | ⟨2, _⟩ => by show h.val = 0 + h.val; omega
      | ⟨3, _⟩ => by show w.val = 0 + w.val; omega
  rw [mulf_apply, subf_apply, e1, e0, pay6_eq]

/-- Depth inside the block: every accumulator entry grows by the sum of squared differences between neighbouring
    depth planes of the block. -/
theorem pay11_apply (x : Vec Ideal S3x8x192x224 .f32) (acc : Vec Ideal S1x8x128 .f32) (a : Fin 8) (b : Fin 128) :
    k1_pay11 (k1_pay6 x) acc (ix3 0 a b) = acc (ix3 0 a b) + ∑ c : Fin 3, ∑ d : Fin 7, ∑ h : Fin 192, ∑ w : Fin 224,
      (x (ix4 c ⟨d.val + 1, by omega⟩ h w) - x (ix4 c ⟨d.val, by omega⟩ h w))
        * (x (ix4 c ⟨d.val + 1, by omega⟩ h w) - x (ix4 c ⟨d.val, by omega⟩ h w)) := by
  unfold k1_pay11
  refine (spread_apply _ _ _ _ a b).trans (congrArg (acc (ix3 0 a b) + ·) ?_)
  refine (extract_unit _ _ _).trans ?_
  refine (red4 _ _ _ _ _ _ _ _ _ _ _ _ _ _ _ _ 0 0 0).trans ?_
  refine Finset.sum_congr rfl fun c _ => Finset.sum_congr rfl fun d _ => Finset.sum_congr rfl fun h _ =>
    Finset.sum_congr rfl fun w _ => ?_
  have e1 := extractStridedSlice_apply ![0, 1, 0, 0] (k1_pay6 x) slices_S3x8x192x224_o0_1_0_0_S3x7x192x224
    (ix4 c d h w) (ix4 c ⟨d.val + 1, by omega⟩ h w) fun a => match a with
      | ⟨0, _⟩ => by show c.val = 0 + c.val; omega
      | ⟨1, _⟩ => by show d.val + 1 = 1 + d.val; omega
      | ⟨2, _⟩ => by show h.val = 0 + h.val; omega
      | ⟨3, _⟩ => by show w.val = 0 + w.val; omega
  have e0 := extractStridedSlice_apply ![0, 0, 0, 0] (k1_pay6 x) slices_S3x8x192x224_o0_0_0_0_S3x7x192x224
    (ix4 c d h w) (ix4 c ⟨d.val, by omega⟩ h w) fun a => match a with
      | ⟨0, _⟩ => by show c.val = 0 + c.val; omega
      | ⟨1, _⟩ => by show d.val = 0 + d.val; omega
      | ⟨2, _⟩ => by show h.val = 0 + h.val; omega
      | ⟨3, _⟩ => by show w.val = 0 + w.val; omega
  rw [mulf_apply, subf_apply, e1, e0, pay6_eq]

/-- Depth across the boundary: every accumulator entry grows by the sum of squared differences between the block's
    first depth plane and the carried plane (the sum over the plane's one depth coordinate has one term). -/
theorem pay10_apply (x : Vec Ideal S3x8x192x224 .f32) (plane : Vec Ideal S3x1x192x224 .f32)
    (acc : Vec Ideal S1x8x128 .f32) (a : Fin 8) (b : Fin 128) :
    k1_pay10 (k1_pay6 x) plane acc (ix3 0 a b) = acc (ix3 0 a b) + ∑ c : Fin 3, ∑ h : Fin 192, ∑ w : Fin 224,
      (x (ix4 c 0 h w) - plane (ix4 c 0 h w)) * (x (ix4 c 0 h w) - plane (ix4 c 0 h w)) := by
  unfold k1_pay10
  refine (spread_apply _ _ _ _ a b).trans (congrArg (acc (ix3 0 a b) + ·) ?_)
  refine (extract_unit _ _ _).trans ?_
  refine (red4 _ _ _ _ _ _ _ _ _ _ _ _ _ _ _ _ 0 0 0).trans ?_
  refine Finset.sum_congr rfl fun c _ => (Fin.sum_univ_one _).trans ?_
  refine Finset.sum_congr rfl fun h _ => Finset.sum_congr rfl fun w _ => ?_
  have e0 := extractStridedSlice_apply ![0, 0, 0, 0] (k1_pay6 x) slices_S3x8x192x224_o0_0_0_0_S3x1x192x224
    (ix4 c 0 h w) (ix4 c 0 h w) fun a => match a with
      | ⟨0, _⟩ => by show c.val = 0 + c.val; omega
      | ⟨1, _⟩ => by show (0 : ℕ) = 0 + 0; rfl
      | ⟨2, _⟩ => by show h.val = 0 + h.val; omega
      | ⟨3, _⟩ => by show w.val = 0 + w.val; omega
  rw [mulf_apply, subf_apply, e0, pay6_eq]

/-- The plane carried to the next point is the block's last depth plane. -/
theorem pay1_apply (x : Vec Ideal S3x8x192x224 .f32) (c : Fin 3) (h : Fin 192) (w : Fin 224) :
    k1_pay1 (k1_pay12 (k1_pay6 x)) (ix4 c 0 h w) = x (ix4 c 7 h w) := by
  unfold k1_pay1 k1_pay12
  rw [shapeCast_self, pay6_eq]
  exact extractStridedSlice_apply ![0, 7, 0, 0] x slices_S3x8x192x224_o0_7_0_0_S3x1x192x224
    (ix4 c 0 h w) (ix4 c 7 h w) fun a => match a with
      | ⟨0, _⟩ => by show c.val = 0 + c.val; omega
      | ⟨1, _⟩ => by show (7 : ℕ) = 7 + 0; rfl
      | ⟨2, _⟩ => by show h.val = 0 + h.val; omega
      | ⟨3, _⟩ => by show w.val = 0 + w.val; omega

/-- The three accumulators start from zero. -/
theorem pay2_apply (j : S1x8x128.Idx) : k1_pay2 (F := Ideal) j = 0 := Ideal.ofBits_zero_f32

theorem pay3_apply (j : S1x8x128.Idx) : k1_pay3 (F := Ideal) j = 0 := Ideal.ofBits_zero_f32

theorem pay4_apply (j : S1x8x128.Idx) : k1_pay4 (F := Ideal) j = 0 := Ideal.ofBits_zero_f32

/-! ## The same at any index of the accumulator block -/

theorem pay7_apply_idx (x : Vec Ideal S3x8x192x224 .f32) (acc : Vec Ideal S1x8x128 .f32) (j : S1x8x128.Idx) :
    k1_pay7 x acc j = acc j + ∑ c : Fin 3, ∑ d : Fin 8, ∑ h : Fin 191, ∑ w : Fin 224,
      (x (ix4 c d ⟨h.val + 1, by omega⟩ w) - x (ix4 c d ⟨h.val, by omega⟩ w))
        * (x (ix4 c d ⟨h.val + 1, by omega⟩ w) - x (ix4 c d ⟨h.val, by omega⟩ w)) := by
  obtain ⟨a, b, rfl⟩ := idx_S1x8x128 j
  exact pay7_apply x acc a b

theorem pay9_apply_idx (x : Vec Ideal S3x8x192x224 .f32) (acc : Vec Ideal S1x8x128 .f32) (j : S1x8x128.Idx) :
    k1_pay9 (k1_pay8 x) acc j = acc j + ∑ c : Fin 3, ∑ d : Fin 8, ∑ h : Fin 192, ∑ w : Fin 223,
      (x (ix4 c d h ⟨w.val + 1, by omega⟩) - x (ix4 c d h ⟨w.val, by omega⟩))
        * (x (ix4 c d h ⟨w.val + 1, by omega⟩) - x (ix4 c d h ⟨w.val, by omega⟩)) := by
  obtain ⟨a, b, rfl⟩ := idx_S1x8x128 j
  exact pay9_apply x acc a b

theorem pay11_apply_idx (x : Vec Ideal S3x8x192x224 .f32) (acc : Vec Ideal S1x8x128 .f32) (j : S1x8x128.Idx) :
    k1_pay11 (k1_pay6 x) acc j = acc j + ∑ c : Fin 3, ∑ d : Fin 7, ∑ h : Fin 192, ∑ w : Fin 224,
      (x (ix4 c ⟨d.val + 1, by omega⟩ h w) - x (ix4 c ⟨d.val, by omega⟩ h w))
        * (x (ix4 c ⟨d.val + 1, by omega⟩ h w) - x (ix4 c ⟨d.val, by omega⟩ h w)) := by
  obtain ⟨a, b, rfl⟩ := idx_S1x8x128 j
  exact pay11_apply x acc a b

theorem pay10_apply_idx (x : Vec Ideal S3x8x192x224 .f32) (plane : Vec Ideal S3x1x192x224 .f32)
    (acc : Vec Ideal S1x8x128 .f32) (j : S1x8x128.Idx) :
    k1_pay10 (k1_pay6 x) plane acc j = acc j + ∑ c : Fin 3, ∑ h : Fin 192, ∑ w : Fin 224,
      (x (ix4 c 0 h w) - plane (ix4 c 0 h w)) * (x (ix4 c 0 h w) - plane (ix4 c 0 h w)) := by
  obtain ⟨a, b, rfl⟩ := idx_S1x8x128 j
  exact pay10_apply x plane acc a b

end Cert.KernelIdeal.Hand

end
-- ==== Proof.KDiffAcc.lean ====
/-
  The finite-difference region: from the three accumulator blocks to the canonical sums of squared forward differences.

  The region walks the field's 160 depth planes in 20 blocks of eight, ten blocks to a core. At each point the height and
  width accumulators take the squared differences inside the block's eight planes; the depth accumulator takes the seven
  planes of differences between the block's planes and, from a core's second point on, the differences between the
  block's first plane and the last plane of the block before, which the region carries in a plane of its own. After a
  core's tenth point the three accumulators are written back to the core's row of the three result arrays.

  So a core's depth value is the sum of the 79 planes of differences inside its 80 planes, its height and width values
  the sums inside its 80 planes; the two cores' values, with the one plane of differences between planes 79 and 80 for
  depth, add up to the canonical sums over all 160 planes.
-/
import proofs.«417857_j15487652069654_3_alg».proof.Proof.KKit
import proofs.«417857_j15487652069654_3_alg».proof.Proof.KDiffPay
import proofs.«417857_j15487652069654_3_alg».proof.Proof.Spec
import proofs.«417857_j15487652069654_3_alg».proof.Proof.LibReshapeSum
import Idealize.ShloMosaic.Lib.Pipeline.Value
import Idealize.ShloMosaic.Lib.ValueIdx
import Mathlib.Data.Fintype.BigOperators
import Mathlib.Algebra.BigOperators.Group.Finset.Sigma

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

namespace DiffAcc

/-! ## Sums over consecutive naturals, cut into runs -/

/-- `n` runs of `m` consecutive terms are the first `m * n` terms. -/
theorem sum_runs {M : Type*} [AddCommMonoid M] (m : ℕ) (f : ℕ → M) : ∀ n : ℕ,
    ∑ j ∈ Finset.range n, ∑ d ∈ Finset.range m, f (m * j + d) = ∑ d ∈ Finset.range (m * n), f d
  | 0 => by rw [Finset.sum_range_zero, Nat.mul_zero, Finset.sum_range_zero]
  | n + 1 => by
    rw [Finset.sum_range_succ, sum_runs m f n, Nat.mul_succ, Finset.sum_range_add]

/-- `n + 1` runs of seven consecutive terms, with the `n` single terms that separate consecutive runs, are the first
    `8 n + 7` terms. -/
theorem sum_runs7 {M : Type*} [AddCommMonoid M] (f : ℕ → M) : ∀ n : ℕ,
    (∑ j ∈ Finset.range (n + 1), ∑ d ∈ Finset.range 7, f (8 * j + d)) + ∑ j ∈ Finset.range n, f (8 * j + 7)
      = ∑ d ∈ Finset.range (8 * n + 7), f d
  | 0 => by
    rw [Finset.sum_range_one, Finset.sum_range_zero, add_zero]
    rfl
  | n + 1 => by
    have ih := sum_runs7 f n
    have e : 8 * (n + 1) + 7 = (8 * n + 7) + (1 + 7) := by omega
    have hR : ∑ d ∈ Finset.range (8 * (n + 1) + 7), f d
        = ∑ d ∈ Finset.range (8 * n + 7), f d + (f (8 * n + 7) + ∑ d ∈ Finset.range 7, f (8 * (n + 1) + d)) := by
      rw [e, Finset.sum_range_add, Finset.sum_range_add (fun x => f (8 * n + 7 + x)) 1 7, Finset.sum_range_one]
      exact congrArg₂ (· + ·) rfl (congrArg₂ (· + ·) rfl (Finset.sum_congr rfl fun d _ => congrArg f (by omega)))
    rw [Finset.sum_range_succ (fun j => ∑ d ∈ Finset.range 7, f (8 * j + d)) (n + 1),
      Finset.sum_range_succ (fun j => f (8 * j + 7)) n, hR, ← ih, add_add_add_comm,
      add_comm (∑ d ∈ Finset.range 7, f (8 * (n + 1) + d)) (f (8 * n + 7))]

/-! ## The canonical sums as sums over the depth coordinate -/

section Spec

variable (v : Cert.Spec.A5.Idx → EReal)

/-- Depth plane `d` of the field (zero past the last plane, which no sum below reads). -/
def pl (d : ℕ) (c : Fin 3) (h : Fin 192) (w : Fin 224) : EReal :=
  if hd : d < 160 then v (Cert.Spec.at5 c ⟨d, hd⟩ h w) else 0

theorem pl_of_lt (d : ℕ) (hd : d < 160) (c : Fin 3) (h : Fin 192) (w : Fin 224) :
    pl v d c h w = v (Cert.Spec.at5 c ⟨d, hd⟩ h w) := dif_pos hd

/-- The squared differences between depth planes `d + 1` and `d`. -/
def gDz (d : ℕ) : EReal :=
  ∑ c : Fin 3, ∑ h : Fin 192, ∑ w : Fin 224, (pl v (d + 1) c h w - pl v d c h w) * (pl v (d + 1) c h w - pl v d c h w)

/-- The squared height differences inside depth plane `d`. -/
def gDy (d : ℕ) : EReal :=
  ∑ c : Fin 3, ∑ h : Fin 191, ∑ w : Fin 224,
    (pl v d c ⟨h.val + 1, by omega⟩ w - pl v d c ⟨h.val, by omega⟩ w) * (pl v d c ⟨h.val + 1, by omega⟩ w - pl v d c ⟨h.val, by omega⟩ w)

/-- The squared width differences inside depth plane `d`. -/
def gDx (d : ℕ) : EReal :=
  ∑ c : Fin 3, ∑ h : Fin 192, ∑ w : Fin 223,
    (pl v d c h ⟨w.val + 1, by omega⟩ - pl v d c h ⟨w.val, by omega⟩) * (pl v d c h ⟨w.val + 1, by omega⟩ - pl v d c h ⟨w.val, by omega⟩)

theorem sumDz_eq : Cert.Spec.sumDz v = ∑ d ∈ Finset.range 159, gDz v d := by
  rw [← Fin.sum_univ_eq_sum_range (gDz v) 159]
  unfold Cert.Spec.sumDz gDz
  rw [Finset.sum_comm]
  refine Finset.sum_congr rfl fun d _ => Finset.sum_congr rfl fun c _ => Finset.sum_congr rfl fun h _ =>
    Finset.sum_congr rfl fun w _ => ?_
  rw [pl_of_lt v (d.val + 1) (by omega), pl_of_lt v d.val (by omega)]

theorem sumDy_eq : Cert.Spec.sumDy v = ∑ d ∈ Finset.range 160, gDy v d := by
  rw [← Fin.sum_univ_eq_sum_range (gDy v) 160]
  unfold Cert.Spec.sumDy gDy
  rw [Finset.sum_comm]
  refine Finset.sum_congr rfl fun d _ => Finset.sum_congr rfl fun c _ => Finset.sum_congr rfl fun h _ =>
    Finset.sum_congr rfl fun w _ => ?_
  rw [pl_of_lt v d.val d.isLt, pl_of_lt v d.val d.isLt]

theorem sumDx_eq : Cert.Spec.sumDx v = ∑ d ∈ Finset.range 160, gDx v d := by
  rw [← Fin.sum_univ_eq_sum_range (gDx v) 160]
  unfold Cert.Spec.sumDx gDx
  rw [Finset.sum_comm]
  refine Finset.sum_congr rfl fun d _ => Finset.sum_congr rfl fun c _ => Finset.sum_congr rfl fun h _ =>
    Finset.sum_congr rfl fun w _ => ?_
  rw [pl_of_lt v d.val d.isLt, pl_of_lt v d.val d.isLt]

end Spec

/-! ## One block's sums -/

/-- Squared forward differences along height inside one block of eight depth planes. -/
def blkDy (x : Vec Ideal S3x8x192x224 .f32) : EReal :=
  ∑ c : Fin 3, ∑ d : Fin 8, ∑ h : Fin 191, ∑ w : Fin 224,
    (x (ix4 c d ⟨h.val + 1, by omega⟩ w) - x (ix4 c d ⟨h.val, by omega⟩ w)) * (x (ix4 c d ⟨h.val + 1, by omega⟩ w) - x (ix4 c d ⟨h.val, by omega⟩ w))

/-- Squared forward differences along width inside one block. -/
def blkDx (x : Vec Ideal S3x8x192x224 .f32) : EReal :=
  ∑ c : Fin 3, ∑ d : Fin 8, ∑ h : Fin 192, ∑ w : Fin 223,
    (x (ix4 c d h ⟨w.val + 1, by omega⟩) - x (ix4 c d h ⟨w.val, by omega⟩)) * (x (ix4 c d h ⟨w.val + 1, by omega⟩) - x (ix4 c d h ⟨w.val, by omega⟩))

/-- Squared forward differences along depth between the eight planes of one block: seven planes of differences. -/
def blkDz (x : Vec Ideal S3x8x192x224 .f32) : EReal :=
  ∑ c : Fin 3, ∑ d : Fin 7, ∑ h : Fin 192, ∑ w : Fin 224,
    (x (ix4 c ⟨d.val + 1, by omega⟩ h w) - x (ix4 c ⟨d.val, by omega⟩ h w)) * (x (ix4 c ⟨d.val + 1, by omega⟩ h w) - x (ix4 c ⟨d.val, by omega⟩ h w))

/-- Squared differences between a block's first plane and a carried plane. -/
def blkBd (x : Vec Ideal S3x8x192x224 .f32) (p : Vec Ideal S3x1x192x224 .f32) : EReal :=
  ∑ c : Fin 3, ∑ h : Fin 192, ∑ w : Fin 224,
    (x (ix4 c 0 h w) - p (ix4 c 0 h w)) * (x (ix4 c 0 h w) - p (ix4 c 0 h w))

/-- Squared differences between a block's first plane and the last plane of the block before it. -/
def blkSeam (y x : Vec Ideal S3x8x192x224 .f32) : EReal :=
  ∑ c : Fin 3, ∑ h : Fin 192, ∑ w : Fin 224,
    (x (ix4 c 0 h w) - y (ix4 c 7 h w)) * (x (ix4 c 0 h w) - y (ix4 c 7 h w))

/-- When the carried plane is the last plane of the block before, the boundary term is the seam between the two blocks. -/
theorem blkBd_eq_seam (y x : Vec Ideal S3x8x192x224 .f32) (p : Vec Ideal S3x1x192x224 .f32)
    (hp : ∀ (c : Fin 3) (h : Fin 192) (w : Fin 224), p (ix4 c 0 h w) = y (ix4 c 7 h w)) : blkBd x p = blkSeam y x := by
  unfold blkBd blkSeam
  refine Finset.sum_congr rfl fun c _ => Finset.sum_congr rfl fun h _ => Finset.sum_congr rfl fun w _ => ?_
  rw [hp]

section Points

/-! ## One point's update at an index -/

theorem first1_dz (x : Vec Ideal S3x8x192x224 .f32) (a : Fin 8) (b : Fin 128) :
    (first1 (F := Ideal) x).1 (ix3 0 a b) = blkDz x := by
  unfold first1
  dsimp only
  rw [pay11_apply, pay2_apply, zero_add]
  rfl

theorem first1_dy (x : Vec Ideal S3x8x192x224 .f32) (a : Fin 8) (b : Fin 128) :
    (first1 (F := Ideal) x).2.1 (ix3 0 a b) = blkDy x := by
  unfold first1
  dsimp only
  rw [pay7_apply, pay3_apply, zero_add]
  rfl

theorem first1_dx (x : Vec Ideal S3x8x192x224 .f32) (a : Fin 8) (b : Fin 128) :
    (first1 (F := Ideal) x).2.2.1 (ix3 0 a b) = blkDx x := by
  unfold first1
  dsimp only
  rw [pay9_apply, pay4_apply, zero_add]
  rfl

theorem first1_plane (x : Vec Ideal S3x8x192x224 .f32) (c : Fin 3) (h : Fin 192) (w : Fin 224) :
    (first1 (F := Ideal) x).2.2.2 (ix4 c 0 h w) = x (ix4 c 7 h w) := by
  unfold first1
  dsimp only
  rw [pay1_apply]

theorem later1_dz (x : Vec Ideal S3x8x192x224 .f32)
    (p : Vec Ideal S1x8x128 .f32 × Vec Ideal S1x8x128 .f32 × Vec Ideal S1x8x128 .f32 × Vec Ideal S3x1x192x224 .f32)
    (a : Fin 8) (b : Fin 128) :
    (later1 (F := Ideal) x p).1 (ix3 0 a b) = (p.1 (ix3 0 a b) + blkBd x p.2.2.2) + blkDz x := by
  unfold later1
  dsimp only
  rw [pay11_apply, pay10_apply]
  rfl

theorem later1_dy (x : Vec Ideal S3x8x192x224 .f32)
    (p : Vec Ideal S1x8x128 .f32 × Vec Ideal S1x8x128 .f32 × Vec Ideal S1x8x128 .f32 × Vec Ideal S3x1x192x224 .f32)
    (a : Fin 8) (b : Fin 128) :
    (later1 (F := Ideal) x p).2.1 (ix3 0 a b) = p.2.1 (ix3 0 a b) + blkDy x := by
  unfold later1
  dsimp only
  rw [pay7_apply]
  rfl

theorem later1_dx (x : Vec Ideal S3x8x192x224 .f32)
    (p : Vec Ideal S1x8x128 .f32 × Vec Ideal S1x8x128 .f32 × Vec Ideal S1x8x128 .f32 × Vec Ideal S3x1x192x224 .f32)
    (a : Fin 8) (b : Fin 128) :
    (later1 (F := Ideal) x p).2.2.1 (ix3 0 a b) = p.2.2.1 (ix3 0 a b) + blkDx x := by
  unfold later1
  dsimp only
  rw [pay9_apply]
  rfl

theorem later1_plane (x : Vec Ideal S3x8x192x224 .f32)
    (p : Vec Ideal S1x8x128 .f32 × Vec Ideal S1x8x128 .f32 × Vec Ideal S1x8x128 .f32 × Vec Ideal S3x1x192x224 .f32)
    (c : Fin 3) (h : Fin 192) (w : Fin 224) :
    (later1 (F := Ideal) x p).2.2.2 (ix4 c 0 h w) = x (ix4 c 7 h w) := by
  unfold later1
  dsimp only
  rw [pay1_apply]

end Points

/-! ## The accumulators along a sequence of blocks -/

/-- The three accumulator blocks and the carried plane after each position of a sequence of blocks: a position that is a
    multiple of ten starts from zero, any other continues from the position before. -/
def accSeq (X : ℕ → Vec Ideal S3x8x192x224 .f32) :
    ℕ → Vec Ideal S1x8x128 .f32 × Vec Ideal S1x8x128 .f32 × Vec Ideal S1x8x128 .f32 × Vec Ideal S3x1x192x224 .f32
  | 0 => first1 (X 0)
  | n + 1 => if (n + 1) % 10 = 0 then first1 (X (n + 1)) else later1 (X (n + 1)) (accSeq X n)

theorem accSeq_reset (X : ℕ → Vec Ideal S3x8x192x224 .f32) (n : ℕ) (h : n % 10 = 0) : accSeq X n = first1 (X n) := by
  cases n with
  | zero => rfl
  | succ n => rw [accSeq, if_pos h]

theorem accSeq_step (X : ℕ → Vec Ideal S3x8x192x224 .f32) (n : ℕ) (h : ¬(n + 1) % 10 = 0) :
    accSeq X (n + 1) = later1 (X (n + 1)) (accSeq X n) := by
  rw [accSeq, if_neg h]

/-- Moving the last summand in front of the third: commutativity and associativity only. -/
theorem add4_regroup {M : Type*} [AddCommMonoid M] (A S m D : M) : A + S + m + D = A + D + (S + m) := by
  rw [add_assoc A S m, add_right_comm]

section Folds

variable (X : ℕ → Vec Ideal S3x8x192x224 .f32)

/-- After every position the carried plane is the last depth plane of that position's block. -/
theorem accSeq_plane (n : ℕ) (c : Fin 3) (h : Fin 192) (w : Fin 224) :
    (accSeq X n).2.2.2 (ix4 c 0 h w) = X n (ix4 c 7 h w) := by
  by_cases hn : n % 10 = 0
  · rw [accSeq_reset X n hn, first1_plane]
  · obtain ⟨m, rfl⟩ : ∃ m, n = m + 1 := ⟨n - 1, by omega⟩
    rw [accSeq_step X m hn, later1_plane]

/-- The height accumulator after the position `j` steps into a run is the sum of the run's blocks so far. -/
theorem accSeq_dy (b : ℕ) (hb : b % 10 = 0) (a : Fin 8) (l : Fin 128) : ∀ j : ℕ, j < 10 →
    (accSeq X (b + j)).2.1 (ix3 0 a l) = ∑ s ∈ Finset.range (j + 1), blkDy (X (b + s))
  | 0, _ => by
    show (accSeq X b).2.1 (ix3 0 a l) = _
    rw [accSeq_reset X b hb, first1_dy, Finset.sum_range_one]
    rfl
  | j + 1, hj => by
    show (accSeq X (b + j + 1)).2.1 (ix3 0 a l) = _
    rw [accSeq_step X (b + j) (by omega), later1_dy, accSeq_dy b hb a l j (by omega), Finset.sum_range_succ _ (j + 1)]
    rfl

/-- The width accumulator likewise. -/
theorem accSeq_dx (b : ℕ) (hb : b % 10 = 0) (a : Fin 8) (l : Fin 128) : ∀ j : ℕ, j < 10 →
    (accSeq X (b + j)).2.2.1 (ix3 0 a l) = ∑ s ∈ Finset.range (j + 1), blkDx (X (b + s))
  | 0, _ => by
    show (accSeq X b).2.2.1 (ix3 0 a l) = _
    rw [accSeq_reset X b hb, first1_dx, Finset.sum_range_one]
    rfl
  | j + 1, hj => by
    show (accSeq X (b + j + 1)).2.2.1 (ix3 0 a l) = _
    rw [accSeq_step X (b + j) (by omega), later1_dx, accSeq_dx b hb a l j (by omega), Finset.sum_range_succ _ (j + 1)]
    rfl

/-- The depth accumulator after the position `j` steps into a run: the inner differences of the run's blocks so far and the
    seams between consecutive blocks of the run. -/
theorem accSeq_dz (b : ℕ) (hb : b % 10 = 0) (a : Fin 8) (l : Fin 128) : ∀ j : ℕ, j < 10 →
    (accSeq X (b + j)).1 (ix3 0 a l)
      = ∑ s ∈ Finset.range (j + 1), blkDz (X (b + s)) + ∑ s ∈ Finset.range j, blkSeam (X (b + s)) (X (b + s + 1))
  | 0, _ => by
    show (accSeq X b).1 (ix3 0 a l) = _
    rw [accSeq_reset X b hb, first1_dz, Finset.sum_range_one, Finset.sum_range_zero, add_zero]
    rfl
  | j + 1, hj => by
    show (accSeq X (b + j + 1)).1 (ix3 0 a l) = _
    rw [accSeq_step X (b + j) (by omega), later1_dz, accSeq_dz b hb a l j (by omega),
      blkBd_eq_seam (X (b + j)) (X (b + j + 1)) _ (accSeq_plane X (b + j)),
      Finset.sum_range_succ (fun s => blkDz (X (b + s))) (j + 1),
      Finset.sum_range_succ (fun s => blkSeam (X (b + s)) (X (b + s + 1))) j]
    exact add4_regroup _ _ _ _

end Folds

end DiffAcc

open DiffAcc

/-! ## The region's blocks and accumulators -/

section Region

variable (V : (c : Dev nD) → (b : Ref sig .tc) → Buf (Elt Ideal) ((c : Thread nD τ).loc b)) (c : Dev nD)

/-- The field's blocks in the order the region meets them (past the grid: zero, which nothing reads). -/
def blkSeq (n : ℕ) : Vec Ideal S3x8x192x224 .f32 :=
  if h : n < cfg1.N then iblk1 (F := Ideal) V c 0 ⟨n, h⟩ else fun _ => (0 : EReal)

theorem blkSeq_of_lt (n : ℕ) (h : n < cfg1.N) : blkSeq V c n = iblk1 (F := Ideal) V c 0 ⟨n, h⟩ := dif_pos h

/-- The region's accumulators are the accumulators along its sequence of blocks. -/
theorem acc1_eq_accSeq : ∀ (n : ℕ) (h : n < cfg1.N), acc1 (F := Ideal) V c n h = accSeq (blkSeq V c) n
  | 0, h => by
    rw [acc1, accSeq, blkSeq_of_lt V c 0 h]
  | n + 1, h => by
    rw [acc1, accSeq, blkSeq_of_lt V c (n + 1) h, acc1_eq_accSeq n (Nat.lt_of_succ_lt h)]

/-- The field window's block index at a point: the point's position along the depth axis, zero on the others. -/
theorem idx1_in : ∀ t : Fin cfg1.N, win1_0.index t 0 = 0 ∧ win1_0.index t 1 = t.val ∧ win1_0.index t 2 = 0 ∧ win1_0.index t 3 = 0 :=
  (by decide +kernel : ∀ t : Fin grid1.N, win1_0.index t 0 = 0 ∧ win1_0.index t 1 = t.val ∧ win1_0.index t 2 = 0 ∧ win1_0.index t 3 = 0)

/-- The field window's block at point `t` is depth planes `8 t … 8 t + 7` of the field as the region finds it. -/
theorem iblk1_apply (t : Fin cfg1.N) (ch : Fin 3) (d : Fin 8) (h : Fin 192) (w : Fin 224) (k : S3x160x192x224.Idx)
    (hk0 : (k 0).val = ch.val) (hk1 : (k 1).val = 8 * t.val + d.val) (hk2 : (k 2).val = h.val) (hk3 : (k 3).val = w.val) :
    (iblk1 (F := Ideal) V c 0 t : Vec Ideal S3x8x192x224 .f32) (ix4 ch d h w) = (V c main_v30 : S3x160x192x224.Idx → EReal) k := by
  obtain ⟨e0, e1, e2, e3⟩ := idx1_in t
  unfold iblk1
  rw [View.read_apply]
  show V c main_v30 _ = V c main_v30 _
  congr 1
  funext a
  apply Fin.ext
  match a with
  | ⟨0, _⟩ => show win1_0.index t 0 * 3 + 1 * ch.val = (k 0).val; rw [e0, hk0]; omega
  | ⟨1, _⟩ => show win1_0.index t 1 * 8 + 1 * d.val = (k 1).val; rw [e1, hk1]; omega
  | ⟨2, _⟩ => show win1_0.index t 2 * 192 + 1 * h.val = (k 2).val; rw [e2, hk2]; omega
  | ⟨3, _⟩ => show win1_0.index t 3 * 224 + 1 * w.val = (k 3).val; rw [e3, hk3]; omega

/-! ## The accumulators after a core's last point -/

/-- The depth accumulator after core `k`'s last point: the inner differences of the core's ten blocks and the nine seams
    between them. -/
theorem acc1_dz_last (k : ℕ) (h : 10 * k + 9 < cfg1.N) (a : Fin 8) (l : Fin 128) :
    (acc1 (F := Ideal) V c (10 * k + 9) h).1 (ix3 0 a l)
      = ∑ s ∈ Finset.range 10, blkDz (blkSeq V c (10 * k + s))
        + ∑ s ∈ Finset.range 9, blkSeam (blkSeq V c (10 * k + s)) (blkSeq V c (10 * k + s + 1)) := by
  rw [acc1_eq_accSeq]
  exact accSeq_dz (blkSeq V c) (10 * k) (by omega) a l 9 (by omega)

/-- The height accumulator after core `k`'s last point: the height differences of the core's ten blocks. -/
theorem acc1_dy_last (k : ℕ) (h : 10 * k + 9 < cfg1.N) (a : Fin 8) (l : Fin 128) :
    (acc1 (F := Ideal) V c (10 * k + 9) h).2.1 (ix3 0 a l) = ∑ s ∈ Finset.range 10, blkDy (blkSeq V c (10 * k + s)) := by
  rw [acc1_eq_accSeq]
  exact accSeq_dy (blkSeq V c) (10 * k) (by omega) a l 9 (by omega)

/-- The width accumulator after core `k`'s last point: the width differences of the core's ten blocks. -/
theorem acc1_dx_last (k : ℕ) (h : 10 * k + 9 < cfg1.N) (a : Fin 8) (l : Fin 128) :
    (acc1 (F := Ideal) V c (10 * k + 9) h).2.2.1 (ix3 0 a l) = ∑ s ∈ Finset.range 10, blkDx (blkSeq V c (10 * k + s)) := by
  rw [acc1_eq_accSeq]
  exact accSeq_dx (blkSeq V c) (10 * k) (by omega) a l 9 (by omega)

/-- The field window's block at point `t`, element by element. -/
theorem iblk1_at (t : Fin cfg1.N) (ch : Fin 3) (d : Fin 8) (h : Fin 192) (w : Fin 224) :
    (iblk1 (F := Ideal) V c 0 t : Vec Ideal S3x8x192x224 .f32) (ix4 ch d h w)
      = (V c main_v30 : S3x160x192x224.Idx → EReal)
          (ix4 ch ⟨8 * t.val + d.val, by have := t.isLt; have hN : cfg1.N = 20 := N_1; have := d.isLt; omega⟩ h w) :=
  iblk1_apply V c t ch d h w _ rfl rfl rfl rfl

end Region

section Arrays

variable (V : (c : Dev nD) → (b : Ref sig .tc) → Buf (Elt Ideal) ((c : Thread nD τ).loc b)) (c : Dev nD)

/-- The three result windows' block index at a point: the core on the leading axis, zero on the others. -/
theorem idx1_out1 : ∀ t : Fin cfg1.N, win1_1.index t 0 = t.val / 10 ∧ win1_1.index t 1 = 0 ∧ win1_1.index t 2 = 0 :=
  (by decide +kernel : ∀ t : Fin grid1.N, win1_1.index t 0 = t.val / 10 ∧ win1_1.index t 1 = 0 ∧ win1_1.index t 2 = 0)
theorem idx1_out2 : ∀ t : Fin cfg1.N, win1_2.index t 0 = t.val / 10 ∧ win1_2.index t 1 = 0 ∧ win1_2.index t 2 = 0 :=
  (by decide +kernel : ∀ t : Fin grid1.N, win1_2.index t 0 = t.val / 10 ∧ win1_2.index t 1 = 0 ∧ win1_2.index t 2 = 0)
theorem idx1_out3 : ∀ t : Fin cfg1.N, win1_3.index t 0 = t.val / 10 ∧ win1_3.index t 1 = 0 ∧ win1_3.index t 2 = 0 :=
  (by decide +kernel : ∀ t : Fin grid1.N, win1_3.index t 0 = t.val / 10 ∧ win1_3.index t 1 = 0 ∧ win1_3.index t 2 = 0)

/-- The depth result array as the region leaves it: row `k` is the depth accumulator after core `k`'s last point. -/
def outZ : S2x8x128.Idx → EReal := fun i => (accSeq (blkSeq V c) (10 * (i 0).val + 9)).1 (ix3 0 (i 1) (i 2))

theorem outZ_apply (i : S2x8x128.Idx) (n : ℕ) (y : S1x8x128.Idx) (h0 : 10 * (i 0).val + 9 = n)
    (h1 : (i 1).val = (y 1).val) (h2 : (i 2).val = (y 2).val) : outZ V c i = (accSeq (blkSeq V c) n).1 y := by
  subst h0
  show (accSeq (blkSeq V c) (10 * (i 0).val + 9)).1 (ix3 0 (i 1) (i 2)) = (accSeq (blkSeq V c) (10 * (i 0).val + 9)).1 y
  refine congrArg _ (funext fun a => ?_)
  match a with
  | ⟨0, _⟩ => exact Fin.ext (by have hy : (y 0).val < 1 := (y 0).isLt; show 0 = (y 0).val; omega)
  | ⟨1, _⟩ => exact Fin.ext h1
  | ⟨2, _⟩ => exact Fin.ext h2

/-- What a core's last point writes back is the core's row of that array. -/
theorem flushedZ_eq (t : Fin cfg1.N) (hf : (cfg1.win 1).flush t = true) :
    (dat1 (F := Ideal) V c).flushed 1 t = ((cfg1.win 1).blk t).view.read (Elt Ideal) (outZ V c) := by
  have h9 : t.val % 10 = 9 := (flush1_1 t).mp hf
  obtain ⟨e0, e1, e2⟩ := idx1_out1 t
  show (cfg1.win 1).cut (grid1.coords t) ((dat1 (F := Ideal) V c).after 1 t) = _
  rw [after1_1, acc1_eq_accSeq]
  funext y
  show (accSeq (blkSeq V c) t.val).1 y = outZ V c (((cfg1.win 1).blk t).view.emb y)
  refine (outZ_apply V c _ t.val y ?_ ?_ ?_).symm
  · show 10 * (win1_1.index t 0 * 1 + 1 * (y 0).val) + 9 = t.val
    have : (y 0).val < 1 := (y 0).isLt
    rw [e0]; omega
  · show win1_1.index t 1 * 8 + 1 * (y 1).val = (y 1).val
    rw [e1]; omega
  · show win1_1.index t 2 * 128 + 1 * (y 2).val = (y 2).val
    rw [e2]; omega

/-- Every row of the array is some core's last point's block. -/
theorem coverZ (i : S2x8x128.Idx) : ∃ t : Fin cfg1.N, (cfg1.win 1).flush t = true ∧ i ∈ ((cfg1.win 1).blk t).view.set := by
  have hN : cfg1.N = 20 := N_1
  have hi0 : (i 0).val < 2 := (i 0).isLt
  have hi1 : (i 1).val < 8 := (i 1).isLt
  have hi2 : (i 2).val < 128 := (i 2).isLt
  obtain ⟨t, ht⟩ : ∃ t : Fin cfg1.N, t.val = 10 * (i 0).val + 9 := ⟨⟨10 * (i 0).val + 9, by omega⟩, rfl⟩
  obtain ⟨e0, e1, e2⟩ := idx1_out1 t
  refine ⟨t, (flush1_1 t).mpr (by omega), ?_⟩
  show i ∈ ((View.whole main_v31_0).slice (win1_1.rect t)).set
  rw [View.set_slice_whole, Rect.mem_set_unit]
  intro a
  match a with
  | ⟨0, _⟩ =>
    show win1_1.index t 0 * 1 ≤ (i 0).val ∧ (i 0).val < win1_1.index t 0 * 1 + 1
    rw [e0]; omega
  | ⟨1, _⟩ =>
    show win1_1.index t 1 * 8 ≤ (i 1).val ∧ (i 1).val < win1_1.index t 1 * 8 + 8
    rw [e1]; omega
  | ⟨2, _⟩ =>
    show win1_1.index t 2 * 128 ≤ (i 2).val ∧ (i 2).val < win1_1.index t 2 * 128 + 128
    rw [e2]; omega

/-- The depth result array after all the region's points. -/
abbrev arrZ : S2x8x128.Idx → EReal := (dat1 (F := Ideal) V c).arrAt 1 cfg1.N

/-- The depth result array after the region: row `k` is core `k`'s accumulator after its last point. -/
theorem finalZ : arrZ V c = outZ V c :=
  (dat1 (F := Ideal) V c).arrAt_eq_of_cover 1 (outZ V c) (flushedZ_eq V c) coverZ

/-- Row `k` of that array is core `k`'s accumulator after the core's last point. -/
theorem arrZ_row (k : Fin 2) (h : 10 * k.val + 9 < cfg1.N) (a : Fin 8) (l : Fin 128) :
    arrZ V c (ix3 k a l) = (acc1 (F := Ideal) V c (10 * k.val + 9) h).1 (ix3 0 a l) := by
  rw [finalZ V c, acc1_eq_accSeq]
  rfl

/-- The height result array as the region leaves it: row `k` is the height accumulator after core `k`'s last point. -/
def outY : S2x8x128.Idx → EReal := fun i => (accSeq (blkSeq V c) (10 * (i 0).val + 9)).2.1 (ix3 0 (i 1) (i 2))

theorem outY_apply (i : S2x8x128.Idx) (n : ℕ) (y : S1x8x128.Idx) (h0 : 10 * (i 0).val + 9 = n)
    (h1 : (i 1).val = (y 1).val) (h2 : (i 2).val = (y 2).val) : outY V c i = (accSeq (blkSeq V c) n).2.1 y := by
  subst h0
  show (accSeq (blkSeq V c) (10 * (i 0).val + 9)).2.1 (ix3 0 (i 1) (i 2)) = (accSeq (blkSeq V c) (10 * (i 0).val + 9)).2.1 y
  refine congrArg _ (funext fun a => ?_)
  match a with
  | ⟨0, _⟩ => exact Fin.ext (by have hy : (y 0).val < 1 := (y 0).isLt; show 0 = (y 0).val; omega)
  | ⟨1, _⟩ => exact Fin.ext h1
  | ⟨2, _⟩ => exact Fin.ext h2

/-- What a core's last point writes back is the core's row of that array. -/
theorem flushedY_eq (t : Fin cfg1.N) (hf : (cfg1.win 2).flush t = true) :
    (dat1 (F := Ideal) V c).flushed 2 t = ((cfg1.win 2).blk t).view.read (Elt Ideal) (outY V c) := by
  have h9 : t.val % 10 = 9 := (flush1_2 t).mp hf
  obtain ⟨e0, e1, e2⟩ := idx1_out2 t
  show (cfg1.win 2).cut (grid1.coords t) ((dat1 (F := Ideal) V c).after 2 t) = _
  rw [after1_2, acc1_eq_accSeq]
  funext y
  show (accSeq (blkSeq V c) t.val).2.1 y = outY V c (((cfg1.win 2).blk t).view.emb y)
  refine (outY_apply V c _ t.val y ?_ ?_ ?_).symm
  · show 10 * (win1_2.index t 0 * 1 + 1 * (y 0).val) + 9 = t.val
    have : (y 0).val < 1 := (y 0).isLt
    rw [e0]; omega
  · show win1_2.index t 1 * 8 + 1 * (y 1).val = (y 1).val
    rw [e1]; omega
  · show win1_2.index t 2 * 128 + 1 * (y 2).val = (y 2).val
    rw [e2]; omega

/-- Every row of the array is some core's last point's block. -/
theorem coverY (i : S2x8x128.Idx) : ∃ t : Fin cfg1.N, (cfg1.win 2).flush t = true ∧ i ∈ ((cfg1.win 2).blk t).view.set := by
  have hN : cfg1.N = 20 := N_1
  have hi0 : (i 0).val < 2 := (i 0).isLt
  have hi1 : (i 1).val < 8 := (i 1).isLt
  have hi2 : (i 2).val < 128 := (i 2).isLt
  obtain ⟨t, ht⟩ : ∃ t : Fin cfg1.N, t.val = 10 * (i 0).val + 9 := ⟨⟨10 * (i 0).val + 9, by omega⟩, rfl⟩
  obtain ⟨e0, e1, e2⟩ := idx1_out2 t
  refine ⟨t, (flush1_2 t).mpr (by omega), ?_⟩
  show i ∈ ((View.whole main_v31_1).slice (win1_2.rect t)).set
  rw [View.set_slice_whole, Rect.mem_set_unit]
  intro a
  match a with
  | ⟨0, _⟩ =>
    show win1_2.index t 0 * 1 ≤ (i 0).val ∧ (i 0).val < win1_2.index t 0 * 1 + 1
    rw [e0]; omega
  | ⟨1, _⟩ =>
    show win1_2.index t 1 * 8 ≤ (i 1).val ∧ (i 1).val < win1_2.index t 1 * 8 + 8
    rw [e1]; omega
  | ⟨2, _⟩ =>
    show win1_2.index t 2 * 128 ≤ (i 2).val ∧ (i 2).val < win1_2.index t 2 * 128 + 128
    rw [e2]; omega

/-- The height result array after all the region's points. -/
abbrev arrY : S2x8x128.Idx → EReal := (dat1 (F := Ideal) V c).arrAt 2 cfg1.N

/-- The height result array after the region: row `k` is core `k`'s accumulator after its last point. -/
theorem finalY : arrY V c = outY V c :=
  (dat1 (F := Ideal) V c).arrAt_eq_of_cover 2 (outY V c) (flushedY_eq V c) coverY

/-- Row `k` of that array is core `k`'s accumulator after the core's last point. -/
theorem arrY_row (k : Fin 2) (h : 10 * k.val + 9 < cfg1.N) (a : Fin 8) (l : Fin 128) :
    arrY V c (ix3 k a l) = (acc1 (F := Ideal) V c (10 * k.val + 9) h).2.1 (ix3 0 a l) := by
  rw [finalY V c, acc1_eq_accSeq]
  rfl

/-- The width result array as the region leaves it: row `k` is the width accumulator after core `k`'s last point. -/
def outX : S2x8x128.Idx → EReal := fun i => (accSeq (blkSeq V c) (10 * (i 0).val + 9)).2.2.1 (ix3 0 (i 1) (i 2))

theorem outX_apply (i : S2x8x128.Idx) (n : ℕ) (y : S1x8x128.Idx) (h0 : 10 * (i 0).val + 9 = n)
    (h1 : (i 1).val = (y 1).val) (h2 : (i 2).val = (y 2).val) : outX V c i = (accSeq (blkSeq V c) n).2.2.1 y := by
  subst h0
  show (accSeq (blkSeq V c) (10 * (i 0).val + 9)).2.2.1 (ix3 0 (i 1) (i 2)) = (accSeq (blkSeq V c) (10 * (i 0).val + 9)).2.2.1 y
  refine congrArg _ (funext fun a => ?_)
  match a with
  | ⟨0, _⟩ => exact Fin.ext (by have hy : (y 0).val < 1 := (y 0).isLt; show 0 = (y 0).val; omega)
  | ⟨1, _⟩ => exact Fin.ext h1
  | ⟨2, _⟩ => exact Fin.ext h2

/-- What a core's last point writes back is the core's row of that array. -/
theorem flushedX_eq (t : Fin cfg1.N) (hf : (cfg1.win 3).flush t = true) :
    (dat1 (F := Ideal) V c).flushed 3 t = ((cfg1.win 3).blk t).view.read (Elt Ideal) (outX V c) := by
  have h9 : t.val % 10 = 9 := (flush1_3 t).mp hf
  obtain ⟨e0, e1, e2⟩ := idx1_out3 t
  show (cfg1.win 3).cut (grid1.coords t) ((dat1 (F := Ideal) V c).after 3 t) = _
  rw [after1_3, acc1_eq_accSeq]
  funext y
  show (accSeq (blkSeq V c) t.val).2.2.1 y = outX V c (((cfg1.win 3).blk t).view.emb y)
  refine (outX_apply V c _ t.val y ?_ ?_ ?_).symm
  · show 10 * (win1_3.index t 0 * 1 + 1 * (y 0).val) + 9 = t.val
    have : (y 0).val < 1 := (y 0).isLt
    rw [e0]; omega
  · show win1_3.index t 1 * 8 + 1 * (y 1).val = (y 1).val
    rw [e1]; omega
  · show win1_3.index t 2 * 128 + 1 * (y 2).val = (y 2).val
    rw [e2]; omega

/-- Every row of the array is some core's last point's block. -/
theorem coverX (i : S2x8x128.Idx) : ∃ t : Fin cfg1.N, (cfg1.win 3).flush t = true ∧ i ∈ ((cfg1.win 3).blk t).view.set := by
  have hN : cfg1.N = 20 := N_1
  have hi0 : (i 0).val < 2 := (i 0).isLt
  have hi1 : (i 1).val < 8 := (i 1).isLt
  have hi2 : (i 2).val < 128 := (i 2).isLt
  obtain ⟨t, ht⟩ : ∃ t : Fin cfg1.N, t.val = 10 * (i 0).val + 9 := ⟨⟨10 * (i 0).val + 9, by omega⟩, rfl⟩
  obtain ⟨e0, e1, e2⟩ := idx1_out3 t
  refine ⟨t, (flush1_3 t).mpr (by omega), ?_⟩
  show i ∈ ((View.whole main_v31_2).slice (win1_3.rect t)).set
  rw [View.set_slice_whole, Rect.mem_set_unit]
  intro a
  match a with
  | ⟨0, _⟩ =>
    show win1_3.index t 0 * 1 ≤ (i 0).val ∧ (i 0).val < win1_3.index t 0 * 1 + 1
    rw [e0]; omega
  | ⟨1, _⟩ =>
    show win1_3.index t 1 * 8 ≤ (i 1).val ∧ (i 1).val < win1_3.index t 1 * 8 + 8
    rw [e1]; omega
  | ⟨2, _⟩ =>
    show win1_3.index t 2 * 128 ≤ (i 2).val ∧ (i 2).val < win1_3.index t 2 * 128 + 128
    rw [e2]; omega

/-- The width result array after all the region's points. -/
abbrev arrX : S2x8x128.Idx → EReal := (dat1 (F := Ideal) V c).arrAt 3 cfg1.N

/-- The width result array after the region: row `k` is core `k`'s accumulator after its last point. -/
theorem finalX : arrX V c = outX V c :=
  (dat1 (F := Ideal) V c).arrAt_eq_of_cover 3 (outX V c) (flushedX_eq V c) coverX

/-- Row `k` of that array is core `k`'s accumulator after the core's last point. -/
theorem arrX_row (k : Fin 2) (h : 10 * k.val + 9 < cfg1.N) (a : Fin 8) (l : Fin 128) :
    arrX V c (ix3 k a l) = (acc1 (F := Ideal) V c (10 * k.val + 9) h).2.2.1 (ix3 0 a l) := by
  rw [finalX V c, acc1_eq_accSeq]
  rfl

end Arrays

/-! ## From blocks to depth planes -/

section Result

variable (V : (c : Dev nD) → (b : Ref sig .tc) → Buf (Elt Ideal) ((c : Thread nD τ).loc b)) (c : Dev nD)
  (v : Cert.Spec.A5.Idx → EReal)
  (hV : V c main_v30 = shapeCast S3x160x192x224 v shapeCasts_S1x3x160x192x224_S3x160x192x224)

include hV

/-- What the reshape before the region leaves at an index: the field there (the batch axis has extent one). -/
theorem v30_apply (ch : Fin 3) (d : Fin 160) (h : Fin 192) (w : Fin 224) :
    (V c main_v30 : S3x160x192x224.Idx → EReal) (ix4 ch d h w) = v (Cert.Spec.at5 ch d h w) := by
  rw [hV]
  refine shapeCast_apply v _ (ix4 ch d h w) (Cert.Spec.at5 ch d h w) ?_
  rw [Shape.rowMajor_val_five, Shape.rowMajor_val_four]
  show (((0 * 3 + ch.val) * 160 + d.val) * 192 + h.val) * 224 + w.val = ((ch.val * 160 + d.val) * 192 + h.val) * 224 + w.val
  omega

/-- An element of the region's block `t` is the field's at depth `8 t + d`. -/
theorem blkSeq_apply (t : ℕ) (ht : t < 20) (ch : Fin 3) (d : Fin 8) (h : Fin 192) (w : Fin 224) :
    blkSeq V c t (ix4 ch d h w) = pl v (8 * t + d.val) ch h w := by
  have hN : cfg1.N = 20 := N_1
  have hd : d.val < 8 := d.isLt
  rw [blkSeq_of_lt V c t (by omega), pl_of_lt v _ (by omega : 8 * t + d.val < 160),
    iblk1_apply V c ⟨t, by omega⟩ ch d h w (ix4 ch ⟨8 * t + d.val, by omega⟩ h w) rfl rfl rfl rfl, v30_apply V c v hV]

/-- A block's seven planes of inner depth differences. -/
theorem blkDz_seq (t : ℕ) (ht : t < 20) : blkDz (blkSeq V c t) = ∑ d ∈ Finset.range 7, gDz v (8 * t + d) := by
  rw [← Fin.sum_univ_eq_sum_range (fun d => gDz v (8 * t + d)) 7]
  unfold blkDz gDz
  refine Finset.sum_comm.trans ?_
  refine Finset.sum_congr rfl fun d _ => Finset.sum_congr rfl fun ch _ => Finset.sum_congr rfl fun h _ =>
    Finset.sum_congr rfl fun w _ => ?_
  rw [blkSeq_apply V c v hV t ht, blkSeq_apply V c v hV t ht]
  rfl

/-- The seam between two consecutive blocks is the plane of differences between depths `8 t + 7` and `8 t + 8`. -/
theorem blkSeam_seq (t : ℕ) (ht : t + 1 < 20) : blkSeam (blkSeq V c t) (blkSeq V c (t + 1)) = gDz v (8 * t + 7) := by
  unfold blkSeam gDz
  refine Finset.sum_congr rfl fun ch _ => Finset.sum_congr rfl fun h _ => Finset.sum_congr rfl fun w _ => ?_
  rw [blkSeq_apply V c v hV (t + 1) ht ch 0 h w, blkSeq_apply V c v hV t (by omega) ch 7 h w]
  have e1 : 8 * (t + 1) + (0 : Fin 8).val = 8 * t + 7 + 1 := by show 8 * (t + 1) + 0 = _; omega
  have e2 : 8 * t + (7 : Fin 8).val = 8 * t + 7 := rfl
  rw [e1, e2]

/-- A block's eight planes of height differences. -/
theorem blkDy_seq (t : ℕ) (ht : t < 20) : blkDy (blkSeq V c t) = ∑ d ∈ Finset.range 8, gDy v (8 * t + d) := by
  rw [← Fin.sum_univ_eq_sum_range (fun d => gDy v (8 * t + d)) 8]
  unfold blkDy gDy
  refine Finset.sum_comm.trans ?_
  refine Finset.sum_congr rfl fun d _ => Finset.sum_congr rfl fun ch _ => Finset.sum_congr rfl fun h _ =>
    Finset.sum_congr rfl fun w _ => ?_
  rw [blkSeq_apply V c v hV t ht, blkSeq_apply V c v hV t ht]

/-- A block's eight planes of width differences. -/
theorem blkDx_seq (t : ℕ) (ht : t < 20) : blkDx (blkSeq V c t) = ∑ d ∈ Finset.range 8, gDx v (8 * t + d) := by
  rw [← Fin.sum_univ_eq_sum_range (fun d => gDx v (8 * t + d)) 8]
  unfold blkDx gDx
  refine Finset.sum_comm.trans ?_
  refine Finset.sum_congr rfl fun d _ => Finset.sum_congr rfl fun ch _ => Finset.sum_congr rfl fun h _ =>
    Finset.sum_congr rfl fun w _ => ?_
  rw [blkSeq_apply V c v hV t ht, blkSeq_apply V c v hV t ht]

/-- A core's depth value: the 79 planes of differences inside its 80 depth planes. -/
theorem coreZ (k : ℕ) (hk : k < 2) (a : Fin 8) (l : Fin 128) :
    (accSeq (blkSeq V c) (10 * k + 9)).1 (ix3 0 a l) = ∑ d ∈ Finset.range 79, gDz v (80 * k + d) := by
  rw [accSeq_dz (blkSeq V c) (10 * k) (by omega) a l 9 (by omega)]
  have h1 : ∀ s ∈ Finset.range (9 + 1), blkDz (blkSeq V c (10 * k + s))
      = ∑ d ∈ Finset.range 7, (fun d => gDz v (80 * k + d)) (8 * s + d) := fun s hs => by
    have hs' : s < 10 := Finset.mem_range.mp hs
    rw [blkDz_seq V c v hV (10 * k + s) (by omega)]
    exact Finset.sum_congr rfl fun d _ => congrArg (gDz v) (by omega)
  have h2 : ∀ s ∈ Finset.range 9, blkSeam (blkSeq V c (10 * k + s)) (blkSeq V c (10 * k + s + 1))
      = (fun d => gDz v (80 * k + d)) (8 * s + 7) := fun s hs => by
    have hs' : s < 9 := Finset.mem_range.mp hs
    rw [blkSeam_seq V c v hV (10 * k + s) (by omega)]
    exact congrArg (gDz v) (by omega)
  rw [Finset.sum_congr rfl h1, Finset.sum_congr rfl h2]
  exact sum_runs7 (fun d => gDz v (80 * k + d)) 9

/-- A core's height value: the height differences inside its 80 depth planes. -/
theorem coreY (k : ℕ) (hk : k < 2) (a : Fin 8) (l : Fin 128) :
    (accSeq (blkSeq V c) (10 * k + 9)).2.1 (ix3 0 a l) = ∑ d ∈ Finset.range 80, gDy v (80 * k + d) := by
  rw [accSeq_dy (blkSeq V c) (10 * k) (by omega) a l 9 (by omega)]
  have h1 : ∀ s ∈ Finset.range (9 + 1), blkDy (blkSeq V c (10 * k + s))
      = ∑ d ∈ Finset.range 8, (fun d => gDy v (80 * k + d)) (8 * s + d) := fun s hs => by
    have hs' : s < 10 := Finset.mem_range.mp hs
    rw [blkDy_seq V c v hV (10 * k + s) (by omega)]
    exact Finset.sum_congr rfl fun d _ => congrArg (gDy v) (by omega)
  rw [Finset.sum_congr rfl h1]
  exact sum_runs 8 (fun d => gDy v (80 * k + d)) 10

/-- A core's width value: the width differences inside its 80 depth planes. -/
theorem coreX (k : ℕ) (hk : k < 2) (a : Fin 8) (l : Fin 128) :
    (accSeq (blkSeq V c) (10 * k + 9)).2.2.1 (ix3 0 a l) = ∑ d ∈ Finset.range 80, gDx v (80 * k + d) := by
  rw [accSeq_dx (blkSeq V c) (10 * k) (by omega) a l 9 (by omega)]
  have h1 : ∀ s ∈ Finset.range (9 + 1), blkDx (blkSeq V c (10 * k + s))
      = ∑ d ∈ Finset.range 8, (fun d => gDx v (80 * k + d)) (8 * s + d) := fun s hs => by
    have hs' : s < 10 := Finset.mem_range.mp hs
    rw [blkDx_seq V c v hV (10 * k + s) (by omega)]
    exact Finset.sum_congr rfl fun d _ => congrArg (gDx v) (by omega)
  rw [Finset.sum_congr rfl h1]
  exact sum_runs 8 (fun d => gDx v (80 * k + d)) 10

/-- THE HEIGHT RESULT: the two cores' values add up to the canonical sum of squared height differences. -/
theorem arrY_sum :
    arrY V c (ix3 0 0 0) + arrY V c (ix3 1 0 0) = Cert.Spec.sumDy v := by
  rw [finalY V c, sumDy_eq, show (160 : ℕ) = 80 + 80 from rfl, Finset.sum_range_add]
  show (accSeq (blkSeq V c) (10 * 0 + 9)).2.1 (ix3 0 0 0) + (accSeq (blkSeq V c) (10 * 1 + 9)).2.1 (ix3 0 0 0) = _
  rw [coreY V c v hV 0 (by omega), coreY V c v hV 1 (by omega)]
  exact congrArg₂ (· + ·) (Finset.sum_congr rfl fun d _ => congrArg (gDy v) (by omega))
    (Finset.sum_congr rfl fun d _ => congrArg (gDy v) (by omega))

/-- THE WIDTH RESULT: the two cores' values add up to the canonical sum of squared width differences. -/
theorem arrX_sum :
    arrX V c (ix3 0 0 0) + arrX V c (ix3 1 0 0) = Cert.Spec.sumDx v := by
  rw [finalX V c, sumDx_eq, show (160 : ℕ) = 80 + 80 from rfl, Finset.sum_range_add]
  show (accSeq (blkSeq V c) (10 * 0 + 9)).2.2.1 (ix3 0 0 0) + (accSeq (blkSeq V c) (10 * 1 + 9)).2.2.1 (ix3 0 0 0) = _
  rw [coreX V c v hV 0 (by omega), coreX V c v hV 1 (by omega)]
  exact congrArg₂ (· + ·) (Finset.sum_congr rfl fun d _ => congrArg (gDx v) (by omega))
    (Finset.sum_congr rfl fun d _ => congrArg (gDx v) (by omega))

omit hV in
/-- The plane of differences between depths 79 and 80, which no core sees. -/
theorem seam_eq :
    (∑ ch : Fin 3, ∑ h : Fin 192, ∑ w : Fin 224,
      (v (Cert.Spec.at5 ch 80 h w) - v (Cert.Spec.at5 ch 79 h w)) * (v (Cert.Spec.at5 ch 80 h w) - v (Cert.Spec.at5 ch 79 h w)))
      = gDz v 79 := by
  unfold gDz
  refine Finset.sum_congr rfl fun ch _ => Finset.sum_congr rfl fun h _ => Finset.sum_congr rfl fun w _ => ?_
  rw [pl_of_lt v (79 + 1) (by omega), pl_of_lt v 79 (by omega)]
  rfl

/-- THE DEPTH RESULT: the two cores' values and the plane of differences between them add up to the canonical sum of
    squared depth differences: 79 + 79 + 1 = 159 planes. -/
theorem arrZ_sum :
    (arrZ V c (ix3 0 0 0) + arrZ V c (ix3 1 0 0))
      + (∑ ch : Fin 3, ∑ h : Fin 192, ∑ w : Fin 224,
          (v (Cert.Spec.at5 ch 80 h w) - v (Cert.Spec.at5 ch 79 h w)) * (v (Cert.Spec.at5 ch 80 h w) - v (Cert.Spec.at5 ch 79 h w)))
      = Cert.Spec.sumDz v := by
  rw [finalZ V c, seam_eq v, sumDz_eq, show (159 : ℕ) = (79 + 1) + 79 from rfl, Finset.sum_range_add, Finset.sum_range_succ]
  show ((accSeq (blkSeq V c) (10 * 0 + 9)).1 (ix3 0 0 0) + (accSeq (blkSeq V c) (10 * 1 + 9)).1 (ix3 0 0 0)) + gDz v 79 = _
  rw [coreZ V c v hV 0 (by omega), coreZ V c v hV 1 (by omega), add_right_comm]
  exact congrArg₂ (· + ·) (congrArg₂ (· + ·) (Finset.sum_congr rfl fun d _ => congrArg (gDz v) (by omega)) rfl)
    (Finset.sum_congr rfl fun d _ => congrArg (gDz v) (by omega))

end Result

end Cert.KernelIdeal.Hand

end
-- ==== Proof.RefTerms.lean ====
/-
  The reference program's stages as named pure terms.

  Each definition's body is the composition, in the program's order, of the functions its printed operations apply for
  that stage; the program's run therefore yields these terms by unfolding alone. The stages:
  * flat     — a label map read in row-major order as one vector of 6881280 words;
  * wrapIdx  — the scatter index built from that vector: the maximum with 0 left as printed, a negative word moved up by the
               class count 26, the vector given a trailing unit axis;
  * refFV    — a map's histogram over the 26 classes, as floats: ones added at the wrapped words into zeros;
  * refIV    — the histogram of agreement: the float 1 where the two maps carry the same word, else 0, added at the first
               map's wrapped words into zeros;
  * refDice  — (2 · iv + ε) / (fv + mv + ε), class by class;
  * refSimOf — one minus the mean of the dice over the classes 1 … 25;
  * refDz, refDy, refDx — the sums of squared forward differences of the field along depth, height and width;
  * refSmoothOf — the three means (each sum over its count of differences) added and divided by three;
  * refTotalOf  — the similarity term plus one times the smoothness term.
-/
import proofs.«417857_j15487652069654_3_alg».proof.Proof.Gen.ReferenceIdeal

noncomputable section

namespace Cert.ReferenceIdeal.Hand

open Cert.ReferenceIdeal Cert.ReferenceIdeal.Gen Idealize.ShloMosaic

variable {F : FTy → Type} [FloatOps F]

/-- A label map as one vector, in row-major order. -/
def flat (a : (⟨S1x160x192x224, .i32⟩ : BufTy).Contents (Elt F)) : (⟨S6881280, .i32⟩ : BufTy).Contents (Elt F) :=
  fun i => shapeCast S6881280 a shapeCasts_S1x160x192x224_S6881280 i

/-- The vector's words clipped below at 0. -/
def clip0 (f : (⟨S6881280, .i32⟩ : BufTy).Contents (Elt F)) : (⟨S6881280, .i32⟩ : BufTy).Contents (Elt F) :=
  maxsi
    (broadcastInDim S6881280 ![] bcast_S_S6881280
      (id (constantI S_ 32 0#32 : (⟨S_, .i32⟩ : BufTy).Contents (Elt F))) : (⟨S6881280, .i32⟩ : BufTy).Contents (Elt F))
    f

/-- The scatter index of a vector of words: clipped below at 0, a negative word moved up by 26, with a trailing unit axis. -/
def wrapIdx (f : (⟨S6881280, .i32⟩ : BufTy).Contents (Elt F)) : (⟨S6881280x1, .i32⟩ : BufTy).Contents (Elt F) :=
  (broadcastInDim S6881280x1 ![0] bcast_S6881280_S6881280x1_0 : (⟨S6881280, .i32⟩ : BufTy).Contents (Elt F) → (⟨S6881280x1, .i32⟩ : BufTy).Contents (Elt F))
    ((select : (⟨S6881280, .i1⟩ : BufTy).Contents (Elt F) → (⟨S6881280, .i32⟩ : BufTy).Contents (Elt F) → (⟨S6881280, .i32⟩ : BufTy).Contents (Elt F) → (⟨S6881280, .i32⟩ : BufTy).Contents (Elt F))
      ((cmpi .slt : (⟨S6881280, .i32⟩ : BufTy).Contents (Elt F) → (⟨S6881280, .i32⟩ : BufTy).Contents (Elt F) → (⟨S6881280, .i1⟩ : BufTy).Contents (Elt F))
        (clip0 f)
        ((broadcastInDim S6881280 ![] bcast_S_S6881280 : (⟨S_, .i32⟩ : BufTy).Contents (Elt F) → (⟨S6881280, .i32⟩ : BufTy).Contents (Elt F)) (constantI S_ 32 0#32)))
      ((addi : (⟨S6881280, .i32⟩ : BufTy).Contents (Elt F) → (⟨S6881280, .i32⟩ : BufTy).Contents (Elt F) → (⟨S6881280, .i32⟩ : BufTy).Contents (Elt F))
        (clip0 f)
        ((broadcastInDim S6881280 ![] bcast_S_S6881280 : (⟨S_, .i32⟩ : BufTy).Contents (Elt F) → (⟨S6881280, .i32⟩ : BufTy).Contents (Elt F)) (constantI S_ 32 26#32)))
      (clip0 f))

/-- A map's class histogram, as floats: the integer scatter adding a one at each voxel's wrapped word into 26 zeros. -/
def refFV (a : (⟨S1x160x192x224, .i32⟩ : BufTy).Contents (Elt F)) : (⟨S26, .f32⟩ : BufTy).Contents (Elt F) :=
  (sitofp .f32 : (⟨S26, .i32⟩ : BufTy).Contents (Elt F) → (⟨S26, .f32⟩ : BufTy).Contents (Elt F))
    (((fun x i u => Host.scatter scatter_S26_S6881280x1_S6881280_n_0_0_1 IntOp.addi x i u) : (⟨S26, .i32⟩ : BufTy).Contents (Elt F) → (⟨S6881280x1, .i32⟩ : BufTy).Contents (Elt F) → (⟨S6881280, .i32⟩ : BufTy).Contents (Elt F) → (⟨S26, .i32⟩ : BufTy).Contents (Elt F))
      ((broadcastInDim S26 ![] bcast_S_S26 : (⟨S_, .i32⟩ : BufTy).Contents (Elt F) → (⟨S26, .i32⟩ : BufTy).Contents (Elt F)) (constantI S_ 32 0#32))
      (wrapIdx (flat a))
      ((broadcastInDim S6881280 ![] bcast_S_S6881280 : (⟨S_, .i32⟩ : BufTy).Contents (Elt F) → (⟨S6881280, .i32⟩ : BufTy).Contents (Elt F)) (constantI S_ 32 1#32)))

/-- The histogram of agreement: the float scatter-add, at the first map's wrapped words into 26 zeros, of the float that is
    one where the two maps carry the same word and zero elsewhere. -/
def refIV (a b : (⟨S1x160x192x224, .i32⟩ : BufTy).Contents (Elt F)) : (⟨S26, .f32⟩ : BufTy).Contents (Elt F) :=
  ((fun x i u => Host.scatterAdd scatter_S26_S6881280x1_S6881280_n_0_0_1 x i u) : (⟨S26, .f32⟩ : BufTy).Contents (Elt F) → (⟨S6881280x1, .i32⟩ : BufTy).Contents (Elt F) → (⟨S6881280, .f32⟩ : BufTy).Contents (Elt F) → (⟨S26, .f32⟩ : BufTy).Contents (Elt F))
    ((broadcastInDim S26 ![] bcast_S_S26 : (⟨S_, .f32⟩ : BufTy).Contents (Elt F) → (⟨S26, .f32⟩ : BufTy).Contents (Elt F)) (constant S_ .f32 0x00000000#32))
    (wrapIdx (flat a))
    ((uitofp .f32 : (⟨S6881280, .i1⟩ : BufTy).Contents (Elt F) → (⟨S6881280, .f32⟩ : BufTy).Contents (Elt F))
      ((cmpi .eq : (⟨S6881280, .i32⟩ : BufTy).Contents (Elt F) → (⟨S6881280, .i32⟩ : BufTy).Contents (Elt F) → (⟨S6881280, .i1⟩ : BufTy).Contents (Elt F)) (flat a) (flat b)))

/-- The dice quotient class by class: (2 · iv + ε) / ((fv + mv) + ε). -/
def refDice (fv mv iv : (⟨S26, .f32⟩ : BufTy).Contents (Elt F)) : (⟨S26, .f32⟩ : BufTy).Contents (Elt F) :=
  (Host.divf : (⟨S26, .f32⟩ : BufTy).Contents (Elt F) → (⟨S26, .f32⟩ : BufTy).Contents (Elt F) → (⟨S26, .f32⟩ : BufTy).Contents (Elt F))
    ((addf : (⟨S26, .f32⟩ : BufTy).Contents (Elt F) → (⟨S26, .f32⟩ : BufTy).Contents (Elt F) → (⟨S26, .f32⟩ : BufTy).Contents (Elt F))
      ((mulf : (⟨S26, .f32⟩ : BufTy).Contents (Elt F) → (⟨S26, .f32⟩ : BufTy).Contents (Elt F) → (⟨S26, .f32⟩ : BufTy).Contents (Elt F))
        ((broadcastInDim S26 ![] bcast_S_S26 : (⟨S_, .f32⟩ : BufTy).Contents (Elt F) → (⟨S26, .f32⟩ : BufTy).Contents (Elt F)) (constant S_ .f32 0x40000000#32))
        iv)
      ((broadcastInDim S26 ![] bcast_S_S26 : (⟨S_, .f32⟩ : BufTy).Contents (Elt F) → (⟨S26, .f32⟩ : BufTy).Contents (Elt F)) (constant S_ .f32 0x3727C5AC#32)))
    ((addf : (⟨S26, .f32⟩ : BufTy).Contents (Elt F) → (⟨S26, .f32⟩ : BufTy).Contents (Elt F) → (⟨S26, .f32⟩ : BufTy).Contents (Elt F))
      ((addf : (⟨S26, .f32⟩ : BufTy).Contents (Elt F) → (⟨S26, .f32⟩ : BufTy).Contents (Elt F) → (⟨S26, .f32⟩ : BufTy).Contents (Elt F)) fv mv)
      ((broadcastInDim S26 ![] bcast_S_S26 : (⟨S_, .f32⟩ : BufTy).Contents (Elt F) → (⟨S26, .f32⟩ : BufTy).Contents (Elt F)) (constant S_ .f32 0x3727C5AC#32)))

/-- The 25 literal class indices 1 … 25 as the gather's index table: the literal words, the (never taken) branch that would
    move a negative one up by 26, and a trailing unit axis. -/
def validIdx : (⟨S25x1, .i32⟩ : BufTy).Contents (Elt F) :=
  (broadcastInDim S25x1 ![0] bcast_S25_S25x1_0 : (⟨S25, .i32⟩ : BufTy).Contents (Elt F) → (⟨S25x1, .i32⟩ : BufTy).Contents (Elt F))
    ((select : (⟨S25, .i1⟩ : BufTy).Contents (Elt F) → (⟨S25, .i32⟩ : BufTy).Contents (Elt F) → (⟨S25, .i32⟩ : BufTy).Contents (Elt F) → (⟨S25, .i32⟩ : BufTy).Contents (Elt F))
      (constantI S25 1 0#1)
      ((addi : (⟨S25, .i32⟩ : BufTy).Contents (Elt F) → (⟨S25, .i32⟩ : BufTy).Contents (Elt F) → (⟨S25, .i32⟩ : BufTy).Contents (Elt F))
        (fun i => lit0 (S25.rowMajor i))
        ((broadcastInDim S25 ![] bcast_S_S25 : (⟨S_, .i32⟩ : BufTy).Contents (Elt F) → (⟨S25, .i32⟩ : BufTy).Contents (Elt F)) (constantI S_ 32 26#32)))
      (fun i => lit0 (S25.rowMajor i)))

/-- The similarity term of a dice vector: one minus (the sum of its entries at the classes 1 … 25, over 25). -/
def refSimOf (dice : (⟨S26, .f32⟩ : BufTy).Contents (Elt F)) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F))
    (constant S_ .f32 0x3F800000#32)
    ((Host.divf : (⟨S_, .f32⟩ : BufTy).Contents (Elt F) → (⟨S_, .f32⟩ : BufTy).Contents (Elt F) → (⟨S_, .f32⟩ : BufTy).Contents (Elt F))
      (((fun x v => Host.reduceAdd x v reducesTo_S25_S_d0 h_S_) : (⟨S25, .f32⟩ : BufTy).Contents (Elt F) → (⟨S_, .f32⟩ : BufTy).Contents (Elt F) → (⟨S_, .f32⟩ : BufTy).Contents (Elt F))
        (((fun x i => Host.gather gather_S26_S25x1_S25_n_0_n_n_0_1_1 x i) : (⟨S26, .f32⟩ : BufTy).Contents (Elt F) → (⟨S25x1, .i32⟩ : BufTy).Contents (Elt F) → (⟨S25, .f32⟩ : BufTy).Contents (Elt F))
          dice validIdx)
        (constant S_ .f32 0x00000000#32))
      (constant S_ .f32 0x41C80000#32))

/-- The sum of squared forward differences along depth. -/
def refDz (v : (⟨S1x3x160x192x224, .f32⟩ : BufTy).Contents (Elt F)) : (⟨S_, .f32⟩ : BufTy).Contents (Elt F) :=
  ((fun x v => Host.reduceAdd x v reducesTo_S1x3x159x192x224_S_d0_1_2_3_4 h_S_) : (⟨S1x3x159x192x224, .f32⟩ : BufTy).Contents (Elt F) → (⟨S_, .f32⟩ : BufTy).Contents (Elt F) → (⟨S_, .f32⟩ : BufTy).Contents (Elt F))
    ((mulf : (⟨S1x3x159x192x224, .f32⟩ : BufTy).Contents (Elt F) → (⟨S1x3x159x192x224, .f32⟩ : BufTy).Contents (Elt F) → (⟨S1x3x159x192x224, .f32⟩ : BufTy).Contents (Elt F))
      ((subf : (⟨S1x3x159x192x224, .f32⟩ : BufTy).Contents (Elt F) → (⟨S1x3x159x192x224, .f32⟩ : BufTy).Contents (Elt F) → (⟨S1x3x159x192x224, .f32⟩ : BufTy).Contents (Elt F))
        (((extractStridedSlice S1x3x159x192x224 ![0, 0, 1, 0, 0] · slices_S1x3x160x192x224_S1x3x159x192x224_0_0_1_0_0) : (⟨S1x3x160x192x224, .f32⟩ : BufTy).Contents (Elt F) → (⟨S1x3x159x192x224, .f32⟩ : BufTy).Contents (Elt F)) v)
        (((extractStridedSlice S1x3x159x192x224 ![0, 0, 0, 0, 0] · slices_S1x3x160x192x224_S1x3x159x192x224_0_0_0_0_0) : (⟨S1x3x160x192x224, .f32⟩ : BufTy).Contents (Elt F) → (⟨S1x3x159x192x224, .f32⟩ : BufTy).Contents (Elt F)) v))
      ((subf : (⟨S1x3x159x192x224, .f32⟩ : BufTy).Contents (Elt F) → (⟨S1x3x159x192x224, .f32⟩ : BufTy).Contents (Elt F) → (⟨S1x3x159x192x224, .f32⟩ : BufTy).Contents (Elt F))
        (((extractStridedSlice S1x3x159x192x224 ![0, 0, 1, 0, 0] · slices_S1x3x160x192x224_S1x3x159x192x224_0_0_1_0_0) : (⟨S1x3x160x192x224, .f32⟩ : BufTy).Contents (Elt F) → (⟨S1x3x159x192x224, .f32⟩ : BufTy).Contents (Elt F)) v)
        (((extractStridedSlice S1x3x159x192x224 ![0, 0, 0, 0, 0] · slices_S1x3x160x192x224_S1x3x159x192x224_0_0_0_0_0) : (⟨S1x3x160x192x224, .f32⟩ : BufTy).Contents (Elt F) → (⟨S1x3x159x192x224, .f32⟩ : BufTy).Contents (Elt F)) v)))
    (constant S_ .f32 0x00000000#32)

/-- The sum of squared forward differences along height. -/
def refDy (v : (⟨S1x3x160x192x224, .f32⟩ : BufTy).Contents (Elt F)) : (⟨S_, .f32⟩ : BufTy).Contents (Elt F) :=
  ((fun x v => Host.reduceAdd x v reducesTo_S1x3x160x191x224_S_d0_1_2_3_4 h_S_) : (⟨S1x3x160x191x224, .f32⟩ : BufTy).Contents (Elt F) → (⟨S_, .f32⟩ : BufTy).Contents (Elt F) → (⟨S_, .f32⟩ : BufTy).Contents (Elt F))
    ((mulf : (⟨S1x3x160x191x224, .f32⟩ : BufTy).Contents (Elt F) → (⟨S1x3x160x191x224, .f32⟩ : BufTy).Contents (Elt F) → (⟨S1x3x160x191x224, .f32⟩ : BufTy).Contents (Elt F))
      ((subf : (⟨S1x3x160x191x224, .f32⟩ : BufTy).Contents (Elt F) → (⟨S1x3x160x191x224, .f32⟩ : BufTy).Contents (Elt F) → (⟨S1x3x160x191x224, .f32⟩ : BufTy).Contents (Elt F))
        (((extractStridedSlice S1x3x160x191x224 ![0, 0, 0, 1, 0] · slices_S1x3x160x192x224_S1x3x160x191x224_0_0_0_1_0) : (⟨S1x3x160x192x224, .f32⟩ : BufTy).Contents (Elt F) → (⟨S1x3x160x191x224, .f32⟩ : BufTy).Contents (Elt F)) v)
        (((extractStridedSlice S1x3x160x191x224 ![0, 0, 0, 0, 0] · slices_S1x3x160x192x224_S1x3x160x191x224_0_0_0_0_0) : (⟨S1x3x160x192x224, .f32⟩ : BufTy).Contents (Elt F) → (⟨S1x3x160x191x224, .f32⟩ : BufTy).Contents (Elt F)) v))
      ((subf : (⟨S1x3x160x191x224, .f32⟩ : BufTy).Contents (Elt F) → (⟨S1x3x160x191x224, .f32⟩ : BufTy).Contents (Elt F) → (⟨S1x3x160x191x224, .f32⟩ : BufTy).Contents (Elt F))
        (((extractStridedSlice S1x3x160x191x224 ![0, 0, 0, 1, 0] · slices_S1x3x160x192x224_S1x3x160x191x224_0_0_0_1_0) : (⟨S1x3x160x192x224, .f32⟩ : BufTy).Contents (Elt F) → (⟨S1x3x160x191x224, .f32⟩ : BufTy).Contents (Elt F)) v)
        (((extractStridedSlice S1x3x160x191x224 ![0, 0, 0, 0, 0] · slices_S1x3x160x192x224_S1x3x160x191x224_0_0_0_0_0) : (⟨S1x3x160x192x224, .f32⟩ : BufTy).Contents (Elt F) → (⟨S1x3x160x191x224, .f32⟩ : BufTy).Contents (Elt F)) v)))
    (constant S_ .f32 0x00000000#32)

/-- The sum of squared forward differences along width. -/
def refDx (v : (⟨S1x3x160x192x224, .f32⟩ : BufTy).Contents (Elt F)) : (⟨S_, .f32⟩ : BufTy).Contents (Elt F) :=
  ((fun x v => Host.reduceAdd x v reducesTo_S1x3x160x192x223_S_d0_1_2_3_4 h_S_) : (⟨S1x3x160x192x223, .f32⟩ : BufTy).Contents (Elt F) → (⟨S_, .f32⟩ : BufTy).Contents (Elt F) → (⟨S_, .f32⟩ : BufTy).Contents (Elt F))
    ((mulf : (⟨S1x3x160x192x223, .f32⟩ : BufTy).Contents (Elt F) → (⟨S1x3x160x192x223, .f32⟩ : BufTy).Contents (Elt F) → (⟨S1x3x160x192x223, .f32⟩ : BufTy).Contents (Elt F))
      ((subf : (⟨S1x3x160x192x223, .f32⟩ : BufTy).Contents (Elt F) → (⟨S1x3x160x192x223, .f32⟩ : BufTy).Contents (Elt F) → (⟨S1x3x160x192x223, .f32⟩ : BufTy).Contents (Elt F))
        (((extractStridedSlice S1x3x160x192x223 ![0, 0, 0, 0, 1] · slices_S1x3x160x192x224_S1x3x160x192x223_0_0_0_0_1) : (⟨S1x3x160x192x224, .f32⟩ : BufTy).Contents (Elt F) → (⟨S1x3x160x192x223, .f32⟩ : BufTy).Contents (Elt F)) v)
        (((extractStridedSlice S1x3x160x192x223 ![0, 0, 0, 0, 0] · slices_S1x3x160x192x224_S1x3x160x192x223_0_0_0_0_0) : (⟨S1x3x160x192x224, .f32⟩ : BufTy).Contents (Elt F) → (⟨S1x3x160x192x223, .f32⟩ : BufTy).Contents (Elt F)) v))
      ((subf : (⟨S1x3x160x192x223, .f32⟩ : BufTy).Contents (Elt F) → (⟨S1x3x160x192x223, .f32⟩ : BufTy).Contents (Elt F) → (⟨S1x3x160x192x223, .f32⟩ : BufTy).Contents (Elt F))
        (((extractStridedSlice S1x3x160x192x223 ![0, 0, 0, 0, 1] · slices_S1x3x160x192x224_S1x3x160x192x223_0_0_0_0_1) : (⟨S1x3x160x192x224, .f32⟩ : BufTy).Contents (Elt F) → (⟨S1x3x160x192x223, .f32⟩ : BufTy).Contents (Elt F)) v)
        (((extractStridedSlice S1x3x160x192x223 ![0, 0, 0, 0, 0] · slices_S1x3x160x192x224_S1x3x160x192x223_0_0_0_0_0) : (⟨S1x3x160x192x224, .f32⟩ : BufTy).Contents (Elt F) → (⟨S1x3x160x192x223, .f32⟩ : BufTy).Contents (Elt F)) v)))
    (constant S_ .f32 0x00000000#32)

/-- The smoothness term of the three sums: each over its count of differences (the literal float words of
    3·159·192·224, 3·160·191·224 and 3·160·192·223), the three means added in the program's order, over three. -/
def refSmoothOf (dz dy dx : (⟨S_, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F))
    ((addf : (⟨S_, .f32⟩ : BufTy).Contents (Elt F) → (⟨S_, .f32⟩ : BufTy).Contents (Elt F) → (⟨S_, .f32⟩ : BufTy).Contents (Elt F))
      ((addf : (⟨S_, .f32⟩ : BufTy).Contents (Elt F) → (⟨S_, .f32⟩ : BufTy).Contents (Elt F) → (⟨S_, .f32⟩ : BufTy).Contents (Elt F))
        ((Host.divf : (⟨S_, .f32⟩ : BufTy).Contents (Elt F) → (⟨S_, .f32⟩ : BufTy).Contents (Elt F) → (⟨S_, .f32⟩ : BufTy).Contents (Elt F)) dz (constant S_ .f32 0x4B9C8400#32))
        ((Host.divf : (⟨S_, .f32⟩ : BufTy).Contents (Elt F) → (⟨S_, .f32⟩ : BufTy).Contents (Elt F) → (⟨S_, .f32⟩ : BufTy).Contents (Elt F)) dy (constant S_ .f32 0x4B9CAE00#32)))
      ((Host.divf : (⟨S_, .f32⟩ : BufTy).Contents (Elt F) → (⟨S_, .f32⟩ : BufTy).Contents (Elt F) → (⟨S_, .f32⟩ : BufTy).Contents (Elt F)) dx (constant S_ .f32 0x4B9CCC00#32)))
    (constant S_ .f32 0x40400000#32)

/-- The total: the similarity term plus (the float one times the smoothness term). -/
def refTotalOf (sim smooth : (⟨S_, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F))
    sim
    ((mulf : (⟨S_, .f32⟩ : BufTy).Contents (Elt F) → (⟨S_, .f32⟩ : BufTy).Contents (Elt F) → (⟨S_, .f32⟩ : BufTy).Contents (Elt F))
      (constant S_ .f32 0x3F800000#32) smooth)

end Cert.ReferenceIdeal.Hand

end
-- ==== Proof.RefRun.lean ====
/-
  The reference program's run, read back.

  The program is a straight line of 111 array operations: its two windows' statements in order, each call of the clip
  function replaced by the three operations of its body over that call's own buffers. From any launch memory the line
  terminates, and each buffer then holds the fold of the operations' results over the launch contents. Read at the three
  result buffers, that fold is the named stage terms (flat, wrapIdx, refFV, refIV, refDice, refSimOf, refDz, refDy, refDx,
  refSmoothOf, refTotalOf) applied to the three arguments; the arguments' own buffers are written by no operation.

  The fold is read window by window: what the first window leaves at the five buffers the second reads (the literal
  class table, the all-false mask over it, the dice numerator, the sum of the two histograms, ε over the classes) and at
  the arguments; what the second window computes from contents that hold those; and the two joined.
-/
import proofs.«417857_j15487652069654_3_alg».proof.Proof.RefTerms
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window's 66 operations, in order; each call of the clip function is its body's three operations (the bound
    converted to its own type, broadcast over the vector, the elementwise maximum) over that call's buffers. -/
abbrev ops0 : List (HloOp τ sig (Elt F)) :=
  [ nullary main_c (fun i => lit0 (S25.rowMajor i)),
    nullary main_c_0 (constantI S25 1 0#1),
    reshape main_arg0 main_v0 rfl shapeCasts_S1x160x192x224_S6881280,
    reshape main_arg1 main_v1 rfl shapeCasts_S1x160x192x224_S6881280,
    nullary main_c_1 (constantI S_ 32 0#32),
    unary main_c_1 main_v2 (broadcastInDim S26 ![] bcast_S_S26 : (⟨S_, .i32⟩ : BufTy).Contents (Elt F) → (⟨S26, .i32⟩ : BufTy).Contents (Elt F)),
    nullary main_c_2 (constantI S_ 32 0#32),
    TRef.unary (.of main_c_2 : TRef sig ⟨S_, .i32⟩) main_call0.v0 id,
    TRef.unary main_call0.v0 main_call0.v1 (broadcastInDim S6881280 ![] bcast_S_S6881280),
    TRef.binary main_call0.v1 (.of main_v0 : TRef sig ⟨S6881280, .i32⟩) main_call0.v2 maxsi,
    nullary main_c_3 (constantI S_ 32 0#32),
    unary main_c_3 main_v4 (broadcastInDim S6881280 ![] bcast_S_S6881280 : (⟨S_, .i32⟩ : BufTy).Contents (Elt F) → (⟨S6881280, .i32⟩ : BufTy).Contents (Elt F)),
    binary main_v3 main_v4 main_v5 (cmpi .slt : (⟨S6881280, .i32⟩ : BufTy).Contents (Elt F) → (⟨S6881280, .i32⟩ : BufTy).Contents (Elt F) → (⟨S6881280, .i1⟩ : BufTy).Contents (Elt F)),
    nullary main_c_4 (constantI S_ 32 26#32),
    unary main_c_4 main_v6 (broadcastInDim S6881280 ![] bcast_S_S6881280 : (⟨S_, .i32⟩ : BufTy).Contents (Elt F) → (⟨S6881280, .i32⟩ : BufTy).Contents (Elt F)),
    binary main_v3 main_v6 main_v7 (addi : (⟨S6881280, .i32⟩ : BufTy).Contents (Elt F) → (⟨S6881280, .i32⟩ : BufTy).Contents (Elt F) → (⟨S6881280, .i32⟩ : BufTy).Contents (Elt F)),
    ternary main_v5 main_v7 main_v3 main_v8 (select : (⟨S6881280, .i1⟩ : BufTy).Contents (Elt F) → (⟨S6881280, .i32⟩ : BufTy).Contents (Elt F) → (⟨S6881280, .i32⟩ : BufTy).Contents (Elt F) → (⟨S6881280, .i32⟩ : BufTy).Contents (Elt F)),
    unary main_v8 main_v9 (broadcastInDim S6881280x1 ![0] bcast_S6881280_S6881280x1_0 : (⟨S6881280, .i32⟩ : BufTy).Contents (Elt F) → (⟨S6881280x1, .i32⟩ : BufTy).Contents (Elt F)),
    nullary main_c_5 (constantI S_ 32 1#32),
    unary main_c_5 main_v10 (broadcastInDim S6881280 ![] bcast_S_S6881280 : (⟨S_, .i32⟩ : BufTy).Contents (Elt F) → (⟨S6881280, .i32⟩ : BufTy).Contents (Elt F)),
    ternary main_v2 main_v9 main_v10 main_v11 ((fun x i u => Host.scatter scatter_S26_S6881280x1_S6881280_n_0_0_1 IntOp.addi x i u) : (⟨S26, .i32⟩ : BufTy).Contents (Elt F) → (⟨S6881280x1, .i32⟩ : BufTy).Contents (Elt F) → (⟨S6881280, .i32⟩ : BufTy).Contents (Elt F) → (⟨S26, .i32⟩ : BufTy).Contents (Elt F)),
    unary main_v11 main_v12 (sitofp .f32 : (⟨S26, .i32⟩ : BufTy).Contents (Elt F) → (⟨S26, .f32⟩ : BufTy).Contents (Elt F)),
    nullary main_c_6 (constantI S_ 32 0#32),
    unary main_c_6 main_v13 (broadcastInDim S26 ![] bcast_S_S26 : (⟨S_, .i32⟩ : BufTy).Contents (Elt F) → (⟨S26, .i32⟩ : BufTy).Contents (Elt F)),
    nullary main_c_7 (constantI S_ 32 0#32),
    TRef.unary (.of main_c_7 : TRef sig ⟨S_, .i32⟩) main_call1.v0 id,
    TRef.unary main_call1.v0 main_call1.v1 (broadcastInDim S6881280 ![] bcast_S_S6881280),
    TRef.binary main_call1.v1 (.of main_v1 : TRef sig ⟨S6881280, .i32⟩) main_call1.v2 maxsi,
    nullary main_c_8 (constantI S_ 32 0#32),
    unary main_c_8 main_v15 (broadcastInDim S6881280 ![] bcast_S_S6881280 : (⟨S_, .i32⟩ : BufTy).Contents (Elt F) → (⟨S6881280, .i32⟩ : BufTy).Contents (Elt F)),
    binary main_v14 main_v15 main_v16 (cmpi .slt : (⟨S6881280, .i32⟩ : BufTy).Contents (Elt F) → (⟨S6881280, .i32⟩ : BufTy).Contents (Elt F) → (⟨S6881280, .i1⟩ : BufTy).Contents (Elt F)),
    nullary main_c_9 (constantI S_ 32 26#32),
    unary main_c_9 main_v17 (broadcastInDim S6881280 ![] bcast_S_S6881280 : (⟨S_, .i32⟩ : BufTy).Contents (Elt F) → (⟨S6881280, .i32⟩ : BufTy).Contents (Elt F)),
    binary main_v14 main_v17 main_v18 (addi : (⟨S6881280, .i32⟩ : BufTy).Contents (Elt F) → (⟨S6881280, .i32⟩ : BufTy).Contents (Elt F) → (⟨S6881280, .i32⟩ : BufTy).Contents (Elt F)),
    ternary main_v16 main_v18 main_v14 main_v19 (select : (⟨S6881280, .i1⟩ : BufTy).Contents (Elt F) → (⟨S6881280, .i32⟩ : BufTy).Contents (Elt F) → (⟨S6881280, .i32⟩ : BufTy).Contents (Elt F) → (⟨S6881280, .i32⟩ : BufTy).Contents (Elt F)),
    unary main_v19 main_v20 (broadcastInDim S6881280x1 ![0] bcast_S6881280_S6881280x1_0 : (⟨S6881280, .i32⟩ : BufTy).Contents (Elt F) → (⟨S6881280x1, .i32⟩ : BufTy).Contents (Elt F)),
    nullary main_c_10 (constantI S_ 32 1#32),
    unary main_c_10 main_v21 (broadcastInDim S6881280 ![] bcast_S_S6881280 : (⟨S_, .i32⟩ : BufTy).Contents (Elt F) → (⟨S6881280, .i32⟩ : BufTy).Contents (Elt F)),
    ternary main_v13 main_v20 main_v21 main_v22 ((fun x i u => Host.scatter scatter_S26_S6881280x1_S6881280_n_0_0_1 IntOp.addi x i u) : (⟨S26, .i32⟩ : BufTy).Contents (Elt F) → (⟨S6881280x1, .i32⟩ : BufTy).Contents (Elt F) → (⟨S6881280, .i32⟩ : BufTy).Contents (Elt F) → (⟨S26, .i32⟩ : BufTy).Contents (Elt F)),
    unary main_v22 main_v23 (sitofp .f32 : (⟨S26, .i32⟩ : BufTy).Contents (Elt F) → (⟨S26, .f32⟩ : BufTy).Contents (Elt F)),
    binary main_v0 main_v1 main_v24 (cmpi .eq : (⟨S6881280, .i32⟩ : BufTy).Contents (Elt F) → (⟨S6881280, .i32⟩ : BufTy).Contents (Elt F) → (⟨S6881280, .i1⟩ : BufTy).Contents (Elt F)),
    unary main_v24 main_v25 (uitofp .f32 : (⟨S6881280, .i1⟩ : BufTy).Contents (Elt F) → (⟨S6881280, .f32⟩ : BufTy).Contents (Elt F)),
    nullary main_cst (constant S_ .f32 0x00000000#32),
    unary main_cst main_v26 (broadcastInDim S26 ![] bcast_S_S26 : (⟨S_, .f32⟩ : BufTy).Contents (Elt F) → (⟨S26, .f32⟩ : BufTy).Contents (Elt F)),
    nullary main_c_11 (constantI S_ 32 0#32),
    TRef.unary (.of main_c_11 : TRef sig ⟨S_, .i32⟩) main_call2.v0 id,
    TRef.unary main_call2.v0 main_call2.v1 (broadcastInDim S6881280 ![] bcast_S_S6881280),
    TRef.binary main_call2.v1 (.of main_v0 : TRef sig ⟨S6881280, .i32⟩) main_call2.v2 maxsi,
    nullary main_c_12 (constantI S_ 32 0#32),
    unary main_c_12 main_v28 (broadcastInDim S6881280 ![] bcast_S_S6881280 : (⟨S_, .i32⟩ : BufTy).Contents (Elt F) → (⟨S6881280, .i32⟩ : BufTy).Contents (Elt F)),
    binary main_v27 main_v28 main_v29 (cmpi .slt : (⟨S6881280, .i32⟩ : BufTy).Contents (Elt F) → (⟨S6881280, .i32⟩ : BufTy).Contents (Elt F) → (⟨S6881280, .i1⟩ : BufTy).Contents (Elt F)),
    nullary main_c_13 (constantI S_ 32 26#32),
    unary main_c_13 main_v30 (broadcastInDim S6881280 ![] bcast_S_S6881280 : (⟨S_, .i32⟩ : BufTy).Contents (Elt F) → (⟨S6881280, .i32⟩ : BufTy).Contents (Elt F)),
    binary main_v27 main_v30 main_v31 (addi : (⟨S6881280, .i32⟩ : BufTy).Contents (Elt F) → (⟨S6881280, .i32⟩ : BufTy).Contents (Elt F) → (⟨S6881280, .i32⟩ : BufTy).Contents (Elt F)),
    ternary main_v29 main_v31 main_v27 main_v32 (select : (⟨S6881280, .i1⟩ : BufTy).Contents (Elt F) → (⟨S6881280, .i32⟩ : BufTy).Contents (Elt F) → (⟨S6881280, .i32⟩ : BufTy).Contents (Elt F) → (⟨S6881280, .i32⟩ : BufTy).Contents (Elt F)),
    unary main_v32 main_v33 (broadcastInDim S6881280x1 ![0] bcast_S6881280_S6881280x1_0 : (⟨S6881280, .i32⟩ : BufTy).Contents (Elt F) → (⟨S6881280x1, .i32⟩ : BufTy).Contents (Elt F)),
    ternary main_v26 main_v33 main_v25 main_v34 ((fun x i u => Host.scatterAdd scatter_S26_S6881280x1_S6881280_n_0_0_1 x i u) : (⟨S26, .f32⟩ : BufTy).Contents (Elt F) → (⟨S6881280x1, .i32⟩ : BufTy).Contents (Elt F) → (⟨S6881280, .f32⟩ : BufTy).Contents (Elt F) → (⟨S26, .f32⟩ : BufTy).Contents (Elt F)),
    nullary main_cst_14 (constant S_ .f32 0x40000000#32),
    unary main_cst_14 main_v35 (broadcastInDim S26 ![] bcast_S_S26 : (⟨S_, .f32⟩ : BufTy).Contents (Elt F) → (⟨S26, .f32⟩ : BufTy).Contents (Elt F)),
    binary main_v35 main_v34 main_v36 (mulf : (⟨S26, .f32⟩ : BufTy).Contents (Elt F) → (⟨S26, .f32⟩ : BufTy).Contents (Elt F) → (⟨S26, .f32⟩ : BufTy).Contents (Elt F)),
    nullary main_cst_15 (constant S_ .f32 0x3727C5AC#32),
    unary main_cst_15 main_v37 (broadcastInDim S26 ![] bcast_S_S26 : (⟨S_, .f32⟩ : BufTy).Contents (Elt F) → (⟨S26, .f32⟩ : BufTy).Contents (Elt F)),
    binary main_v36 main_v37 main_v38 (addf : (⟨S26, .f32⟩ : BufTy).Contents (Elt F) → (⟨S26, .f32⟩ : BufTy).Contents (Elt F) → (⟨S26, .f32⟩ : BufTy).Contents (Elt F)),
    binary main_v12 main_v23 main_v39 (addf : (⟨S26, .f32⟩ : BufTy).Contents (Elt F) → (⟨S26, .f32⟩ : BufTy).Contents (Elt F) → (⟨S26, .f32⟩ : BufTy).Contents (Elt F)),
    nullary main_cst_16 (constant S_ .f32 0x3727C5AC#32),
    unary main_cst_16 main_v40 (broadcastInDim S26 ![] bcast_S_S26 : (⟨S_, .f32⟩ : BufTy).Contents (Elt F) → (⟨S26, .f32⟩ : BufTy).Contents (Elt F)) ]

/-- The second window's 45 operations, in order. -/
abbrev ops1 : List (HloOp τ sig (Elt F)) :=
  [ binary main_v39 main_v40 main_v41 (addf : (⟨S26, .f32⟩ : BufTy).Contents (Elt F) → (⟨S26, .f32⟩ : BufTy).Contents (Elt F) → (⟨S26, .f32⟩ : BufTy).Contents (Elt F)),
    binary main_v38 main_v41 main_v42 (Host.divf : (⟨S26, .f32⟩ : BufTy).Contents (Elt F) → (⟨S26, .f32⟩ : BufTy).Contents (Elt F) → (⟨S26, .f32⟩ : BufTy).Contents (Elt F)),
    nullary main_c_17 (constantI S_ 32 26#32),
    unary main_c_17 main_v43 (broadcastInDim S25 ![] bcast_S_S25 : (⟨S_, .i32⟩ : BufTy).Contents (Elt F) → (⟨S25, .i32⟩ : BufTy).Contents (Elt F)),
    binary main_c main_v43 main_v44 (addi : (⟨S25, .i32⟩ : BufTy).Contents (Elt F) → (⟨S25, .i32⟩ : BufTy).Contents (Elt F) → (⟨S25, .i32⟩ : BufTy).Contents (Elt F)),
    ternary main_c_0 main_v44 main_c main_v45 (select : (⟨S25, .i1⟩ : BufTy).Contents (Elt F) → (⟨S25, .i32⟩ : BufTy).Contents (Elt F) → (⟨S25, .i32⟩ : BufTy).Contents (Elt F) → (⟨S25, .i32⟩ : BufTy).Contents (Elt F)),
    unary main_v45 main_v46 (broadcastInDim S25x1 ![0] bcast_S25_S25x1_0 : (⟨S25, .i32⟩ : BufTy).Contents (Elt F) → (⟨S25x1, .i32⟩ : BufTy).Contents (Elt F)),
    binary main_v42 main_v46 main_v47 ((fun x i => Host.gather gather_S26_S25x1_S25_n_0_n_n_0_1_1 x i) : (⟨S26, .f32⟩ : BufTy).Contents (Elt F) → (⟨S25x1, .i32⟩ : BufTy).Contents (Elt F) → (⟨S25, .f32⟩ : BufTy).Contents (Elt F)),
    nullary main_cst_18 (constant S_ .f32 0x00000000#32),
    binary main_v47 main_cst_18 main_v48 ((fun x v => Host.reduceAdd x v reducesTo_S25_S_d0 h_S_) : (⟨S25, .f32⟩ : BufTy).Contents (Elt F) → (⟨S_, .f32⟩ : BufTy).Contents (Elt F) → (⟨S_, .f32⟩ : BufTy).Contents (Elt F)),
    nullary main_cst_19 (constant S_ .f32 0x41C80000#32),
    binary main_v48 main_cst_19 main_v49 (Host.divf : (⟨S_, .f32⟩ : BufTy).Contents (Elt F) → (⟨S_, .f32⟩ : BufTy).Contents (Elt F) → (⟨S_, .f32⟩ : BufTy).Contents (Elt F)),
    nullary main_cst_20 (constant S_ .f32 0x3F800000#32),
    binary main_cst_20 main_v49 main_v50 (subf : (⟨S_, .f32⟩ : BufTy).Contents (Elt F) → (⟨S_, .f32⟩ : BufTy).Contents (Elt F) → (⟨S_, .f32⟩ : BufTy).Contents (Elt F)),
    unary main_arg2 main_v51 ((extractStridedSlice S1x3x159x192x224 ![0, 0, 1, 0, 0] · slices_S1x3x160x192x224_S1x3x159x192x224_0_0_1_0_0) : (⟨S1x3x160x192x224, .f32⟩ : BufTy).Contents (Elt F) → (⟨S1x3x159x192x224, .f32⟩ : BufTy).Contents (Elt F)),
    unary main_arg2 main_v52 ((extractStridedSlice S1x3x159x192x224 ![0, 0, 0, 0, 0] · slices_S1x3x160x192x224_S1x3x159x192x224_0_0_0_0_0) : (⟨S1x3x160x192x224, .f32⟩ : BufTy).Contents (Elt F) → (⟨S1x3x159x192x224, .f32⟩ : BufTy).Contents (Elt F)),
    binary main_v51 main_v52 main_v53 (subf : (⟨S1x3x159x192x224, .f32⟩ : BufTy).Contents (Elt F) → (⟨S1x3x159x192x224, .f32⟩ : BufTy).Contents (Elt F) → (⟨S1x3x159x192x224, .f32⟩ : BufTy).Contents (Elt F)),
    unary main_arg2 main_v54 ((extractStridedSlice S1x3x160x191x224 ![0, 0, 0, 1, 0] · slices_S1x3x160x192x224_S1x3x160x191x224_0_0_0_1_0) : (⟨S1x3x160x192x224, .f32⟩ : BufTy).Contents (Elt F) → (⟨S1x3x160x191x224, .f32⟩ : BufTy).Contents (Elt F)),
    unary main_arg2 main_v55 ((extractStridedSlice S1x3x160x191x224 ![0, 0, 0, 0, 0] · slices_S1x3x160x192x224_S1x3x160x191x224_0_0_0_0_0) : (⟨S1x3x160x192x224, .f32⟩ : BufTy).Contents (Elt F) → (⟨S1x3x160x191x224, .f32⟩ : BufTy).Contents (Elt F)),
    binary main_v54 main_v55 main_v56 (subf : (⟨S1x3x160x191x224, .f32⟩ : BufTy).Contents (Elt F) → (⟨S1x3x160x191x224, .f32⟩ : BufTy).Contents (Elt F) → (⟨S1x3x160x191x224, .f32⟩ : BufTy).Contents (Elt F)),
    unary main_arg2 main_v57 ((extractStridedSlice S1x3x160x192x223 ![0, 0, 0, 0, 1] · slices_S1x3x160x192x224_S1x3x160x192x223_0_0_0_0_1) : (⟨S1x3x160x192x224, .f32⟩ : BufTy).Contents (Elt F) → (⟨S1x3x160x192x223, .f32⟩ : BufTy).Contents (Elt F)),
    unary main_arg2 main_v58 ((extractStridedSlice S1x3x160x192x223 ![0, 0, 0, 0, 0] · slices_S1x3x160x192x224_S1x3x160x192x223_0_0_0_0_0) : (⟨S1x3x160x192x224, .f32⟩ : BufTy).Contents (Elt F) → (⟨S1x3x160x192x223, .f32⟩ : BufTy).Contents (Elt F)),
    binary main_v57 main_v58 main_v59 (subf : (⟨S1x3x160x192x223, .f32⟩ : BufTy).Contents (Elt F) → (⟨S1x3x160x192x223, .f32⟩ : BufTy).Contents (Elt F) → (⟨S1x3x160x192x223, .f32⟩ : BufTy).Contents (Elt F)),
    binary main_v53 main_v53 main_v60 (mulf : (⟨S1x3x159x192x224, .f32⟩ : BufTy).Contents (Elt F) → (⟨S1x3x159x192x224, .f32⟩ : BufTy).Contents (Elt F) → (⟨S1x3x159x192x224, .f32⟩ : BufTy).Contents (Elt F)),
    nullary main_cst_21 (constant S_ .f32 0x00000000#32),
    binary main_v60 main_cst_21 main_v61 ((fun x v => Host.reduceAdd x v reducesTo_S1x3x159x192x224_S_d0_1_2_3_4 h_S_) : (⟨S1x3x159x192x224, .f32⟩ : BufTy).Contents (Elt F) → (⟨S_, .f32⟩ : BufTy).Contents (Elt F) → (⟨S_, .f32⟩ : BufTy).Contents (Elt F)),
    nullary main_cst_22 (constant S_ .f32 0x4B9C8400#32),
    binary main_v61 main_cst_22 main_v62 (Host.divf : (⟨S_, .f32⟩ : BufTy).Contents (Elt F) → (⟨S_, .f32⟩ : BufTy).Contents (Elt F) → (⟨S_, .f32⟩ : BufTy).Contents (Elt F)),
    binary main_v56 main_v56 main_v63 (mulf : (⟨S1x3x160x191x224, .f32⟩ : BufTy).Contents (Elt F) → (⟨S1x3x160x191x224, .f32⟩ : BufTy).Contents (Elt F) → (⟨S1x3x160x191x224, .f32⟩ : BufTy).Contents (Elt F)),
    nullary main_cst_23 (constant S_ .f32 0x00000000#32),
    binary main_v63 main_cst_23 main_v64 ((fun x v => Host.reduceAdd x v reducesTo_S1x3x160x191x224_S_d0_1_2_3_4 h_S_) : (⟨S1x3x160x191x224, .f32⟩ : BufTy).Contents (Elt F) → (⟨S_, .f32⟩ : BufTy).Contents (Elt F) → (⟨S_, .f32⟩ : BufTy).Contents (Elt F)),
    nullary main_cst_24 (constant S_ .f32 0x4B9CAE00#32),
    binary main_v64 main_cst_24 main_v65 (Host.divf : (⟨S_, .f32⟩ : BufTy).Contents (Elt F) → (⟨S_, .f32⟩ : BufTy).Contents (Elt F) → (⟨S_, .f32⟩ : BufTy).Contents (Elt F)),
    binary main_v62 main_v65 main_v66 (addf : (⟨S_, .f32⟩ : BufTy).Contents (Elt F) → (⟨S_, .f32⟩ : BufTy).Contents (Elt F) → (⟨S_, .f32⟩ : BufTy).Contents (Elt F)),
    binary main_v59 main_v59 main_v67 (mulf : (⟨S1x3x160x192x223, .f32⟩ : BufTy).Contents (Elt F) → (⟨S1x3x160x192x223, .f32⟩ : BufTy).Contents (Elt F) → (⟨S1x3x160x192x223, .f32⟩ : BufTy).Contents (Elt F)),
    nullary main_cst_25 (constant S_ .f32 0x00000000#32),
    binary main_v67 main_cst_25 main_v68 ((fun x v => Host.reduceAdd x v reducesTo_S1x3x160x192x223_S_d0_1_2_3_4 h_S_) : (⟨S1x3x160x192x223, .f32⟩ : BufTy).Contents (Elt F) → (⟨S_, .f32⟩ : BufTy).Contents (Elt F) → (⟨S_, .f32⟩ : BufTy).Contents (Elt F)),
    nullary main_cst_26 (constant S_ .f32 0x4B9CCC00#32),
    binary main_v68 main_cst_26 main_v69 (Host.divf : (⟨S_, .f32⟩ : BufTy).Contents (Elt F) → (⟨S_, .f32⟩ : BufTy).Contents (Elt F) → (⟨S_, .f32⟩ : BufTy).Contents (Elt F)),
    binary main_v66 main_v69 main_v70 (addf : (⟨S_, .f32⟩ : BufTy).Contents (Elt F) → (⟨S_, .f32⟩ : BufTy).Contents (Elt F) → (⟨S_, .f32⟩ : BufTy).Contents (Elt F)),
    nullary main_cst_27 (constant S_ .f32 0x40400000#32),
    binary main_v70 main_cst_27 main_v71 (Host.divf : (⟨S_, .f32⟩ : BufTy).Contents (Elt F) → (⟨S_, .f32⟩ : BufTy).Contents (Elt F) → (⟨S_, .f32⟩ : BufTy).Contents (Elt F)),
    nullary main_cst_28 (constant S_ .f32 0x3F800000#32),
    binary main_cst_28 main_v71 main_v72 (mulf : (⟨S_, .f32⟩ : BufTy).Contents (Elt F) → (⟨S_, .f32⟩ : BufTy).Contents (Elt F) → (⟨S_, .f32⟩ : BufTy).Contents (Elt F)),
    binary main_v50 main_v72 main_v73 (addf : (⟨S_, .f32⟩ : BufTy).Contents (Elt F) → (⟨S_, .f32⟩ : BufTy).Contents (Elt F) → (⟨S_, .f32⟩ : BufTy).Contents (Elt F)) ]

/-! ## The program is the straight line of these operations -/

set_option maxRecDepth 8192 in
/-- The first window is its 66 operations in order: the three calls' bodies run in place, which is how sequencing computes. -/
theorem part0_eq (c : Dev nD) : main_part0 (F := F) c = seq ops0 := rfl

set_option maxRecDepth 8192 in
/-- The second window is its 45 operations in order. -/
theorem part1_eq (c : Dev nD) : main_part1 (F := F) c = seq ops1 := rfl

/-- The whole program is the first window's operations followed by the second's. -/
theorem main_eq (c : Dev nD) : main (F := F) c = seq (ops0 ++ ops1) := by
  rw [seq_append, ← part0_eq c, ← part1_eq c]; rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., reshape_bufs_sub .., reshape_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., binary_bufs_sub .., unary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub ..⟩

theorem ops1_sub : (ops1 : List (HloOp τ sig (Elt F))).Forall fun op => op.bufs ⊆ tcRefs τ sig :=
  ⟨binary_bufs_sub .., binary_bufs_sub .., nullary_bufs_sub .., unary_bufs_sub .., binary_bufs_sub .., ternary_bufs_sub .., unary_bufs_sub .., binary_bufs_sub .., nullary_bufs_sub .., binary_bufs_sub .., nullary_bufs_sub .., binary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub ..⟩

theorem ops_sub : (ops0 ++ ops1 : List (HloOp τ sig (Elt F))).Forall fun op => op.bufs ⊆ tcRefs τ sig :=
  List.forall_append.mpr ⟨ops0_sub, ops1_sub⟩

/-! ## What the first window leaves, from any contents V -/

/-- The literal class table. -/
theorem w0_c (V : Valuation τ sig (Elt F)) :
    after ops0 V (main_c : DevRef τ sig) = fun i => lit0 (S25.rowMajor i) := by
  after_results_simp
  rfl

/-- The all-false mask over the table. -/
theorem w0_c_0 (V : Valuation τ sig (Elt F)) :
    after ops0 V (main_c_0 : DevRef τ sig) = constantI S25 1 0#1 := by
  after_results_simp

/-- The dice numerator: twice the agreement histogram plus ε. -/
theorem w0_v38 (V : Valuation τ sig (Elt F)) :
    after ops0 V (main_v38 : DevRef τ sig)
      = (addf : (⟨S26, .f32⟩ : BufTy).Contents (Elt F) → (⟨S26, .f32⟩ : BufTy).Contents (Elt F) → (⟨S26, .f32⟩ : BufTy).Contents (Elt F))
          ((mulf : (⟨S26, .f32⟩ : BufTy).Contents (Elt F) → (⟨S26, .f32⟩ : BufTy).Contents (Elt F) → (⟨S26, .f32⟩ : BufTy).Contents (Elt F)) ((broadcastInDim S26 ![] bcast_S_S26 : (⟨S_, .f32⟩ : BufTy).Contents (Elt F) → (⟨S26, .f32⟩ : BufTy).Contents (Elt F)) (constant S_ .f32 0x40000000#32))
            (refIV (V (main_arg0 : DevRef τ sig)) (V (main_arg1 : DevRef τ sig))))
          ((broadcastInDim S26 ![] bcast_S_S26 : (⟨S_, .f32⟩ : BufTy).Contents (Elt F) → (⟨S26, .f32⟩ : BufTy).Contents (Elt F)) (constant S_ .f32 0x3727C5AC#32)) := by
  after_results_simp
  rfl

/-- The two histograms added. -/
theorem w0_v39 (V : Valuation τ sig (Elt F)) :
    after ops0 V (main_v39 : DevRef τ sig)
      = (addf : (⟨S26, .f32⟩ : BufTy).Contents (Elt F) → (⟨S26, .f32⟩ : BufTy).Contents (Elt F) → (⟨S26, .f32⟩ : BufTy).Contents (Elt F)) (refFV (V (main_arg0 : DevRef τ sig))) (refFV (V (main_arg1 : DevRef τ sig))) := by
  after_results_simp
  rfl

/-- ε over the classes. -/
theorem w0_v40 (V : Valuation τ sig (Elt F)) :
    after ops0 V (main_v40 : DevRef τ sig) = ((broadcastInDim S26 ![] bcast_S_S26 : (⟨S_, .f32⟩ : BufTy).Contents (Elt F) → (⟨S26, .f32⟩ : BufTy).Contents (Elt F)) (constant S_ .f32 0x3727C5AC#32)) := by
  after_results_simp

theorem w0_arg0 (V : Valuation τ sig (Elt F)) : after ops0 V (main_arg0 : DevRef τ sig) = V (main_arg0 : DevRef τ sig) := by
  after_results_simp
theorem w0_arg1 (V : Valuation τ sig (Elt F)) : after ops0 V (main_arg1 : DevRef τ sig) = V (main_arg1 : DevRef τ sig) := by
  after_results_simp
theorem w0_arg2 (V : Valuation τ sig (Elt F)) : after ops0 V (main_arg2 : DevRef τ sig) = V (main_arg2 : DevRef τ sig) := by
  after_results_simp

/-! ## What the second window leaves, from contents W that hold what the first window leaves -/

/-- The similarity term. -/
theorem w1_v50 (W : Valuation τ sig (Elt F)) (fv mv iv : (⟨S26, .f32⟩ : BufTy).Contents (Elt F))
    (hc : W (main_c : DevRef τ sig) = fun i => lit0 (S25.rowMajor i))
    (hc0 : W (main_c_0 : DevRef τ sig) = constantI S25 1 0#1)
    (h38 : W (main_v38 : DevRef τ sig) = (addf : (⟨S26, .f32⟩ : BufTy).Contents (Elt F) → (⟨S26, .f32⟩ : BufTy).Contents (Elt F) → (⟨S26, .f32⟩ : BufTy).Contents (Elt F)) ((mulf : (⟨S26, .f32⟩ : BufTy).Contents (Elt F) → (⟨S26, .f32⟩ : BufTy).Contents (Elt F) → (⟨S26, .f32⟩ : BufTy).Contents (Elt F)) ((broadcastInDim S26 ![] bcast_S_S26 : (⟨S_, .f32⟩ : BufTy).Contents (Elt F) → (⟨S26, .f32⟩ : BufTy).Contents (Elt F)) (constant S_ .f32 0x40000000#32)) iv) ((broadcastInDim S26 ![] bcast_S_S26 : (⟨S_, .f32⟩ : BufTy).Contents (Elt F) → (⟨S26, .f32⟩ : BufTy).Contents (Elt F)) (constant S_ .f32 0x3727C5AC#32)))
    (h39 : W (main_v39 : DevRef τ sig) = (addf : (⟨S26, .f32⟩ : BufTy).Contents (Elt F) → (⟨S26, .f32⟩ : BufTy).Contents (Elt F) → (⟨S26, .f32⟩ : BufTy).Contents (Elt F)) fv mv)
    (h40 : W (main_v40 : DevRef τ sig) = ((broadcastInDim S26 ![] bcast_S_S26 : (⟨S_, .f32⟩ : BufTy).Contents (Elt F) → (⟨S26, .f32⟩ : BufTy).Contents (Elt F)) (constant S_ .f32 0x3727C5AC#32))) :
    after ops1 W (main_v50 : DevRef τ sig) = refSimOf (refDice fv mv iv) := by
  after_results_simp
  rw [hc, hc0, h38, h39, h40]
  rfl

/-- The smoothness term. -/
theorem w1_v71 (W : Valuation τ sig (Elt F)) :
    after ops1 W (main_v71 : DevRef τ sig)
      = refSmoothOf (refDz (W (main_arg2 : DevRef τ sig))) (refDy (W (main_arg2 : DevRef τ sig))) (refDx (W (main_arg2 : DevRef τ sig))) := by
  after_results_simp
  rfl

/-- The total: the similarity term plus one times the smoothness term. -/
theorem w1_v73 (W : Valuation τ sig (Elt F)) (fv mv iv : (⟨S26, .f32⟩ : BufTy).Contents (Elt F))
    (hc : W (main_c : DevRef τ sig) = fun i => lit0 (S25.rowMajor i))
    (hc0 : W (main_c_0 : DevRef τ sig) = constantI S25 1 0#1)
    (h38 : W (main_v38 : DevRef τ sig) = (addf : (⟨S26, .f32⟩ : BufTy).Contents (Elt F) → (⟨S26, .f32⟩ : BufTy).Contents (Elt F) → (⟨S26, .f32⟩ : BufTy).Contents (Elt F)) ((mulf : (⟨S26, .f32⟩ : BufTy).Contents (Elt F) → (⟨S26, .f32⟩ : BufTy).Contents (Elt F) → (⟨S26, .f32⟩ : BufTy).Contents (Elt F)) ((broadcastInDim S26 ![] bcast_S_S26 : (⟨S_, .f32⟩ : BufTy).Contents (Elt F) → (⟨S26, .f32⟩ : BufTy).Contents (Elt F)) (constant S_ .f32 0x40000000#32)) iv) ((broadcastInDim S26 ![] bcast_S_S26 : (⟨S_, .f32⟩ : BufTy).Contents (Elt F) → (⟨S26, .f32⟩ : BufTy).Contents (Elt F)) (constant S_ .f32 0x3727C5AC#32)))
    (h39 : W (main_v39 : DevRef τ sig) = (addf : (⟨S26, .f32⟩ : BufTy).Contents (Elt F) → (⟨S26, .f32⟩ : BufTy).Contents (Elt F) → (⟨S26, .f32⟩ : BufTy).Contents (Elt F)) fv mv)
    (h40 : W (main_v40 : DevRef τ sig) = ((broadcastInDim S26 ![] bcast_S_S26 : (⟨S_, .f32⟩ : BufTy).Contents (Elt F) → (⟨S26, .f32⟩ : BufTy).Contents (Elt F)) (constant S_ .f32 0x3727C5AC#32))) :
    after ops1 W (main_v73 : DevRef τ sig)
      = refTotalOf (refSimOf (refDice fv mv iv))
          (refSmoothOf (refDz (W (main_arg2 : DevRef τ sig))) (refDy (W (main_arg2 : DevRef τ sig))) (refDx (W (main_arg2 : DevRef τ sig)))) := by
  after_results_simp
  rw [hc, hc0, h38, h39, h40]
  rfl

theorem w1_arg0 (W : Valuation τ sig (Elt F)) : after ops1 W (main_arg0 : DevRef τ sig) = W (main_arg0 : DevRef τ sig) := by
  after_results_simp
theorem w1_arg1 (W : Valuation τ sig (Elt F)) : after ops1 W (main_arg1 : DevRef τ sig) = W (main_arg1 : DevRef τ sig) := by
  after_results_simp
theorem w1_arg2 (W : Valuation τ sig (Elt F)) : after ops1 W (main_arg2 : DevRef τ sig) = W (main_arg2 : DevRef τ sig) := by
  after_results_simp

/-! ## The whole line, from any contents V -/

/-- The contents after two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem res_v50 (V : Valuation τ sig (Elt F)) :
    after (ops0 ++ ops1) V (main_v50 : DevRef τ sig) = refSimOf (refDice (refFV (V (main_arg0 : DevRef τ sig))) (refFV (V (main_arg1 : DevRef τ sig))) (refIV (V (main_arg0 : DevRef τ sig)) (V (main_arg1 : DevRef τ sig)))) := by
  rw [after_app]
  exact w1_v50 _ _ _ _ (w0_c V) (w0_c_0 V) (w0_v38 V) (w0_v39 V) (w0_v40 V)

theorem res_v71 (V : Valuation τ sig (Elt F)) :
    after (ops0 ++ ops1) V (main_v71 : DevRef τ sig) = refSmoothOf (refDz (V (main_arg2 : DevRef τ sig))) (refDy (V (main_arg2 : DevRef τ sig))) (refDx (V (main_arg2 : DevRef τ sig))) := by
  rw [after_app, w1_v71, w0_arg2]

theorem res_v73 (V : Valuation τ sig (Elt F)) :
    after (ops0 ++ ops1) V (main_v73 : DevRef τ sig) = refTotalOf (refSimOf (refDice (refFV (V (main_arg0 : DevRef τ sig))) (refFV (V (main_arg1 : DevRef τ sig))) (refIV (V (main_arg0 : DevRef τ sig)) (V (main_arg1 : DevRef τ sig))))) (refSmoothOf (refDz (V (main_arg2 : DevRef τ sig))) (refDy (V (main_arg2 : DevRef τ sig))) (refDx (V (main_arg2 : DevRef τ sig)))) := by
  rw [after_app, w1_v73 _ _ _ _ (w0_c V) (w0_c_0 V) (w0_v38 V) (w0_v39 V) (w0_v40 V), w0_arg2]

theorem res_arg0 (V : Valuation τ sig (Elt F)) : after (ops0 ++ ops1) V (main_arg0 : DevRef τ sig) = V (main_arg0 : DevRef τ sig) := by
  rw [after_app, w1_arg0, w0_arg0]
theorem res_arg1 (V : Valuation τ sig (Elt F)) : after (ops0 ++ ops1) V (main_arg1 : DevRef τ sig) = V (main_arg1 : DevRef τ sig) := by
  rw [after_app, w1_arg1, w0_arg1]
theorem res_arg2 (V : Valuation τ sig (Elt F)) : after (ops0 ++ ops1) V (main_arg2 : DevRef τ sig) = V (main_arg2 : DevRef τ sig) := by
  rw [after_app, w1_arg2, w0_arg2]

/-! ## The run -/

/-- On every device, for any float values, from any memory with zero counters: every weakly fair execution of the program
    terminates with the total, the similarity term and the smoothness term at the named terms of the three arguments'
    launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v73) = refTotalOf (refSimOf (refDice (refFV (m ((c.tc : Thread nD τ).loc main_arg0))) (refFV (m ((c.tc : Thread nD τ).loc main_arg1))) (refIV (m ((c.tc : Thread nD τ).loc main_arg0)) (m ((c.tc : Thread nD τ).loc main_arg1))))) (refSmoothOf (refDz (m ((c.tc : Thread nD τ).loc main_arg2))) (refDy (m ((c.tc : Thread nD τ).loc main_arg2))) (refDx (m ((c.tc : Thread nD τ).loc main_arg2))))
      ∧ r.2.mem ((c.tc : Thread nD τ).loc main_v50) = refSimOf (refDice (refFV (m ((c.tc : Thread nD τ).loc main_arg0))) (refFV (m ((c.tc : Thread nD τ).loc main_arg1))) (refIV (m ((c.tc : Thread nD τ).loc main_arg0)) (m ((c.tc : Thread nD τ).loc main_arg1))))
      ∧ r.2.mem ((c.tc : Thread nD τ).loc main_v71) = refSmoothOf (refDz (m ((c.tc : Thread nD τ).loc main_arg2))) (refDy (m ((c.tc : Thread nD τ).loc main_arg2))) (refDx (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v73).trans (res_v73 _), (h c main_v50).trans (res_v50 _),
      (h c main_v71).trans (res_v71 _), (h c main_arg0).trans (res_arg0 _), (h c main_arg1).trans (res_arg1 _),
      (h c main_arg2).trans (res_arg2 _)⟩)
    (run_seq scopedRefs_eq scopedSems_eq defs main (fun _ => ops0 ++ ops1) main_eq (fun _ => ops_sub) m ρ)

end Cert.ReferenceIdeal.Hand

end
-- ==== Proof.KTermsVal.lean ====
/-
  The kernel program's small layout stages, read at an index over the extended reals.

  * The two cores' partial histograms are the two leading slabs of a [2,3,128] array; their sum, cut to one row
    and to the 26 classes, reads the two slabs at that row and lane and adds them (kRow0_hist, kRow1_hist, kRow2_hist).
  * A core's partial sum of squared differences sits at the corner of its [8,128] block of a [2,8,128] array
    (kCorner0_eq, kCorner1_eq); the pair is their sum (kPair_eq).
  * Dropping the field's unit batch axis keeps the four free coordinates (kfield_apply); a depth plane of the
    field, as a [3,192,224] array, reads the field at that depth (kPlane80_apply, kPlane79_apply).
  * The seam term, the sum over all of a [3,192,224] array of squared differences starting from zero, is the triple
    sum over channel, row and column of the squared difference between depth planes 80 and 79 (kSeam_eq).
  * A reshape is, by definition, the row-major re-indexing (kflat_eq, kfield_eq).
-/
import proofs.«417857_j15487652069654_3_alg».proof.Proof.KTerms
import proofs.«417857_j15487652069654_3_alg».proof.Proof.Spec
import proofs.«417857_j15487652069654_3_alg».proof.Proof.LibReshapeSum
import Idealize.ShloMosaic.Lib.IdealHost
import Idealize.ShloMosaic.Lib.ValueLayout

noncomputable section

namespace Cert.KernelIdeal.Hand

open Cert.KernelIdeal Cert.KernelIdeal.Gen Idealize.ShloMosaic Idealize.ShloMosaic.ValueIdx

/-! ## A reshape is the row-major re-indexing -/

/-- The flattened label map is the reshape of the map. -/
theorem kflat_eq (a : S1x160x192x224.Idx → BitVec 32) :
    kflat (F := Ideal) a = shapeCast S53760x128 a shapeCasts_S1x160x192x224_S53760x128 := rfl

/-- The field without its batch axis is the reshape of the field. -/
theorem kfield_eq (v : Cert.Spec.A5.Idx → EReal) :
    kfield (F := Ideal) v = shapeCast S3x160x192x224 v shapeCasts_S1x3x160x192x224_S3x160x192x224 := rfl

/-- Dropping the unit batch axis keeps the four free coordinates: row-major, position
    (((0·3 + c)·160 + d)·192 + h)·224 + w of the rank-5 array is position ((c·160 + d)·192 + h)·224 + w of the
    rank-4 one. -/
theorem kfield_apply (v : Cert.Spec.A5.Idx → EReal) (ch : Fin 3) (d : Fin 160) (h : Fin 192) (w : Fin 224) :
    kfield (F := Ideal) v (ix4 ch d h w) = v (Cert.Spec.at5 ch d h w) := by
  unfold kfield Cert.Spec.at5
  exact shapeCast_apply v _ _ _ (by
    rw [Shape.rowMajor_val_five, Shape.rowMajor_val_four]
    show ((((0 * 3 + ch.val) * 160 + d.val) * 192 + h.val) * 224 + w.val) = ((ch.val * 160 + d.val) * 192 + h.val) * 224 + w.val
    rw [Nat.zero_mul, Nat.zero_add])

/-! ## The histogram's rows -/

/-- Core 0's partial histogram is the leading slab. -/
theorem kHalf0_apply (arr : S2x3x128.Idx → EReal) (r : Fin 3) (l : Fin 128) :
    kHalf0 (F := Ideal) arr (ix2 r l) = arr (ix3 0 r l) := by
  unfold kHalf0
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Core 1's partial histogram is the second slab. -/
theorem kHalf1_apply (arr : S2x3x128.Idx → EReal) (r : Fin 3) (l : Fin 128) :
    kHalf1 (F := Ideal) arr (ix2 r l) = arr (ix3 1 r l) := by
  unfold kHalf1
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- The added histogram at a row and lane: the two slabs there, added. -/
theorem kHist_apply (arr : S2x3x128.Idx → EReal) (r : Fin 3) (l : Fin 128) :
    kHist (F := Ideal) arr (ix2 r l) = arr (ix3 0 r l) + arr (ix3 1 r l) := by
  unfold kHist
  rw [addf_apply, kHalf0_apply, kHalf1_apply]

/-- Row r of a histogram, cut to the 26 classes, at class j: the histogram at (r, j). -/
theorem row_cut_apply (h : S3x128.Idx → EReal) (o : Nat) (r : Fin 3) (hr : r.val = o)
    (hs : S3x128.Slices ![o, 0] S1x26) (j : Fin 26) :
    shapeCast S26 (extractStridedSlice S1x26 ![o, 0] h hs) shapeCasts_S1x26_S26 (ix1 j)
      = h (ix2 r ⟨j.val, by omega⟩) := by
  rw [shapeCast_1a_a_apply]
  exact extractStridedSlice_apply _ _ _ _ _ (fun ax => by
    match ax with
    | ⟨0, _⟩ => exact hr
    | ⟨1, _⟩ => exact (Nat.zero_add _).symm)

/-- Row 0 (the first map's counts) of the added histogram at class j. -/
theorem kRow0_hist (arr : S2x3x128.Idx → EReal) (j : Fin 26) :
    kRow0 (F := Ideal) (kHist arr) (ix1 j) = arr (ix3 0 0 ⟨j.val, by omega⟩) + arr (ix3 1 0 ⟨j.val, by omega⟩) := by
  unfold kRow0
  rw [row_cut_apply (kHist (F := Ideal) arr) 0 0 rfl slices_S3x128_S1x26_0_0 j, kHist_apply]

/-- Row 1 (the second map's counts) of the added histogram at class j. -/
theorem kRow1_hist (arr : S2x3x128.Idx → EReal) (j : Fin 26) :
    kRow1 (F := Ideal) (kHist arr) (ix1 j) = arr (ix3 0 1 ⟨j.val, by omega⟩) + arr (ix3 1 1 ⟨j.val, by omega⟩) := by
  unfold kRow1
  rw [row_cut_apply (kHist (F := Ideal) arr) 1 1 rfl slices_S3x128_S1x26_1_0 j, kHist_apply]

/-- Row 2 (the agreement counts) of the added histogram at class j. -/
theorem kRow2_hist (arr : S2x3x128.Idx → EReal) (j : Fin 26) :
    kRow2 (F := Ideal) (kHist arr) (ix1 j) = arr (ix3 0 2 ⟨j.val, by omega⟩) + arr (ix3 1 2 ⟨j.val, by omega⟩) := by
  unfold kRow2
  rw [row_cut_apply (kHist (F := Ideal) arr) 2 2 rfl slices_S3x128_S1x26_2_0 j, kHist_apply]

/-! ## The corners of the accumulator blocks -/

/-- The one element of a [1,1,1] array, as a scalar. -/
theorem scalar_of_111 {α : Type} (x : S1x1x1.Idx → α) (i : S_.Idx) :
    shapeCast S_ x shapeCasts_S1x1x1_S_ i = x (ix3 0 0 0) :=
  shapeCast_apply x _ _ _ (by
    have h0 := (S_.rowMajor i).isLt
    have h1 := (S1x1x1.rowMajor (ix3 0 0 0)).isLt
    have e0 : S_.numel = 1 := by decide
    have e1 : S1x1x1.numel = 1 := by decide
    omega)

/-- Core 0's value: the array at (0,0,0). -/
theorem kCorner0_eq (z : S2x8x128.Idx → EReal) : kCorner0 (F := Ideal) z = fun _ => z (ix3 0 0 0) := by
  funext i
  unfold kCorner0
  rw [scalar_of_111]
  exact extractStridedSlice_apply _ _ _ _ _ (fun ax => by
    match ax with
    | ⟨0, _⟩ => rfl
    | ⟨1, _⟩ => rfl
    | ⟨2, _⟩ => rfl)

/-- Core 1's value: the array at (1,0,0). -/
theorem kCorner1_eq (z : S2x8x128.Idx → EReal) : kCorner1 (F := Ideal) z = fun _ => z (ix3 1 0 0) := by
  funext i
  unfold kCorner1
  rw [scalar_of_111]
  exact extractStridedSlice_apply _ _ _ _ _ (fun ax => by
    match ax with
    | ⟨0, _⟩ => rfl
    | ⟨1, _⟩ => rfl
    | ⟨2, _⟩ => rfl)

/-- The two cores' values added. -/
theorem kPair_eq (z : S2x8x128.Idx → EReal) : kPair (F := Ideal) z = fun _ => z (ix3 0 0 0) + z (ix3 1 0 0) := by
  funext i
  unfold kPair
  rw [addf_apply, kCorner0_eq, kCorner1_eq]

/-! ## The seam between the two cores' halves -/

/-- A [3,1,192,224] array as a [3,192,224] one keeps its three free coordinates. -/
theorem drop_mid_unit_apply {α : Type} (x : S3x1x192x224.Idx → α) (c : Fin 3) (h : Fin 192) (w : Fin 224) :
    shapeCast S3x192x224 x shapeCasts_S3x1x192x224_S3x192x224 (ix3 c h w) = x (ix4 c 0 h w) :=
  shapeCast_apply x _ _ _ (by
    rw [Shape.rowMajor_val_four, Shape.rowMajor_val_three]
    show (((c.val * 1 + 0) * 192 + h.val) * 224 + w.val) = (c.val * 192 + h.val) * 224 + w.val
    rw [Nat.mul_one, Nat.add_zero])

/-- Depth plane 80 of a [3,160,192,224] array. -/
theorem kPlane80_apply (x : S3x160x192x224.Idx → EReal) (c : Fin 3) (h : Fin 192) (w : Fin 224) :
    kPlane80 (F := Ideal) x (ix3 c h w) = x (ix4 c 80 h w) := by
  unfold kPlane80
  rw [drop_mid_unit_apply]
  exact slice4_axis1_apply 80 x _ c 0 h w 80 rfl

/-- Depth plane 79 of a [3,160,192,224] array. -/
theorem kPlane79_apply (x : S3x160x192x224.Idx → EReal) (c : Fin 3) (h : Fin 192) (w : Fin 224) :
    kPlane79 (F := Ideal) x (ix3 c h w) = x (ix4 c 79 h w) := by
  unfold kPlane79
  rw [drop_mid_unit_apply]
  exact slice4_axis1_apply 79 x _ c 0 h w 79 rfl

/-- The seam term: the sum, over channel, row and column, of the squared difference between the field at depth 80
    and at depth 79. The sum starts from the float zero, which is the real zero. -/
theorem kSeam_eq (v : Cert.Spec.A5.Idx → EReal) :
    kSeam (F := Ideal) (kfield v) = fun _ =>
      ∑ ch : Fin 3, ∑ h : Fin 192, ∑ w : Fin 224,
        (v (Cert.Spec.at5 ch 80 h w) - v (Cert.Spec.at5 ch 79 h w)) * (v (Cert.Spec.at5 ch 80 h w) - v (Cert.Spec.at5 ch 79 h w)) := by
  funext j
  show Host.reduceAdd (F := Ideal)
      (mulf (subf (kPlane80 (F := Ideal) (kfield (F := Ideal) v)) (kPlane79 (F := Ideal) (kfield (F := Ideal) v)))
        (subf (kPlane80 (F := Ideal) (kfield (F := Ideal) v)) (kPlane79 (F := Ideal) (kfield (F := Ideal) v))))
      (constant (F := Ideal) S_ .f32 0x00000000#32) reducesTo_S3x192x224_S_d0_1_2 h_S_ j = _
  rw [hostReduceAdd_apply, Ideal.hostReduceAdd_total _ (fun b => b.elim0), constant_apply, Ideal.ofBits_zero_f32,
    zero_add, Cert.Lib.sum_idx3]
  refine Finset.sum_congr rfl fun ch _ => Finset.sum_congr rfl fun h _ => Finset.sum_congr rfl fun w _ => ?_
  rw [mulf_apply, subf_apply, kPlane80_apply, kPlane79_apply, kfield_apply, kfield_apply]

end Cert.KernelIdeal.Hand

end
-- ==== Proof.RefTail.lean ====
/-
  The similarity tail of the reference reads the dice vector at the classes 1 … 25 only.

  The gather's index table is the literal column of the words 1 … 25 (behind a branch for negative words that is never
  taken, its mask being the constant zero bit), so entry k of the gathered vector is the dice at class k + 1; the
  similarity term is a function of the gathered vector, and the dice quotient at a class is a function of the three
  histograms at that class. Hence two triples of histograms that agree at every class from 1 on give the same
  similarity term, whatever they hold at class 0.
-/
import proofs.«417857_j15487652069654_3_alg».proof.Proof.RefTerms
import Idealize.ShloMosaic.Lib.ValueIdx
import Idealize.ShloMosaic.Lib.StableHlo.Predicate

noncomputable section

namespace Cert.ReferenceIdeal.Hand

open Cert.ReferenceIdeal Cert.ReferenceIdeal.Gen Idealize.ShloMosaic Idealize.ShloMosaic.ValueIdx
open Idealize.ShloMosaic.StableHlo.Predicate

/-- The rank-1 index at a coordinate, in its two spellings. -/
theorem ofFin_eq_ix1 {n : Nat} (k : Fin n) : Shape.Idx.ofFin k = ix1 k := by
  funext a; match a with | ⟨0, _⟩ => rfl

/-- The literal table holds the word k + 1 at position k. -/
theorem lit0_apply (k : Fin 25) : lit0 k = BitVec.ofNat 32 (k.val + 1) := by
  fin_cases k <;> rfl

/-- Row k of the index table is the word k + 1: the mask of the branch for negative words is the zero bit everywhere,
    so the select keeps the literal word. -/
theorem validIdx_apply (k : Fin 25) : validIdx (F := Ideal) (ixP k) = BitVec.ofNat 32 (k.val + 1) := by
  unfold validIdx
  rw [bcast_col1, select_apply]
  show Scalar.select 0#1 _ _ = _
  rw [select_zero]
  have h : S25.rowMajor (Shape.Idx.ofFin k) = k := Fin.ext (by rw [Shape.rowMajor_val_one]; rfl)
  rw [h, lit0_apply]

/-- Entry k of the gathered vector is the operand at class k + 1. -/
theorem gather_valid_apply (dice : (⟨S26, .f32⟩ : BufTy).Contents (Elt Ideal)) (k : Fin 25) :
    Host.gather gather_S26_S25x1_S25_n_0_n_n_0_1_1 dice (validIdx (F := Ideal)) (ix1 k)
      = dice (ix1 ⟨k.val + 1, by omega⟩) := by
  have hk := k.isLt
  rw [← ofFin_eq_ix1 k]
  refine (gather_take _ rfl rfl rfl rfl dice _ k (by decide)).trans ?_
  rw [ofFin_eq_ix1]
  refine congrArg dice (congrArg ix1 (Fin.ext ?_))
  show min ((validIdx (F := Ideal)) (ixP k)).toInt.toNat (26 - 1) = k.val + 1
  rw [validIdx_apply, toInt_ofNat_small _ (by omega)]
  simp only [Int.toNat_natCast]
  omega

/-- The similarity term depends on the dice vector through its entries at the classes 1 … 25 only. -/
theorem refSimOf_congr (d d' : (⟨S26, .f32⟩ : BufTy).Contents (Elt Ideal))
    (h : ∀ j : Fin 26, 1 ≤ j.val → d (ix1 j) = d' (ix1 j)) : refSimOf (F := Ideal) d = refSimOf d' := by
  have hg : Host.gather gather_S26_S25x1_S25_n_0_n_n_0_1_1 d (validIdx (F := Ideal))
      = Host.gather gather_S26_S25x1_S25_n_0_n_n_0_1_1 d' (validIdx (F := Ideal)) := by
    funext i
    obtain ⟨k, rfl⟩ : ∃ k : Fin 25, i = ix1 k := ⟨i 0, eq_ix1 i⟩
    rw [gather_valid_apply, gather_valid_apply]
    exact h _ (Nat.le_add_left 1 _)
  simp only [refSimOf, hg]

/-- The dice quotient at a class is a function of the three histograms at that class. -/
theorem refDice_apply_congr (x y z x' y' z' : (⟨S26, .f32⟩ : BufTy).Contents (Elt Ideal)) (j : Fin 26)
    (hx : x (ix1 j) = x' (ix1 j)) (hy : y (ix1 j) = y' (ix1 j)) (hz : z (ix1 j) = z' (ix1 j)) :
    refDice (F := Ideal) x y z (ix1 j) = refDice x' y' z' (ix1 j) := by
  simp only [refDice, Host.divf, addf, mulf, hx, hy, hz]

/-- Histograms that agree at every class from 1 on give the same similarity term. -/
theorem sim_congr (x y z x' y' z' : (⟨S26, .f32⟩ : BufTy).Contents (Elt Ideal))
    (h : ∀ j : Fin 26, 1 ≤ j.val → x (ix1 j) = x' (ix1 j) ∧ y (ix1 j) = y' (ix1 j) ∧ z (ix1 j) = z' (ix1 j)) :
    refSimOf (F := Ideal) (refDice x y z) = refSimOf (refDice x' y' z') :=
  refSimOf_congr _ _ fun j hj => refDice_apply_congr x y z x' y' z' j (h j hj).1 (h j hj).2.1 (h j hj).2.2

end Cert.ReferenceIdeal.Hand

end
-- ==== Proof.RefSums.lean ====
/-
  The reference's three smoothness sums, as the canonical sums of squared forward differences.

  The reference takes, along each of the three spatial axes of the vector field v : [1,3,160,192,224], the array of
  forward differences — the field with its first plane (row, column) cut off minus the field with its last one cut
  off —, squares it elementwise, and sums the squares over all five axes starting from zero. Read over the extended
  reals every step is exact: a cut reads the field at a shifted coordinate, the difference and the square are taken
  elementwise, and the sum over every index of a rank-5 shape whose leading extent is one is the fourfold sum over
  its free coordinates. That fourfold sum is, term for term, the canonical one (`Cert.Spec.sumDz`, `sumDy`,
  `sumDx`).

  The label maps a, b : [1,160,192,224] reach the reference's histograms flattened to [6881280]; flattening
  matches flat positions and voxels one to one, so a count over the flat positions is the count over the voxels
  (`flat_sum`, `flat_sum₂`, and at the indicator of a word `flat_count`, `flat_countBoth`).

  The statements quantify over the shape facts (`h1`, `h0`, `hr`, `hu`), so they rewrite the program's
  operations whatever proofs those carry.
-/
import proofs.«417857_j15487652069654_3_alg».proof.Proof.Spec
import proofs.«417857_j15487652069654_3_alg».proof.Proof.LibReshapeSum
import proofs.«417857_j15487652069654_3_alg».proof.Proof.Gen.ReferenceIdeal
import Idealize.ShloMosaic.Lib.IdealHost
import Idealize.ShloMosaic.Lib.ValueLayout

noncomputable section

namespace Cert.ReferenceIdeal.Hand

open Idealize.ShloMosaic Idealize.ShloMosaic.ValueIdx Cert.ReferenceIdeal Cert.ReferenceIdeal.Gen

/-! ## A rank-5 array cut along one of its last three axes, read at coordinates -/

/-- Cut along axis 2 from `o`: the cut array at `(a, b, j, d, e)` is the source at `(a, b, k, d, e)` with `k = o + j`. -/
theorem slice5_axis2_apply {α : Type} {n0 n1 n2 n3 n4 m : Nat} (o : Nat)
    (X : (⟨5, ![n0, n1, n2, n3, n4]⟩ : Shape).Idx → α)
    (h : (⟨5, ![n0, n1, n2, n3, n4]⟩ : Shape).Slices ![0, 0, o, 0, 0] ⟨5, ![n0, n1, m, n3, n4]⟩)
    (a : Fin n0) (b : Fin n1) (j : Fin m) (d : Fin n3) (e : Fin n4) (k : Fin n2) (hk : k.val = o + j.val) :
    extractStridedSlice ⟨5, ![n0, n1, m, n3, n4]⟩ ![0, 0, o, 0, 0] X h (ix5 a b j d e) = X (ix5 a b k d e) :=
  extractStridedSlice_apply _ _ _ _ _ (fun ax => by
    match ax with
    | ⟨0, _⟩ => exact (Nat.zero_add _).symm
    | ⟨1, _⟩ => exact (Nat.zero_add _).symm
    | ⟨2, _⟩ => exact hk
    | ⟨3, _⟩ => exact (Nat.zero_add _).symm
    | ⟨4, _⟩ => exact (Nat.zero_add _).symm)

/-! ## The reduction of a whole array to a scalar, from the zero constant -/

/-- Summing a rank-5 array with a leading unit axis over all five axes, starting from the constant zero, gives at
    the one scalar index the fourfold sum over the free coordinates. -/
theorem reduceAll5 {n1 n2 n3 n4 : Nat} (x : FVec Ideal ⟨5, ![1, n1, n2, n3, n4]⟩ .f32)
    (hr : (⟨5, ![1, n1, n2, n3, n4]⟩ : Shape).ReducesTo [0, 1, 2, 3, 4] S_) (hu : 0 < S_.numel) (j : S_.Idx) :
    Host.reduceAdd (F := Ideal) x (constant (F := Ideal) S_ .f32 0x00000000#32) hr hu j
      = ∑ b : Fin n1, ∑ c : Fin n2, ∑ d : Fin n3, ∑ e : Fin n4, x (ix5 (0 : Fin 1) b c d e) := by
  rw [hostReduceAdd_apply, Ideal.hostReduceAdd_total hr (fun b => b.elim0), constant_apply, Ideal.ofBits_zero_f32,
    zero_add, Cert.Lib.sum_idx5_lead_one]

/-! ## The three sums of squared forward differences -/

/-- Depth: the reference's sum of the squared differences of the planes `1 … 159` and `0 … 158`. -/
theorem ref_dz (v : (⟨S1x3x160x192x224, .f32⟩ : BufTy).Contents (Elt Ideal))
    (h1 : S1x3x160x192x224.Slices ![0, 0, 1, 0, 0] S1x3x159x192x224)
    (h0 : S1x3x160x192x224.Slices ![0, 0, 0, 0, 0] S1x3x159x192x224)
    (hr : S1x3x159x192x224.ReducesTo [0, 1, 2, 3, 4] S_) (hu : 0 < S_.numel) :
    Host.reduceAdd (F := Ideal)
        (mulf (subf (extractStridedSlice S1x3x159x192x224 ![0, 0, 1, 0, 0] v h1)
                    (extractStridedSlice S1x3x159x192x224 ![0, 0, 0, 0, 0] v h0))
              (subf (extractStridedSlice S1x3x159x192x224 ![0, 0, 1, 0, 0] v h1)
                    (extractStridedSlice S1x3x159x192x224 ![0, 0, 0, 0, 0] v h0)))
        (constant (F := Ideal) S_ .f32 0x00000000#32) hr hu
      = fun _ => Cert.Spec.sumDz v := by
  funext j
  rw [reduceAll5]
  unfold Cert.Spec.sumDz Cert.Spec.at5
  refine Finset.sum_congr rfl fun c _ => Finset.sum_congr rfl fun d _ => Finset.sum_congr rfl fun h _ =>
    Finset.sum_congr rfl fun w _ => ?_
  rw [mulf_apply, subf_apply,
    slice5_axis2_apply 1 v h1 0 c d h w ⟨d.val + 1, by omega⟩ (Nat.add_comm _ _),
    slice5_axis2_apply 0 v h0 0 c d h w ⟨d.val, by omega⟩ (Nat.zero_add _).symm]

/-- Height: the rows `1 … 191` against the rows `0 … 190`. -/
theorem ref_dy (v : (⟨S1x3x160x192x224, .f32⟩ : BufTy).Contents (Elt Ideal))
    (h1 : S1x3x160x192x224.Slices ![0, 0, 0, 1, 0] S1x3x160x191x224)
    (h0 : S1x3x160x192x224.Slices ![0, 0, 0, 0, 0] S1x3x160x191x224)
    (hr : S1x3x160x191x224.ReducesTo [0, 1, 2, 3, 4] S_) (hu : 0 < S_.numel) :
    Host.reduceAdd (F := Ideal)
        (mulf (subf (extractStridedSlice S1x3x160x191x224 ![0, 0, 0, 1, 0] v h1)
                    (extractStridedSlice S1x3x160x191x224 ![0, 0, 0, 0, 0] v h0))
              (subf (extractStridedSlice S1x3x160x191x224 ![0, 0, 0, 1, 0] v h1)
                    (extractStridedSlice S1x3x160x191x224 ![0, 0, 0, 0, 0] v h0)))
        (constant (F := Ideal) S_ .f32 0x00000000#32) hr hu
      = fun _ => Cert.Spec.sumDy v := by
  funext j
  rw [reduceAll5]
  unfold Cert.Spec.sumDy Cert.Spec.at5
  refine Finset.sum_congr rfl fun c _ => Finset.sum_congr rfl fun d _ => Finset.sum_congr rfl fun h _ =>
    Finset.sum_congr rfl fun w _ => ?_
  rw [mulf_apply, subf_apply,
    slice5_axis3_apply 1 v h1 0 c d h w ⟨h.val + 1, by omega⟩ (Nat.add_comm _ _),
    slice5_axis3_apply 0 v h0 0 c d h w ⟨h.val, by omega⟩ (Nat.zero_add _).symm]

/-- Width: the columns `1 … 223` against the columns `0 … 222`. -/
theorem ref_dx (v : (⟨S1x3x160x192x224, .f32⟩ : BufTy).Contents (Elt Ideal))
    (h1 : S1x3x160x192x224.Slices ![0, 0, 0, 0, 1] S1x3x160x192x223)
    (h0 : S1x3x160x192x224.Slices ![0, 0, 0, 0, 0] S1x3x160x192x223)
    (hr : S1x3x160x192x223.ReducesTo [0, 1, 2, 3, 4] S_) (hu : 0 < S_.numel) :
    Host.reduceAdd (F := Ideal)
        (mulf (subf (extractStridedSlice S1x3x160x192x223 ![0, 0, 0, 0, 1] v h1)
                    (extractStridedSlice S1x3x160x192x223 ![0, 0, 0, 0, 0] v h0))
              (subf (extractStridedSlice S1x3x160x192x223 ![0, 0, 0, 0, 1] v h1)
                    (extractStridedSlice S1x3x160x192x223 ![0, 0, 0, 0, 0] v h0)))
        (constant (F := Ideal) S_ .f32 0x00000000#32) hr hu
      = fun _ => Cert.Spec.sumDx v := by
  funext j
  rw [reduceAll5]
  unfold Cert.Spec.sumDx Cert.Spec.at5
  refine Finset.sum_congr rfl fun c _ => Finset.sum_congr rfl fun d _ => Finset.sum_congr rfl fun h _ =>
    Finset.sum_congr rfl fun w _ => ?_
  rw [mulf_apply, subf_apply,
    slice5_axis4_apply 1 v h1 0 c d h w ⟨w.val + 1, by omega⟩ (Nat.add_comm _ _),
    slice5_axis4_apply 0 v h0 0 c d h w ⟨w.val, by omega⟩ (Nat.zero_add _).symm]

/-! ## The label maps flattened -/

/-- The flattened label map holds the same labels, one per voxel: the sum of any function of the label over the
    6881280 flat positions is its sum over the voxels. -/
theorem flat_sum (a : S1x160x192x224.Idx → BitVec 32) (h : S1x160x192x224.ShapeCasts S6881280)
    (φ : BitVec 32 → EReal) :
    ∑ i : S6881280.Idx, φ (shapeCast S6881280 a h i) = ∑ i : Cert.Spec.A4.Idx, φ (a i) :=
  Cert.Lib.sum_shapeCast a h φ

/-- Two label maps flattened alike are read at the same voxel by each flat position: the sum of any function of the
    pair of labels over the flat positions is its sum over the voxels. -/
theorem flat_sum₂ (a b : S1x160x192x224.Idx → BitVec 32) (h h' : S1x160x192x224.ShapeCasts S6881280)
    (φ : BitVec 32 → BitVec 32 → EReal) :
    ∑ i : S6881280.Idx, φ (shapeCast S6881280 a h i) (shapeCast S6881280 b h' i)
      = ∑ i : Cert.Spec.A4.Idx, φ (a i) (b i) :=
  Cert.Lib.sum_shapeCast₂ a b h h' φ

/-- Counting the flat positions that carry the word `w` counts the voxels that do. -/
theorem flat_count (a : S1x160x192x224.Idx → BitVec 32) (h : S1x160x192x224.ShapeCasts S6881280) (w : BitVec 32) :
    ∑ i : S6881280.Idx, (if shapeCast S6881280 a h i = w then (1 : EReal) else 0) = Cert.Spec.count a w :=
  flat_sum a h fun x => if x = w then (1 : EReal) else 0

/-- Counting the flat positions that carry `w` in both flattened maps counts the voxels that do. -/
theorem flat_countBoth (a b : S1x160x192x224.Idx → BitVec 32) (h h' : S1x160x192x224.ShapeCasts S6881280)
    (w : BitVec 32) :
    ∑ i : S6881280.Idx, (if shapeCast S6881280 a h i = w ∧ shapeCast S6881280 b h' i = w then (1 : EReal) else 0)
      = Cert.Spec.countBoth a b w :=
  flat_sum₂ a b h h' fun x y => if x = w ∧ y = w then (1 : EReal) else 0

end Cert.ReferenceIdeal.Hand

end
-- ==== Proof.LibScatterInt.lean ====
/-
  A host scatter of integers whose body adds, read at one element.

  The scatter is a fold over the update positions: each update is added into the operand element it lands on, and an
  update that lands outside the operand is dropped. Addition being commutative and associative, the fold at an element
  is that element of the operand plus the sum of the updates landing there, in any carrier with such an addition
  (the 32-bit words among them, where the sum wraps).

  For the vector form — an operand of n entries, k updates of one scalar each, one index word per update — an update
  lands on entry j exactly when its index word, read as a signed integer, is j. The index words are ARBITRARY: a word
  that is no entry number (negative, or n or more) is equal to no j below n and so appears in no entry.

  With the operand all zeros and the updates all ones, entry j is the word of the number of positions whose index word
  is j; when there are fewer than 2³¹ positions that number is read back exactly by the signed conversion to an
  extended real.
-/
import Mathlib.Data.BitVec
import Mathlib.Algebra.BigOperators.Fin
import Idealize.ShloMosaic.PureOps.Ideal
import Idealize.ShloMosaic.Lib.ValueIdx

noncomputable section

open scoped BigOperators

namespace Cert.Lib.ScatterInt

open Idealize.ShloMosaic Idealize.ShloMosaic.ValueIdx

/-! ### The fold of an adding scatter -/

/-- The fold over any list of update positions, from any operand: at element j the result is the operand's element
    plus the sum, along the list, of the updates that land on j. One step adds its update at the element it lands on
    and nowhere else (or nowhere at all when it is dropped). -/
theorem foldl_add_apply {α : Type} [AddCommMonoid α] {s si u : Shape} (d : ScatterDims s si u) {w : Nat}
    (idx : IVec si w) (upd : u.Idx → α) (L : List (Fin u.numel)) (x : s.Idx → α) (j : s.Idx) :
    (L.foldl (fun r n =>
        match d.resultIdx? (u.rowMajor.symm n) idx with
        | some i => fun i' => if i' = i then r i + upd (u.rowMajor.symm n) else r i'
        | none => r) x) j
      = x j + (L.map fun n => if d.resultIdx? (u.rowMajor.symm n) idx = some j then upd (u.rowMajor.symm n) else 0).sum := by
  induction L generalizing x with
  | nil => simp
  | cons n L ih =>
    rw [List.foldl_cons, ih, List.map_cons, List.sum_cons, ← add_assoc]
    congr 1
    cases h : d.resultIdx? (u.rowMajor.symm n) idx with
    | none => simp
    | some i =>
      by_cases hj : j = i
      · subst hj
        simp
      · have hne : ¬ (some i = some j) := fun e => hj (Option.some.inj e).symm
        simp [hj, hne]

/-- An adding scatter at element j: the operand's element plus the sum of the updates that land on j. -/
theorem scatter_add_apply {α : Type} [AddCommMonoid α] {s si u : Shape} (d : ScatterDims s si u) {w : Nat}
    (x : s.Idx → α) (idx : IVec si w) (upd : u.Idx → α) (j : s.Idx) :
    Host.scatter d (fun a b => a + b) x idx upd j
      = x j + ∑ i : u.Idx, if d.resultIdx? i idx = some j then upd i else 0 := by
  refine (foldl_add_apply d idx upd (List.finRange u.numel) x j).trans ?_
  rw [← Fin.sum_univ_def]
  congr 1
  exact Equiv.sum_comp u.rowMajor.symm fun i => if d.resultIdx? i idx = some j then upd i else 0

/-! ### Where an update of the vector form lands -/

/-- A rank-1 index built from one coordinate has that coordinate on its one axis, however the axis is named. -/
theorem ix1_val {k : Nat} (e : Fin k) (a : Fin 1) : ((ix1 e : (⟨1, ![k]⟩ : Shape).Idx) a).val = e.val := by
  match a with
  | ⟨0, _⟩ => rfl

/-- In the vector form, update e lands on entry j exactly when its index word, read as a signed integer, is j.
    On the operand's one axis the window coordinate is zero (the axis is an inserted one, so no update axis goes to
    it) and the start is the update's index word read signed (the axis is the one the index vector names); the
    landing place is start plus window coordinate when that is an entry number, and there is none otherwise. -/
theorem vec_lands_iff {n k w : Nat} (d : ScatterDims ⟨1, ![n]⟩ ⟨2, ![k, 1]⟩ ⟨1, ![k]⟩)
    (h1 : d.updateWindowDims = []) (h2 : d.insertedWindowDims = [0]) (h3 : d.scatterDimsToOperandDims = [0])
    (h4 : d.indexVectorDim = 1) (idx : IVec ⟨2, ![k, 1]⟩ w) (e : Fin k) (j : Fin n) :
    d.resultIdx? (ix1 e) idx = some (ix1 j) ↔ (idx (ix2 e (0 : Fin 1))).toInt = (j.val : Int) := by
  have hwin : ∀ a, d.window (ix1 e) a = 0 := by
    intro a
    unfold ScatterDims.window
    rw [dif_neg]
    simp only [ScatterDims.sKept, Shape.kept, h2, List.mem_filter, List.mem_singleton, decide_not, Bool.not_eq_eq_eq_not,
      Bool.not_true, decide_eq_false_iff_not, not_and, not_not]
    intro _
    exact Subsingleton.elim (α := Fin 1) a 0
  have hmem : ∀ a, a ∈ d.scatterDimsToOperandDims := by
    intro a
    rw [h3, Subsingleton.elim (α := Fin 1) a 0]
    exact List.mem_singleton.mpr rfl
  have hstart : ∀ a, d.start (ix1 e) idx a = (idx (ix2 e (0 : Fin 1))).toInt := by
    intro a
    unfold ScatterDims.start
    rw [dif_pos (hmem a)]
    congr 2
    funext b
    refine Fin.ext ?_
    unfold ScatterDims.siIdx
    by_cases hb : b.val = d.indexVectorDim
    · rw [dif_pos hb]
      have hb1 : b = (1 : Fin 2) := Fin.ext (by rw [hb, h4]; rfl)
      subst hb1
      show List.idxOf a d.scatterDimsToOperandDims = 0
      rw [h3, Subsingleton.elim (α := Fin 1) a 0]
      exact List.idxOf_cons_self
    · rw [dif_neg hb]
      have hb0 : b = (0 : Fin 2) := by
        rw [h4] at hb
        refine Fin.ext ?_
        have := b.isLt
        show b.val = 0
        have : b.val < 2 := this
        omega
      subst hb0
      unfold ScatterDims.siCoord
      simp only [Fin.coe_cast, ix1_val]
  have hsz : ∀ a : Fin 1, ((⟨1, ![n]⟩ : Shape).size a : Int) = (n : Int) := by
    intro a
    rw [Subsingleton.elim a 0]
    rfl
  unfold ScatterDims.resultIdx?
  constructor
  · intro h
    split at h
    · rename_i hall
      have h0 := congrArg Fin.val (congrFun (Option.some.inj h) (0 : Fin 1))
      have hnn := (hall (0 : Fin 1)).1
      rw [hstart, hwin] at hnn
      simp only [hstart, hwin] at h0
      have h0' : ((idx (ix2 e (0 : Fin 1))).toInt + ((0 : Nat) : Int)).toNat = j.val := h0
      omega
    · exact absurd h (by simp)
  · intro h
    have hall : ∀ a, 0 ≤ d.start (ix1 e) idx a + (d.window (ix1 e) a : Int)
        ∧ d.start (ix1 e) idx a + (d.window (ix1 e) a : Int) < ((⟨1, ![n]⟩ : Shape).size a : Int) := by
      intro a
      rw [hstart, hwin, h, hsz]
      have := j.isLt
      omega
    rw [dif_pos hall]
    congr 1
    funext a
    refine Fin.ext ?_
    rw [ix1_val]
    show (d.start (ix1 e) idx a + (d.window (ix1 e) a : Int)).toNat = j.val
    rw [hstart, hwin, h]
    omega

/-! ### The vector form at an entry -/

/-- A sum over a rank-1 index set is the sum over its one coordinate. -/
theorem sum_ix1 {M : Type*} [AddCommMonoid M] {k : Nat} (g : (⟨1, ![k]⟩ : Shape).Idx → M) :
    ∑ i, g i = ∑ e : Fin k, g (ix1 e) := by
  refine (Fintype.sum_bijective (fun e : Fin k => (ix1 e : (⟨1, ![k]⟩ : Shape).Idx)) ⟨?_, ?_⟩ _ _ fun _ => rfl).symm
  · intro a b hab
    exact congrFun hab (0 : Fin 1)
  · intro i
    exact ⟨i 0, (eq_ix1 i).symm⟩

/-- An adding scatter of the vector form, in any carrier with a commutative addition: entry j is the operand's entry
    plus the sum of the updates whose index word, read as a signed integer, is j. -/
theorem scatter_add_vec {α : Type} [AddCommMonoid α] {n k w : Nat} (d : ScatterDims ⟨1, ![n]⟩ ⟨2, ![k, 1]⟩ ⟨1, ![k]⟩)
    (h1 : d.updateWindowDims = []) (h2 : d.insertedWindowDims = [0]) (h3 : d.scatterDimsToOperandDims = [0])
    (h4 : d.indexVectorDim = 1)
    (x : (⟨1, ![n]⟩ : Shape).Idx → α) (idx : IVec ⟨2, ![k, 1]⟩ w) (u : (⟨1, ![k]⟩ : Shape).Idx → α) (j : Fin n) :
    Host.scatter d (fun a b => a + b) x idx u (ix1 j)
      = x (ix1 j) + ∑ e : Fin k, if (idx (ix2 e (0 : Fin 1))).toInt = (j.val : Int) then u (ix1 e) else 0 := by
  rw [scatter_add_apply, sum_ix1]
  congr 1
  refine Finset.sum_congr rfl fun e _ => ?_
  exact if_congr (vec_lands_iff d h1 h2 h3 h4 idx e j) rfl rfl

/-- The integer scatter of the vector form whose body is the wrapping addition of v-bit words: entry j is the
    operand's entry plus the (wrapping) sum of the updates whose index word, read signed, is j. -/
theorem scatter_addi_vec {n k v w : Nat} (d : ScatterDims ⟨1, ![n]⟩ ⟨2, ![k, 1]⟩ ⟨1, ![k]⟩)
    (h1 : d.updateWindowDims = []) (h2 : d.insertedWindowDims = [0]) (h3 : d.scatterDimsToOperandDims = [0])
    (h4 : d.indexVectorDim = 1)
    (x : IVec ⟨1, ![n]⟩ v) (idx : IVec ⟨2, ![k, 1]⟩ w) (u : IVec ⟨1, ![k]⟩ v) (j : Fin n) :
    Host.scatter d IntOp.addi x idx u (ix1 j)
      = x (ix1 j) + ∑ e : Fin k, if (idx (ix2 e (0 : Fin 1))).toInt = (j.val : Int) then u (ix1 e) else 0 :=
  scatter_add_vec d h1 h2 h3 h4 x idx u j

/-! ### Counting -/

/-- Zeros scattered with ones: entry j is the word of the number of update positions whose index word, read signed,
    is j. -/
theorem scatter_ones_vec {n k w : Nat} (d : ScatterDims ⟨1, ![n]⟩ ⟨2, ![k, 1]⟩ ⟨1, ![k]⟩)
    (h1 : d.updateWindowDims = []) (h2 : d.insertedWindowDims = [0]) (h3 : d.scatterDimsToOperandDims = [0])
    (h4 : d.indexVectorDim = 1) (idx : IVec ⟨2, ![k, 1]⟩ w) (j : Fin n) :
    Host.scatter d IntOp.addi (fun _ => 0#32) idx (fun _ => 1#32) (ix1 j)
      = BitVec.ofNat 32 (Finset.univ.filter fun e : Fin k => (idx (ix2 e (0 : Fin 1))).toInt = (j.val : Int)).card := by
  rw [scatter_addi_vec d h1 h2 h3 h4]
  show (0 : BitVec 32) + (∑ e : Fin k, if (idx (ix2 e (0 : Fin 1))).toInt = (j.val : Int) then (1 : BitVec 32) else 0) = _
  rw [zero_add, Finset.sum_boole]
  rfl

/-- The word of a number below 2³¹, read as a signed integer, is that number. -/
theorem toInt_ofNat_small (c : Nat) (hc : c < 2 ^ 31) : (BitVec.ofNat 32 c).toInt = (c : Int) := by
  have hc' : c < 2147483648 := by simpa using hc
  have hnat : (BitVec.ofNat 32 c).toNat = c := by
    rw [BitVec.toNat_ofNat]
    exact Nat.mod_eq_of_lt (by omega)
  rw [BitVec.toInt_eq_toNat_of_lt (by rw [hnat]; omega), hnat]

/-- The signed conversion of the word of a number below 2³¹ to an extended real is that number. -/
theorem sitofp_ofNat_small (c : Nat) (hc : c < 2 ^ 31) :
    FloatOps.sitofp (F := Ideal) .f32 (BitVec.ofNat 32 c) = (c : EReal) := by
  show (((BitVec.ofNat 32 c).toInt : ℝ) : EReal) = (c : EReal)
  rw [toInt_ofNat_small c hc]
  rfl

/-- A count as an extended real: the number of positions with a property is the sum of one per such position. -/
theorem card_filter_eq_sum {k : Nat} (p : Fin k → Prop) [DecidablePred p] :
    ((Finset.univ.filter p).card : EReal) = ∑ e : Fin k, if p e then (1 : EReal) else 0 :=
  (Finset.sum_boole p Finset.univ).symm

/-- Zeros scattered with ones, then converted: with fewer than 2³¹ update positions, entry j as an extended real is
    the number of positions whose index word, read signed, is j (the count cannot wrap). -/
theorem sitofp_scatter_ones_vec {n k w : Nat} (hk : k < 2 ^ 31) (d : ScatterDims ⟨1, ![n]⟩ ⟨2, ![k, 1]⟩ ⟨1, ![k]⟩)
    (h1 : d.updateWindowDims = []) (h2 : d.insertedWindowDims = [0]) (h3 : d.scatterDimsToOperandDims = [0])
    (h4 : d.indexVectorDim = 1) (idx : IVec ⟨2, ![k, 1]⟩ w) (j : Fin n) :
    (sitofp .f32 (Host.scatter d IntOp.addi (fun _ => 0#32) idx (fun _ => 1#32)) : FVec Ideal ⟨1, ![n]⟩ .f32) (ix1 j)
      = ∑ e : Fin k, if (idx (ix2 e (0 : Fin 1))).toInt = (j.val : Int) then (1 : EReal) else 0 := by
  rw [sitofp_apply, scatter_ones_vec d h1 h2 h3 h4, sitofp_ofNat_small, card_filter_eq_sum]
  refine lt_of_le_of_lt ?_ hk
  exact (Finset.card_le_univ _).trans_eq (Fintype.card_fin k)

/-- A 32-bit word read signed is a number below 2³¹ exactly when it is the word of that number (the signed reading
    determines the word). -/
theorem toInt_eq_iff_eq_ofNat (x : BitVec 32) (c : Nat) (hc : c < 2 ^ 31) : x.toInt = (c : Int) ↔ x = BitVec.ofNat 32 c := by
  constructor
  · intro h
    apply BitVec.eq_of_toInt_eq
    rw [h, toInt_ofNat_small c hc]
  · intro h
    rw [h, toInt_ofNat_small c hc]

/-- The same with the index words compared as words: when the operand has at most 2³¹ entries, an index word read
    signed is j exactly when it is the word of j. -/
theorem sitofp_scatter_ones_vec_word {n k : Nat} (hn : n ≤ 2 ^ 31) (hk : k < 2 ^ 31)
    (d : ScatterDims ⟨1, ![n]⟩ ⟨2, ![k, 1]⟩ ⟨1, ![k]⟩)
    (h1 : d.updateWindowDims = []) (h2 : d.insertedWindowDims = [0]) (h3 : d.scatterDimsToOperandDims = [0])
    (h4 : d.indexVectorDim = 1) (idx : IVec ⟨2, ![k, 1]⟩ 32) (j : Fin n) :
    (sitofp .f32 (Host.scatter d IntOp.addi (fun _ => 0#32) idx (fun _ => 1#32)) : FVec Ideal ⟨1, ![n]⟩ .f32) (ix1 j)
      = ∑ e : Fin k, if idx (ix2 e (0 : Fin 1)) = BitVec.ofNat 32 j.val then (1 : EReal) else 0 := by
  rw [sitofp_scatter_ones_vec hk d h1 h2 h3 h4]
  refine Finset.sum_congr rfl fun e _ => ?_
  exact if_congr (toInt_eq_iff_eq_ofNat _ _ (lt_of_lt_of_le j.isLt hn)) rfl rfl

end Cert.Lib.ScatterInt

end
-- ==== Proof.LibScatterWords.lean ====
/-
  A host scatter with an add body whose one index word per update names a row (an entry of a vector, or a row of a
  matrix), read at one element for ARBITRARY index words: the word is read signed and is not clamped, so an update
  whose word is not a row number of the operand lands nowhere and adds nothing.
-/
import Idealize.ShloMosaic.Lib.ValueIdx

noncomputable section

open scoped BigOperators

namespace Cert.Lib.ScatterWords

open Idealize.ShloMosaic Idealize.ShloMosaic.ValueIdx

/-- Of two axes, axis 0 is not in the list holding axis 1 alone … -/
private theorem fin2_zero_notMem : (0 : Fin 2) ∉ ([1] : List (Fin 2)) := by decide
/-- … and axis 1 is not in the list holding axis 0 alone. -/
private theorem fin2_one_notMem : (1 : Fin 2) ∉ ([0] : List (Fin 2)) := by decide

/-- A rank-1 index set is its one coordinate's range. -/
private def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
private theorem sum_idx1 {M : Type*} [AddCommMonoid M] {n : Nat} (g : (⟨1, ![n]⟩ : Shape).Idx → M) :
    ∑ j, g j = ∑ a : Fin n, g (ix1 a) := by
  rw [← Equiv.sum_comp (idxEquiv1 (n := n)).symm g]
  rfl

/-- For any dimension numbers: update j lands on the operand index t exactly when, on every operand axis, start plus
    window coordinate is t's coordinate. (If the sums are t's coordinates they are inside the operand, so the update
    is kept and lands there; if the update is kept, the sums are nonnegative and are the coordinates of where it
    lands; if it is dropped it lands on no t.) -/
private theorem resultIdx?_eq_some_iff {s si u : Shape} (d : ScatterDims s si u) {w : Nat} (j : u.Idx)
    (idx : IVec si w) (t : s.Idx) :
    d.resultIdx? j idx = some t ↔ ∀ a, d.start j idx a + (d.window j a : Int) = ((t a).val : Int) := by
  unfold ScatterDims.resultIdx?
  constructor
  · intro h a
    split at h
    · rename_i hall
      have ht := congrFun (Option.some.inj h) a
      have hv := congrArg Fin.val ht
      simp only at hv
      have := (hall a).1
      omega
    · exact absurd h (by simp)
  · intro h
    have hall : ∀ a, 0 ≤ d.start j idx a + d.window j a ∧ d.start j idx a + d.window j a < s.size a := by
      intro a
      have := (t a).isLt
      rw [h a]
      omega
    rw [dif_pos hall]
    congr 1
    funext a
    refine Fin.ext ?_
    show (d.start j idx a + d.window j a).toNat = (t a).val
    rw [h a]
    omega

/-- Update e of the vector scatter lands on entry i exactly when its index word, read signed, is i: the start on the
    one operand axis is that word and the window coordinate there is 0 (the axis is inserted). -/
private theorem vec_resultIdx_iff {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  obtain ⟨uw, iw, sd, iv, wf⟩ := d
  simp only at h1 h2 h3 h4
  subst h1 h2 h3 h4
  set D : ScatterDims ⟨1, ![N]⟩ ⟨2, ![E, 1]⟩ ⟨1, ![E]⟩ := ⟨[], [0], [0], 1, wf⟩ with hD
  have hwin : D.window (ix1 e) 0 = 0 := by
    unfold ScatterDims.window
    split
    · rename_i h; exact absurd h (List.not_mem_nil (a := (0 : Fin 1)))
    · rfl
  have hstart : D.start (ix1 e) idx 0 = (idx (ix2 e (0 : Fin 1))).toInt := by
    unfold ScatterDims.start
    rw [dif_pos (show (0 : Fin 1) ∈ D.scatterDimsToOperandDims from List.mem_singleton.mpr rfl)]
    congr 2
    funext b; refine Fin.ext ?_
    match b with
    | ⟨0, _⟩ => rfl
    | ⟨1, _⟩ => rfl
  rw [resultIdx?_eq_some_iff]
  constructor
  · intro h
    have h0 := h 0
    rw [hwin, hstart] at h0
    have h0' : (idx (ix2 e (0 : Fin 1))).toInt + ((0 : Nat) : Int) = (i.val : Int) := h0
    omega
  · intro h a
    obtain rfl : a = 0 := Subsingleton.elim _ _
    rw [hwin, hstart, h]
    show (i.val : Int) + ((0 : Nat) : Int) = (i.val : Int)
    omega

/-- Update (e, k') of the row scatter lands on (i, k) exactly when its index word, read signed, is i and k' is k: on
    the row axis the start is the word and the window coordinate 0 (the axis is inserted); on the column axis the
    start is 0 (the map does not name it) and the window coordinate is k'. -/
private theorem rows_resultIdx_iff {N E K w : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1) (idx : IVec ⟨2, ![E, 1]⟩ w) (e : Fin E) (k' : Fin K) (i : Fin N) (k : Fin K) :
    d.resultIdx? (ix2 e k') idx = some (ix2 i k)
      ↔ (idx (ix2 e (0 : Fin 1))).toInt = (i.val : Int) ∧ k' = k := by
  obtain ⟨uw, iw, sd, iv, wf⟩ := d
  simp only at h1 h2 h3 h4
  subst h1 h2 h3 h4
  set D : ScatterDims ⟨2, ![N, K]⟩ ⟨2, ![E, 1]⟩ ⟨2, ![E, K]⟩ := ⟨[1], [0], [0], 1, wf⟩ with hD
  have hwin0 : D.window (ix2 e k') 0 = 0 := by
    unfold ScatterDims.window
    split
    · rename_i h; exact absurd h fin2_zero_notMem
    · rfl
  have hwin1 : D.window (ix2 e k') 1 = k'.val := by
    unfold ScatterDims.window
    split
    · rfl
    · rename_i h; exact absurd (show (1 : Fin 2) ∈ ([1] : List (Fin 2)) from List.mem_singleton.mpr rfl) h
  have hstart0 : D.start (ix2 e k') idx 0 = (idx (ix2 e (0 : Fin 1))).toInt := by
    unfold ScatterDims.start
    rw [dif_pos (show (0 : Fin 2) ∈ D.scatterDimsToOperandDims from List.mem_singleton.mpr rfl)]
    congr 2
    funext b; refine Fin.ext ?_
    match b with
    | ⟨0, _⟩ => rfl
    | ⟨1, _⟩ => rfl
  have hstart1 : D.start (ix2 e k') idx 1 = 0 := by
    unfold ScatterDims.start
    split
    · rename_i h; exact absurd h fin2_one_notMem
    · rfl
  rw [resultIdx?_eq_some_iff]
  constructor
  · intro h
    have h0 := h 0
    have h1 := h 1
    rw [hwin0, hstart0] at h0
    rw [hwin1, hstart1] at h1
    have h0' : (idx (ix2 e (0 : Fin 1))).toInt + ((0 : Nat) : Int) = (i.val : Int) := h0
    have h1' : (0 : Int) + ((k'.val : Nat) : Int) = (k.val : Int) := h1
    refine ⟨by omega, Fin.ext (by omega)⟩
  · rintro ⟨h, rfl⟩ a
    match a with
    | ⟨0, _⟩ =>
      show D.start (ix2 e k') idx 0 + ((D.window (ix2 e k') 0 : Nat) : Int) = (i.val : Int)
      rw [hwin0, hstart0, h]
      omega
    | ⟨1, _⟩ =>
      show D.start (ix2 e k') idx 1 + ((D.window (ix2 e k') 1 : Nat) : Int) = (k'.val : Int)
      rw [hwin1, hstart1]
      omega

/-- Scalars added into a vector, for arbitrary index words: entry i of the result is entry i of the operand plus
    every update whose index word, read signed, is i. A word that is no entry number (negative, or N or more) is
    equal to no i below N, so its update appears in no entry. -/
theorem scatterAdd_vec_words {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ 32) (upd : (⟨1, ![E]⟩ : Shape).Idx → EReal)
    (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  exact if_congr (vec_resultIdx_iff d h1 h2 h3 h4 idx e i) rfl rfl

/-- Rows added into a matrix, for arbitrary index words: element (i, k) of the result is that element of the operand
    plus column k of every update row whose index word, read signed, is i. A word that is no row number (negative,
    or N or more) is equal to no i below N, so its update row appears in no row. -/
theorem scatterAdd_rows_words {N E K : Nat} (d : ScatterDims ⟨2, ![N, K]⟩ ⟨2, ![E, 1]⟩ ⟨2, ![E, K]⟩)
    (h1 : d.updateWindowDims = [1]) (h2 : d.insertedWindowDims = [0]) (h3 : d.scatterDimsToOperandDims = [0])
    (h4 : d.indexVectorDim = 1)
    (x : (⟨2, ![N, K]⟩ : Shape).Idx → EReal) (idx : IVec ⟨2, ![E, 1]⟩ 32) (upd : (⟨2, ![E, K]⟩ : Shape).Idx → EReal)
    (i : Fin N) (k : Fin K) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  rw [Finset.sum_filter, sum_idx2]
  refine Finset.sum_congr rfl fun e _ => ?_
  have hinner : ∀ k' : Fin K,
      (if d.resultIdx? (ix2 e k') idx = some (ix2 i k) then upd (ix2 e k') else 0)
        = if k' = k then (if (idx (ix2 e (0 : Fin 1))).toInt = (i.val : Int) then upd (ix2 e k') else 0) else 0 := by
    intro k'
    by_cases hk : k' = k
    · rw [if_pos hk]
      refine if_congr ?_ rfl rfl
      rw [rows_resultIdx_iff d h1 h2 h3 h4 idx e k' i k]
      exact ⟨fun h => h.1, fun h => ⟨h, hk⟩⟩
    · rw [if_neg hk, if_neg]
      rw [rows_resultIdx_iff d h1 h2 h3 h4 idx e k' i k]
      exact fun h => hk h.2
  rw [Finset.sum_congr rfl fun k' _ => hinner k', Finset.sum_ite_eq' Finset.univ k]
  rw [if_pos (Finset.mem_univ k)]

/-- A 32-bit word read signed is the natural number n below 2³¹ exactly when it is the word of n: below 2³¹ the
    word of n has its top bit clear, so its signed reading is n, and the signed reading determines the word. -/
theorem toInt_eq_natCast_iff (w : BitVec 32) (n : Nat) (hn : n < 2 ^ 31) :
    w.toInt = (n : Int) ↔ w = BitVec.ofNat 32 n := by
  have hn' : n < 2147483648 := by simpa using hn
  have hnat : (BitVec.ofNat 32 n).toNat = n := by
    rw [BitVec.toNat_ofNat]
    exact Nat.mod_eq_of_lt (by omega)
  have hof : (BitVec.ofNat 32 n).toInt = (n : Int) := by
    rw [BitVec.toInt_eq_toNat_of_lt (by rw [hnat]; omega), hnat]
  constructor
  · intro h
    apply BitVec.eq_of_toInt_eq
    rw [h, hof]
  · intro h
    rw [h, hof]

end Cert.Lib.ScatterWords

end
-- ==== Proof.RefCounts.lean ====
/-
  The reference's two label histograms, read at a class.

  The reference counts labels with a scatter: every voxel adds one (or, for the joint histogram, the indicator that
  the two maps agree there) into the entry of a 26-entry vector that its index word names. The index word is the
  label clipped below at zero and then wrapped were it negative; an index word that is no entry number drops its
  update. The labels are arbitrary 32-bit words.

  For a class c from 1 to 25 the index word is the word of c exactly when the label is, so entry c of the count is
  the number of voxels carrying c, and entry c of the weighted scatter is the number of voxels where both maps
  carry c. (Entry 0 also collects every negative label; it is not read here.) There are 6881280 voxels, fewer than
  2³¹, so the integer count does not wrap and converts exactly.
-/
import proofs.«417857_j15487652069654_3_alg».proof.ReferenceIdeal
import proofs.«417857_j15487652069654_3_alg».proof.Proof.LibScatterInt
import proofs.«417857_j15487652069654_3_alg».proof.Proof.LibScatterWords

noncomputable section

open scoped BigOperators

namespace Cert.ReferenceIdeal.Hand

open Idealize.ShloMosaic Idealize.ShloMosaic.ValueIdx Cert.ReferenceIdeal

/-! ### The index word the reference scatters with -/

/-- The index word made from a label x: the signed maximum of 0 and x, then — were that negative — moved up by 26.
    (The clip and the wrap of a negative index, as the reference's count of labels prepares its indices.) -/
def cw (x : BitVec 32) : BitVec 32 :=
  Scalar.select (IntOp.cmpi .slt (IntOp.maxsi 0#32 x) 0#32) (IntOp.addi (IntOp.maxsi 0#32 x) 26#32) (IntOp.maxsi 0#32 x)

/-- The vector operations that make the index words, read at one position: where the three constant vectors hold
    0, 0 and 26, position i of the result is the index word of label i. -/
theorem clipWrap_apply {s : Shape} (z z' k v : IVec s 32) (i : s.Idx) (hz : z i = 0#32) (hz' : z' i = 0#32)
    (hk : k i = 26#32) :
    select (cmpi .slt (maxsi z v) z') (addi (maxsi z v) k) (maxsi z v) i = cw (v i) := by
  show Scalar.select (IntOp.cmpi .slt (IntOp.maxsi (z i) (v i)) (z' i)) (IntOp.addi (IntOp.maxsi (z i) (v i)) (k i))
      (IntOp.maxsi (z i) (v i)) = cw (v i)
  rw [hz, hz', hk]
  rfl

/-- The clip leaves nothing negative, so the wrap never happens: the index word is 0 for a negative label and the
    label itself otherwise. -/
theorem cw_eq (x : BitVec 32) : cw x = if x.slt 0#32 then 0#32 else x := by
  unfold cw IntOp.maxsi IntOp.cmpi Scalar.select
  by_cases hx : x.slt 0#32 = true
  · rw [if_pos hx]
    rfl
  · rw [if_neg hx]
    have hx' : x.slt 0#32 = false := by simpa using hx
    show (if BitVec.ofBool (x.slt 0#32) = 1 then _ else x) = x
    rw [hx']
    rfl

/-- For a class number c from 1 up (below 2³¹), the index word is the word of c exactly when the label is: a negative
    label gives the index word 0, which is not the word of c, and a label that is the word of c is not negative. -/
theorem cw_eq_ofNat_iff (x : BitVec 32) (c : Nat) (h1 : 1 ≤ c) (h2 : c < 2 ^ 31) :
    cw x = BitVec.ofNat 32 c ↔ x = BitVec.ofNat 32 c := by
  have hc : (BitVec.ofNat 32 c).toInt = (c : Int) := Cert.Lib.ScatterInt.toInt_ofNat_small c h2
  rw [cw_eq]
  by_cases hx : x.slt 0#32 = true
  · rw [if_pos hx]
    have hxneg : x.toInt < 0 := by simpa using BitVec.slt_iff_toInt_lt.mp hx
    constructor
    · intro h
      have := congrArg BitVec.toInt h
      rw [hc] at this
      simp at this
      omega
    · intro h
      rw [h, hc] at hxneg
      omega
  · rw [if_neg hx]

/-- A vector of E entries (E not 1) made a column of E rows: row i of the column is entry i of the vector. -/
theorem bcast_col_apply {α : Type} {E : Nat} (hE : E ≠ 1)
    (h : (⟨1, ![E]⟩ : Shape).BroadcastsInDim ⟨2, ![E, 1]⟩ (![0] : Fin 1 → Fin 2))
    (v : (⟨1, ![E]⟩ : Shape).Idx → α) (i : Fin E) :
    broadcastInDim ⟨2, ![E, 1]⟩ ![0] h v (ix2 i (0 : Fin 1)) = v (ix1 i) := by
  unfold broadcastInDim
  congr 1
  funext a
  obtain rfl : a = (0 : Fin 1) := Subsingleton.elim (α := Fin 1) a 0
  have hne : ¬ (⟨1, ![E]⟩ : Shape).size (0 : Fin 1) = 1 := hE
  rw [dif_neg hne]
  rfl

/-! ### The comparison weight -/

/-- The indicator of equal labels as a float: the conversion of the one-bit comparison is 1 where the two words are
    equal and 0 where they differ. -/
theorem uitofp_cmpi_eq_apply {s : Shape} (f g : IVec s 32) (i : s.Idx) :
    (uitofp .f32 (cmpi .eq f g) : FVec Ideal s .f32) i = if f i = g i then (1 : EReal) else 0 := by
  show ((((BitVec.ofBool (f i == g i)).toNat : ℝ) : EReal)) = _
  by_cases h : f i = g i
  · rw [if_pos h, beq_iff_eq.mpr h]
    simp
  · rw [if_neg h, beq_eq_false_iff_ne.mpr h]
    simp

/-! ### The two scatters at a class -/

/-- 6881280 update positions are fewer than 2³¹, and 26 entries no more than 2³¹. -/
private theorem k_lt : 6881280 < 2 ^ 31 := by norm_num
private theorem n_le : 26 ≤ 2 ^ 31 := by norm_num

/-- The integer count at a class: with zeros as operand and ones as updates, the converted entry j (1 ≤ j ≤ 25) is
    the number of voxels whose label is the word of j. The index words are the clipped-and-wrapped labels. -/
theorem ref_count (d : ScatterDims S26 S6881280x1 S6881280)
    (h1 : d.updateWindowDims = []) (h2 : d.insertedWindowDims = [0]) (h3 : d.scatterDimsToOperandDims = [0])
    (h4 : d.indexVectorDim = 1)
    (f : S6881280.Idx → BitVec 32) (idx : IVec S6881280x1 32)
    (hidx : ∀ i : Fin 6881280, idx (ix2 i (0 : Fin 1)) = cw (f (ix1 i))) (j : Fin 26) (hj : 1 ≤ j.val) :
    (sitofp .f32 (Host.scatter d IntOp.addi (fun _ => 0#32) idx (fun _ => 1#32)) : FVec Ideal S26 .f32) (ix1 j)
      = ∑ i : S6881280.Idx, if f i = BitVec.ofNat 32 j.val then (1 : EReal) else 0 := by
  rw [Cert.Lib.ScatterInt.sitofp_scatter_ones_vec_word n_le k_lt d h1 h2 h3 h4, Cert.Lib.ScatterInt.sum_ix1]
  refine Finset.sum_congr rfl fun e _ => ?_
  rw [hidx e]
  exact if_congr (cw_eq_ofNat_iff _ _ hj (lt_of_lt_of_le j.isLt n_le)) rfl rfl

/-- The float scatter of the vector form from zeros, for any sizes: entry i is the sum of the updates whose index
    word, read as a signed integer, is i. -/
theorem scatterAdd_zeros_vec {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ 32) (u : FVec Ideal ⟨1, ![E]⟩ .f32) (i : Fin N) :
    (Host.scatterAdd d (fun _ => (0 : EReal)) idx u : FVec Ideal ⟨1, ![N]⟩ .f32) (ix1 i)
      = ∑ e : Fin E, if (idx (ix2 e (0 : Fin 1))).toInt = (i.val : Int) then u (ix1 e) else 0 := by
  have h := Cert.Lib.ScatterWords.scatterAdd_vec_words d h1 h2 h3 h4 (fun _ => (0 : EReal)) idx u i
  rw [zero_add] at h
  exact h

/-- One voxel's term of the weighted scatter: the indicator that the index word of the first label is the word of
    c, times the indicator that the two labels agree, is the indicator that both labels are the word of c. -/
theorem inter_term (a b : BitVec 32) (c : Nat) (h1 : 1 ≤ c) (h2 : c < 2 ^ 31) :
    (if (cw a).toInt = (c : Int) then (if a = b then (1 : EReal) else 0) else 0)
      = if a = BitVec.ofNat 32 c ∧ b = BitVec.ofNat 32 c then (1 : EReal) else 0 := by
  by_cases hf : a = BitVec.ofNat 32 c
  · have hw : (cw a).toInt = (c : Int) :=
      (Cert.Lib.ScatterWords.toInt_eq_natCast_iff _ _ h2).mpr ((cw_eq_ofNat_iff _ _ h1 h2).mpr hf)
    rw [if_pos hw]
    by_cases hg : b = BitVec.ofNat 32 c
    · rw [if_pos (hf.trans hg.symm), if_pos ⟨hf, hg⟩]
    · rw [if_neg (fun h : a = b => hg (h.symm.trans hf)), if_neg (fun h => hg h.2)]
  · have hw : ¬ (cw a).toInt = (c : Int) := fun h =>
      hf ((cw_eq_ofNat_iff _ _ h1 h2).mp ((Cert.Lib.ScatterWords.toInt_eq_natCast_iff _ _ h2).mp h))
    rw [if_neg hw, if_neg (fun h => hf h.1)]

/-- The weighted scatter at a class: with zeros as operand and the indicator of equal labels as updates, entry j
    (1 ≤ j ≤ 25) is the number of voxels where both maps carry the word of j. -/
theorem ref_inter (d : ScatterDims S26 S6881280x1 S6881280)
    (h1 : d.updateWindowDims = []) (h2 : d.insertedWindowDims = [0]) (h3 : d.scatterDimsToOperandDims = [0])
    (h4 : d.indexVectorDim = 1)
    (f g : S6881280.Idx → BitVec 32) (idx : IVec S6881280x1 32) (u : FVec Ideal S6881280 .f32)
    (hidx : ∀ i : Fin 6881280, idx (ix2 i (0 : Fin 1)) = cw (f (ix1 i)))
    (hu : ∀ i, u i = if f i = g i then (1 : EReal) else 0) (j : Fin 26) (hj : 1 ≤ j.val) :
    (Host.scatterAdd d (fun _ => (0 : EReal)) idx u : FVec Ideal S26 .f32) (ix1 j)
      = ∑ i : S6881280.Idx, if f i = BitVec.ofNat 32 j.val ∧ g i = BitVec.ofNat 32 j.val then (1 : EReal) else 0 := by
  rw [scatterAdd_zeros_vec d h1 h2 h3 h4, Cert.Lib.ScatterInt.sum_ix1]
  refine Finset.sum_congr rfl fun e _ => ?_
  rw [hidx e, hu (ix1 e)]
  exact inter_term _ _ _ hj (lt_of_lt_of_le j.isLt n_le)

/-! ### At the program's own dimension numbers -/

section
variable [Facts₀]

/-- The index words as the program makes them from a vector of labels — the maximum with a vector of zeros, the
    comparison with zeros, the sum with a vector of 26, the selection, and the column made of the result — read at
    row i: the index word of label i. -/
theorem idxMain_apply (v : IVec S6881280 32) (i : Fin 6881280) :
    broadcastInDim S6881280x1 ![0] Facts₀.bcast_S6881280_S6881280x1_0
        (select
          (cmpi .slt (maxsi (broadcastInDim S6881280 ![] Facts₀.bcast_S_S6881280 (constantI S_ 32 0#32)) v)
            (broadcastInDim S6881280 ![] Facts₀.bcast_S_S6881280 (constantI S_ 32 0#32)))
          (addi (maxsi (broadcastInDim S6881280 ![] Facts₀.bcast_S_S6881280 (constantI S_ 32 0#32)) v)
            (broadcastInDim S6881280 ![] Facts₀.bcast_S_S6881280 (constantI S_ 32 26#32)))
          (maxsi (broadcastInDim S6881280 ![] Facts₀.bcast_S_S6881280 (constantI S_ 32 0#32)) v))
        (ix2 i (0 : Fin 1))
      = cw (v (ix1 i)) := by
  rw [bcast_col_apply (by norm_num)]
  exact clipWrap_apply _ _ _ v _ rfl rfl rfl

/-- The count at a class, at the program's own scatter record. -/
theorem ref_count_main (f : S6881280.Idx → BitVec 32) (idx : IVec S6881280x1 32)
    (hidx : ∀ i : Fin 6881280, idx (ix2 i (0 : Fin 1)) = cw (f (ix1 i))) (j : Fin 26) (hj : 1 ≤ j.val) :
    (sitofp .f32 (Host.scatter scatter_S26_S6881280x1_S6881280_n_0_0_1 IntOp.addi (fun _ => 0#32) idx (fun _ => 1#32))
        : FVec Ideal S26 .f32) (ix1 j)
      = ∑ i : S6881280.Idx, if f i = BitVec.ofNat 32 j.val then (1 : EReal) else 0 :=
  ref_count _ rfl rfl rfl rfl f idx hidx j hj

/-- The weighted scatter at a class, at the program's own scatter record. -/
theorem ref_inter_main (f g : S6881280.Idx → BitVec 32) (idx : IVec S6881280x1 32) (u : FVec Ideal S6881280 .f32)
    (hidx : ∀ i : Fin 6881280, idx (ix2 i (0 : Fin 1)) = cw (f (ix1 i)))
    (hu : ∀ i, u i = if f i = g i then (1 : EReal) else 0) (j : Fin 26) (hj : 1 ≤ j.val) :
    (Host.scatterAdd scatter_S26_S6881280x1_S6881280_n_0_0_1 (fun _ => (0 : EReal)) idx u : FVec Ideal S26 .f32) (ix1 j)
      = ∑ i : S6881280.Idx, if f i = BitVec.ofNat 32 j.val ∧ g i = BitVec.ofNat 32 j.val then (1 : EReal) else 0 :=
  ref_inter _ rfl rfl rfl rfl f g idx u hidx hu j hj

end

end Cert.ReferenceIdeal.Hand

end
-- ==== Proof.RefValue.lean ====
/-
  The reference's stages as the canonical sums.

  * The scatter index of a flat position is the index word of the word there: the word clipped below at zero and
    then — were the clipped word negative, which it never is — moved up by the class count. So at a class from 1 on
    a position is scattered to the class exactly when it carries the class's word (class 0 also collects every
    negative word, and is not described here).
  * Hence, at a class j from 1 on, the histogram of a map is the number of voxels carrying the word j, and the
    histogram of agreement is the number of voxels carrying j in both maps: the flat positions and the voxels match
    one to one.
  * The three smoothness sums are the canonical sums of squared forward differences.
-/
import proofs.«417857_j15487652069654_3_alg».proof.Proof.RefTerms
import proofs.«417857_j15487652069654_3_alg».proof.Proof.RefTail
import proofs.«417857_j15487652069654_3_alg».proof.Proof.RefSums
import proofs.«417857_j15487652069654_3_alg».proof.Proof.RefCounts
import Idealize.ShloMosaic.Lib.ValueIdx
import Idealize.ShloMosaic.Lib.StableHlo.Predicate

noncomputable section

namespace Cert.ReferenceIdeal.Hand

open Cert.ReferenceIdeal Cert.ReferenceIdeal.Gen Idealize.ShloMosaic Idealize.ShloMosaic.ValueIdx
open Idealize.ShloMosaic.StableHlo.Predicate

/-! ## The flattened map and the scatter index, at a position -/

/-- Row e of an [n × 1] column, in its two spellings. -/
theorem ixP_eq_ix2 {n : Nat} (e : Fin n) : ixP e = ix2 e (0 : Fin 1) := by
  funext a; match a with | ⟨0, _⟩ => rfl | ⟨1, _⟩ => rfl

/-- The flattened map is the map reshaped. -/
theorem flat_eq (a : (⟨S1x160x192x224, .i32⟩ : BufTy).Contents (Elt Ideal)) :
    flat (F := Ideal) a = shapeCast S6881280 a shapeCasts_S1x160x192x224_S6881280 := rfl

/-- THE SCATTER INDEX AT A POSITION: row e of the index column is the index word of the word at position e (the
    trailing unit axis reads the vector's entry; the clip, the comparison, the shifted word and the choice between
    them are taken entry by entry against the constants 0, 0 and 26). -/
theorem wrapIdx_apply (f : (⟨S6881280, .i32⟩ : BufTy).Contents (Elt Ideal)) (e : Fin 6881280) :
    wrapIdx (F := Ideal) f (ix2 e (0 : Fin 1)) = cw (f (ix1 e)) := by
  rw [← ixP_eq_ix2]
  unfold wrapIdx
  rw [bcast_col1, ofFin_eq_ix1]
  rfl

/-! ## The two histograms at a class from 1 on -/

/-- A map's histogram at class j ≥ 1: the number of voxels that carry the word j. -/
theorem refFV_apply (a : (⟨S1x160x192x224, .i32⟩ : BufTy).Contents (Elt Ideal)) (j : Fin 26) (hj : 1 ≤ j.val) :
    refFV (F := Ideal) a (ix1 j) = Cert.Spec.count a (BitVec.ofNat 32 j.val) := by
  unfold refFV
  show (sitofp .f32 (Host.scatter scatter_S26_S6881280x1_S6881280_n_0_0_1 IntOp.addi (fun _ => 0#32)
      (wrapIdx (flat a)) (fun _ => 1#32)) : FVec Ideal S26 .f32) (ix1 j) = _
  rw [ref_count_main (flat a) (wrapIdx (flat a)) (wrapIdx_apply (flat a)) j hj]
  exact flat_count a shapeCasts_S1x160x192x224_S6881280 _

/-- The histogram of agreement at class j ≥ 1: the number of voxels that carry the word j in both maps. -/
theorem refIV_apply (a b : (⟨S1x160x192x224, .i32⟩ : BufTy).Contents (Elt Ideal)) (j : Fin 26) (hj : 1 ≤ j.val) :
    refIV (F := Ideal) a b (ix1 j) = Cert.Spec.countBoth a b (BitVec.ofNat 32 j.val) := by
  have hz : (broadcastInDim S26 ![] bcast_S_S26 (constant (F := Ideal) S_ .f32 0x00000000#32) : FVec Ideal S26 .f32)
      = fun _ => (0 : EReal) := funext fun _ => Ideal.ofBits_zero_f32
  unfold refIV
  show (Host.scatterAdd scatter_S26_S6881280x1_S6881280_n_0_0_1
      (broadcastInDim S26 ![] bcast_S_S26 (constant (F := Ideal) S_ .f32 0x00000000#32) : FVec Ideal S26 .f32)
      (wrapIdx (flat a)) (uitofp .f32 (cmpi .eq (flat a) (flat b))) : FVec Ideal S26 .f32) (ix1 j) = _
  rw [hz, ref_inter_main (flat a) (flat b) (wrapIdx (flat a)) _ (wrapIdx_apply (flat a))
    (uitofp_cmpi_eq_apply _ _) j hj]
  exact flat_countBoth a b shapeCasts_S1x160x192x224_S6881280 shapeCasts_S1x160x192x224_S6881280 _

/-! ## The three smoothness sums -/

/-- Depth. -/
theorem refDz_eq (v : (⟨S1x3x160x192x224, .f32⟩ : BufTy).Contents (Elt Ideal)) :
    refDz (F := Ideal) v = fun _ => Cert.Spec.sumDz v := by
  simp only [refDz, ref_dz]

/-- Height. -/
theorem refDy_eq (v : (⟨S1x3x160x192x224, .f32⟩ : BufTy).Contents (Elt Ideal)) :
    refDy (F := Ideal) v = fun _ => Cert.Spec.sumDy v := by
  simp only [refDy, ref_dy]

/-- Width. -/
theorem refDx_eq (v : (⟨S1x3x160x192x224, .f32⟩ : BufTy).Contents (Elt Ideal)) :
    refDx (F := Ideal) v = fun _ => Cert.Spec.sumDx v := by
  simp only [refDx, ref_dx]

end Cert.ReferenceIdeal.Hand

end
-- ==== Proof.Bridge.lean ====
/-
  The two programs compute the same three numbers.

  The kernel program's similarity term is the reference's dice tail applied to the two cores' partial histograms added,
  and that tail only looks at the classes 1 … 25, where each histogram entry is the canonical count of the class; its
  smoothness term is the reference's tail applied to the two cores' partial sums of squared differences (plus, for depth, the
  seam between the cores' halves), which are the canonical sums. The tails themselves are the same host operations in both
  programs.
-/
import proofs.«417857_j15487652069654_3_alg».proof.Proof.KTerms
import proofs.«417857_j15487652069654_3_alg».proof.Proof.KTermsVal
import proofs.«417857_j15487652069654_3_alg».proof.Proof.RefTerms
import proofs.«417857_j15487652069654_3_alg».proof.Proof.RefTail
import proofs.«417857_j15487652069654_3_alg».proof.Proof.RefValue
import proofs.«417857_j15487652069654_3_alg».proof.Proof.Spec

noncomputable section

namespace Cert.Proof.Bridge

open Idealize.ShloMosaic Idealize.ShloMosaic.ValueIdx Cert.KernelIdeal.Hand Cert.ReferenceIdeal.Hand

/-- The dice tail is one function in the two programs. -/
theorem sim_same (x y z : (⟨Cert.KernelIdeal.S26, .f32⟩ : BufTy).Contents (Elt Ideal)) :
    kSimOf (F := Ideal) (kDice x y z) = refSimOf (F := Ideal) (refDice x y z) := rfl

/-- So is the smoothness tail. -/
theorem smooth_same (a b c : (⟨Cert.KernelIdeal.S_, .f32⟩ : BufTy).Contents (Elt Ideal)) :
    kSmoothOf (F := Ideal) a b c = refSmoothOf (F := Ideal) a b c := rfl

/-- And the total. -/
theorem total_same (a b : (⟨Cert.KernelIdeal.S_, .f32⟩ : BufTy).Contents (Elt Ideal)) :
    kTotalOf (F := Ideal) a b = refTotalOf (F := Ideal) a b := rfl

/-- THE SIMILARITY TERM. If, at every class lane 1 … 25, the two cores' histogram rows add up to the canonical counts of the
    two label maps and of their agreement, the kernel program's similarity term is the reference's. -/
theorem sim_bridge (a0 a1 : Cert.Spec.A4.Idx → BitVec 32) (arr0 : Cert.KernelIdeal.S2x3x128.Idx → EReal)
    (h0 : ∀ l : Fin 128, 1 ≤ l.val → l.val ≤ 25 → arr0 (ix3 0 0 l) + arr0 (ix3 1 0 l) = Cert.Spec.count a0 (BitVec.ofNat 32 l.val))
    (h1 : ∀ l : Fin 128, 1 ≤ l.val → l.val ≤ 25 → arr0 (ix3 0 1 l) + arr0 (ix3 1 1 l) = Cert.Spec.count a1 (BitVec.ofNat 32 l.val))
    (h2 : ∀ l : Fin 128, 1 ≤ l.val → l.val ≤ 25 → arr0 (ix3 0 2 l) + arr0 (ix3 1 2 l) = Cert.Spec.countBoth a0 a1 (BitVec.ofNat 32 l.val)) :
    kSimOf (F := Ideal) (kDice (kRow0 (kHist arr0)) (kRow1 (kHist arr0)) (kRow2 (kHist arr0)))
      = refSimOf (F := Ideal) (refDice (refFV a0) (refFV a1) (refIV a0 a1)) := by
  refine (sim_same _ _ _).trans (sim_congr _ _ _ _ _ _ fun j hj => ⟨?_, ?_, ?_⟩)
  · rw [kRow0_hist, refFV_apply a0 j hj]
    exact h0 ⟨j.val, by have := j.isLt; omega⟩ hj (by have := j.isLt; dsimp only; omega)
  · rw [kRow1_hist, refFV_apply a1 j hj]
    exact h1 ⟨j.val, by have := j.isLt; omega⟩ hj (by have := j.isLt; dsimp only; omega)
  · rw [kRow2_hist, refIV_apply a0 a1 j hj]
    exact h2 ⟨j.val, by have := j.isLt; omega⟩ hj (by have := j.isLt; dsimp only; omega)

/-- THE SMOOTHNESS TERM. If the two cores' partial sums add up — for depth together with the seam — to the canonical sums of
    squared differences, the kernel program's smoothness term is the reference's. -/
theorem smooth_bridge (v : Cert.Spec.A5.Idx → EReal) (arrZ arrY arrX : Cert.KernelIdeal.S2x8x128.Idx → EReal)
    (hz : (arrZ (ix3 0 0 0) + arrZ (ix3 1 0 0))
        + (∑ ch : Fin 3, ∑ h : Fin 192, ∑ w : Fin 224,
            (v (Cert.Spec.at5 ch 80 h w) - v (Cert.Spec.at5 ch 79 h w)) * (v (Cert.Spec.at5 ch 80 h w) - v (Cert.Spec.at5 ch 79 h w)))
        = Cert.Spec.sumDz v)
    (hy : arrY (ix3 0 0 0) + arrY (ix3 1 0 0) = Cert.Spec.sumDy v)
    (hx : arrX (ix3 0 0 0) + arrX (ix3 1 0 0) = Cert.Spec.sumDx v) :
    kSmoothOf (F := Ideal) (kDz arrZ (kfield v)) (kPair arrY) (kPair arrX)
      = refSmoothOf (F := Ideal) (refDz v) (refDy v) (refDx v) := by
  have e1 : kDz (F := Ideal) arrZ (kfield v) = refDz (F := Ideal) v := by
    rw [refDz_eq]; unfold kDz; rw [kPair_eq, kSeam_eq]; funext i; exact hz
  have e2 : kPair (F := Ideal) arrY = refDy (F := Ideal) v := by
    rw [refDy_eq, kPair_eq]; funext i; exact hy
  have e3 : kPair (F := Ideal) arrX = refDx (F := Ideal) v := by
    rw [refDx_eq, kPair_eq]; funext i; exact hx
  rw [e1, e2, e3]
  exact smooth_same _ _ _

end Cert.Proof.Bridge

end
-- ==== Proof.lean ====
/-
  The certificate's five claims.

  The kernel program computes a soft-dice similarity term from two label maps and a diffusion smoothness term from a vector
  field; the reference computes the same two terms with histogram scatters and whole-array reductions. Over the extended
  reals both are functions of the canonical counts of each class 1 … 25 in the two maps (and of their agreement) and of the
  canonical sums of squared forward differences along depth, height and width:
  * the kernel program's run (two kernel regions between three stretches of host operations) ends with every buffer at the
    composed contents W5, whose three result buffers are the host tails applied to the two regions' output arrays;
  * region 0's output array holds, per core, the four blocks' per-class counts accumulated, so the two cores' rows add up to
    the canonical counts; region 1's three arrays hold, per core, the ten blocks' squared differences accumulated (the depth
    one with the boundaries between consecutive blocks through the carried plane), so the two cores' values add up — for depth
    with the seam the host adds — to the canonical sums;
  * the reference's run ends with its results at the named stage terms, whose histogram entries at the classes 1 … 25 are the
    same canonical counts and whose reductions are the same canonical sums;
  * the tails are the same host operations in both programs, and the dice tail reads the classes 1 … 25 only.
  The frames: the kernel program's arguments are written by no host stretch and no region, at either instance; the
  reference's run leaves its arguments unchanged. The idealization rewrote nothing.
-/
import proofs.«417857_j15487652069654_3_alg».proof.Defs
import proofs.«417857_j15487652069654_3_alg».proof.Proof.Gen.Kernel
import proofs.«417857_j15487652069654_3_alg».proof.Proof.Gen.KernelIdeal
import proofs.«417857_j15487652069654_3_alg».proof.Proof.Gen.ReferenceIdeal
import proofs.«417857_j15487652069654_3_alg».proof.Proof.Gen.Pre_finite_inputs
import proofs.«417857_j15487652069654_3_alg».proof.Proof.KFacts
import proofs.«417857_j15487652069654_3_alg».proof.Proof.WFacts
import proofs.«417857_j15487652069654_3_alg».proof.Proof.KTail
import proofs.«417857_j15487652069654_3_alg».proof.Proof.KHist
import proofs.«417857_j15487652069654_3_alg».proof.Proof.KHistAcc
import proofs.«417857_j15487652069654_3_alg».proof.Proof.KDiffPay
import proofs.«417857_j15487652069654_3_alg».proof.Proof.KDiffAcc
import proofs.«417857_j15487652069654_3_alg».proof.Proof.RefRun
import proofs.«417857_j15487652069654_3_alg».proof.Proof.Bridge
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.Hand.run (F := Ideal) m ρ)

open Cert.KernelIdeal.Hand Cert.ReferenceIdeal.Hand in
/-- At the ideal instance the two programs, run from memories that agree on the arguments, end with equal results: the kernel
    program's three result buffers are the host tails of the regions' output arrays (the last valuation read at them); the
    reference's are its named stage terms; the two agree by the counts and sums they are functions of. -/
theorem algebraic : Cert.algebraic_KernelIdeal_ReferenceIdeal := by
  intro m ρ m' ρ' _ hagree
  -- the kernel program's run, with its three results named
  have hk := Cert.KernelIdeal.Hand.run_post (F := Ideal) m ρ
    (Q := fun r => ∀ c : Dev Cert.KernelIdeal.nD,
        r.2.mem ((c.tc : Thread Cert.KernelIdeal.nD Cert.KernelIdeal.τ).loc Cert.KernelIdeal.main_v62) = W5 m ρ c (Proc.devRef .tc Cert.KernelIdeal.main_v62)
      ∧ r.2.mem ((c.tc : Thread Cert.KernelIdeal.nD Cert.KernelIdeal.τ).loc Cert.KernelIdeal.main_v29) = W5 m ρ c (Proc.devRef .tc Cert.KernelIdeal.main_v29)
      ∧ r.2.mem ((c.tc : Thread Cert.KernelIdeal.nD Cert.KernelIdeal.τ).loc Cert.KernelIdeal.main_v60) = W5 m ρ c (Proc.devRef .tc Cert.KernelIdeal.main_v60)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
    (fun s h c =>
      ⟨h c _ (mem_uc Cert.KernelIdeal.main_v62 (by decide)),
       h c _ (mem_uc Cert.KernelIdeal.main_v29 (by decide)),
       h c _ (mem_uc Cert.KernelIdeal.main_v60 (by decide)),
       (h c _ (mem_uc Cert.KernelIdeal.main_arg0 (by decide))).trans (W5_main_arg0 m ρ c),
       (h c _ (mem_uc Cert.KernelIdeal.main_arg1 (by decide))).trans (W5_main_arg1 m ρ c),
       (h c _ (mem_uc Cert.KernelIdeal.main_arg2 (by decide))).trans (W5_main_arg2 m ρ c)⟩)
  refine ⟨fun c => W5 m ρ c (Proc.devRef .tc Cert.KernelIdeal.main_v62), fun c => W5 m ρ c (Proc.devRef .tc Cert.KernelIdeal.main_v29),
    fun c => W5 m ρ c (Proc.devRef .tc Cert.KernelIdeal.main_v60), hk, ?_⟩
  -- the reference's run, its results rewritten to the kernel program's
  refine (θ_run Cert.ReferenceIdeal.defs _ _).mono (fun r h c => ⟨(h c).1.trans ?_, (h c).2.1.trans ?_, (h c).2.2.1.trans ?_, (h c).2.2.2⟩)
    (Cert.ReferenceIdeal.Hand.run (F := Ideal) m' ρ')
  all_goals simp only [(hagree c).1, (hagree c).2.1, (hagree c).2.2]
  all_goals
    have hsim := Cert.Proof.Bridge.sim_bridge
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (arr0 (V1 m ρ) c)
      (fun l h1 h2 => hist_count0 (V1 m ρ) contrib0_apply_1 c _ ((V1_main_v0 m ρ c).trans (kflat_eq _)) l ⟨h1, h2⟩)
      (fun l h1 h2 => hist_count1 (V1 m ρ) contrib0_apply_2 c _ ((V1_main_v1 m ρ c).trans (kflat_eq _)) l ⟨h1, h2⟩)
      (fun l h1 h2 => hist_countBoth (V1 m ρ) contrib0_apply_3 c _ _ ((V1_main_v0 m ρ c).trans (kflat_eq _)) ((V1_main_v1 m ρ c).trans (kflat_eq _)) l ⟨h1, h2⟩)
    have hV30 := (V3_main_v30 m ρ c).trans (kfield_eq _)
    have hsmooth := Cert.Proof.Bridge.smooth_bridge
      (m ((c.tc : Thread Cert.KernelIdeal.nD Cert.KernelIdeal.τ).loc Cert.KernelIdeal.main_arg2))
      (arrZ (V3 m ρ) c) (arrY (V3 m ρ) c) (arrX (V3 m ρ) c)
      (arrZ_sum (V3 m ρ) c _ hV30) (arrY_sum (V3 m ρ) c _ hV30) (arrX_sum (V3 m ρ) c _ hV30)
  · rw [W5_main_v62 m ρ c]
    exact ((congrArg₂ (kTotalOf (F := Ideal)) hsim hsmooth).trans (Cert.Proof.Bridge.total_same _ _)).symm
  · rw [W5_main_v29 m ρ c]; exact hsim.symm
  · rw [W5_main_v60 m ρ c]; exact hsmooth.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
